-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v90) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S100000x256 : Shape := ⟨2, ![100000, 256]⟩
abbrev S256 : Shape := ⟨1, ![256]⟩
abbrev S100000 : Shape := ⟨1, ![100000]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  reducesTo_S256x256_S256_d1 : S256x256.ReducesTo [1] S256
  bcast_S_S256 : S_.BroadcastsInDim S256 (![] : Fin 0 → Fin S256.rank)
  reducesTo_S256_S_d0 : S256.ReducesTo [0] S_

variable [Facts]

def fn_part1 {F : FTy → Type} [FloatOps F] (main_arg3 : IVec S256 32) (main_v13 : IVec S_ 1) (main_v15 : FVec F S256 .f32) (main_cst_5 : FVec F S_ .f32) : IVec S_ 1 :=
  let main_v16 : FVec F S256 .f32 := broadcastInDim S256 ![] bcast_S_S256 main_cst_5
  let main_v17 : IVec S256 1 := cmpf .ogt main_v15 main_v16
  let main_c_6 : IVec S_ 1 := constantI S_ 1 1#1
  let main_v18 : IVec S_ 1 := (fun x v => Host.reduce IntOp.andi x v reducesTo_S256_S_d0 h_S_) main_v17 main_c_6
  let main_v19 : IVec S_ 1 := andi main_v13 main_v18
  let main_c_7 : IVec S_ 32 := constantI S_ 32 0#32
  let main_v20 : IVec S256 32 := broadcastInDim S256 ![] bcast_S_S256 main_c_7
  let main_v21 : IVec S256 1 := cmpi .sge main_arg3 main_v20
  let main_c_8 : IVec S_ 32 := constantI S_ 32 100000#32
  let main_v22 : IVec S256 32 := broadcastInDim S256 ![] bcast_S_S256 main_c_8
  let main_v23 : IVec S256 1 := cmpi .slt main_arg3 main_v22
  let main_v24 : IVec S256 1 := andi main_v21 main_v23
  let main_c_9 : IVec S_ 1 := constantI S_ 1 1#1
  let main_v25 : IVec S_ 1 := (fun x v => Host.reduce IntOp.andi x v reducesTo_S256_S_d0 h_S_) main_v24 main_c_9
  let main_v26 : IVec S_ 1 := andi main_v19 main_v25
  main_v26

def fn {F : FTy → Type} [FloatOps F] (main_arg0 : FVec F S256x256 .f32) (main_arg1 : FVec F S100000x256 .f32) (main_arg2 : FVec F S100000x256 .f32) (main_arg3 : IVec S256 32) (main_arg4 : IVec S100000 32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S256x256 .f32 := mulf main_arg0 main_arg0
  let main_cst_4 : FVec F S_ .f32 := constant S_ .f32 0x00000000#32
  let main_v15 : FVec F S256 .f32 := (fun x v => Host.reduceAdd x v reducesTo_S256x256_S256_d1 h_S_) main_v14 main_cst_4
  let main_cst_5 : FVec F S_ .f32 := constant S_ .f32 0x00000000#32
  fn_part1 (F := F) main_arg3 main_v13 main_v15 main_cst_5
-- ==== Kernel.lean ====
abbrev S256x256 : Shape := ⟨2, ![256, 256]⟩
abbrev S100000x256 : Shape := ⟨2, ![100000, 256]⟩
abbrev S256 : Shape := ⟨1, ![256]⟩
abbrev S100000 : Shape := ⟨1, ![100000]⟩
abbrev S_ : Shape := ⟨0, ![]⟩
abbrev S256x1 : Shape := ⟨2, ![256, 1]⟩
abbrev S2x256x1 : Shape := ⟨3, ![2, 256, 1]⟩
abbrev S5000x256 : Shape := ⟨2, ![5000, 256]⟩
abbrev S1x256x1 : Shape := ⟨3, ![1, 256, 1]⟩
abbrev S256x5000 : Shape := ⟨2, ![256, 5000]⟩
abbrev S1 : Shape := ⟨1, ![1]⟩
abbrev S1x1 : Shape := ⟨2, ![1, 1]⟩
abbrev S100000x1 : Shape := ⟨2, ![100000, 1]⟩
abbrev S5000x1 : Shape := ⟨2, ![5000, 1]⟩
abbrev S1x5000 : Shape := ⟨2, ![1, 5000]⟩

abbrev nBuf : Space → Nat
  | .hbm => 143
  | .vmem => 33
  | .smem => 0
  | _ => 0

abbrev hbmTy0_0 (i : Nat) : BufTy := match i % 128 with
  | 0 => ⟨S256x256, .f32⟩
  | 1 => ⟨S100000x256, .f32⟩
  | 2 => ⟨S100000x256, .f32⟩
  | 3 => ⟨S256, .i32⟩
  | 4 => ⟨S100000, .i32⟩
  | 5 => ⟨S256x256, .f32⟩
  | 6 => ⟨S_, .f32⟩
  | 7 => ⟨S256, .f32⟩
  | 8 => ⟨S256x1, .f32⟩
  | 9 => ⟨S256x1, .f32⟩
  | 10 => ⟨S256x256, .f32⟩
  | 11 => ⟨S256x256, .f32⟩
  | 12 => ⟨S2x256x1, .f32⟩
  | 13 => ⟨S2x256x1, .f32⟩
  | 14 => ⟨S2x256x1, .f32⟩
  | 15 => ⟨S1x256x1, .f32⟩
  | 16 => ⟨S256x1, .f32⟩
  | 17 => ⟨S1x256x1, .f32⟩
  | 18 => ⟨S256x1, .f32⟩
  | 19 => ⟨S1x256x1, .f32⟩
  | 20 => ⟨S256x1, .f32⟩
  | 21 => ⟨S1x256x1, .f32⟩
  | 22 => ⟨S256x1, .f32⟩
  | 23 => ⟨S1x256x1, .f32⟩
  | 24 => ⟨S256x1, .f32⟩
  | 25 => ⟨S1x256x1, .f32⟩
  | 26 => ⟨S256x1, .f32⟩
  | 27 => ⟨S256x1, .f32⟩
  | 28 => ⟨S256x1, .f32⟩
  | 29 => ⟨S256x1, .f32⟩
  | 30 => ⟨S256x1, .f32⟩
  | 31 => ⟨S256x1, .f32⟩
  | 32 => ⟨S256x1, .f32⟩
  | 33 => ⟨S256x1, .f32⟩
  | 34 => ⟨S256x1, .f32⟩
  | 35 => ⟨S256x1, .f32⟩
  | 36 => ⟨S256x1, .f32⟩
  | 37 => ⟨S256x1, .f32⟩
  | 38 => ⟨S_, .f32⟩
  | 39 => ⟨S256x1, .f32⟩
  | 40 => ⟨S256x1, .f32⟩
  | 41 => ⟨S256x1, .f32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S256x1, .i32⟩
  | 50 => ⟨S1, .i32⟩
  | 51 => ⟨S_, .i32⟩
  | 52 => ⟨S256x1, .i32⟩
  | 53 => ⟨S256x1, .i1⟩
  | 54 => ⟨S1x1, .i32⟩
  | 55 => ⟨S256x1, .i32⟩
  | 56 => ⟨S256x1, .i1⟩
  | 57 => ⟨S256x1, .i1⟩
  | 58 => ⟨S_, .i1⟩
  | 59 => ⟨S256, .i1⟩
  | 60 => ⟨S256x256, .f32⟩
  | 61 => ⟨S256x256, .i1⟩
  | 62 => ⟨S_, .f32⟩
  | 63 => ⟨S256x256, .f32⟩
  | 64 => ⟨S256x256, .f32⟩
  | 65 => ⟨S256x256, .f32⟩
  | 66 => ⟨S_, .f32⟩
  | 67 => ⟨S256, .f32⟩
  | 68 => ⟨S256x1, .f32⟩
  | 69 => ⟨S_, .f32⟩
  | 70 => ⟨S256x1, .f32⟩
  | 71 => ⟨S256x1, .f32⟩
  | 72 => ⟨S256x1, .f32⟩
  | 73 => ⟨S256, .f32⟩
  | 74 => ⟨S_, .f32⟩
  | 75 => ⟨S256, .f32⟩
  | 76 => ⟨S256, .f32⟩
  | 77 => ⟨S256, .f32⟩
  | 78 => ⟨S_, .f32⟩
  | 79 => ⟨S256, .f32⟩
  | 80 => ⟨S256, .f32⟩
  | 81 => ⟨S256, .f32⟩
  | 82 => ⟨S256, .f32⟩
  | 83 => ⟨S_, .f32⟩
  | 84 => ⟨S_, .f32⟩
  | 85 => ⟨S_, .f32⟩
  | 86 => ⟨S_, .f32⟩
  | 87 => ⟨S256x1, .i32⟩
  | 88 => ⟨S100000x1, .i32⟩
  | 89 => ⟨S2x256x1, .f32⟩
  | 90 => ⟨S2x256x1, .f32⟩
  | 91 => ⟨S2x256x1, .f32⟩
  | 92 => ⟨S1x256x1, .f32⟩
  | 93 => ⟨S256x1, .f32⟩
  | 94 => ⟨S1x256x1, .f32⟩
  | 95 => ⟨S256x1, .f32⟩
  | 96 => ⟨S256x1, .f32⟩
  | 97 => ⟨S1x256x1, .f32⟩
  | 98 => ⟨S256x1, .f32⟩
  | 99 => ⟨S1x256x1, .f32⟩
  | 100 => ⟨S256x1, .f32⟩
  | 101 => ⟨S256x1, .f32⟩
  | 102 => ⟨S1x256x1, .f32⟩
  | 103 => ⟨S256x1, .f32⟩
  | 104 => ⟨S1x256x1, .f32⟩
  | 105 => ⟨S256x1, .f32⟩
  | 106 => ⟨S256x1, .f32⟩
  | 107 => ⟨S_, .f32⟩
  | 108 => ⟨S256x1, .f32⟩
  | 109 => ⟨S256x1, .f32⟩
  | 110 => ⟨S_, .f32⟩
  | 111 => ⟨S256x1, .f32⟩
  | 112 => ⟨S256x1, .f32⟩
  | 113 => ⟨S_, .f32⟩
  | 114 => ⟨S256x1, .f32⟩
  | 115 => ⟨S256x1, .f32⟩
  | 116 => ⟨S2x256x1, .f32⟩
  | 117 => ⟨S2x256x1, .f32⟩
  | 118 => ⟨S1x256x1, .f32⟩
  | 119 => ⟨S256x1, .f32⟩
  | 120 => ⟨S1x256x1, .f32⟩
  | 121 => ⟨S256x1, .f32⟩
  | 122 => ⟨S256x1, .f32⟩
  | 123 => ⟨S1x256x1, .f32⟩
  | 124 => ⟨S256x1, .f32⟩
  | 125 => ⟨S1x256x1, .f32⟩
  | 126 => ⟨S256x1, .f32⟩
  | 127 => ⟨S256x1, .f32⟩
  | _ => ⟨S256x256, .f32⟩

abbrev hbmTy0_1 (i : Nat) : BufTy := match i % 128 with
  | 0 => ⟨S256, .f32⟩
  | 1 => ⟨S_, .f32⟩
  | 2 => ⟨S256, .f32⟩
  | 3 => ⟨S256, .i1⟩
  | 4 => ⟨S256, .f32⟩
  | 5 => ⟨S256, .f32⟩
  | 6 => ⟨S256, .f32⟩
  | 7 => ⟨S_, .f32⟩
  | 8 => ⟨S_, .f32⟩
  | 9 => ⟨S256, .f32⟩
  | 10 => ⟨S256, .f32⟩
  | 11 => ⟨S_, .f32⟩
  | 12 => ⟨S_, .f32⟩
  | 13 => ⟨S_, .f32⟩
  | 14 => ⟨S_, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | .local _ .vmem, ⟨0, _⟩ => ⟨S256x256, .f32⟩
  | .local _ .vmem, ⟨1, _⟩ => ⟨S5000x256, .f32⟩
  | .local _ .vmem, ⟨2, _⟩ => ⟨S5000x256, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S1x256x1, .f32⟩
  | .local _ .vmem, ⟨9, _⟩ => ⟨S256x256, .f32⟩
  | .local _ .vmem, ⟨10, _⟩ => ⟨S5000x256, .f32⟩
  | .local _ .vmem, ⟨11, _⟩ => ⟨S5000x256, .f32⟩
  | .local _ .vmem, ⟨12, _⟩ => ⟨S256x1, .i32⟩
  | .local _ .vmem, ⟨13, _⟩ => ⟨S5000x1, .i32⟩
  | .local _ .vmem, ⟨14, _⟩ => ⟨S5000x1, .i32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x256x1, .f32⟩
  | .local _ .vmem, ⟨19, _⟩ => ⟨S1x256x1, .f32⟩
  | .local _ .vmem, ⟨20, _⟩ => ⟨S1x256x1, .f32⟩
  | .local _ .vmem, ⟨21, _⟩ => ⟨S256x256, .f32⟩
  | .local _ .vmem, ⟨22, _⟩ => ⟨S5000x256, .f32⟩
  | .local _ .vmem, ⟨23, _⟩ => ⟨S5000x256, .f32⟩
  | .local _ .vmem, ⟨24, _⟩ => ⟨S256x1, .i32⟩
  | .local _ .vmem, ⟨25, _⟩ => ⟨S5000x1, .i32⟩
  | .local _ .vmem, ⟨26, _⟩ => ⟨S5000x1, .i32⟩
  | .local _ .vmem, ⟨27, _⟩ => ⟨S256x1, .f32⟩
  | .local _ .vmem, ⟨28, _⟩ => ⟨S256x1, .f32⟩
  | .local _ .vmem, ⟨29, _⟩ => ⟨S1x256x1, .f32⟩
  | .local _ .vmem, ⟨30, _⟩ => ⟨S1x256x1, .f32⟩
  | .local _ .vmem, ⟨31, _⟩ => ⟨S1x256x1, .f32⟩
  | .local _ .vmem, ⟨32, _⟩ => ⟨S1x256x1, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v30 : Ref sig .tc := ⟨.hbm, 64, rfl⟩
abbrev main_v31 : Ref sig .tc := ⟨.hbm, 65, rfl⟩
abbrev main_cst_0 : Ref sig .tc := ⟨.hbm, 66, rfl⟩
abbrev main_v32 : Ref sig .tc := ⟨.hbm, 67, rfl⟩
abbrev main_v33 : Ref sig .tc := ⟨.hbm, 68, rfl⟩
abbrev main_cst_1 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_2 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_3 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_4 : Ref sig .tc := ⟨.hbm, 83, rfl⟩
abbrev main_v45 : Ref sig .tc := ⟨.hbm, 84, rfl⟩
abbrev main_cst_5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49_0 : Ref sig .tc := ⟨.hbm, 89, rfl⟩
abbrev main_v49_1 : Ref sig .tc := ⟨.hbm, 90, rfl⟩
abbrev main_v49_2 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev main_v66 : Ref sig .tc := ⟨.hbm, 109, rfl⟩
abbrev main_cst_7 : Ref sig .tc := ⟨.hbm, 110, rfl⟩
abbrev main_v67 : Ref sig .tc := ⟨.hbm, 111, rfl⟩
abbrev main_v68 : Ref sig .tc := ⟨.hbm, 112, rfl⟩
abbrev main_cst_8 : Ref sig .tc := ⟨.hbm, 113, rfl⟩
abbrev main_v69 : Ref sig .tc := ⟨.hbm, 114, rfl⟩
abbrev main_v70 : Ref sig .tc := ⟨.hbm, 115, rfl⟩
abbrev main_v71_0 : Ref sig .tc := ⟨.hbm, 116, rfl⟩
abbrev main_v71_1 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_9 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_10 : Ref sig .tc := ⟨.hbm, 135, rfl⟩
abbrev main_call2_v0 : Ref sig .tc := ⟨.hbm, 136, rfl⟩
abbrev main_call2_v1 : Ref sig .tc := ⟨.hbm, 137, rfl⟩
abbrev main_v88 : Ref sig .tc := ⟨.hbm, 138, rfl⟩
abbrev main_cst_11 : Ref sig .tc := ⟨.hbm, 139, rfl⟩
abbrev main_v89 : Ref sig .tc := ⟨.hbm, 140, rfl⟩
abbrev main_cst_12 : Ref sig .tc := ⟨.hbm, 141, rfl⟩
abbrev main_v90 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem6_0 : DmaSem sig := 29
abbrev cc2_sem6_1 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S5000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S256x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x256x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x256x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  transposes_S5000x256_p1_0_S256x5000 : S5000x256.Transposes [1, 0] S256x5000
  reduces_S256x5000_S256 : S256x5000.Reduces [1] S256
  shapeCasts_S256_S256x1 : S256.ShapeCasts S256x1
  broadcasts_S256x1_S256x5000 : S256x1.Broadcasts S256x5000
  slices_S2x256x1_S1x256x1_0_0_0 : S2x256x1.Slices ![0, 0, 0] S1x256x1
  slices_S2x256x1_S1x256x1_1_0_0 : S2x256x1.Slices ![1, 0, 0] S1x256x1
  bcast_S_S256x1 : S_.BroadcastsInDim S256x1 (![] : Fin 0 → Fin S256x1.rank)
  bcast_S_S256 : S_.BroadcastsInDim S256 (![] : Fin 0 → Fin S256.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  bcast_S256_S256x256_0 : S256.BroadcastsInDim S256x256 (![0] : Fin 1 → Fin S256x256.rank)
  bcast_S_S256x256 : S_.BroadcastsInDim S256x256 (![] : Fin 0 → Fin S256x256.rank)
  shapeCasts_S256x1_S256 : S256x1.ShapeCasts S256
  reducesTo_S256_S_d0 : S256.ReducesTo [0] S_
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  transposes_S5000x1_p1_0_S1x5000 : S5000x1.Transposes [1, 0] S1x5000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S1x5000_S256x5000 : S1x5000.Broadcasts S256x5000
  natLt_1_32 : 1 < 32
  dot_S256x256_S256x5000_S256x5000_1_0_0_1_n_n_wf : DotDims.WF S256x256 S256x5000 S256x5000 [1] [0] [0] [1] [] []
  gather_S100000x256_S256x1_S256x256_1_0_n_n_0_1_1256_wf : GatherDims.WF S100000x256 S256x1 S256x256 [1] [0] [] [0] [] 1 ![1, 256]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S100000x256.size a
  hwx0_1 : ∀ i : grid0.Coords, EltTy.bits .f32 = 32 ∨ (Rect.block (s := S100000x256) S5000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x256x1.size a
  hwx0_2 : ∀ i : grid0.Coords, EltTy.bits .f32 = 32 ∨ (Rect.block (s := S2x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x256x1.size a
  hwx0_3 : ∀ i : grid0.Coords, EltTy.bits .f32 = 32 ∨ (Rect.block (s := S2x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S2x256x1.size a
  hwx0_4 : ∀ i : grid0.Coords, EltTy.bits .f32 = 32 ∨ (Rect.block (s := S2x256x1) S1x256x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .i32 = 32 ∨ (Rect.block (s := S256x1) S256x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .i32 = 32 ∨ (Rect.block (s := S100000x1) S5000x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1.size a ≤ S2x256x1.size a
  hwx1_4 : ∀ i : grid1.Coords, EltTy.bits .f32 = 32 ∨ (Rect.block (s := S2x256x1) S1x256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1.size a ≤ S2x256x1.size a
  hwx1_5 : ∀ i : grid1.Coords, EltTy.bits .f32 = 32 ∨ (Rect.block (s := S2x256x1) S1x256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1.size a ≤ S2x256x1.size a
  hwx1_6 : ∀ i : grid1.Coords, EltTy.bits .f32 = 32 ∨ (Rect.block (s := S2x256x1) S1x256x1.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S256x256.size a
  hwx2_0 : ∀ i : grid2.Coords, EltTy.bits .f32 = 32 ∨ (Rect.block (s := S256x256) S256x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S100000x256.size a
  hwx2_1 : ∀ i : grid2.Coords, EltTy.bits .f32 = 32 ∨ (Rect.block (s := S100000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .i32 = 32 ∨ (Rect.block (s := S256x1) S256x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .i32 = 32 ∨ (Rect.block (s := S100000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256x1.size a ≤ S2x256x1.size a
  hwx2_6 : ∀ i : grid2.Coords, EltTy.bits .f32 = 32 ∨ (Rect.block (s := S2x256x1) S1x256x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256x1.size a ≤ S2x256x1.size a
  hwx2_7 : ∀ i : grid2.Coords, EltTy.bits .f32 = 32 ∨ (Rect.block (s := S2x256x1) S1x256x1.size (cc2_transform_7 i) (hinb2_7 i)).WholeWords (EltTy.packing .f32)

variable [Facts₀]

def dot_S256x256_S256x5000_S256x5000_1_0_0_1_n_n : DotDims S256x256 S256x5000 S256x5000 where
  lhsContracting := [1]
  rhsContracting := [0]
  lhsNonContracting := [0]
  rhsNonContracting := [1]
  lhsBatch := []
  rhsBatch := []
  wf := dot_S256x256_S256x5000_S256x5000_1_0_0_1_n_n_wf
def gather_S100000x256_S256x1_S256x256_1_0_n_n_0_1_1256 : GatherDims S100000x256 S256x1 S256x256 where
  offsetDims := [1]
  collapsedSliceDims := [0]
  operandBatchingDims := []
  startIndicesBatchingDims := []
  startIndexMap := [0]
  indexVectorDim := 1
  sliceSizes := ![1, 256]
  wf := gather_S100000x256_S256x1_S256x256_1_0_n_n_0_1_1256_wf

abbrev win0_0 : Pipeline.Window sig grid0 :=
  Pipeline.Window.ofSpec (Memref.whole main_v2) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49_0) S1x256x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49_1) S1x256x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v49_2) S1x256x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v2) S256x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66) S256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S256x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71_0) S1x256x1.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v71_1) S1x256x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S256x256 : Shape := ⟨2, ![256, 256]⟩
abbrev S100000x256 : Shape := ⟨2, ![100000, 256]⟩
abbrev S256 : Shape := ⟨1, ![256]⟩
abbrev S100000 : Shape := ⟨1, ![100000]⟩
abbrev S_ : Shape := ⟨0, ![]⟩
abbrev S256x1 : Shape := ⟨2, ![256, 1]⟩
abbrev S256x100000 : Shape := ⟨2, ![256, 100000]⟩
abbrev S256x1x1 : Shape := ⟨3, ![256, 1, 1]⟩
abbrev S1 : Shape := ⟨1, ![1]⟩
abbrev S1x1x1 : Shape := ⟨3, ![1, 1, 1]⟩
abbrev S1x100000 : Shape := ⟨2, ![1, 100000]⟩

abbrev nBuf : Space → Nat
  | .hbm => 131
  | .vmem => 0
  | .smem => 0
  | _ => 0

abbrev hbmTy0_0 (i : Nat) : BufTy := match i % 128 with
  | 0 => ⟨S256x256, .f32⟩
  | 1 => ⟨S100000x256, .f32⟩
  | 2 => ⟨S100000x256, .f32⟩
  | 3 => ⟨S256, .i32⟩
  | 4 => ⟨S100000, .i32⟩
  | 5 => ⟨S256x256, .f32⟩
  | 6 => ⟨S_, .f32⟩
  | 7 => ⟨S256, .f32⟩
  | 8 => ⟨S256x1, .f32⟩
  | 9 => ⟨S256x1, .f32⟩
  | 10 => ⟨S256x256, .f32⟩
  | 11 => ⟨S256x256, .f32⟩
  | 12 => ⟨S256x100000, .f32⟩
  | 13 => ⟨S256x100000, .f32⟩
  | 14 => ⟨S_, .f32⟩
  | 15 => ⟨S256x100000, .f32⟩
  | 16 => ⟨S256x100000, .f32⟩
  | 17 => ⟨S_, .f32⟩
  | 18 => ⟨S256, .f32⟩
  | 19 => ⟨S_, .f32⟩
  | 20 => ⟨S256, .f32⟩
  | 21 => ⟨S256, .f32⟩
  | 22 => ⟨S256x1, .f32⟩
  | 23 => ⟨S256x100000, .f32⟩
  | 24 => ⟨S256x100000, .f32⟩
  | 25 => ⟨S256x100000, .f32⟩
  | 26 => ⟨S_, .f32⟩
  | 27 => ⟨S256, .f32⟩
  | 28 => ⟨S256x1, .f32⟩
  | 29 => ⟨S256x1, .f32⟩
  | 30 => ⟨S256x100000, .f32⟩
  | 31 => ⟨S256x100000, .f32⟩
  | 32 => ⟨S256x1, .i32⟩
  | 33 => ⟨S_, .i32⟩
  | 34 => ⟨S256x1, .i32⟩
  | 35 => ⟨S256x1, .i1⟩
  | 36 => ⟨S_, .i32⟩
  | 37 => ⟨S256x1, .i32⟩
  | 38 => ⟨S256x1, .i32⟩
  | 39 => ⟨S256x1, .i32⟩
  | 40 => ⟨S256x1x1, .i32⟩
  | 41 => ⟨S1, .i32⟩
  | 42 => ⟨S_, .i32⟩
  | 43 => ⟨S256x1x1, .i32⟩
  | 44 => ⟨S256x1x1, .i1⟩
  | 45 => ⟨S1x1x1, .i32⟩
  | 46 => ⟨S256x1x1, .i32⟩
  | 47 => ⟨S256x1x1, .i1⟩
  | 48 => ⟨S256x1x1, .i1⟩
  | 49 => ⟨S_, .i1⟩
  | 50 => ⟨S256x1, .i1⟩
  | 51 => ⟨S256x1, .f32⟩
  | 52 => ⟨S_, .f32⟩
  | 53 => ⟨S256x1, .f32⟩
  | 54 => ⟨S256x1, .f32⟩
  | 55 => ⟨S256, .f32⟩
  | 56 => ⟨S_, .f32⟩
  | 57 => ⟨S256, .f32⟩
  | 58 => ⟨S256, .f32⟩
  | 59 => ⟨S_, .f32⟩
  | 60 => ⟨S256, .f32⟩
  | 61 => ⟨S_, .f32⟩
  | 62 => ⟨S256, .f32⟩
  | 63 => ⟨S256, .f32⟩
  | 64 => ⟨S256, .f32⟩
  | 65 => ⟨S256, .f32⟩
  | 66 => ⟨S_, .f32⟩
  | 67 => ⟨S_, .f32⟩
  | 68 => ⟨S_, .f32⟩
  | 69 => ⟨S_, .f32⟩
  | 70 => ⟨S256x100000, .f32⟩
  | 71 => ⟨S256x100000, .f32⟩
  | 72 => ⟨S256x1, .i32⟩
  | 73 => ⟨S1x100000, .i32⟩
  | 74 => ⟨S256x100000, .i32⟩
  | 75 => ⟨S256x100000, .i32⟩
  | 76 => ⟨S256x100000, .i1⟩
  | 77 => ⟨S256x100000, .i1⟩
  | 78 => ⟨S_, .f32⟩
  | 79 => ⟨S256x100000, .f32⟩
  | 80 => ⟨S256x100000, .f32⟩
  | 81 => ⟨S_, .f32⟩
  | 82 => ⟨S256, .f32⟩
  | 83 => ⟨S256x1, .f32⟩
  | 84 => ⟨S_, .f32⟩
  | 85 => ⟨S256x100000, .f32⟩
  | 86 => ⟨S256x100000, .f32⟩
  | 87 => ⟨S_, .f32⟩
  | 88 => ⟨S256, .f32⟩
  | 89 => ⟨S256x1, .f32⟩
  | 90 => ⟨S_, .i1⟩
  | 91 => ⟨S256, .i1⟩
  | 92 => ⟨S_, .f32⟩
  | 93 => ⟨S256x1, .f32⟩
  | 94 => ⟨S256x1, .f32⟩
  | 95 => ⟨S256x100000, .f32⟩
  | 96 => ⟨S256x100000, .i1⟩
  | 97 => ⟨S256x100000, .i1⟩
  | 98 => ⟨S_, .f32⟩
  | 99 => ⟨S256x1, .f32⟩
  | 100 => ⟨S256x1, .f32⟩
  | 101 => ⟨S_, .f32⟩
  | 102 => ⟨S256x1, .f32⟩
  | 103 => ⟨S256x1, .f32⟩
  | 104 => ⟨S256x100000, .f32⟩
  | 105 => ⟨S256x100000, .i1⟩
  | 106 => ⟨S256x100000, .i1⟩
  | 107 => ⟨S_, .f32⟩
  | 108 => ⟨S256x100000, .f32⟩
  | 109 => ⟨S256x100000, .f32⟩
  | 110 => ⟨S_, .f32⟩
  | 111 => ⟨S_, .f32⟩
  | 112 => ⟨S256x100000, .f32⟩
  | 113 => ⟨S256x100000, .f32⟩
  | 114 => ⟨S_, .f32⟩
  | 115 => ⟨S256, .f32⟩
  | 116 => ⟨S_, .f32⟩
  | 117 => ⟨S_, .f32⟩
  | 118 => ⟨S256x100000, .f32⟩
  | 119 => ⟨S256x100000, .f32⟩
  | 120 => ⟨S_, .f32⟩
  | 121 => ⟨S256, .f32⟩
  | 122 => ⟨S256, .f32⟩
  | 123 => ⟨S_, .f32⟩
  | 124 => ⟨S_, .f32⟩
  | 125 => ⟨S256, .f32⟩
  | 126 => ⟨S256, .f32⟩
  | 127 => ⟨S_, .f32⟩
  | _ => ⟨S256x256, .f32⟩

abbrev hbmTy0_1 (i : Nat) : BufTy := match i % 128 with
  | 0 => ⟨S_, .f32⟩
  | 1 => ⟨S_, .f32⟩
  | 2 => ⟨S_, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v7 : Ref sig .tc := ⟨.hbm, 31, rfl⟩
abbrev main_v8 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_cst : Ref sig .tc := ⟨.hbm, 52, rfl⟩
abbrev main_call2_v14 : Ref sig .tc := ⟨.hbm, 53, rfl⟩
abbrev main_v9 : Ref sig .tc := ⟨.hbm, 54, rfl⟩
abbrev main_v10 : Ref sig .tc := ⟨.hbm, 55, rfl⟩
abbrev main_cst_0 : Ref sig .tc := ⟨.hbm, 56, rfl⟩
abbrev main_v11 : Ref sig .tc := ⟨.hbm, 57, rfl⟩
abbrev main_v12 : Ref sig .tc := ⟨.hbm, 58, rfl⟩
abbrev main_cst_1 : Ref sig .tc := ⟨.hbm, 59, rfl⟩
abbrev main_v13 : Ref sig .tc := ⟨.hbm, 60, rfl⟩
abbrev main_cst_2 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_cst_3 : Ref sig .tc := ⟨.hbm, 66, rfl⟩
abbrev main_v18 : Ref sig .tc := ⟨.hbm, 67, rfl⟩
abbrev main_cst_4 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_cst_5 : Ref sig .tc := ⟨.hbm, 78, rfl⟩
abbrev main_call3_v0 : Ref sig .tc := ⟨.hbm, 79, rfl⟩
abbrev main_v28 : Ref sig .tc := ⟨.hbm, 80, rfl⟩
abbrev main_cst_6 : Ref sig .tc := ⟨.hbm, 81, rfl⟩
abbrev main_v29 : Ref sig .tc := ⟨.hbm, 82, rfl⟩
abbrev main_v30 : Ref sig .tc := ⟨.hbm, 83, rfl⟩
abbrev main_cst_7 : Ref sig .tc := ⟨.hbm, 84, rfl⟩
abbrev main_call4_v0 : Ref sig .tc := ⟨.hbm, 85, rfl⟩
abbrev main_v31 : Ref sig .tc := ⟨.hbm, 86, rfl⟩
abbrev main_cst_8 : Ref sig .tc := ⟨.hbm, 87, rfl⟩
abbrev main_v32 : Ref sig .tc := ⟨.hbm, 88, rfl⟩
abbrev main_v33 : Ref sig .tc := ⟨.hbm, 89, rfl⟩
abbrev main_c : Ref sig .tc := ⟨.hbm, 90, rfl⟩
abbrev main_v34 : Ref sig .tc := ⟨.hbm, 91, rfl⟩
abbrev main_cst_9 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_cst_10 : Ref sig .tc := ⟨.hbm, 98, rfl⟩
abbrev main_v40 : Ref sig .tc := ⟨.hbm, 99, rfl⟩
abbrev main_v41 : Ref sig .tc := ⟨.hbm, 100, rfl⟩
abbrev main_cst_11 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_12 : Ref sig .tc := ⟨.hbm, 107, rfl⟩
abbrev main_v47 : Ref sig .tc := ⟨.hbm, 108, rfl⟩
abbrev main_v48 : Ref sig .tc := ⟨.hbm, 109, rfl⟩
abbrev main_cst_13 : Ref sig .tc := ⟨.hbm, 110, rfl⟩
abbrev main_call5_v0 : Ref sig .tc := ⟨.hbm, 111, rfl⟩
abbrev main_call5_v1 : Ref sig .tc := ⟨.hbm, 112, rfl⟩
abbrev main_v49 : Ref sig .tc := ⟨.hbm, 113, rfl⟩
abbrev main_cst_14 : Ref sig .tc := ⟨.hbm, 114, rfl⟩
abbrev main_v50 : Ref sig .tc := ⟨.hbm, 115, rfl⟩
abbrev main_cst_15 : Ref sig .tc := ⟨.hbm, 116, rfl⟩
abbrev main_call6_v0 : Ref sig .tc := ⟨.hbm, 117, rfl⟩
abbrev main_call6_v1 : Ref sig .tc := ⟨.hbm, 118, rfl⟩
abbrev main_v51 : Ref sig .tc := ⟨.hbm, 119, rfl⟩
abbrev main_cst_16 : Ref sig .tc := ⟨.hbm, 120, rfl⟩
abbrev main_v52 : Ref sig .tc := ⟨.hbm, 121, rfl⟩
abbrev main_v53 : Ref sig .tc := ⟨.hbm, 122, rfl⟩
abbrev main_cst_17 : Ref sig .tc := ⟨.hbm, 123, rfl⟩
abbrev main_call7_v0 : Ref sig .tc := ⟨.hbm, 124, rfl⟩
abbrev main_call7_v1 : Ref sig .tc := ⟨.hbm, 125, rfl⟩
abbrev main_v54 : Ref sig .tc := ⟨.hbm, 126, rfl⟩
abbrev main_cst_18 : Ref sig .tc := ⟨.hbm, 127, rfl⟩
abbrev main_v55 : Ref sig .tc := ⟨.hbm, 128, rfl⟩
abbrev main_cst_19 : Ref sig .tc := ⟨.hbm, 129, rfl⟩
abbrev main_v56 : Ref sig .tc := ⟨.hbm, 130, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S100000x256_S256x100000_1_0 : S100000x256.Transposes [1, 0] S256x100000
  bcast_S_S256x100000 : S_.BroadcastsInDim S256x100000 (![] : Fin 0 → Fin S256x100000.rank)
  reducesTo_S256x100000_S256_d1 : S256x100000.ReducesTo [1] S256
  bcast_S_S256 : S_.BroadcastsInDim S256 (![] : Fin 0 → Fin S256.rank)
  bcast_S256x1_S256x100000_0_1 : S256x1.BroadcastsInDim S256x100000 (![0, 1] : Fin 2 → Fin S256x100000.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  shapeCasts_S256x1_S256 : S256x1.ShapeCasts S256
  reducesTo_S256_S_d0 : S256.ReducesTo [0] S_
  bcast_S100000_S1x100000_1 : S100000.BroadcastsInDim S1x100000 (![1] : Fin 1 → Fin S1x100000.rank)
  bcast_S1x100000_S256x100000_0_1 : S1x100000.BroadcastsInDim S256x100000 (![0, 1] : Fin 2 → Fin S256x100000.rank)
  dot_S256x256_S256x100000_S256x100000_1_0_0_1_n_n_wf : DotDims.WF S256x256 S256x100000 S256x100000 [1] [0] [0] [1] [] []
  gather_S256x100000_S256x1x1_S256x1_n_1_0_0_1_2_11_wf : GatherDims.WF S256x100000 S256x1x1 S256x1 [] [1] [0] [1] [0] 2 ![1, 1]

variable [Facts₀]

def dot_S256x256_S256x100000_S256x100000_1_0_0_1_n_n : DotDims S256x256 S256x100000 S256x100000 where
  lhsContracting := [1]
  rhsContracting := [0]
  lhsNonContracting := [0]
  rhsNonContracting := [1]
  lhsBatch := []
  rhsBatch := []
  wf := dot_S256x256_S256x100000_S256x100000_1_0_0_1_n_n_wf
def gather_S256x100000_S256x1x1_S256x1_n_1_0_0_1_2_11 : GatherDims S256x100000 S256x1x1 S256x1 where
  offsetDims := []
  collapsedSliceDims := [1]
  operandBatchingDims := [0]
  startIndicesBatchingDims := [0]
  startIndexMap := [1]
  indexVectorDim := 2
  sliceSizes := ![1, 1]
  wf := gather_S256x100000_S256x1x1_S256x1_n_1_0_0_1_2_11_wf

class Facts : Prop extends Facts₀ where

variable [Facts]
-- ==== Proof.Steps.lean ====
/-
  The three kernels, one grid point at a time, as pure functions of vectors.

  Each kernel carries per-row running statistics (one value for each of the 256 rows) across the
  ten column tiles a core visits.  A "step" takes the row block `x`, the tile's 5000 bank rows
  (and, for the triplet kernels, the tile's labels, the targets and the two thresholds) together
  with the statistics so far, and returns the statistics after the tile; the "init" is what the
  first tile of a core starts from.  The chain folds the steps over the points 0, 1, 2, … of the
  grid, restarting from the init at every point whose number is a multiple of ten (the first tile
  of a core).

  * cross-entropy kernel: (running maximum m, running sum l of exp (logit - m), running sum s of
    the logits);
  * row-maximum kernel: (maximum over the positives, maximum over the negatives, 1 if a positive
    was seen else 0);
  * thresholded-sum kernel: (sum of 1 - sim over selected positives, sum of sim over selected
    negatives).
-/
import proofs.«411386_j43001212567993_2_alg».proof.Proof.Gen.KernelIdeal.Skeleton

noncomputable section

namespace Cert.KernelIdeal.Steps

open Idealize.ShloMosaic Idealize.SL.Sem Cert.KernelIdeal Cert.KernelIdeal.Gen

variable {F : FTy → Type} [FloatOps F] [Named F]

/-- One statistic: a value per row, laid out as the kernels keep it (1 × 256 × 1). -/
abbrev Stat (F : FTy → Type) := Vec F S1x256x1 .f32

/-! ## Cross-entropy statistics -/

/-- Before the first tile: maximum -∞, both sums 0. -/
def ceInit : Stat F × Stat F × Stat F := (k0_pay3, k0_pay4, k0_pay5)

/-- One tile: the new maximum, the rescaled sum of exponentials plus the tile's, the sum of logits plus the tile's. -/
def ceStep (x : Vec F S256x256 .f32) (fb : Vec F S5000x256 .f32) (st : Stat F × Stat F × Stat F) :
    Stat F × Stat F × Stat F :=
  (k0_pay2 (k0_pay7 x fb st.1), k0_pay8 x fb st.1 st.1 st.2.1, k0_pay1 (k0_pay6 x fb) st.2.2)

/-- The statistics after point `n`, over the blocks `xb n`, `fb n` the points read. -/
def ceChain (xb : ℕ → Vec F S256x256 .f32) (fb : ℕ → Vec F S5000x256 .f32) : ℕ → Stat F × Stat F × Stat F
  | 0 => ceStep (xb 0) (fb 0) ceInit
  | n + 1 => ceStep (xb (n + 1)) (fb (n + 1)) (if (n + 1) % 10 = 0 then ceInit else ceChain xb fb n)

/-! ## Row maxima over positives and negatives -/

/-- Before the first tile: both maxima -∞, no positive seen (0). -/
def tmInit : Stat F × Stat F × Stat F := (k1_pay4, k1_pay5, k1_pay6)

/-- One tile: (max over positives, max over negatives, positive seen), each joined with the tile's. -/
def tmStep (x : Vec F S256x256 .f32) (fb : Vec F S5000x256 .f32) (tg : Vec F S256x1 .i32) (lb : Vec F S5000x1 .i32)
    (st : Stat F × Stat F × Stat F) : Stat F × Stat F × Stat F :=
  (k1_pay2 (k1_pay10 x fb lb tg) st.1, k1_pay1 (k1_pay9 x fb lb tg) st.2.1, k1_pay3 (k1_pay11 (F := F) lb tg) st.2.2)

def tmChain (xb : ℕ → Vec F S256x256 .f32) (fb : ℕ → Vec F S5000x256 .f32) (tg : ℕ → Vec F S256x1 .i32)
    (lb : ℕ → Vec F S5000x1 .i32) : ℕ → Stat F × Stat F × Stat F
  | 0 => tmStep (xb 0) (fb 0) (tg 0) (lb 0) tmInit
  | n + 1 => tmStep (xb (n + 1)) (fb (n + 1)) (tg (n + 1)) (lb (n + 1))
      (if (n + 1) % 10 = 0 then tmInit else tmChain xb fb tg lb n)

/-! ## Thresholded sums -/

/-- Before the first tile: both sums 0. -/
def tsInit : Stat F × Stat F := (k2_pay3, k2_pay4)

/-- One tile: the positives' sum of `1 - sim` below the cut `pc`, the negatives' sum of `sim` above the cut `nc`. -/
def tsStep (x : Vec F S256x256 .f32) (fb : Vec F S5000x256 .f32) (tg : Vec F S256x1 .i32) (lb : Vec F S5000x1 .i32)
    (pc nc : Vec F S256x1 .f32) (st : Stat F × Stat F) : Stat F × Stat F :=
  (k2_pay1 (k2_pay8 st.1) (k2_pay9 x fb lb tg pc), k2_pay2 (k2_pay5 x fb) (k2_pay7 x fb lb tg nc) st.2)

def tsChain (xb : ℕ → Vec F S256x256 .f32) (fb : ℕ → Vec F S5000x256 .f32) (tg : ℕ → Vec F S256x1 .i32)
    (lb : ℕ → Vec F S5000x1 .i32) (pc nc : ℕ → Vec F S256x1 .f32) : ℕ → Stat F × Stat F
  | 0 => tsStep (xb 0) (fb 0) (tg 0) (lb 0) (pc 0) (nc 0) tsInit
  | n + 1 => tsStep (xb (n + 1)) (fb (n + 1)) (tg (n + 1)) (lb (n + 1)) (pc (n + 1)) (nc (n + 1))
      (if (n + 1) % 10 = 0 then tsInit else tsChain xb fb tg lb pc nc n)

end Cert.KernelIdeal.Steps

end
-- ==== Proof.Spec.lean ====
/-
  The mathematics of the two losses, row by row, over plain index types.

  A row's similarities against the 100000 bank rows are split between two cores: core `q` sees the
  columns `cols q` = [50000 q, 50000 (q + 1)), in ten tiles of 5000.

  Cross-entropy statistics (real numbers, for a row of real logits `z`): a core's maximum, its sum of
  `exp (z - maximum)`, its sum of logits; the merged log-sum-exp `kLse`; and the reference's
  `log_softmax` entry `lp z j = (z j - max z) - log Σ exp (z - max z)`.

  Triplet statistics (extended reals, no finiteness involved): over a set `J` of columns, the maximum of the
  similarities of the positives (those with `e j`), of the negatives, whether a positive exists, and the two
  thresholded sums.
-/
import Idealize.ShloMosaic.PureOps.Ideal
import Idealize.ShloMosaic.Lib.ValueIdx

noncomputable section

namespace Cert.Spec

open Idealize.ShloMosaic

/-- The bank rows core `q` visits. -/
def cols (q : Fin 2) : Finset (Fin 100000) := Finset.univ.filter fun j => j.val / 50000 = q.val

theorem cols_nonempty (q : Fin 2) : (cols q).Nonempty :=
  ⟨⟨50000 * q.val, by omega⟩, by simp only [cols, Finset.mem_filter, Finset.mem_univ, true_and]; omega⟩

/-- Bank row `r` of tile `n` (tiles are numbered 0 … 19 across both cores). -/
def tcol (n : ℕ) (hn : n < 20) (r : Fin 5000) : Fin 100000 := ⟨5000 * n + r.val, by omega⟩

/-- Row `b` of `x` against bank row `j`, over the extended reals. -/
def dotE (x : Fin 256 → Fin 256 → EReal) (f : Fin 100000 → Fin 256 → EReal) (b : Fin 256) (j : Fin 100000) : EReal :=
  ∑ k : Fin 256, x b k * f j k

/-- The same over the reals. -/
def dotR (x : Fin 256 → Fin 256 → ℝ) (f : Fin 100000 → Fin 256 → ℝ) (b : Fin 256) (j : Fin 100000) : ℝ :=
  ∑ k : Fin 256, x b k * f j k

/-! ## Cross-entropy statistics of one row of real logits -/

/-- The reciprocal of the f32 word for 0.05 (13421773 / 2^28), the temperature the reference divides by. -/
def invTemp : ℝ := 268435456 / 13421773

/-- The f32 word for 0.05, exactly. -/
def temp : ℝ := 13421773 / 268435456

/-- The kernel's logits of row `b`: the dot products times the named reciprocal. -/
def logitK (x : Fin 256 → Fin 256 → ℝ) (f : Fin 100000 → Fin 256 → ℝ) (b : Fin 256) : Fin 100000 → ℝ :=
  fun j => dotR x f b j * invTemp
/-- The reference's logits of row `b`: the dot products divided by the temperature word. -/
def logitR (x : Fin 256 → Fin 256 → ℝ) (f : Fin 100000 → Fin 256 → ℝ) (b : Fin 256) : Fin 100000 → ℝ :=
  fun j => dotR x f b j / temp

def cMax (z : Fin 100000 → ℝ) (q : Fin 2) : ℝ := (cols q).sup' (cols_nonempty q) z
def cSumExp (z : Fin 100000 → ℝ) (q : Fin 2) : ℝ := ∑ j ∈ cols q, Real.exp (z j - cMax z q)
def cSum (z : Fin 100000 → ℝ) (q : Fin 2) : ℝ := ∑ j ∈ cols q, z j

/-- The two cores merged as the kernel's wrapper merges them. -/
def kMax (z : Fin 100000 → ℝ) : ℝ := max (cMax z 0) (cMax z 1)
def kSumExp (z : Fin 100000 → ℝ) : ℝ :=
  Real.exp (cMax z 0 - kMax z) * cSumExp z 0 + Real.exp (cMax z 1 - kMax z) * cSumExp z 1
def kLse (z : Fin 100000 → ℝ) : ℝ := kMax z + Real.log (kSumExp z)

/-- The reference's `log_softmax` of the row. -/
def gMax (z : Fin 100000 → ℝ) : ℝ := Finset.univ.sup' ⟨⟨0, by decide⟩, Finset.mem_univ _⟩ z
def gSumExp (z : Fin 100000 → ℝ) : ℝ := ∑ j, Real.exp (z j - gMax z)
def lp (z : Fin 100000 → ℝ) (j : Fin 100000) : ℝ := (z j - gMax z) - Real.log (gSumExp z)

/-! ## Triplet statistics of one row, over a set of columns -/

variable (s : Fin 100000 → EReal) (e : Fin 100000 → Prop) [DecidablePred e]

/-- The largest similarity among the positives of `J` (-∞ if none). -/
def mPos (J : Finset (Fin 100000)) : EReal := J.sup fun j => if e j then s j else ⊥
/-- The largest similarity among the negatives of `J` (-∞ if none). -/
def mNeg (J : Finset (Fin 100000)) : EReal := J.sup fun j => if e j then ⊥ else s j
/-- 1 if `J` holds a positive, else 0. -/
def hPos (J : Finset (Fin 100000)) : EReal := if ∃ j ∈ J, e j then 1 else 0
/-- The f32 word for 1.0 as both programs carry it. -/
abbrev oneW : EReal := Ideal.ofBits .f32 0x3F800000#32
/-- Sum of `1 - s j` over the positives of `J` below the cut. -/
def posLoss (pc : EReal) (J : Finset (Fin 100000)) : EReal := ∑ j ∈ J, if e j ∧ s j < pc then oneW - s j else 0
/-- Sum of `s j` over the negatives of `J` above the cut. -/
def negLoss (nc : EReal) (J : Finset (Fin 100000)) : EReal := ∑ j ∈ J, if ¬ e j ∧ nc < s j then s j else 0

end Cert.Spec

end
-- ==== Proof.R0Struct.lean ====
/-
  Region 0 (the cross-entropy kernel) read off its frame: what the three output arrays hold when the region is left.

  The grid has 20 points; point t reads the whole of x and the 5000 bank rows 5000 t … 5000 t + 4999.  The three
  outputs' block index is (t / 10, 0, 0): the ten points of a core revisit one block, which is reset at the core's
  first point, carried through the others, and written back at the core's last point only.  So entry (q, b, 0) of an
  output array is the statistic the fold of the per-tile step leaves after point 10 q + 9.
-/
import proofs.«411386_j43001212567993_2_alg».proof.Proof.Gen.KernelIdeal.Frame
import proofs.«411386_j43001212567993_2_alg».proof.Proof.Steps
import proofs.«411386_j43001212567993_2_alg».proof.Proof.Spec
import Idealize.ShloMosaic.Lib.Pipeline.Value
import Idealize.ShloMosaic.Lib.ValueIdx

set_option maxRecDepth 16384

noncomputable section

namespace Cert.KernelIdeal.R0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Steps

variable (V : (c : Dev nD) → (b : Ref sig .tc) → Buf (Elt Ideal) ((c : Thread nD τ).loc b))

theorem N0 : cfg0.N = 20 := N_0

/-- The block of `x` point `n` reads (the whole array, at every point). -/
def xb (c : Dev nD) (n : ℕ) : Vec Ideal S256x256 .f32 :=
  if h : n < cfg0.N then iblk0 V c 0 ⟨n, h⟩ else iblk0 V c 0 ⟨0, by rw [N0]; decide⟩
/-- The 5000 bank rows point `n` reads. -/
def fb (c : Dev nD) (n : ℕ) : Vec Ideal S5000x256 .f32 :=
  if h : n < cfg0.N then iblk0 V c 1 ⟨n, h⟩ else iblk0 V c 1 ⟨0, by rw [N0]; decide⟩

/-! ## The block index of every window at every point -/

/-- The printed index maps, decided once over the grid: `x`'s block never moves, the bank's block index is the point's
    number, the outputs' is the core's number. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 3) = t.val / 10 ∧ win0_2.index t (1 : Fin 3) = 0 ∧ win0_2.index t (2 : Fin 3) = 0
    ∧ win0_3.index t (0 : Fin 3) = t.val / 10 ∧ win0_3.index t (1 : Fin 3) = 0 ∧ win0_3.index t (2 : Fin 3) = 0
    ∧ win0_4.index t (0 : Fin 3) = t.val / 10 ∧ win0_4.index t (1 : Fin 3) = 0 ∧ win0_4.index t (2 : Fin 3) = 0 :=
  (by decide +kernel : ∀ t : Fin grid0.N, _)

/-! ## The input blocks, read at an index -/

/-- `x`'s block at any point is `x`: an element's coordinate is block index × size + its own, and the index is 0. -/
theorem iblk_x_apply (c : Dev nD) (t : Fin cfg0.N) (b k : Fin 256) :
    (iblk0 V c 0 t : Vec Ideal S256x256 .f32) (ix2 b k)
      = (V c (Pipeline.arrRef spec0 0) : S256x256.Idx → EReal) (ix2 b k) := by
  obtain ⟨e0, e1, -⟩ := idx_facts t
  unfold iblk0
  rw [View.read_apply]
  show (V c (Pipeline.arrRef spec0 0) : S256x256.Idx → EReal) _ = (V c (Pipeline.arrRef spec0 0) : S256x256.Idx → EReal) _
  refine congrArg _ ?_
  funext a
  apply Fin.ext
  match a with
  | ⟨0, _⟩ => show win0_0.index t 0 * 256 + 1 * b.val = b.val; rw [e0]; omega
  | ⟨1, _⟩ => show win0_0.index t 1 * 256 + 1 * k.val = k.val; rw [e1]; omega

/-- The bank's block at point `t` holds the bank's rows 5000 t + r. -/
theorem iblk_f_apply (c : Dev nD) (t : Fin cfg0.N) (r : Fin 5000) (k : Fin 256) (j : Fin 100000)
    (hj : j.val = 5000 * t.val + r.val) :
    (iblk0 V c 1 t : Vec Ideal S5000x256 .f32) (ix2 r k)
      = (V c (Pipeline.arrRef spec0 1) : S100000x256.Idx → EReal) (ix2 j k) := by
  obtain ⟨-, -, e0, e1, -⟩ := idx_facts t
  unfold iblk0
  rw [View.read_apply]
  show (V c (Pipeline.arrRef spec0 1) : S100000x256.Idx → EReal) _ = (V c (Pipeline.arrRef spec0 1) : S100000x256.Idx → EReal) _
  refine congrArg _ ?_
  funext a
  apply Fin.ext
  match a with
  | ⟨0, _⟩ => show win0_1.index t 0 * 5000 + 1 * r.val = j.val; rw [e0, hj]; omega
  | ⟨1, _⟩ => show win0_1.index t 1 * 256 + 1 * k.val = k.val; rw [e1]; omega

/-- Inside the grid the families `xb`, `fb` are the windows' blocks. -/
theorem xb_eq (c : Dev nD) (n : ℕ) (h : n < cfg0.N) : xb V c n = iblk0 V c 0 ⟨n, h⟩ := by
  unfold xb; rw [dif_pos h]
theorem fb_eq (c : Dev nD) (n : ℕ) (h : n < cfg0.N) : fb V c n = iblk0 V c 1 ⟨n, h⟩ := by
  unfold fb; rw [dif_pos h]

theorem xb_apply (c : Dev nD) (n : ℕ) (b k : Fin 256) :
    xb V c n (ix2 b k) = (V c (Pipeline.arrRef spec0 0) : S256x256.Idx → EReal) (ix2 b k) := by
  unfold xb
  split
  · exact iblk_x_apply V c _ b k
  · exact iblk_x_apply V c _ b k

theorem fb_apply (c : Dev nD) (n : ℕ) (hn : n < 20) (r : Fin 5000) (k : Fin 256) :
    fb V c n (ix2 r k) = (V c (Pipeline.arrRef spec0 1) : S100000x256.Idx → EReal) (ix2 (Cert.Spec.tcol n hn r) k) := by
  have h : n < cfg0.N := by rw [N0]; exact hn
  rw [fb_eq V c n h]
  exact iblk_f_apply V c ⟨n, h⟩ r k (Cert.Spec.tcol n hn r) rfl

/-! ## What one point leaves in the outputs' blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile (the block is carried): output 2's block after the body is the running maximum of the step applied to the
    blocks and the statistics the block held before: its one covering store's payload, whose loads read whole buffers. -/
theorem out_B_2 (c : Dev nD) (i : grid0.Coords) (a2 : Memref sig .tc .vmem S256x256 .f32) (h2 : a2.IsWhole)
    (a3 : Memref sig .tc .vmem S5000x256 .f32) (h3 : a3.IsWhole) (a4 : Memref sig .tc .vmem S1x256x1 .f32) (h4 : a4.IsWhole)
    (a5 : Memref sig .tc .vmem S1x256x1 .f32) (h5 : a5.IsWhole) (a6 : Memref sig .tc .vmem S1x256x1 .f32) (h6 : a6.IsWhole)
    (hc : ¬cond0_0 i) (x : Vec Ideal S256x256 .f32) (f : Vec Ideal S5000x256 .f32) (o2 o3 o4 : Vec Ideal S1x256x1 .f32) :
    out0_B_2 c i a2 h2 a3 h3 a4 h4 a5 h5 a6 h6 hc x f o2 o3 o4 = (ceStep x f (o2, o3, o4)).1 := by
  unfold out0_B_2
  rw [View.read_writes_eq_canon _ _ _ (cover0_B_2 c i a2 h2 a3 h3 a4 h4 a5 h5 a6 h6 hc x f o2 o3 o4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x256x1) hz3, View.ld_unit_zero (S := S256x256) hz2, View.ld_unit_zero (S := S5000x256) hz2]
  rfl

/-- A core's first tile (the block is reset): the body stores the initial statistics, reads them back, and leaves
    the running maximum of the step applied to the blocks and the initial statistics: the later store covers the reset. -/
theorem out_A_2 (c : Dev nD) (i : grid0.Coords) (a2 : Memref sig .tc .vmem S256x256 .f32) (h2 : a2.IsWhole)
    (a3 : Memref sig .tc .vmem S5000x256 .f32) (h3 : a3.IsWhole) (a4 : Memref sig .tc .vmem S1x256x1 .f32) (h4 : a4.IsWhole)
    (a5 : Memref sig .tc .vmem S1x256x1 .f32) (h5 : a5.IsWhole) (a6 : Memref sig .tc .vmem S1x256x1 .f32) (h6 : a6.IsWhole)
    (hc : cond0_0 i) (x : Vec Ideal S256x256 .f32) (f : Vec Ideal S5000x256 .f32) :
    out0_A_2 c i a2 h2 a3 h3 a4 h4 a5 h5 a6 h6 hc x f = (ceStep x f ceInit).1 := by
  unfold out0_A_2
  rw [View.read_writes_eq_canon _ _ _ (cover0_A_2 c i a2 h2 a3 h3 a4 h4 a5 h5 a6 h6 hc x f)]
  unfold kernelRun0_A
  dsimp only
  sl_unfold_words
  rw [View.canon_cons_unit_zero (S := S1x256x1) hz3]
  simp only [View.readCov_unit_zero (S := S1x256x1) _ hz3, View.readAt_eq_ld, h2.read_unread, h3.read_unread, h4.read_unread,
    h5.read_unread, h6.read_unread, View.ld_unit_zero (S := S1x256x1) hz3, View.ld_unit_zero (S := S256x256) hz2,
    View.ld_unit_zero (S := S5000x256) hz2]
  rfl

/-- A later tile (the block is carried): output 3's block after the body is the running sum of exponentials of the step applied to the
    blocks and the statistics the block held before: its one covering store's payload, whose loads read whole buffers. -/
theorem out_B_3 (c : Dev nD) (i : grid0.Coords) (a2 : Memref sig .tc .vmem S256x256 .f32) (h2 : a2.IsWhole)
    (a3 : Memref sig .tc .vmem S5000x256 .f32) (h3 : a3.IsWhole) (a4 : Memref sig .tc .vmem S1x256x1 .f32) (h4 : a4.IsWhole)
    (a5 : Memref sig .tc .vmem S1x256x1 .f32) (h5 : a5.IsWhole) (a6 : Memref sig .tc .vmem S1x256x1 .f32) (h6 : a6.IsWhole)
    (hc : ¬cond0_0 i) (x : Vec Ideal S256x256 .f32) (f : Vec Ideal S5000x256 .f32) (o2 o3 o4 : Vec Ideal S1x256x1 .f32) :
    out0_B_3 c i a2 h2 a3 h3 a4 h4 a5 h5 a6 h6 hc x f o2 o3 o4 = (ceStep x f (o2, o3, o4)).2.1 := by
  unfold out0_B_3
  rw [View.read_writes_eq_canon _ _ _ (cover0_B_3 c i a2 h2 a3 h3 a4 h4 a5 h5 a6 h6 hc x f o2 o3 o4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x256x1) hz3, View.ld_unit_zero (S := S256x256) hz2, View.ld_unit_zero (S := S5000x256) hz2]
  rfl

/-- A core's first tile (the block is reset): the body stores the initial statistics, reads them back, and leaves
    the running sum of exponentials of the step applied to the blocks and the initial statistics: the later store covers the reset. -/
theorem out_A_3 (c : Dev nD) (i : grid0.Coords) (a2 : Memref sig .tc .vmem S256x256 .f32) (h2 : a2.IsWhole)
    (a3 : Memref sig .tc .vmem S5000x256 .f32) (h3 : a3.IsWhole) (a4 : Memref sig .tc .vmem S1x256x1 .f32) (h4 : a4.IsWhole)
    (a5 : Memref sig .tc .vmem S1x256x1 .f32) (h5 : a5.IsWhole) (a6 : Memref sig .tc .vmem S1x256x1 .f32) (h6 : a6.IsWhole)
    (hc : cond0_0 i) (x : Vec Ideal S256x256 .f32) (f : Vec Ideal S5000x256 .f32) :
    out0_A_3 c i a2 h2 a3 h3 a4 h4 a5 h5 a6 h6 hc x f = (ceStep x f ceInit).2.1 := by
  unfold out0_A_3
  rw [View.read_writes_eq_canon _ _ _ (cover0_A_3 c i a2 h2 a3 h3 a4 h4 a5 h5 a6 h6 hc x f)]
  unfold kernelRun0_A
  dsimp only
  sl_unfold_words
  rw [View.canon_cons_unit_zero (S := S1x256x1) hz3]
  simp only [View.readCov_unit_zero (S := S1x256x1) _ hz3, View.readAt_eq_ld, h2.read_unread, h3.read_unread, h4.read_unread,
    h5.read_unread, h6.read_unread, View.ld_unit_zero (S := S1x256x1) hz3, View.ld_unit_zero (S := S256x256) hz2,
    View.ld_unit_zero (S := S5000x256) hz2]
  rfl

/-- A later tile (the block is carried): output 4's block after the body is the running sum of logits of the step applied to the
    blocks and the statistics the block held before: its one covering store's payload, whose loads read whole buffers. -/
theorem out_B_4 (c : Dev nD) (i : grid0.Coords) (a2 : Memref sig .tc .vmem S256x256 .f32) (h2 : a2.IsWhole)
    (a3 : Memref sig .tc .vmem S5000x256 .f32) (h3 : a3.IsWhole) (a4 : Memref sig .tc .vmem S1x256x1 .f32) (h4 : a4.IsWhole)
    (a5 : Memref sig .tc .vmem S1x256x1 .f32) (h5 : a5.IsWhole) (a6 : Memref sig .tc .vmem S1x256x1 .f32) (h6 : a6.IsWhole)
    (hc : ¬cond0_0 i) (x : Vec Ideal S256x256 .f32) (f : Vec Ideal S5000x256 .f32) (o2 o3 o4 : Vec Ideal S1x256x1 .f32) :
    out0_B_4 c i a2 h2 a3 h3 a4 h4 a5 h5 a6 h6 hc x f o2 o3 o4 = (ceStep x f (o2, o3, o4)).2.2 := by
  unfold out0_B_4
  rw [View.read_writes_eq_canon _ _ _ (cover0_B_4 c i a2 h2 a3 h3 a4 h4 a5 h5 a6 h6 hc x f o2 o3 o4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x256x1) hz3, View.ld_unit_zero (S := S256x256) hz2, View.ld_unit_zero (S := S5000x256) hz2]
  rfl

/-- A core's first tile (the block is reset): the body stores the initial statistics, reads them back, and leaves
    the running sum of logits of the step applied to the blocks and the initial statistics: the later store covers the reset. -/
theorem out_A_4 (c : Dev nD) (i : grid0.Coords) (a2 : Memref sig .tc .vmem S256x256 .f32) (h2 : a2.IsWhole)
    (a3 : Memref sig .tc .vmem S5000x256 .f32) (h3 : a3.IsWhole) (a4 : Memref sig .tc .vmem S1x256x1 .f32) (h4 : a4.IsWhole)
    (a5 : Memref sig .tc .vmem S1x256x1 .f32) (h5 : a5.IsWhole) (a6 : Memref sig .tc .vmem S1x256x1 .f32) (h6 : a6.IsWhole)
    (hc : cond0_0 i) (x : Vec Ideal S256x256 .f32) (f : Vec Ideal S5000x256 .f32) :
    out0_A_4 c i a2 h2 a3 h3 a4 h4 a5 h5 a6 h6 hc x f = (ceStep x f ceInit).2.2 := by
  unfold out0_A_4
  rw [View.read_writes_eq_canon _ _ _ (cover0_A_4 c i a2 h2 a3 h3 a4 h4 a5 h5 a6 h6 hc x f)]
  unfold kernelRun0_A
  dsimp only
  sl_unfold_words
  rw [View.canon_cons_unit_zero (S := S1x256x1) hz3]
  simp only [View.readCov_unit_zero (S := S1x256x1) _ hz3, View.readAt_eq_ld, h2.read_unread, h3.read_unread, h4.read_unread,
    h5.read_unread, h6.read_unread, View.ld_unit_zero (S := S1x256x1) hz3, View.ld_unit_zero (S := S256x256) hz2,
    View.ld_unit_zero (S := S5000x256) hz2]
  rfl

/-! ## The outputs' blocks after every point: the fold of the step -/

/-- A point that opens a core leaves the step of the initial statistics. -/
theorem outsAt_A (c : Dev nD) (t : Fin cfg0.N) (h0 : t.val % 10 = 0) :
    outsAt0 V c t.val t.isLt = ceStep (iblk0 V c 0 t) (iblk0 V c 1 t) ceInit := by
  rw [outsAt0_A V c t h0,
    out_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
    out_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
    out_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)]

/-- Any other point leaves the step of what the point before left. -/
theorem outsAt_B (c : Dev nD) (t : Fin cfg0.N) (h0 : ¬t.val % 10 = 0) :
    outsAt0 V c t.val t.isLt = ceStep (iblk0 V c 0 t) (iblk0 V c 1 t)
      (outsAt0 V c (t.val - 1) (Nat.lt_of_le_of_lt (Nat.sub_le _ _) t.isLt)) := by
  rw [outsAt0_B V c t h0,
    out_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2.1
      (outsAt0 V c (t.val - 1) (Nat.lt_of_le_of_lt (Nat.sub_le _ _) t.isLt)).2.2,
    out_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2.1
      (outsAt0 V c (t.val - 1) (Nat.lt_of_le_of_lt (Nat.sub_le _ _) t.isLt)).2.2,
    out_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2.1
      (outsAt0 V c (t.val - 1) (Nat.lt_of_le_of_lt (Nat.sub_le _ _) t.isLt)).2.2]

/-- What the outputs' blocks hold after point `n` is the chain of steps over the blocks read so far, restarted at every
    point that opens a core: by induction on the point. -/
theorem outsAt_eq (c : Dev nD) : ∀ (n : ℕ) (h : n < cfg0.N), outsAt0 V c n h = ceChain (xb V c) (fb V c) n
  | 0, h => by
    rw [outsAt_A V c ⟨0, h⟩ rfl, ← xb_eq V c 0 h, ← fb_eq V c 0 h]
    rfl
  | n + 1, h => by
    by_cases h0 : (n + 1) % 10 = 0
    · rw [outsAt_A V c ⟨n + 1, h⟩ h0, ← xb_eq V c (n + 1) h, ← fb_eq V c (n + 1) h]
      show _ = ceStep (xb V c (n + 1)) (fb V c (n + 1)) (if (n + 1) % 10 = 0 then ceInit else ceChain (xb V c) (fb V c) n)
      rw [if_pos h0]
    · rw [outsAt_B V c ⟨n + 1, h⟩ h0, ← xb_eq V c (n + 1) h, ← fb_eq V c (n + 1) h]
      show ceStep (xb V c (n + 1)) (fb V c (n + 1)) (outsAt0 V c n _)
        = ceStep (xb V c (n + 1)) (fb V c (n + 1)) (if (n + 1) % 10 = 0 then ceInit else ceChain (xb V c) (fb V c) n)
      rw [if_neg h0, outsAt_eq c n]

/-! ## The output arrays when the region is left -/

/-- The array a statistic ends as, given its block after every point: entry (q, b, 0) is row b of the block after the
    last point of core q, point 10 q + 9. -/
def statArr (st : ℕ → Stat Ideal) : S2x256x1.Idx → EReal :=
  fun i => st (10 * (i 0).val + 9) (ix3 (0 : Fin 1) (⟨(i 1).val, (i 1).isLt⟩ : Fin 256) (0 : Fin 1))

/-- Read where the block of a flushing point `t` lies: an entry of core t / 10 is the block's entry after point `t`. -/
theorem statArr_at (st : ℕ → Stat Ideal) (t : ℕ) (ht : t % 10 = 9) (i : S2x256x1.Idx) (y : S1x256x1.Idx)
    (h0 : (i 0).val = t / 10) (h1 : (i 1).val = (y 1).val) : statArr st i = st t y := by
  unfold statArr
  have e : 10 * (i 0).val + 9 = t := by omega
  rw [e]
  refine congrArg _ ?_
  funext a
  apply Fin.ext
  match a with
  | ⟨0, _⟩ => show 0 = (y 0).val; have : (y 0).val < 1 := (y 0).isLt; omega
  | ⟨1, _⟩ => exact h1
  | ⟨2, _⟩ => show 0 = (y 2).val; have : (y 2).val < 1 := (y 2).isLt; omega

/-- What a flushing point writes back of output 2 is its block of the array of running maxima: the point is the
    last of its core, and its block index is the core's number. -/
theorem flushed_2 (c : Dev nD) (t : Fin cfg0.N) (hf : (cfg0.win 2).flush t = true) :
    (dat0 V c).flushed 2 t
      = ((cfg0.win 2).blk t).view.read (Elt Ideal) (statArr fun n => (ceChain (xb V c) (fb V c) n).1) := by
  have ht : t.val % 10 = 9 := (flush0_2 t).mp hf
  obtain ⟨-, -, -, -, e2_0, e2_1, e2_2, e3_0, e3_1, e3_2, e4_0, e4_1, e4_2⟩ := idx_facts t
  show (cfg0.win 2).cut (grid0.coords t) ((dat0 V c).after 2 t) = _
  rw [after0_2, outsAt_eq]
  funext y
  show (ceChain (xb V c) (fb V c) t.val).1 ((cfg0.win 2).xinj (grid0.coords t) y)
    = statArr (fun n => (ceChain (xb V c) (fb V c) n).1) (((cfg0.win 2).blk t).view.emb y)
  refine (statArr_at (fun n => (ceChain (xb V c) (fb V c) n).1) t.val ht (((cfg0.win 2).blk t).view.emb y)
    ((cfg0.win 2).xinj (grid0.coords t) y) ?_ ?_).symm
  · show win0_2.index t 0 * 1 + 1 * (y 0).val = t.val / 10
    have : (y 0).val < 1 := (y 0).isLt
    rw [e2_0]; omega
  · show win0_2.index t 1 * 256 + 1 * (y 1).val = (y 1).val
    rw [e2_1]; omega

/-- Every entry of output 2's array lies in the block of its core's last point. -/
theorem cover_2 (i : S2x256x1.Idx) :
    ∃ t : Fin cfg0.N, (cfg0.win 2).flush t = true ∧ i ∈ ((cfg0.win 2).blk t).view.set := by
  have hi0 : (i 0).val < 2 := (i 0).isLt
  have hi1 : (i 1).val < 256 := (i 1).isLt
  have hi2 : (i 2).val < 1 := (i 2).isLt
  have hN : 10 * (i 0).val + 9 < cfg0.N := by rw [N0]; omega
  refine ⟨⟨10 * (i 0).val + 9, hN⟩, (flush0_2 _).mpr (by show (10 * (i 0).val + 9) % 10 = 9; omega), ?_⟩
  obtain ⟨-, -, -, -, e2_0, e2_1, e2_2, e3_0, e3_1, e3_2, e4_0, e4_1, e4_2⟩ := idx_facts ⟨10 * (i 0).val + 9, hN⟩
  have ediv : (10 * (i 0).val + 9) / 10 = (i 0).val := by omega
  show i ∈ ((View.whole main_v3_0).slice (win0_2.rect ⟨10 * (i 0).val + 9, hN⟩)).set
  rw [View.set_slice_whole, Rect.mem_set_unit]
  intro a
  match a with
  | ⟨0, _⟩ =>
    show win0_2.index ⟨10 * (i 0).val + 9, hN⟩ 0 * 1 ≤ (i 0).val ∧ (i 0).val < win0_2.index ⟨10 * (i 0).val + 9, hN⟩ 0 * 1 + 1
    rw [e2_0]; show (10 * (i 0).val + 9) / 10 * 1 ≤ (i 0).val ∧ (i 0).val < (10 * (i 0).val + 9) / 10 * 1 + 1
    rw [ediv]; omega
  | ⟨1, _⟩ =>
    show win0_2.index ⟨10 * (i 0).val + 9, hN⟩ 1 * 256 ≤ (i 1).val ∧ (i 1).val < win0_2.index ⟨10 * (i 0).val + 9, hN⟩ 1 * 256 + 256
    rw [e2_1]; omega
  | ⟨2, _⟩ =>
    show win0_2.index ⟨10 * (i 0).val + 9, hN⟩ 2 * 1 ≤ (i 2).val ∧ (i 2).val < win0_2.index ⟨10 * (i 0).val + 9, hN⟩ 2 * 1 + 1
    rw [e2_2]; omega

/-- So output 2's array ends as the array of running maxima after each core's last point. -/
theorem final_2 (c : Dev nD) :
    ((dat0 V c).arrAt 2 cfg0.N : S2x256x1.Idx → EReal) = statArr fun n => (ceChain (xb V c) (fb V c) n).1 :=
  (dat0 V c).arrAt_eq_of_cover 2 (statArr fun n => (ceChain (xb V c) (fb V c) n).1) (flushed_2 V c) cover_2

/-- What a flushing point writes back of output 3 is its block of the array of running sums of exponentials: the point is the
    last of its core, and its block index is the core's number. -/
theorem flushed_3 (c : Dev nD) (t : Fin cfg0.N) (hf : (cfg0.win 3).flush t = true) :
    (dat0 V c).flushed 3 t
      = ((cfg0.win 3).blk t).view.read (Elt Ideal) (statArr fun n => (ceChain (xb V c) (fb V c) n).2.1) := by
  have ht : t.val % 10 = 9 := (flush0_3 t).mp hf
  obtain ⟨-, -, -, -, e2_0, e2_1, e2_2, e3_0, e3_1, e3_2, e4_0, e4_1, e4_2⟩ := idx_facts t
  show (cfg0.win 3).cut (grid0.coords t) ((dat0 V c).after 3 t) = _
  rw [after0_3, outsAt_eq]
  funext y
  show (ceChain (xb V c) (fb V c) t.val).2.1 ((cfg0.win 3).xinj (grid0.coords t) y)
    = statArr (fun n => (ceChain (xb V c) (fb V c) n).2.1) (((cfg0.win 3).blk t).view.emb y)
  refine (statArr_at (fun n => (ceChain (xb V c) (fb V c) n).2.1) t.val ht (((cfg0.win 3).blk t).view.emb y)
    ((cfg0.win 3).xinj (grid0.coords t) y) ?_ ?_).symm
  · show win0_3.index t 0 * 1 + 1 * (y 0).val = t.val / 10
    have : (y 0).val < 1 := (y 0).isLt
    rw [e3_0]; omega
  · show win0_3.index t 1 * 256 + 1 * (y 1).val = (y 1).val
    rw [e3_1]; omega

/-- Every entry of output 3's array lies in the block of its core's last point. -/
theorem cover_3 (i : S2x256x1.Idx) :
    ∃ t : Fin cfg0.N, (cfg0.win 3).flush t = true ∧ i ∈ ((cfg0.win 3).blk t).view.set := by
  have hi0 : (i 0).val < 2 := (i 0).isLt
  have hi1 : (i 1).val < 256 := (i 1).isLt
  have hi2 : (i 2).val < 1 := (i 2).isLt
  have hN : 10 * (i 0).val + 9 < cfg0.N := by rw [N0]; omega
  refine ⟨⟨10 * (i 0).val + 9, hN⟩, (flush0_3 _).mpr (by show (10 * (i 0).val + 9) % 10 = 9; omega), ?_⟩
  obtain ⟨-, -, -, -, e2_0, e2_1, e2_2, e3_0, e3_1, e3_2, e4_0, e4_1, e4_2⟩ := idx_facts ⟨10 * (i 0).val + 9, hN⟩
  have ediv : (10 * (i 0).val + 9) / 10 = (i 0).val := by omega
  show i ∈ ((View.whole main_v3_1).slice (win0_3.rect ⟨10 * (i 0).val + 9, hN⟩)).set
  rw [View.set_slice_whole, Rect.mem_set_unit]
  intro a
  match a with
  | ⟨0, _⟩ =>
    show win0_3.index ⟨10 * (i 0).val + 9, hN⟩ 0 * 1 ≤ (i 0).val ∧ (i 0).val < win0_3.index ⟨10 * (i 0).val + 9, hN⟩ 0 * 1 + 1
    rw [e3_0]; show (10 * (i 0).val + 9) / 10 * 1 ≤ (i 0).val ∧ (i 0).val < (10 * (i 0).val + 9) / 10 * 1 + 1
    rw [ediv]; omega
  | ⟨1, _⟩ =>
    show win0_3.index ⟨10 * (i 0).val + 9, hN⟩ 1 * 256 ≤ (i 1).val ∧ (i 1).val < win0_3.index ⟨10 * (i 0).val + 9, hN⟩ 1 * 256 + 256
    rw [e3_1]; omega
  | ⟨2, _⟩ =>
    show win0_3.index ⟨10 * (i 0).val + 9, hN⟩ 2 * 1 ≤ (i 2).val ∧ (i 2).val < win0_3.index ⟨10 * (i 0).val + 9, hN⟩ 2 * 1 + 1
    rw [e3_2]; omega

/-- So output 3's array ends as the array of running sums of exponentials after each core's last point. -/
theorem final_3 (c : Dev nD) :
    ((dat0 V c).arrAt 3 cfg0.N : S2x256x1.Idx → EReal) = statArr fun n => (ceChain (xb V c) (fb V c) n).2.1 :=
  (dat0 V c).arrAt_eq_of_cover 3 (statArr fun n => (ceChain (xb V c) (fb V c) n).2.1) (flushed_3 V c) cover_3

/-- What a flushing point writes back of output 4 is its block of the array of running sums of logits: the point is the
    last of its core, and its block index is the core's number. -/
theorem flushed_4 (c : Dev nD) (t : Fin cfg0.N) (hf : (cfg0.win 4).flush t = true) :
    (dat0 V c).flushed 4 t
      = ((cfg0.win 4).blk t).view.read (Elt Ideal) (statArr fun n => (ceChain (xb V c) (fb V c) n).2.2) := by
  have ht : t.val % 10 = 9 := (flush0_4 t).mp hf
  obtain ⟨-, -, -, -, e2_0, e2_1, e2_2, e3_0, e3_1, e3_2, e4_0, e4_1, e4_2⟩ := idx_facts t
  show (cfg0.win 4).cut (grid0.coords t) ((dat0 V c).after 4 t) = _
  rw [after0_4, outsAt_eq]
  funext y
  show (ceChain (xb V c) (fb V c) t.val).2.2 ((cfg0.win 4).xinj (grid0.coords t) y)
    = statArr (fun n => (ceChain (xb V c) (fb V c) n).2.2) (((cfg0.win 4).blk t).view.emb y)
  refine (statArr_at (fun n => (ceChain (xb V c) (fb V c) n).2.2) t.val ht (((cfg0.win 4).blk t).view.emb y)
    ((cfg0.win 4).xinj (grid0.coords t) y) ?_ ?_).symm
  · show win0_4.index t 0 * 1 + 1 * (y 0).val = t.val / 10
    have : (y 0).val < 1 := (y 0).isLt
    rw [e4_0]; omega
  · show win0_4.index t 1 * 256 + 1 * (y 1).val = (y 1).val
    rw [e4_1]; omega

/-- Every entry of output 4's array lies in the block of its core's last point. -/
theorem cover_4 (i : S2x256x1.Idx) :
    ∃ t : Fin cfg0.N, (cfg0.win 4).flush t = true ∧ i ∈ ((cfg0.win 4).blk t).view.set := by
  have hi0 : (i 0).val < 2 := (i 0).isLt
  have hi1 : (i 1).val < 256 := (i 1).isLt
  have hi2 : (i 2).val < 1 := (i 2).isLt
  have hN : 10 * (i 0).val + 9 < cfg0.N := by rw [N0]; omega
  refine ⟨⟨10 * (i 0).val + 9, hN⟩, (flush0_4 _).mpr (by show (10 * (i 0).val + 9) % 10 = 9; omega), ?_⟩
  obtain ⟨-, -, -, -, e2_0, e2_1, e2_2, e3_0, e3_1, e3_2, e4_0, e4_1, e4_2⟩ := idx_facts ⟨10 * (i 0).val + 9, hN⟩
  have ediv : (10 * (i 0).val + 9) / 10 = (i 0).val := by omega
  show i ∈ ((View.whole main_v3_2).slice (win0_4.rect ⟨10 * (i 0).val + 9, hN⟩)).set
  rw [View.set_slice_whole, Rect.mem_set_unit]
  intro a
  match a with
  | ⟨0, _⟩ =>
    show win0_4.index ⟨10 * (i 0).val + 9, hN⟩ 0 * 1 ≤ (i 0).val ∧ (i 0).val < win0_4.index ⟨10 * (i 0).val + 9, hN⟩ 0 * 1 + 1
    rw [e4_0]; show (10 * (i 0).val + 9) / 10 * 1 ≤ (i 0).val ∧ (i 0).val < (10 * (i 0).val + 9) / 10 * 1 + 1
    rw [ediv]; omega
  | ⟨1, _⟩ =>
    show win0_4.index ⟨10 * (i 0).val + 9, hN⟩ 1 * 256 ≤ (i 1).val ∧ (i 1).val < win0_4.index ⟨10 * (i 0).val + 9, hN⟩ 1 * 256 + 256
    rw [e4_1]; omega
  | ⟨2, _⟩ =>
    show win0_4.index ⟨10 * (i 0).val + 9, hN⟩ 2 * 1 ≤ (i 2).val ∧ (i 2).val < win0_4.index ⟨10 * (i 0).val + 9, hN⟩ 2 * 1 + 1
    rw [e4_2]; omega

/-- So output 4's array ends as the array of running sums of logits after each core's last point. -/
theorem final_4 (c : Dev nD) :
    ((dat0 V c).arrAt 4 cfg0.N : S2x256x1.Idx → EReal) = statArr fun n => (ceChain (xb V c) (fb V c) n).2.2 :=
  (dat0 V c).arrAt_eq_of_cover 4 (statArr fun n => (ceChain (xb V c) (fb V c) n).2.2) (flushed_4 V c) cover_4

/-- When the region is left, entry (q, b, 0) of each output array is the chain's statistic after the last tile of core `q`. -/
theorem final (c : Dev nD) (q : Fin 2) (b : Fin 256) :
    ((dat0 V c).arrAt 2 cfg0.N : S2x256x1.Idx → EReal) (ix3 q b 0) = (ceChain (xb V c) (fb V c) (10 * q.val + 9)).1 (ix3 0 b 0)
    ∧ ((dat0 V c).arrAt 3 cfg0.N : S2x256x1.Idx → EReal) (ix3 q b 0) = (ceChain (xb V c) (fb V c) (10 * q.val + 9)).2.1 (ix3 0 b 0)
    ∧ ((dat0 V c).arrAt 4 cfg0.N : S2x256x1.Idx → EReal) (ix3 q b 0) = (ceChain (xb V c) (fb V c) (10 * q.val + 9)).2.2 (ix3 0 b 0) := by
  rw [final_2 V c, final_3 V c, final_4 V c]
  exact ⟨rfl, rfl, rfl⟩

end Cert.KernelIdeal.R0

end
-- ==== Proof.R1Struct.lean ====
/-
  Region 1 (the row-maximum kernel) read off its frame: what the three output arrays hold when the region is left.
-/
import proofs.«411386_j43001212567993_2_alg».proof.Proof.Gen.KernelIdeal.Frame
import proofs.«411386_j43001212567993_2_alg».proof.Proof.Steps
import proofs.«411386_j43001212567993_2_alg».proof.Proof.Spec
import Idealize.ShloMosaic.Lib.Pipeline.Value
import Idealize.ShloMosaic.Lib.ValueIdx

set_option maxRecDepth 16384

noncomputable section

namespace Cert.KernelIdeal.R1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Steps

variable (V : (c : Dev nD) → (b : Ref sig .tc) → Buf (Elt Ideal) ((c : Thread nD τ).loc b))

theorem N1 : cfg1.N = 20 := N_1

/-- The blocks point `n` reads: all of `x`, 5000 bank rows, all targets, the 5000 labels of those bank rows. -/
def xb (c : Dev nD) (n : ℕ) : Vec Ideal S256x256 .f32 :=
  if h : n < cfg1.N then iblk1 V c 0 ⟨n, h⟩ else iblk1 V c 0 ⟨0, by rw [N1]; decide⟩
def fb (c : Dev nD) (n : ℕ) : Vec Ideal S5000x256 .f32 :=
  if h : n < cfg1.N then iblk1 V c 1 ⟨n, h⟩ else iblk1 V c 1 ⟨0, by rw [N1]; decide⟩
def tg (c : Dev nD) (n : ℕ) : Vec Ideal S256x1 .i32 :=
  if h : n < cfg1.N then iblk1 V c 2 ⟨n, h⟩ else iblk1 V c 2 ⟨0, by rw [N1]; decide⟩
def lb (c : Dev nD) (n : ℕ) : Vec Ideal S5000x1 .i32 :=
  if h : n < cfg1.N then iblk1 V c 3 ⟨n, h⟩ else iblk1 V c 3 ⟨0, by rw [N1]; decide⟩

/-! ## Where a point's blocks sit in the arrays -/

/-- The input windows' block indices, decided once over the twenty points: `x` and the targets never move,
    the bank rows and their labels are at tile `t`. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The output windows' block indices: the ten points of a core share block `t / 10`. -/
theorem idx_facts_out : ∀ t : Fin cfg1.N,
    win1_4.index t (0 : Fin 3) = t.val / 10 ∧ win1_4.index t (1 : Fin 3) = 0 ∧ win1_4.index t (2 : Fin 3) = 0
    ∧ win1_5.index t (0 : Fin 3) = t.val / 10 ∧ win1_5.index t (1 : Fin 3) = 0 ∧ win1_5.index t (2 : Fin 3) = 0
    ∧ win1_6.index t (0 : Fin 3) = t.val / 10 ∧ win1_6.index t (1 : Fin 3) = 0 ∧ win1_6.index t (2 : Fin 3) = 0 :=
  (by decide +kernel : ∀ t : Fin grid1.N, _)

/-- A block's entry is the array's entry at block index × block size + the coordinate inside the block, axis by axis. -/
theorem iblk_x (c : Dev nD) (t : Fin cfg1.N) (b k : Fin 256) :
    (iblk1 V c 0 t : Vec Ideal S256x256 .f32) (ix2 b k)
      = (V c (Pipeline.arrRef spec1 0) : S256x256.Idx → EReal) (ix2 b k) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 256 + 1 * b.val = b.val; rw [e0]; omega
  | ⟨1, _⟩ => show win1_0.index t (1 : Fin 2) * 256 + 1 * k.val = k.val; rw [e1]; omega

theorem iblk_f (c : Dev nD) (t : Fin cfg1.N) (ht : t.val < 20) (r : Fin 5000) (k : Fin 256) :
    (iblk1 V c 1 t : Vec Ideal S5000x256 .f32) (ix2 r k)
      = (V c (Pipeline.arrRef spec1 1) : S100000x256.Idx → EReal) (ix2 (Cert.Spec.tcol t.val ht r) k) := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * r.val = 5000 * t.val + r.val; rw [e0]; omega
  | ⟨1, _⟩ => show win1_1.index t (1 : Fin 2) * 256 + 1 * k.val = k.val; rw [e1]; omega

theorem iblk_t (c : Dev nD) (t : Fin cfg1.N) (b : Fin 256) :
    (iblk1 V c 2 t : Vec Ideal S256x1 .i32) (ix2 b 0)
      = (V c (Pipeline.arrRef spec1 2) : S256x1.Idx → BitVec 32) (ix2 b 0) := by
  obtain ⟨-, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 256 + 1 * b.val = b.val; rw [e0]; omega
  | ⟨1, _⟩ => show win1_2.index t (1 : Fin 2) * 1 + 1 * 0 = 0; rw [e1]

theorem iblk_l (c : Dev nD) (t : Fin cfg1.N) (ht : t.val < 20) (r : Fin 5000) :
    (iblk1 V c 3 t : Vec Ideal S5000x1 .i32) (ix2 r 0)
      = (V c (Pipeline.arrRef spec1 3) : S100000x1.Idx → BitVec 32) (ix2 (Cert.Spec.tcol t.val ht r) 0) := by
  obtain ⟨-, -, -, -, -, -, e0, e1⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 5000 + 1 * r.val = 5000 * t.val + r.val; rw [e0]; omega
  | ⟨1, _⟩ => show win1_3.index t (1 : Fin 2) * 1 + 1 * 0 = 0; rw [e1]

theorem xb_at (c : Dev nD) (n : ℕ) (h : n < cfg1.N) : xb V c n = iblk1 V c 0 ⟨n, h⟩ := dif_pos h
theorem fb_at (c : Dev nD) (n : ℕ) (h : n < cfg1.N) : fb V c n = iblk1 V c 1 ⟨n, h⟩ := dif_pos h
theorem tg_at (c : Dev nD) (n : ℕ) (h : n < cfg1.N) : tg V c n = iblk1 V c 2 ⟨n, h⟩ := dif_pos h
theorem lb_at (c : Dev nD) (n : ℕ) (h : n < cfg1.N) : lb V c n = iblk1 V c 3 ⟨n, h⟩ := dif_pos h

theorem xb_apply (c : Dev nD) (n : ℕ) (b k : Fin 256) :
    xb V c n (ix2 b k) = (V c (Pipeline.arrRef spec1 0) : S256x256.Idx → EReal) (ix2 b k) := by
  unfold xb
  split
  · exact iblk_x V c _ b k
  · exact iblk_x V c _ b k

theorem fb_apply (c : Dev nD) (n : ℕ) (hn : n < 20) (r : Fin 5000) (k : Fin 256) :
    fb V c n (ix2 r k) = (V c (Pipeline.arrRef spec1 1) : S100000x256.Idx → EReal) (ix2 (Cert.Spec.tcol n hn r) k) := by
  have h : n < cfg1.N := by rw [N1]; exact hn
  rw [fb_at V c n h]
  exact iblk_f V c ⟨n, h⟩ hn r k

theorem tg_apply (c : Dev nD) (n : ℕ) (b : Fin 256) :
    tg V c n (ix2 b 0) = (V c (Pipeline.arrRef spec1 2) : S256x1.Idx → BitVec 32) (ix2 b 0) := by
  unfold tg
  split
  · exact iblk_t V c _ b
  · exact iblk_t V c _ b

theorem lb_apply (c : Dev nD) (n : ℕ) (hn : n < 20) (r : Fin 5000) :
    lb V c n (ix2 r 0) = (V c (Pipeline.arrRef spec1 3) : S100000x1.Idx → BitVec 32) (ix2 (Cert.Spec.tcol n hn r) 0) := by
  have h : n < cfg1.N := by rw [N1]; exact hn
  rw [lb_at V c n h]
  exact iblk_l V c ⟨n, h⟩ hn r

/-! ## One grid point: what the body leaves in each output block -/

section Pieces
variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile of a core: output block 4 is the step's component over the statistics carried so far. -/
theorem out_B_4 (c : Dev nD) (i : grid1.Coords) (a2 : Memref sig .tc .vmem S256x256 .f32) (h2 : a2.IsWhole) (a3 : Memref sig .tc .vmem S5000x256 .f32) (h3 : a3.IsWhole) (a4 : Memref sig .tc .vmem S256x1 .i32) (h4 : a4.IsWhole) (a5 : Memref sig .tc .vmem S5000x1 .i32) (h5 : a5.IsWhole) (a6 : Memref sig .tc .vmem S1x256x1 .f32) (h6 : a6.IsWhole) (a7 : Memref sig .tc .vmem S1x256x1 .f32) (h7 : a7.IsWhole) (a8 : Memref sig .tc .vmem S1x256x1 .f32) (h8 : a8.IsWhole) (hc : ¬cond1_0 i)
    (x0 : Vec F S256x256 .f32) (x1 : Vec F S5000x256 .f32) (x2 : Vec F S256x1 .i32) (x3 : Vec F S5000x1 .i32)
    (xo4 xo5 xo6 : Vec F S1x256x1 .f32) :
    out1_B_4 c i a2 h2 a3 h3 a4 h4 a5 h5 a6 h6 a7 h7 a8 h8 hc x0 x1 x2 x3 xo4 xo5 xo6 = (tmStep x0 x1 x2 x3 (xo4, xo5, xo6)).1 := by
  unfold out1_B_4
  rw [View.read_writes_eq_canon _ _ _ (cover1_B_4 c i a2 h2 a3 h3 a4 h4 a5 h5 a6 h6 a7 h7 a8 h8 hc x0 x1 x2 x3 xo4 xo5 xo6)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, View.ld_unit_zero (S := S256x256) hz2, View.ld_unit_zero (S := S5000x256) hz2, View.ld_unit_zero (S := S256x1) hz2, View.ld_unit_zero (S := S5000x1) hz2, View.ld_unit_zero (S := S1x256x1) hz3]
  rfl

/-- The first tile of a core: the block is reset to the initial statistic, read back, and joined with the tile's. -/
theorem out_A_4 (c : Dev nD) (i : grid1.Coords) (a2 : Memref sig .tc .vmem S256x256 .f32) (h2 : a2.IsWhole) (a3 : Memref sig .tc .vmem S5000x256 .f32) (h3 : a3.IsWhole) (a4 : Memref sig .tc .vmem S256x1 .i32) (h4 : a4.IsWhole) (a5 : Memref sig .tc .vmem S5000x1 .i32) (h5 : a5.IsWhole) (a6 : Memref sig .tc .vmem S1x256x1 .f32) (h6 : a6.IsWhole) (a7 : Memref sig .tc .vmem S1x256x1 .f32) (h7 : a7.IsWhole) (a8 : Memref sig .tc .vmem S1x256x1 .f32) (h8 : a8.IsWhole) (hc : cond1_0 i)
    (x0 : Vec F S256x256 .f32) (x1 : Vec F S5000x256 .f32) (x2 : Vec F S256x1 .i32) (x3 : Vec F S5000x1 .i32) :
    out1_A_4 c i a2 h2 a3 h3 a4 h4 a5 h5 a6 h6 a7 h7 a8 h8 hc x0 x1 x2 x3 = (tmStep x0 x1 x2 x3 tmInit).1 := by
  unfold out1_A_4
  rw [View.read_writes_eq_canon _ _ _ (cover1_A_4 c i a2 h2 a3 h3 a4 h4 a5 h5 a6 h6 a7 h7 a8 h8 hc x0 x1 x2 x3)]
  unfold kernelRun1_A
  dsimp only
  sl_unfold_words
  rw [View.canon_cons_unit_zero (S := S1x256x1) hz3]
  simp only [View.readAt_eq_ld, h2.read_unread, h3.read_unread, h4.read_unread, h5.read_unread, h6.read_unread, h7.read_unread, h8.read_unread, View.ld_unit_zero (S := S256x256) hz2, View.ld_unit_zero (S := S5000x256) hz2, View.ld_unit_zero (S := S256x1) hz2, View.ld_unit_zero (S := S5000x1) hz2, View.ld_unit_zero (S := S1x256x1) hz3, View.readCov_unit_zero (S := S1x256x1) _ hz3]
  rfl

/-- A later tile of a core: output block 5 is the step's component over the statistics carried so far. -/
theorem out_B_5 (c : Dev nD) (i : grid1.Coords) (a2 : Memref sig .tc .vmem S256x256 .f32) (h2 : a2.IsWhole) (a3 : Memref sig .tc .vmem S5000x256 .f32) (h3 : a3.IsWhole) (a4 : Memref sig .tc .vmem S256x1 .i32) (h4 : a4.IsWhole) (a5 : Memref sig .tc .vmem S5000x1 .i32) (h5 : a5.IsWhole) (a6 : Memref sig .tc .vmem S1x256x1 .f32) (h6 : a6.IsWhole) (a7 : Memref sig .tc .vmem S1x256x1 .f32) (h7 : a7.IsWhole) (a8 : Memref sig .tc .vmem S1x256x1 .f32) (h8 : a8.IsWhole) (hc : ¬cond1_0 i)
    (x0 : Vec F S256x256 .f32) (x1 : Vec F S5000x256 .f32) (x2 : Vec F S256x1 .i32) (x3 : Vec F S5000x1 .i32)
    (xo4 xo5 xo6 : Vec F S1x256x1 .f32) :
    out1_B_5 c i a2 h2 a3 h3 a4 h4 a5 h5 a6 h6 a7 h7 a8 h8 hc x0 x1 x2 x3 xo4 xo5 xo6 = (tmStep x0 x1 x2 x3 (xo4, xo5, xo6)).2.1 := by
  unfold out1_B_5
  rw [View.read_writes_eq_canon _ _ _ (cover1_B_5 c i a2 h2 a3 h3 a4 h4 a5 h5 a6 h6 a7 h7 a8 h8 hc x0 x1 x2 x3 xo4 xo5 xo6)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, View.ld_unit_zero (S := S256x256) hz2, View.ld_unit_zero (S := S5000x256) hz2, View.ld_unit_zero (S := S256x1) hz2, View.ld_unit_zero (S := S5000x1) hz2, View.ld_unit_zero (S := S1x256x1) hz3]
  rfl

/-- The first tile of a core: the block is reset to the initial statistic, read back, and joined with the tile's. -/
theorem out_A_5 (c : Dev nD) (i : grid1.Coords) (a2 : Memref sig .tc .vmem S256x256 .f32) (h2 : a2.IsWhole) (a3 : Memref sig .tc .vmem S5000x256 .f32) (h3 : a3.IsWhole) (a4 : Memref sig .tc .vmem S256x1 .i32) (h4 : a4.IsWhole) (a5 : Memref sig .tc .vmem S5000x1 .i32) (h5 : a5.IsWhole) (a6 : Memref sig .tc .vmem S1x256x1 .f32) (h6 : a6.IsWhole) (a7 : Memref sig .tc .vmem S1x256x1 .f32) (h7 : a7.IsWhole) (a8 : Memref sig .tc .vmem S1x256x1 .f32) (h8 : a8.IsWhole) (hc : cond1_0 i)
    (x0 : Vec F S256x256 .f32) (x1 : Vec F S5000x256 .f32) (x2 : Vec F S256x1 .i32) (x3 : Vec F S5000x1 .i32) :
    out1_A_5 c i a2 h2 a3 h3 a4 h4 a5 h5 a6 h6 a7 h7 a8 h8 hc x0 x1 x2 x3 = (tmStep x0 x1 x2 x3 tmInit).2.1 := by
  unfold out1_A_5
  rw [View.read_writes_eq_canon _ _ _ (cover1_A_5 c i a2 h2 a3 h3 a4 h4 a5 h5 a6 h6 a7 h7 a8 h8 hc x0 x1 x2 x3)]
  unfold kernelRun1_A
  dsimp only
  sl_unfold_words
  rw [View.canon_cons_unit_zero (S := S1x256x1) hz3]
  simp only [View.readAt_eq_ld, h2.read_unread, h3.read_unread, h4.read_unread, h5.read_unread, h6.read_unread, h7.read_unread, h8.read_unread, View.ld_unit_zero (S := S256x256) hz2, View.ld_unit_zero (S := S5000x256) hz2, View.ld_unit_zero (S := S256x1) hz2, View.ld_unit_zero (S := S5000x1) hz2, View.ld_unit_zero (S := S1x256x1) hz3, View.readCov_unit_zero (S := S1x256x1) _ hz3]
  rfl

/-- A later tile of a core: output block 6 is the step's component over the statistics carried so far. -/
theorem out_B_6 (c : Dev nD) (i : grid1.Coords) (a2 : Memref sig .tc .vmem S256x256 .f32) (h2 : a2.IsWhole) (a3 : Memref sig .tc .vmem S5000x256 .f32) (h3 : a3.IsWhole) (a4 : Memref sig .tc .vmem S256x1 .i32) (h4 : a4.IsWhole) (a5 : Memref sig .tc .vmem S5000x1 .i32) (h5 : a5.IsWhole) (a6 : Memref sig .tc .vmem S1x256x1 .f32) (h6 : a6.IsWhole) (a7 : Memref sig .tc .vmem S1x256x1 .f32) (h7 : a7.IsWhole) (a8 : Memref sig .tc .vmem S1x256x1 .f32) (h8 : a8.IsWhole) (hc : ¬cond1_0 i)
    (x0 : Vec F S256x256 .f32) (x1 : Vec F S5000x256 .f32) (x2 : Vec F S256x1 .i32) (x3 : Vec F S5000x1 .i32)
    (xo4 xo5 xo6 : Vec F S1x256x1 .f32) :
    out1_B_6 c i a2 h2 a3 h3 a4 h4 a5 h5 a6 h6 a7 h7 a8 h8 hc x0 x1 x2 x3 xo4 xo5 xo6 = (tmStep x0 x1 x2 x3 (xo4, xo5, xo6)).2.2 := by
  unfold out1_B_6
  rw [View.read_writes_eq_canon _ _ _ (cover1_B_6 c i a2 h2 a3 h3 a4 h4 a5 h5 a6 h6 a7 h7 a8 h8 hc x0 x1 x2 x3 xo4 xo5 xo6)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, View.ld_unit_zero (S := S256x256) hz2, View.ld_unit_zero (S := S5000x256) hz2, View.ld_unit_zero (S := S256x1) hz2, View.ld_unit_zero (S := S5000x1) hz2, View.ld_unit_zero (S := S1x256x1) hz3]
  rfl

/-- The first tile of a core: the block is reset to the initial statistic, read back, and joined with the tile's. -/
theorem out_A_6 (c : Dev nD) (i : grid1.Coords) (a2 : Memref sig .tc .vmem S256x256 .f32) (h2 : a2.IsWhole) (a3 : Memref sig .tc .vmem S5000x256 .f32) (h3 : a3.IsWhole) (a4 : Memref sig .tc .vmem S256x1 .i32) (h4 : a4.IsWhole) (a5 : Memref sig .tc .vmem S5000x1 .i32) (h5 : a5.IsWhole) (a6 : Memref sig .tc .vmem S1x256x1 .f32) (h6 : a6.IsWhole) (a7 : Memref sig .tc .vmem S1x256x1 .f32) (h7 : a7.IsWhole) (a8 : Memref sig .tc .vmem S1x256x1 .f32) (h8 : a8.IsWhole) (hc : cond1_0 i)
    (x0 : Vec F S256x256 .f32) (x1 : Vec F S5000x256 .f32) (x2 : Vec F S256x1 .i32) (x3 : Vec F S5000x1 .i32) :
    out1_A_6 c i a2 h2 a3 h3 a4 h4 a5 h5 a6 h6 a7 h7 a8 h8 hc x0 x1 x2 x3 = (tmStep x0 x1 x2 x3 tmInit).2.2 := by
  unfold out1_A_6
  rw [View.read_writes_eq_canon _ _ _ (cover1_A_6 c i a2 h2 a3 h3 a4 h4 a5 h5 a6 h6 a7 h7 a8 h8 hc x0 x1 x2 x3)]
  unfold kernelRun1_A
  dsimp only
  sl_unfold_words
  rw [View.canon_cons_unit_zero (S := S1x256x1) hz3]
  simp only [View.readAt_eq_ld, h2.read_unread, h3.read_unread, h4.read_unread, h5.read_unread, h6.read_unread, h7.read_unread, h8.read_unread, View.ld_unit_zero (S := S256x256) hz2, View.ld_unit_zero (S := S5000x256) hz2, View.ld_unit_zero (S := S256x1) hz2, View.ld_unit_zero (S := S5000x1) hz2, View.ld_unit_zero (S := S1x256x1) hz3, View.readCov_unit_zero (S := S1x256x1) _ hz3]
  rfl

/-- The three blocks after a first tile are the step from the initial statistics. -/
theorem step_A (c : Dev nD) (i : grid1.Coords) (a2 : Memref sig .tc .vmem S256x256 .f32) (h2 : a2.IsWhole) (a3 : Memref sig .tc .vmem S5000x256 .f32) (h3 : a3.IsWhole) (a4 : Memref sig .tc .vmem S256x1 .i32) (h4 : a4.IsWhole) (a5 : Memref sig .tc .vmem S5000x1 .i32) (h5 : a5.IsWhole) (a6 : Memref sig .tc .vmem S1x256x1 .f32) (h6 : a6.IsWhole) (a7 : Memref sig .tc .vmem S1x256x1 .f32) (h7 : a7.IsWhole) (a8 : Memref sig .tc .vmem S1x256x1 .f32) (h8 : a8.IsWhole) (hc : cond1_0 i)
    (x0 : Vec F S256x256 .f32) (x1 : Vec F S5000x256 .f32) (x2 : Vec F S256x1 .i32) (x3 : Vec F S5000x1 .i32) :
    (out1_A_4 c i a2 h2 a3 h3 a4 h4 a5 h5 a6 h6 a7 h7 a8 h8 hc x0 x1 x2 x3, out1_A_5 c i a2 h2 a3 h3 a4 h4 a5 h5 a6 h6 a7 h7 a8 h8 hc x0 x1 x2 x3, out1_A_6 c i a2 h2 a3 h3 a4 h4 a5 h5 a6 h6 a7 h7 a8 h8 hc x0 x1 x2 x3)
      = tmStep x0 x1 x2 x3 tmInit := by
  rw [out_A_4, out_A_5, out_A_6]

/-- The three blocks after a later tile are the step from the statistics the tile before left. -/
theorem step_B (c : Dev nD) (i : grid1.Coords) (a2 : Memref sig .tc .vmem S256x256 .f32) (h2 : a2.IsWhole) (a3 : Memref sig .tc .vmem S5000x256 .f32) (h3 : a3.IsWhole) (a4 : Memref sig .tc .vmem S256x1 .i32) (h4 : a4.IsWhole) (a5 : Memref sig .tc .vmem S5000x1 .i32) (h5 : a5.IsWhole) (a6 : Memref sig .tc .vmem S1x256x1 .f32) (h6 : a6.IsWhole) (a7 : Memref sig .tc .vmem S1x256x1 .f32) (h7 : a7.IsWhole) (a8 : Memref sig .tc .vmem S1x256x1 .f32) (h8 : a8.IsWhole) (hc : ¬cond1_0 i)
    (x0 : Vec F S256x256 .f32) (x1 : Vec F S5000x256 .f32) (x2 : Vec F S256x1 .i32) (x3 : Vec F S5000x1 .i32)
    (st : Stat F × Stat F × Stat F) :
    (out1_B_4 c i a2 h2 a3 h3 a4 h4 a5 h5 a6 h6 a7 h7 a8 h8 hc x0 x1 x2 x3 st.1 st.2.1 st.2.2, out1_B_5 c i a2 h2 a3 h3 a4 h4 a5 h5 a6 h6 a7 h7 a8 h8 hc x0 x1 x2 x3 st.1 st.2.1 st.2.2,
        out1_B_6 c i a2 h2 a3 h3 a4 h4 a5 h5 a6 h6 a7 h7 a8 h8 hc x0 x1 x2 x3 st.1 st.2.1 st.2.2)
      = tmStep x0 x1 x2 x3 st := by
  rw [out_B_4, out_B_5, out_B_6]

end Pieces

/-! ## All the points: the output blocks follow the chain -/

/-- What the three output blocks hold after point `n` is the chain's statistics after point `n`: by induction on the
    point, a first tile of a core restarting from the initial statistics and any other tile stepping from the one before. -/
theorem outsAt_eq (c : Dev nD) : ∀ (n : ℕ) (h : n < cfg1.N),
    outsAt1 V c n h = tmChain (xb V c) (fb V c) (tg V c) (lb V c) n
  | 0, h => by
    rw [outsAt1_A V c ⟨0, h⟩ rfl]
    refine (step_A (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩)
      ((hcond1_0 ⟨0, h⟩).mpr rfl) (iblk1 V c 0 ⟨0, h⟩) (iblk1 V c 1 ⟨0, h⟩) (iblk1 V c 2 ⟨0, h⟩) (iblk1 V c 3 ⟨0, h⟩)).trans ?_
    show _ = tmStep (xb V c 0) (fb V c 0) (tg V c 0) (lb V c 0) tmInit
    rw [xb_at V c 0 h, fb_at V c 0 h, tg_at V c 0 h, lb_at V c 0 h]
  | n + 1, h => by
    by_cases h0 : (n + 1) % 10 = 0
    · rw [outsAt1_A V c ⟨n + 1, h⟩ h0]
      refine (step_A (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩)
        ((hcond1_0 ⟨n + 1, h⟩).mpr h0) (iblk1 V c 0 ⟨n + 1, h⟩) (iblk1 V c 1 ⟨n + 1, h⟩) (iblk1 V c 2 ⟨n + 1, h⟩) (iblk1 V c 3 ⟨n + 1, h⟩)).trans ?_
      show _ = tmStep (xb V c (n + 1)) (fb V c (n + 1)) (tg V c (n + 1)) (lb V c (n + 1))
        (if (n + 1) % 10 = 0 then tmInit else tmChain (xb V c) (fb V c) (tg V c) (lb V c) n)
      rw [if_pos h0, xb_at V c (n + 1) h, fb_at V c (n + 1) h, tg_at V c (n + 1) h, lb_at V c (n + 1) h]
    · rw [outsAt1_B V c ⟨n + 1, h⟩ h0]
      refine (step_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩)
        (fun hh => h0 ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
        (outsAt1 V c n (Nat.lt_of_succ_lt h))).trans ?_
      rw [outsAt_eq c n (Nat.lt_of_succ_lt h)]
      show _ = tmStep (xb V c (n + 1)) (fb V c (n + 1)) (tg V c (n + 1)) (lb V c (n + 1))
        (if (n + 1) % 10 = 0 then tmInit else tmChain (xb V c) (fb V c) (tg V c) (lb V c) n)
      rw [if_neg h0, xb_at V c (n + 1) h, fb_at V c (n + 1) h, tg_at V c (n + 1) h, lb_at V c (n + 1) h]

/-! ## The output arrays when the region is left -/

/-- Output array 4 (the maximum over the positives) as one function of its index: row (q, b) holds the chain's value after
    the last tile of core `q`, point 10 q + 9. -/
def G4 (c : Dev nD) : S2x256x1.Idx → EReal := fun i =>
  (tmChain (xb V c) (fb V c) (tg V c) (lb V c) (10 * (i 0).val + 9)).1
    (ix3 (0 : Fin 1) (⟨(i 1).val, (i 1).isLt⟩ : Fin 256) (0 : Fin 1))

/-- That function at an index whose first coordinate names the point and whose second is the row. -/
theorem G4_eq (c : Dev nD) (i : S2x256x1.Idx) (n : ℕ) (y : S1x256x1.Idx) (hn : 10 * (i 0).val + 9 = n)
    (h0 : (y 0).val = 0) (h1 : (y 1).val = (i 1).val) (h2 : (y 2).val = 0) :
    G4 V c i = (tmChain (xb V c) (fb V c) (tg V c) (lb V c) n).1 y := by
  subst hn
  unfold G4
  generalize (tmChain (xb V c) (fb V c) (tg V c) (lb V c) (10 * (i 0).val + 9)).1 = X
  refine congrArg X ?_
  funext a
  apply Fin.ext
  match a with
  | ⟨0, _⟩ => show 0 = (y 0).val; omega
  | ⟨1, _⟩ => show (i 1).val = (y 1).val; omega
  | ⟨2, _⟩ => show 0 = (y 2).val; omega

/-- A write-back happens at the last tile of a core, `t % 10 = 9`, and writes block `t / 10` of that function: the
    block then holds the chain's statistics after point `t`, and `10 (t / 10) + 9 = t`. -/
theorem flushed_eq_4 (c : Dev nD) (t : Fin cfg1.N) (hf : (cfg1.win 4).flush t = true) :
    (dat1 V c).flushed 4 t = ((cfg1.win 4).blk t).view.read (Elt Ideal) (G4 V c) := by
  have h9 : t.val % 10 = 9 := (flush1_4 t).mp hf
  obtain ⟨e0, e1, e2, -⟩ := idx_facts_out t
  show (cfg1.win 4).cut (grid1.coords t) ((dat1 V c).after 4 t) = _
  rw [after1_4, outsAt_eq]
  funext j
  have hj0 : (j 0).val < 1 := (j 0).isLt
  have hj2 : (j 2).val < 1 := (j 2).isLt
  have hn : 10 * ((((cfg1.win 4).blk t).view.emb j) 0).val + 9 = t.val := by
    show 10 * (win1_4.index t (0 : Fin 3) * 1 + 1 * (j 0).val) + 9 = t.val
    rw [e0]; omega
  have h1 : (j 1).val = ((((cfg1.win 4).blk t).view.emb j) 1).val := by
    show (j 1).val = win1_4.index t (1 : Fin 3) * 256 + 1 * (j 1).val
    rw [e1]; omega
  have key := G4_eq V c (((cfg1.win 4).blk t).view.emb j) t.val (win1_4.xinj (grid1.coords t) j) hn
    (by show (j 0).val = 0; omega) h1 (by show (j 2).val = 0; omega)
  generalize (tmChain (xb V c) (fb V c) (tg V c) (lb V c) t.val).1 = X at key ⊢
  generalize G4 V c = g at key ⊢
  exact key.symm

/-- Every row (q, b) lies in the block written back at point 10 q + 9, so the array ends as that function. -/
theorem final_4 (c : Dev nD) : (dat1 V c).arrAt 4 cfg1.N = G4 V c :=
  (dat1 V c).arrAt_eq_of_cover 4 (G4 V c) (flushed_eq_4 V c) fun i => by
    have hi0 : (i 0).val < 2 := (i 0).isLt
    have hi1 : (i 1).val < 256 := (i 1).isLt
    have hi2 : (i 2).val < 1 := (i 2).isLt
    have ht : 10 * (i 0).val + 9 < cfg1.N := by rw [N1]; omega
    obtain ⟨e0, e1, e2, -⟩ := idx_facts_out ⟨10 * (i 0).val + 9, ht⟩
    have e0' : win1_4.index ⟨10 * (i 0).val + 9, ht⟩ (0 : Fin 3) = (i 0).val := by
      rw [e0]; show (10 * (i 0).val + 9) / 10 = (i 0).val; omega
    refine ⟨⟨10 * (i 0).val + 9, ht⟩, (flush1_4 _).mpr (by show (10 * (i 0).val + 9) % 10 = 9; omega), ?_⟩
    show i ∈ ((View.whole main_v49_0).slice (win1_4.rect ⟨10 * (i 0).val + 9, ht⟩)).set
    rw [View.set_slice_whole, Rect.mem_set_unit]
    intro a
    match a with
    | ⟨0, _⟩ =>
      show win1_4.index ⟨10 * (i 0).val + 9, ht⟩ (0 : Fin 3) * 1 ≤ (i 0).val
        ∧ (i 0).val < win1_4.index ⟨10 * (i 0).val + 9, ht⟩ (0 : Fin 3) * 1 + 1
      rw [e0']; omega
    | ⟨1, _⟩ =>
      show win1_4.index ⟨10 * (i 0).val + 9, ht⟩ (1 : Fin 3) * 256 ≤ (i 1).val
        ∧ (i 1).val < win1_4.index ⟨10 * (i 0).val + 9, ht⟩ (1 : Fin 3) * 256 + 256
      rw [e1]; omega
    | ⟨2, _⟩ =>
      show win1_4.index ⟨10 * (i 0).val + 9, ht⟩ (2 : Fin 3) * 1 ≤ (i 2).val
        ∧ (i 2).val < win1_4.index ⟨10 * (i 0).val + 9, ht⟩ (2 : Fin 3) * 1 + 1
      rw [e2]; omega

/-- Output array 5 (the maximum over the negatives) as one function of its index: row (q, b) holds the chain's value after
    the last tile of core `q`, point 10 q + 9. -/
def G5 (c : Dev nD) : S2x256x1.Idx → EReal := fun i =>
  (tmChain (xb V c) (fb V c) (tg V c) (lb V c) (10 * (i 0).val + 9)).2.1
    (ix3 (0 : Fin 1) (⟨(i 1).val, (i 1).isLt⟩ : Fin 256) (0 : Fin 1))

/-- That function at an index whose first coordinate names the point and whose second is the row. -/
theorem G5_eq (c : Dev nD) (i : S2x256x1.Idx) (n : ℕ) (y : S1x256x1.Idx) (hn : 10 * (i 0).val + 9 = n)
    (h0 : (y 0).val = 0) (h1 : (y 1).val = (i 1).val) (h2 : (y 2).val = 0) :
    G5 V c i = (tmChain (xb V c) (fb V c) (tg V c) (lb V c) n).2.1 y := by
  subst hn
  unfold G5
  generalize (tmChain (xb V c) (fb V c) (tg V c) (lb V c) (10 * (i 0).val + 9)).2.1 = X
  refine congrArg X ?_
  funext a
  apply Fin.ext
  match a with
  | ⟨0, _⟩ => show 0 = (y 0).val; omega
  | ⟨1, _⟩ => show (i 1).val = (y 1).val; omega
  | ⟨2, _⟩ => show 0 = (y 2).val; omega

/-- A write-back happens at the last tile of a core, `t % 10 = 9`, and writes block `t / 10` of that function: the
    block then holds the chain's statistics after point `t`, and `10 (t / 10) + 9 = t`. -/
theorem flushed_eq_5 (c : Dev nD) (t : Fin cfg1.N) (hf : (cfg1.win 5).flush t = true) :
    (dat1 V c).flushed 5 t = ((cfg1.win 5).blk t).view.read (Elt Ideal) (G5 V c) := by
  have h9 : t.val % 10 = 9 := (flush1_5 t).mp hf
  obtain ⟨-, -, -, e0, e1, e2, -⟩ := idx_facts_out t
  show (cfg1.win 5).cut (grid1.coords t) ((dat1 V c).after 5 t) = _
  rw [after1_5, outsAt_eq]
  funext j
  have hj0 : (j 0).val < 1 := (j 0).isLt
  have hj2 : (j 2).val < 1 := (j 2).isLt
  have hn : 10 * ((((cfg1.win 5).blk t).view.emb j) 0).val + 9 = t.val := by
    show 10 * (win1_5.index t (0 : Fin 3) * 1 + 1 * (j 0).val) + 9 = t.val
    rw [e0]; omega
  have h1 : (j 1).val = ((((cfg1.win 5).blk t).view.emb j) 1).val := by
    show (j 1).val = win1_5.index t (1 : Fin 3) * 256 + 1 * (j 1).val
    rw [e1]; omega
  have key := G5_eq V c (((cfg1.win 5).blk t).view.emb j) t.val (win1_5.xinj (grid1.coords t) j) hn
    (by show (j 0).val = 0; omega) h1 (by show (j 2).val = 0; omega)
  generalize (tmChain (xb V c) (fb V c) (tg V c) (lb V c) t.val).2.1 = X at key ⊢
  generalize G5 V c = g at key ⊢
  exact key.symm

/-- Every row (q, b) lies in the block written back at point 10 q + 9, so the array ends as that function. -/
theorem final_5 (c : Dev nD) : (dat1 V c).arrAt 5 cfg1.N = G5 V c :=
  (dat1 V c).arrAt_eq_of_cover 5 (G5 V c) (flushed_eq_5 V c) fun i => by
    have hi0 : (i 0).val < 2 := (i 0).isLt
    have hi1 : (i 1).val < 256 := (i 1).isLt
    have hi2 : (i 2).val < 1 := (i 2).isLt
    have ht : 10 * (i 0).val + 9 < cfg1.N := by rw [N1]; omega
    obtain ⟨-, -, -, e0, e1, e2, -⟩ := idx_facts_out ⟨10 * (i 0).val + 9, ht⟩
    have e0' : win1_5.index ⟨10 * (i 0).val + 9, ht⟩ (0 : Fin 3) = (i 0).val := by
      rw [e0]; show (10 * (i 0).val + 9) / 10 = (i 0).val; omega
    refine ⟨⟨10 * (i 0).val + 9, ht⟩, (flush1_5 _).mpr (by show (10 * (i 0).val + 9) % 10 = 9; omega), ?_⟩
    show i ∈ ((View.whole main_v49_1).slice (win1_5.rect ⟨10 * (i 0).val + 9, ht⟩)).set
    rw [View.set_slice_whole, Rect.mem_set_unit]
    intro a
    match a with
    | ⟨0, _⟩ =>
      show win1_5.index ⟨10 * (i 0).val + 9, ht⟩ (0 : Fin 3) * 1 ≤ (i 0).val
        ∧ (i 0).val < win1_5.index ⟨10 * (i 0).val + 9, ht⟩ (0 : Fin 3) * 1 + 1
      rw [e0']; omega
    | ⟨1, _⟩ =>
      show win1_5.index ⟨10 * (i 0).val + 9, ht⟩ (1 : Fin 3) * 256 ≤ (i 1).val
        ∧ (i 1).val < win1_5.index ⟨10 * (i 0).val + 9, ht⟩ (1 : Fin 3) * 256 + 256
      rw [e1]; omega
    | ⟨2, _⟩ =>
      show win1_5.index ⟨10 * (i 0).val + 9, ht⟩ (2 : Fin 3) * 1 ≤ (i 2).val
        ∧ (i 2).val < win1_5.index ⟨10 * (i 0).val + 9, ht⟩ (2 : Fin 3) * 1 + 1
      rw [e2]; omega

/-- Output array 6 (the positive-seen flag) as one function of its index: row (q, b) holds the chain's value after
    the last tile of core `q`, point 10 q + 9. -/
def G6 (c : Dev nD) : S2x256x1.Idx → EReal := fun i =>
  (tmChain (xb V c) (fb V c) (tg V c) (lb V c) (10 * (i 0).val + 9)).2.2
    (ix3 (0 : Fin 1) (⟨(i 1).val, (i 1).isLt⟩ : Fin 256) (0 : Fin 1))

/-- That function at an index whose first coordinate names the point and whose second is the row. -/
theorem G6_eq (c : Dev nD) (i : S2x256x1.Idx) (n : ℕ) (y : S1x256x1.Idx) (hn : 10 * (i 0).val + 9 = n)
    (h0 : (y 0).val = 0) (h1 : (y 1).val = (i 1).val) (h2 : (y 2).val = 0) :
    G6 V c i = (tmChain (xb V c) (fb V c) (tg V c) (lb V c) n).2.2 y := by
  subst hn
  unfold G6
  generalize (tmChain (xb V c) (fb V c) (tg V c) (lb V c) (10 * (i 0).val + 9)).2.2 = X
  refine congrArg X ?_
  funext a
  apply Fin.ext
  match a with
  | ⟨0, _⟩ => show 0 = (y 0).val; omega
  | ⟨1, _⟩ => show (i 1).val = (y 1).val; omega
  | ⟨2, _⟩ => show 0 = (y 2).val; omega

/-- A write-back happens at the last tile of a core, `t % 10 = 9`, and writes block `t / 10` of that function: the
    block then holds the chain's statistics after point `t`, and `10 (t / 10) + 9 = t`. -/
theorem flushed_eq_6 (c : Dev nD) (t : Fin cfg1.N) (hf : (cfg1.win 6).flush t = true) :
    (dat1 V c).flushed 6 t = ((cfg1.win 6).blk t).view.read (Elt Ideal) (G6 V c) := by
  have h9 : t.val % 10 = 9 := (flush1_6 t).mp hf
  obtain ⟨-, -, -, -, -, -, e0, e1, e2⟩ := idx_facts_out t
  show (cfg1.win 6).cut (grid1.coords t) ((dat1 V c).after 6 t) = _
  rw [after1_6, outsAt_eq]
  funext j
  have hj0 : (j 0).val < 1 := (j 0).isLt
  have hj2 : (j 2).val < 1 := (j 2).isLt
  have hn : 10 * ((((cfg1.win 6).blk t).view.emb j) 0).val + 9 = t.val := by
    show 10 * (win1_6.index t (0 : Fin 3) * 1 + 1 * (j 0).val) + 9 = t.val
    rw [e0]; omega
  have h1 : (j 1).val = ((((cfg1.win 6).blk t).view.emb j) 1).val := by
    show (j 1).val = win1_6.index t (1 : Fin 3) * 256 + 1 * (j 1).val
    rw [e1]; omega
  have key := G6_eq V c (((cfg1.win 6).blk t).view.emb j) t.val (win1_6.xinj (grid1.coords t) j) hn
    (by show (j 0).val = 0; omega) h1 (by show (j 2).val = 0; omega)
  generalize (tmChain (xb V c) (fb V c) (tg V c) (lb V c) t.val).2.2 = X at key ⊢
  generalize G6 V c = g at key ⊢
  exact key.symm

/-- Every row (q, b) lies in the block written back at point 10 q + 9, so the array ends as that function. -/
theorem final_6 (c : Dev nD) : (dat1 V c).arrAt 6 cfg1.N = G6 V c :=
  (dat1 V c).arrAt_eq_of_cover 6 (G6 V c) (flushed_eq_6 V c) fun i => by
    have hi0 : (i 0).val < 2 := (i 0).isLt
    have hi1 : (i 1).val < 256 := (i 1).isLt
    have hi2 : (i 2).val < 1 := (i 2).isLt
    have ht : 10 * (i 0).val + 9 < cfg1.N := by rw [N1]; omega
    obtain ⟨-, -, -, -, -, -, e0, e1, e2⟩ := idx_facts_out ⟨10 * (i 0).val + 9, ht⟩
    have e0' : win1_6.index ⟨10 * (i 0).val + 9, ht⟩ (0 : Fin 3) = (i 0).val := by
      rw [e0]; show (10 * (i 0).val + 9) / 10 = (i 0).val; omega
    refine ⟨⟨10 * (i 0).val + 9, ht⟩, (flush1_6 _).mpr (by show (10 * (i 0).val + 9) % 10 = 9; omega), ?_⟩
    show i ∈ ((View.whole main_v49_2).slice (win1_6.rect ⟨10 * (i 0).val + 9, ht⟩)).set
    rw [View.set_slice_whole, Rect.mem_set_unit]
    intro a
    match a with
    | ⟨0, _⟩ =>
      show win1_6.index ⟨10 * (i 0).val + 9, ht⟩ (0 : Fin 3) * 1 ≤ (i 0).val
        ∧ (i 0).val < win1_6.index ⟨10 * (i 0).val + 9, ht⟩ (0 : Fin 3) * 1 + 1
      rw [e0']; omega
    | ⟨1, _⟩ =>
      show win1_6.index ⟨10 * (i 0).val + 9, ht⟩ (1 : Fin 3) * 256 ≤ (i 1).val
        ∧ (i 1).val < win1_6.index ⟨10 * (i 0).val + 9, ht⟩ (1 : Fin 3) * 256 + 256
      rw [e1]; omega
    | ⟨2, _⟩ =>
      show win1_6.index ⟨10 * (i 0).val + 9, ht⟩ (2 : Fin 3) * 1 ≤ (i 2).val
        ∧ (i 2).val < win1_6.index ⟨10 * (i 0).val + 9, ht⟩ (2 : Fin 3) * 1 + 1
      rw [e2]; omega

/-- When the region is left, entry (q, b, 0) of each output array is the chain's statistic after the last tile of core `q`. -/
theorem final (c : Dev nD) (q : Fin 2) (b : Fin 256) :
    ((dat1 V c).arrAt 4 cfg1.N : S2x256x1.Idx → EReal) (ix3 q b 0)
      = (tmChain (xb V c) (fb V c) (tg V c) (lb V c) (10 * q.val + 9)).1 (ix3 0 b 0)
    ∧ ((dat1 V c).arrAt 5 cfg1.N : S2x256x1.Idx → EReal) (ix3 q b 0)
      = (tmChain (xb V c) (fb V c) (tg V c) (lb V c) (10 * q.val + 9)).2.1 (ix3 0 b 0)
    ∧ ((dat1 V c).arrAt 6 cfg1.N : S2x256x1.Idx → EReal) (ix3 q b 0)
      = (tmChain (xb V c) (fb V c) (tg V c) (lb V c) (10 * q.val + 9)).2.2 (ix3 0 b 0) := by
  refine ⟨?_, ?_, ?_⟩
  · rw [final_4]; exact G4_eq V c (ix3 q b 0) (10 * q.val + 9) (ix3 0 b 0) rfl rfl rfl rfl
  · rw [final_5]; exact G5_eq V c (ix3 q b 0) (10 * q.val + 9) (ix3 0 b 0) rfl rfl rfl rfl
  · rw [final_6]; exact G6_eq V c (ix3 q b 0) (10 * q.val + 9) (ix3 0 b 0) rfl rfl rfl rfl

end Cert.KernelIdeal.R1

end
-- ==== Proof.R2Struct.lean ====
/-
  Region 2 (the thresholded-sum kernel) read off its frame: what the two output arrays hold when the region is left.
-/
import proofs.«411386_j43001212567993_2_alg».proof.Proof.Gen.KernelIdeal.Frame
import proofs.«411386_j43001212567993_2_alg».proof.Proof.Steps
import proofs.«411386_j43001212567993_2_alg».proof.Proof.Spec
import Idealize.ShloMosaic.Lib.Pipeline.Value
import Idealize.ShloMosaic.Lib.ValueIdx

set_option maxRecDepth 16384

noncomputable section

namespace Cert.KernelIdeal.R2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Steps

variable (V : (c : Dev nD) → (b : Ref sig .tc) → Buf (Elt Ideal) ((c : Thread nD τ).loc b))

theorem N2 : cfg2.N = 20 := N_2

/-- The blocks point `n` reads: all of `x`, 5000 bank rows, all targets, those rows' labels, the two per-row cuts. -/
def xb (c : Dev nD) (n : ℕ) : Vec Ideal S256x256 .f32 :=
  if h : n < cfg2.N then iblk2 V c 0 ⟨n, h⟩ else iblk2 V c 0 ⟨0, by rw [N2]; decide⟩
def fb (c : Dev nD) (n : ℕ) : Vec Ideal S5000x256 .f32 :=
  if h : n < cfg2.N then iblk2 V c 1 ⟨n, h⟩ else iblk2 V c 1 ⟨0, by rw [N2]; decide⟩
def tg (c : Dev nD) (n : ℕ) : Vec Ideal S256x1 .i32 :=
  if h : n < cfg2.N then iblk2 V c 2 ⟨n, h⟩ else iblk2 V c 2 ⟨0, by rw [N2]; decide⟩
def lb (c : Dev nD) (n : ℕ) : Vec Ideal S5000x1 .i32 :=
  if h : n < cfg2.N then iblk2 V c 3 ⟨n, h⟩ else iblk2 V c 3 ⟨0, by rw [N2]; decide⟩
def pc (c : Dev nD) (n : ℕ) : Vec Ideal S256x1 .f32 :=
  if h : n < cfg2.N then iblk2 V c 4 ⟨n, h⟩ else iblk2 V c 4 ⟨0, by rw [N2]; decide⟩
def nc (c : Dev nD) (n : ℕ) : Vec Ideal S256x1 .f32 :=
  if h : n < cfg2.N then iblk2 V c 5 ⟨n, h⟩ else iblk2 V c 5 ⟨0, by rw [N2]; decide⟩

/-! ## The block indices, point by point

Windows 0, 2, 4, 5 sit at block (0, 0) at every point; windows 1 and 3 at block (t, 0); the two outputs at
block (t / 10, 0, 0). -/

theorem idx0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
theorem idx1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx3 : ∀ t : Fin cfg2.N, win2_3.index t (0 : Fin 2) = t.val ∧ win2_3.index t (1 : Fin 2) = 0 :=
  (by decide +kernel : ∀ t : Fin grid2.N, win2_3.index t (0 : Fin 2) = t.val ∧ win2_3.index t (1 : Fin 2) = 0)
theorem idx4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx6 : ∀ t : Fin cfg2.N, win2_6.index t (0 : Fin 3) = t.val / 10 ∧ win2_6.index t (1 : Fin 3) = 0
    ∧ win2_6.index t (2 : Fin 3) = 0 :=
  (by decide +kernel : ∀ t : Fin grid2.N, win2_6.index t (0 : Fin 3) = t.val / 10 ∧ win2_6.index t (1 : Fin 3) = 0
    ∧ win2_6.index t (2 : Fin 3) = 0)
theorem idx7 : ∀ t : Fin cfg2.N, win2_7.index t (0 : Fin 3) = t.val / 10 ∧ win2_7.index t (1 : Fin 3) = 0
    ∧ win2_7.index t (2 : Fin 3) = 0 :=
  (by decide +kernel : ∀ t : Fin grid2.N, win2_7.index t (0 : Fin 3) = t.val / 10 ∧ win2_7.index t (1 : Fin 3) = 0
    ∧ win2_7.index t (2 : Fin 3) = 0)

/-! ## A window's block read at an index

An entry of a block is the array's entry at block index × block size + the coordinate inside the block, axis by axis. -/

theorem blk0_apply (c : Dev nD) (t : Fin cfg2.N) (b k : Fin 256) :
    (iblk2 V c 0 t : Vec Ideal S256x256 .f32) (ix2 b k)
      = (V c (Pipeline.arrRef spec2 0) : S256x256.Idx → EReal) (ix2 b k) := by
  unfold iblk2
  rw [View.read_apply]
  show (V c (Pipeline.arrRef spec2 0) : S256x256.Idx → EReal) _ = _
  congr 1
  funext a
  apply Fin.ext
  match a with
  | ⟨0, _⟩ => show win2_0.index t 0 * 256 + 1 * b.val = b.val; rw [(idx0 t).1]; omega
  | ⟨1, _⟩ => show win2_0.index t 1 * 256 + 1 * k.val = k.val; rw [(idx0 t).2]; omega

theorem blk1_apply (c : Dev nD) (t : Fin cfg2.N) (r : Fin 5000) (k : Fin 256) :
    (iblk2 V c 1 t : Vec Ideal S5000x256 .f32) (ix2 r k)
      = (V c (Pipeline.arrRef spec2 1) : S100000x256.Idx → EReal)
          (ix2 (Cert.Spec.tcol t.val (lt_of_lt_of_eq t.isLt N2) r) k) := by
  unfold iblk2
  rw [View.read_apply]
  show (V c (Pipeline.arrRef spec2 1) : S100000x256.Idx → EReal) _ = _
  congr 1
  funext a
  apply Fin.ext
  match a with
  | ⟨0, _⟩ => show win2_1.index t 0 * 5000 + 1 * r.val = 5000 * t.val + r.val; rw [(idx1 t).1]; omega
  | ⟨1, _⟩ => show win2_1.index t 1 * 256 + 1 * k.val = k.val; rw [(idx1 t).2]; omega

theorem blk2_apply (c : Dev nD) (t : Fin cfg2.N) (b : Fin 256) (z : Fin 1) :
    (iblk2 V c 2 t : Vec Ideal S256x1 .i32) (ix2 b z)
      = (V c (Pipeline.arrRef spec2 2) : S256x1.Idx → BitVec 32) (ix2 b z) := by
  unfold iblk2
  rw [View.read_apply]
  show (V c (Pipeline.arrRef spec2 2) : S256x1.Idx → BitVec 32) _ = _
  congr 1
  funext a
  apply Fin.ext
  match a with
  | ⟨0, _⟩ => show win2_2.index t 0 * 256 + 1 * b.val = b.val; rw [(idx2 t).1]; omega
  | ⟨1, _⟩ => show win2_2.index t 1 * 1 + 1 * z.val = z.val; rw [(idx2 t).2]; omega

theorem blk3_apply (c : Dev nD) (t : Fin cfg2.N) (r : Fin 5000) (z : Fin 1) :
    (iblk2 V c 3 t : Vec Ideal S5000x1 .i32) (ix2 r z)
      = (V c (Pipeline.arrRef spec2 3) : S100000x1.Idx → BitVec 32)
          (ix2 (Cert.Spec.tcol t.val (lt_of_lt_of_eq t.isLt N2) r) z) := by
  unfold iblk2
  rw [View.read_apply]
  show (V c (Pipeline.arrRef spec2 3) : S100000x1.Idx → BitVec 32) _ = _
  congr 1
  funext a
  apply Fin.ext
  match a with
  | ⟨0, _⟩ => show win2_3.index t 0 * 5000 + 1 * r.val = 5000 * t.val + r.val; rw [(idx3 t).1]; omega
  | ⟨1, _⟩ => show win2_3.index t 1 * 1 + 1 * z.val = z.val; rw [(idx3 t).2]; omega

theorem blk4_apply (c : Dev nD) (t : Fin cfg2.N) (b : Fin 256) (z : Fin 1) :
    (iblk2 V c 4 t : Vec Ideal S256x1 .f32) (ix2 b z)
      = (V c (Pipeline.arrRef spec2 4) : S256x1.Idx → EReal) (ix2 b z) := by
  unfold iblk2
  rw [View.read_apply]
  show (V c (Pipeline.arrRef spec2 4) : S256x1.Idx → EReal) _ = _
  congr 1
  funext a
  apply Fin.ext
  match a with
  | ⟨0, _⟩ => show win2_4.index t 0 * 256 + 1 * b.val = b.val; rw [(idx4 t).1]; omega
  | ⟨1, _⟩ => show win2_4.index t 1 * 1 + 1 * z.val = z.val; rw [(idx4 t).2]; omega

theorem blk5_apply (c : Dev nD) (t : Fin cfg2.N) (b : Fin 256) (z : Fin 1) :
    (iblk2 V c 5 t : Vec Ideal S256x1 .f32) (ix2 b z)
      = (V c (Pipeline.arrRef spec2 5) : S256x1.Idx → EReal) (ix2 b z) := by
  unfold iblk2
  rw [View.read_apply]
  show (V c (Pipeline.arrRef spec2 5) : S256x1.Idx → EReal) _ = _
  congr 1
  funext a
  apply Fin.ext
  match a with
  | ⟨0, _⟩ => show win2_5.index t 0 * 256 + 1 * b.val = b.val; rw [(idx5 t).1]; omega
  | ⟨1, _⟩ => show win2_5.index t 1 * 1 + 1 * z.val = z.val; rw [(idx5 t).2]; omega

theorem xb_apply (c : Dev nD) (n : ℕ) (b k : Fin 256) :
    xb V c n (ix2 b k) = (V c (Pipeline.arrRef spec2 0) : S256x256.Idx → EReal) (ix2 b k) := by
  unfold xb
  by_cases h : n < cfg2.N
  · rw [dif_pos h]; exact blk0_apply V c ⟨n, h⟩ b k
  · rw [dif_neg h]; exact blk0_apply V c _ b k

theorem fb_apply (c : Dev nD) (n : ℕ) (hn : n < 20) (r : Fin 5000) (k : Fin 256) :
    fb V c n (ix2 r k) = (V c (Pipeline.arrRef spec2 1) : S100000x256.Idx → EReal) (ix2 (Cert.Spec.tcol n hn r) k) := by
  have h : n < cfg2.N := by rw [N2]; exact hn
  unfold fb
  rw [dif_pos h]
  exact blk1_apply V c ⟨n, h⟩ r k

theorem tg_apply (c : Dev nD) (n : ℕ) (b : Fin 256) :
    tg V c n (ix2 b 0) = (V c (Pipeline.arrRef spec2 2) : S256x1.Idx → BitVec 32) (ix2 b 0) := by
  unfold tg
  by_cases h : n < cfg2.N
  · rw [dif_pos h]; exact blk2_apply V c ⟨n, h⟩ b 0
  · rw [dif_neg h]; exact blk2_apply V c _ b 0

theorem lb_apply (c : Dev nD) (n : ℕ) (hn : n < 20) (r : Fin 5000) :
    lb V c n (ix2 r 0) = (V c (Pipeline.arrRef spec2 3) : S100000x1.Idx → BitVec 32) (ix2 (Cert.Spec.tcol n hn r) 0) := by
  have h : n < cfg2.N := by rw [N2]; exact hn
  unfold lb
  rw [dif_pos h]
  exact blk3_apply V c ⟨n, h⟩ r 0

theorem pc_apply (c : Dev nD) (n : ℕ) (b : Fin 256) :
    pc V c n (ix2 b 0) = (V c (Pipeline.arrRef spec2 4) : S256x1.Idx → EReal) (ix2 b 0) := by
  unfold pc
  by_cases h : n < cfg2.N
  · rw [dif_pos h]; exact blk4_apply V c ⟨n, h⟩ b 0
  · rw [dif_neg h]; exact blk4_apply V c _ b 0

theorem nc_apply (c : Dev nD) (n : ℕ) (b : Fin 256) :
    nc V c n (ix2 b 0) = (V c (Pipeline.arrRef spec2 5) : S256x1.Idx → EReal) (ix2 b 0) := by
  unfold nc
  by_cases h : n < cfg2.N
  · rw [dif_pos h]; exact blk5_apply V c ⟨n, h⟩ b 0
  · rw [dif_neg h]; exact blk5_apply V c _ b 0

/-- Below the grid's size the named block families are the windows' blocks. -/
theorem xb_eq (c : Dev nD) (n : ℕ) (h : n < cfg2.N) : xb V c n = iblk2 V c 0 ⟨n, h⟩ := dif_pos h
theorem fb_eq (c : Dev nD) (n : ℕ) (h : n < cfg2.N) : fb V c n = iblk2 V c 1 ⟨n, h⟩ := dif_pos h
theorem tg_eq (c : Dev nD) (n : ℕ) (h : n < cfg2.N) : tg V c n = iblk2 V c 2 ⟨n, h⟩ := dif_pos h
theorem lb_eq (c : Dev nD) (n : ℕ) (h : n < cfg2.N) : lb V c n = iblk2 V c 3 ⟨n, h⟩ := dif_pos h
theorem pc_eq (c : Dev nD) (n : ℕ) (h : n < cfg2.N) : pc V c n = iblk2 V c 4 ⟨n, h⟩ := dif_pos h
theorem nc_eq (c : Dev nD) (n : ℕ) (h : n < cfg2.N) : nc V c n = iblk2 V c 5 ⟨n, h⟩ := dif_pos h

/-! ## What one point leaves in the two output blocks

Each store writes the whole block at zero offsets and each load reads a whole buffer, so the block left is the
step's component: over the initial sums where the block is reset first (case A), over the sums carried from the
point before otherwise (case B). -/

section Pieces

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

theorem out_B_6 (c : Dev nD) (i : grid2.Coords) (a2 : Memref sig .tc .vmem S256x256 .f32) (h2 : a2.IsWhole)
    (a3 : Memref sig .tc .vmem S5000x256 .f32) (h3 : a3.IsWhole) (a4 : Memref sig .tc .vmem S256x1 .i32) (h4 : a4.IsWhole)
    (a5 : Memref sig .tc .vmem S5000x1 .i32) (h5 : a5.IsWhole) (a6 : Memref sig .tc .vmem S256x1 .f32) (h6 : a6.IsWhole)
    (a7 : Memref sig .tc .vmem S256x1 .f32) (h7 : a7.IsWhole) (a8 : Memref sig .tc .vmem S1x256x1 .f32) (h8 : a8.IsWhole)
    (a9 : Memref sig .tc .vmem S1x256x1 .f32) (h9 : a9.IsWhole) (hc : ¬cond2_0 i)
    (x0 : Vec F S256x256 .f32) (x1 : Vec F S5000x256 .f32) (x2 : Vec F S256x1 .i32) (x3 : Vec F S5000x1 .i32)
    (x4 : Vec F S256x1 .f32) (x5 : Vec F S256x1 .f32) (xo6 xo7 : Vec F S1x256x1 .f32) :
    out2_B_6 c i a2 h2 a3 h3 a4 h4 a5 h5 a6 h6 a7 h7 a8 h8 a9 h9 hc x0 x1 x2 x3 x4 x5 xo6 xo7 = (tsStep x0 x1 x2 x3 x4 x5 (xo6, xo7)).1 := by
  unfold out2_B_6
  rw [View.read_writes_eq_canon _ _ _ (cover2_B_6 c i a2 h2 a3 h3 a4 h4 a5 h5 a6 h6 a7 h7 a8 h8 a9 h9 hc x0 x1 x2 x3 x4 x5 xo6 xo7)]
  unfold kernelRun2_B
  dsimp only
  sl_unfold_words
  rw [View.canon_unit_zero hz3]
  simp only [View.readAt_eq_ld, h2.read_unread, h3.read_unread, h4.read_unread, h5.read_unread, h6.read_unread,
    h7.read_unread, h8.read_unread, h9.read_unread, View.ld_unit_zero (S := S256x256) hz2,
    View.ld_unit_zero (S := S5000x256) hz2, View.ld_unit_zero (S := S256x1) hz2, View.ld_unit_zero (S := S5000x1) hz2,
    View.ld_unit_zero (S := S1x256x1) hz3, tsStep]

theorem out_B_7 (c : Dev nD) (i : grid2.Coords) (a2 : Memref sig .tc .vmem S256x256 .f32) (h2 : a2.IsWhole)
    (a3 : Memref sig .tc .vmem S5000x256 .f32) (h3 : a3.IsWhole) (a4 : Memref sig .tc .vmem S256x1 .i32) (h4 : a4.IsWhole)
    (a5 : Memref sig .tc .vmem S5000x1 .i32) (h5 : a5.IsWhole) (a6 : Memref sig .tc .vmem S256x1 .f32) (h6 : a6.IsWhole)
    (a7 : Memref sig .tc .vmem S256x1 .f32) (h7 : a7.IsWhole) (a8 : Memref sig .tc .vmem S1x256x1 .f32) (h8 : a8.IsWhole)
    (a9 : Memref sig .tc .vmem S1x256x1 .f32) (h9 : a9.IsWhole) (hc : ¬cond2_0 i)
    (x0 : Vec F S256x256 .f32) (x1 : Vec F S5000x256 .f32) (x2 : Vec F S256x1 .i32) (x3 : Vec F S5000x1 .i32)
    (x4 : Vec F S256x1 .f32) (x5 : Vec F S256x1 .f32) (xo6 xo7 : Vec F S1x256x1 .f32) :
    out2_B_7 c i a2 h2 a3 h3 a4 h4 a5 h5 a6 h6 a7 h7 a8 h8 a9 h9 hc x0 x1 x2 x3 x4 x5 xo6 xo7 = (tsStep x0 x1 x2 x3 x4 x5 (xo6, xo7)).2 := by
  unfold out2_B_7
  rw [View.read_writes_eq_canon _ _ _ (cover2_B_7 c i a2 h2 a3 h3 a4 h4 a5 h5 a6 h6 a7 h7 a8 h8 a9 h9 hc x0 x1 x2 x3 x4 x5 xo6 xo7)]
  unfold kernelRun2_B
  dsimp only
  sl_unfold_words
  rw [View.canon_unit_zero hz3]
  simp only [View.readAt_eq_ld, h2.read_unread, h3.read_unread, h4.read_unread, h5.read_unread, h6.read_unread,
    h7.read_unread, h8.read_unread, h9.read_unread, View.ld_unit_zero (S := S256x256) hz2,
    View.ld_unit_zero (S := S5000x256) hz2, View.ld_unit_zero (S := S256x1) hz2, View.ld_unit_zero (S := S5000x1) hz2,
    View.ld_unit_zero (S := S1x256x1) hz3, tsStep]

theorem out_A_6 (c : Dev nD) (i : grid2.Coords) (a2 : Memref sig .tc .vmem S256x256 .f32) (h2 : a2.IsWhole)
    (a3 : Memref sig .tc .vmem S5000x256 .f32) (h3 : a3.IsWhole) (a4 : Memref sig .tc .vmem S256x1 .i32) (h4 : a4.IsWhole)
    (a5 : Memref sig .tc .vmem S5000x1 .i32) (h5 : a5.IsWhole) (a6 : Memref sig .tc .vmem S256x1 .f32) (h6 : a6.IsWhole)
    (a7 : Memref sig .tc .vmem S256x1 .f32) (h7 : a7.IsWhole) (a8 : Memref sig .tc .vmem S1x256x1 .f32) (h8 : a8.IsWhole)
    (a9 : Memref sig .tc .vmem S1x256x1 .f32) (h9 : a9.IsWhole) (hc : cond2_0 i)
    (x0 : Vec F S256x256 .f32) (x1 : Vec F S5000x256 .f32) (x2 : Vec F S256x1 .i32) (x3 : Vec F S5000x1 .i32)
    (x4 : Vec F S256x1 .f32) (x5 : Vec F S256x1 .f32) :
    out2_A_6 c i a2 h2 a3 h3 a4 h4 a5 h5 a6 h6 a7 h7 a8 h8 a9 h9 hc x0 x1 x2 x3 x4 x5 = (tsStep x0 x1 x2 x3 x4 x5 tsInit).1 := by
  unfold out2_A_6
  rw [View.read_writes_eq_canon _ _ _ (cover2_A_6 c i a2 h2 a3 h3 a4 h4 a5 h5 a6 h6 a7 h7 a8 h8 a9 h9 hc x0 x1 x2 x3 x4 x5)]
  unfold kernelRun2_A
  dsimp only
  sl_unfold_words
  rw [View.canon_cons_unit_zero (S := S1x256x1) hz3, View.readCov_unit_zero (S := S1x256x1) _ hz3]
  simp only [View.readAt_eq_ld, h2.read_unread, h3.read_unread, h4.read_unread, h5.read_unread, h6.read_unread,
    h7.read_unread, h8.read_unread, h9.read_unread, View.ld_unit_zero (S := S256x256) hz2,
    View.ld_unit_zero (S := S5000x256) hz2, View.ld_unit_zero (S := S256x1) hz2, View.ld_unit_zero (S := S5000x1) hz2,
    View.ld_unit_zero (S := S1x256x1) hz3, tsStep, tsInit]

theorem out_A_7 (c : Dev nD) (i : grid2.Coords) (a2 : Memref sig .tc .vmem S256x256 .f32) (h2 : a2.IsWhole)
    (a3 : Memref sig .tc .vmem S5000x256 .f32) (h3 : a3.IsWhole) (a4 : Memref sig .tc .vmem S256x1 .i32) (h4 : a4.IsWhole)
    (a5 : Memref sig .tc .vmem S5000x1 .i32) (h5 : a5.IsWhole) (a6 : Memref sig .tc .vmem S256x1 .f32) (h6 : a6.IsWhole)
    (a7 : Memref sig .tc .vmem S256x1 .f32) (h7 : a7.IsWhole) (a8 : Memref sig .tc .vmem S1x256x1 .f32) (h8 : a8.IsWhole)
    (a9 : Memref sig .tc .vmem S1x256x1 .f32) (h9 : a9.IsWhole) (hc : cond2_0 i)
    (x0 : Vec F S256x256 .f32) (x1 : Vec F S5000x256 .f32) (x2 : Vec F S256x1 .i32) (x3 : Vec F S5000x1 .i32)
    (x4 : Vec F S256x1 .f32) (x5 : Vec F S256x1 .f32) :
    out2_A_7 c i a2 h2 a3 h3 a4 h4 a5 h5 a6 h6 a7 h7 a8 h8 a9 h9 hc x0 x1 x2 x3 x4 x5 = (tsStep x0 x1 x2 x3 x4 x5 tsInit).2 := by
  unfold out2_A_7
  rw [View.read_writes_eq_canon _ _ _ (cover2_A_7 c i a2 h2 a3 h3 a4 h4 a5 h5 a6 h6 a7 h7 a8 h8 a9 h9 hc x0 x1 x2 x3 x4 x5)]
  unfold kernelRun2_A
  dsimp only
  sl_unfold_words
  rw [View.canon_cons_unit_zero (S := S1x256x1) hz3, View.readCov_unit_zero (S := S1x256x1) _ hz3]
  simp only [View.readAt_eq_ld, h2.read_unread, h3.read_unread, h4.read_unread, h5.read_unread, h6.read_unread,
    h7.read_unread, h8.read_unread, h9.read_unread, View.ld_unit_zero (S := S256x256) hz2,
    View.ld_unit_zero (S := S5000x256) hz2, View.ld_unit_zero (S := S256x1) hz2, View.ld_unit_zero (S := S5000x1) hz2,
    View.ld_unit_zero (S := S1x256x1) hz3, tsStep, tsInit]

end Pieces

/-! ## The output blocks after point `n` are the chain's statistics -/

theorem outsAt_eq (c : Dev nD) : ∀ (n : ℕ) (h : n < cfg2.N),
    outsAt2 V c n h = tsChain (xb V c) (fb V c) (tg V c) (lb V c) (pc V c) (nc V c) n
  | 0, h => by
    show outsAt2 V c 0 h = tsStep (xb V c 0) (fb V c 0) (tg V c 0) (lb V c 0) (pc V c 0) (nc V c 0) tsInit
    rw [xb_eq V c 0 h, fb_eq V c 0 h, tg_eq V c 0 h, lb_eq V c 0 h, pc_eq V c 0 h, nc_eq V c 0 h]
    rw [outsAt2_A V c ⟨0, h⟩ rfl,
      out_A_6 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩),
      out_A_7 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)]
  | n + 1, h => by
    show outsAt2 V c (n + 1) h = tsStep (xb V c (n + 1)) (fb V c (n + 1)) (tg V c (n + 1)) (lb V c (n + 1))
      (pc V c (n + 1)) (nc V c (n + 1)) (if (n + 1) % 10 = 0 then tsInit else tsChain (xb V c) (fb V c) (tg V c) (lb V c) (pc V c) (nc V c) n)
    rw [xb_eq V c (n + 1) h, fb_eq V c (n + 1) h, tg_eq V c (n + 1) h, lb_eq V c (n + 1) h, pc_eq V c (n + 1) h,
      nc_eq V c (n + 1) h]
    by_cases h0 : (n + 1) % 10 = 0
    · rw [if_pos h0, outsAt2_A V c ⟨n + 1, h⟩ h0,
        out_A_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) ((hcond2_0 ⟨n + 1, h⟩).mpr h0) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩),
        out_A_7 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) ((hcond2_0 ⟨n + 1, h⟩).mpr h0) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)]
    · have hp : outsAt2 V c ((⟨n + 1, h⟩ : Fin cfg2.N).val - 1)
            (Nat.lt_of_le_of_lt (Nat.sub_le _ _) (⟨n + 1, h⟩ : Fin cfg2.N).isLt)
          = tsChain (xb V c) (fb V c) (tg V c) (lb V c) (pc V c) (nc V c) n := outsAt_eq c n (Nat.lt_of_succ_lt h)
      rw [if_neg h0, outsAt2_B V c ⟨n + 1, h⟩ h0, hp,
        out_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => h0 ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)
          (tsChain (xb V c) (fb V c) (tg V c) (lb V c) (pc V c) (nc V c) n).1 (tsChain (xb V c) (fb V c) (tg V c) (lb V c) (pc V c) (nc V c) n).2,
        out_B_7 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => h0 ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)
          (tsChain (xb V c) (fb V c) (tg V c) (lb V c) (pc V c) (nc V c) n).1 (tsChain (xb V c) (fb V c) (tg V c) (lb V c) (pc V c) (nc V c) n).2]

/-! ## From the blocks to the arrays

Core `q`'s output block is written back once, at point 10 q + 9, and the two blocks cover the arrays. -/

/-- The first output array, entry by entry: the positives' sum after the last tile of the entry's core. -/
def G6 (c : Dev nD) : Vec Ideal S2x256x1 .f32 := fun j =>
  (tsChain (xb V c) (fb V c) (tg V c) (lb V c) (pc V c) (nc V c) (10 * (j 0).val + 9)).1 (ix3 (0 : Fin 1) (⟨(j 1).val, (j 1).isLt⟩ : Fin 256) (0 : Fin 1))
/-- The second output array, entry by entry: the negatives' sum after the last tile of the entry's core. -/
def G7 (c : Dev nD) : Vec Ideal S2x256x1 .f32 := fun j =>
  (tsChain (xb V c) (fb V c) (tg V c) (lb V c) (pc V c) (nc V c) (10 * (j 0).val + 9)).2 (ix3 (0 : Fin 1) (⟨(j 1).val, (j 1).isLt⟩ : Fin 256) (0 : Fin 1))

theorem G6_at (c : Dev nD) (j : S2x256x1.Idx) (n : ℕ) (y : S1x256x1.Idx) (h0 : 10 * (j 0).val + 9 = n)
    (h1 : (j 1).val = (y 1).val) : G6 V c j = (tsChain (xb V c) (fb V c) (tg V c) (lb V c) (pc V c) (nc V c) n).1 y := by
  subst h0
  unfold G6
  refine congrArg (tsChain (xb V c) (fb V c) (tg V c) (lb V c) (pc V c) (nc V c) (10 * (j 0).val + 9)).1 ?_
  funext a
  apply Fin.ext
  have y0 : (y 0).val < 1 := (y 0).isLt
  have y2 : (y 2).val < 1 := (y 2).isLt
  match a with
  | ⟨0, _⟩ => show 0 = (y 0).val; omega
  | ⟨1, _⟩ => exact h1
  | ⟨2, _⟩ => show 0 = (y 2).val; omega

theorem G7_at (c : Dev nD) (j : S2x256x1.Idx) (n : ℕ) (y : S1x256x1.Idx) (h0 : 10 * (j 0).val + 9 = n)
    (h1 : (j 1).val = (y 1).val) : G7 V c j = (tsChain (xb V c) (fb V c) (tg V c) (lb V c) (pc V c) (nc V c) n).2 y := by
  subst h0
  unfold G7
  refine congrArg (tsChain (xb V c) (fb V c) (tg V c) (lb V c) (pc V c) (nc V c) (10 * (j 0).val + 9)).2 ?_
  funext a
  apply Fin.ext
  have y0 : (y 0).val < 1 := (y 0).isLt
  have y2 : (y 2).val < 1 := (y 2).isLt
  match a with
  | ⟨0, _⟩ => show 0 = (y 0).val; omega
  | ⟨1, _⟩ => exact h1
  | ⟨2, _⟩ => show 0 = (y 2).val; omega

/-- What a flushing point writes back is its block of `G6`. -/
theorem flushed6_eq (c : Dev nD) (t : Fin cfg2.N) (hf : (cfg2.win 6).flush t = true) :
    (dat2 V c).flushed 6 t = ((cfg2.win 6).blk t).view.read (Elt Ideal) (G6 V c) := by
  have hN : cfg2.N = 20 := N2
  have h9 : t.val % 10 = 9 := (flush2_6 t).mp hf
  have ht : t.val < 20 := lt_of_lt_of_eq t.isLt hN
  show (cfg2.win 6).cut (grid2.coords t) ((dat2 V c).after 6 t) = _
  rw [after2_6, outsAt_eq V c t.val t.isLt]
  funext y
  show (tsChain (xb V c) (fb V c) (tg V c) (lb V c) (pc V c) (nc V c) t.val).1 y = G6 V c (((cfg2.win 6).blk t).view.emb y)
  have y0 : (y 0).val < 1 := (y 0).isLt
  refine (G6_at V c _ t.val y ?_ ?_).symm
  · show 10 * (win2_6.index t 0 * 1 + 1 * (y 0).val) + 9 = t.val
    rw [(idx6 t).1]; omega
  · show win2_6.index t 1 * 256 + 1 * (y 1).val = (y 1).val
    rw [(idx6 t).2.1]; omega

theorem flushed7_eq (c : Dev nD) (t : Fin cfg2.N) (hf : (cfg2.win 7).flush t = true) :
    (dat2 V c).flushed 7 t = ((cfg2.win 7).blk t).view.read (Elt Ideal) (G7 V c) := by
  have hN : cfg2.N = 20 := N2
  have h9 : t.val % 10 = 9 := (flush2_7 t).mp hf
  have ht : t.val < 20 := lt_of_lt_of_eq t.isLt hN
  show (cfg2.win 7).cut (grid2.coords t) ((dat2 V c).after 7 t) = _
  rw [after2_7, outsAt_eq V c t.val t.isLt]
  funext y
  show (tsChain (xb V c) (fb V c) (tg V c) (lb V c) (pc V c) (nc V c) t.val).2 y = G7 V c (((cfg2.win 7).blk t).view.emb y)
  have y0 : (y 0).val < 1 := (y 0).isLt
  refine (G7_at V c _ t.val y ?_ ?_).symm
  · show 10 * (win2_7.index t 0 * 1 + 1 * (y 0).val) + 9 = t.val
    rw [(idx7 t).1]; omega
  · show win2_7.index t 1 * 256 + 1 * (y 1).val = (y 1).val
    rw [(idx7 t).2.1]; omega

/-- Entry (q, b, z) lies in the block of point 10 q + 9, which is written back. -/
theorem cover6 (i : S2x256x1.Idx) :
    ∃ t : Fin cfg2.N, (cfg2.win 6).flush t = true ∧ i ∈ ((cfg2.win 6).blk t).view.set := by
  have hN : cfg2.N = 20 := N2
  have hi0 : (i 0).val < 2 := (i 0).isLt
  have hi1 : (i 1).val < 256 := (i 1).isLt
  have hi2 : (i 2).val < 1 := (i 2).isLt
  have ht : 10 * (i 0).val + 9 < cfg2.N := by omega
  refine ⟨⟨10 * (i 0).val + 9, ht⟩, (flush2_6 _).mpr (by show (10 * (i 0).val + 9) % 10 = 9; omega), ?_⟩
  show i ∈ ((View.whole main_v71_0).slice (win2_6.rect ⟨10 * (i 0).val + 9, ht⟩)).set
  rw [View.set_slice_whole, Rect.mem_set_unit]
  obtain ⟨e0, e1, e2⟩ := idx6 ⟨10 * (i 0).val + 9, ht⟩
  intro a
  match a with
  | ⟨0, _⟩ =>
    show win2_6.index ⟨10 * (i 0).val + 9, ht⟩ 0 * 1 ≤ (i 0).val
      ∧ (i 0).val < win2_6.index ⟨10 * (i 0).val + 9, ht⟩ 0 * 1 + 1
    rw [e0]; dsimp only; omega
  | ⟨1, _⟩ =>
    show win2_6.index ⟨10 * (i 0).val + 9, ht⟩ 1 * 256 ≤ (i 1).val
      ∧ (i 1).val < win2_6.index ⟨10 * (i 0).val + 9, ht⟩ 1 * 256 + 256
    rw [e1]; omega
  | ⟨2, _⟩ =>
    show win2_6.index ⟨10 * (i 0).val + 9, ht⟩ 2 * 1 ≤ (i 2).val
      ∧ (i 2).val < win2_6.index ⟨10 * (i 0).val + 9, ht⟩ 2 * 1 + 1
    rw [e2]; omega

theorem cover7 (i : S2x256x1.Idx) :
    ∃ t : Fin cfg2.N, (cfg2.win 7).flush t = true ∧ i ∈ ((cfg2.win 7).blk t).view.set := by
  have hN : cfg2.N = 20 := N2
  have hi0 : (i 0).val < 2 := (i 0).isLt
  have hi1 : (i 1).val < 256 := (i 1).isLt
  have hi2 : (i 2).val < 1 := (i 2).isLt
  have ht : 10 * (i 0).val + 9 < cfg2.N := by omega
  refine ⟨⟨10 * (i 0).val + 9, ht⟩, (flush2_7 _).mpr (by show (10 * (i 0).val + 9) % 10 = 9; omega), ?_⟩
  show i ∈ ((View.whole main_v71_1).slice (win2_7.rect ⟨10 * (i 0).val + 9, ht⟩)).set
  rw [View.set_slice_whole, Rect.mem_set_unit]
  obtain ⟨e0, e1, e2⟩ := idx7 ⟨10 * (i 0).val + 9, ht⟩
  intro a
  match a with
  | ⟨0, _⟩ =>
    show win2_7.index ⟨10 * (i 0).val + 9, ht⟩ 0 * 1 ≤ (i 0).val
      ∧ (i 0).val < win2_7.index ⟨10 * (i 0).val + 9, ht⟩ 0 * 1 + 1
    rw [e0]; dsimp only; omega
  | ⟨1, _⟩ =>
    show win2_7.index ⟨10 * (i 0).val + 9, ht⟩ 1 * 256 ≤ (i 1).val
      ∧ (i 1).val < win2_7.index ⟨10 * (i 0).val + 9, ht⟩ 1 * 256 + 256
    rw [e1]; omega
  | ⟨2, _⟩ =>
    show win2_7.index ⟨10 * (i 0).val + 9, ht⟩ 2 * 1 ≤ (i 2).val
      ∧ (i 2).val < win2_7.index ⟨10 * (i 0).val + 9, ht⟩ 2 * 1 + 1
    rw [e2]; omega

theorem final6 (c : Dev nD) : (dat2 V c).arrAt 6 cfg2.N = G6 V c :=
  (dat2 V c).arrAt_eq_of_cover 6 (G6 V c) (flushed6_eq V c) cover6
theorem final7 (c : Dev nD) : (dat2 V c).arrAt 7 cfg2.N = G7 V c :=
  (dat2 V c).arrAt_eq_of_cover 7 (G7 V c) (flushed7_eq V c) cover7

/-- When the region is left, entry (q, b, 0) of each output array is the chain's statistic after the last tile of core `q`. -/
theorem final (c : Dev nD) (q : Fin 2) (b : Fin 256) :
    ((dat2 V c).arrAt 6 cfg2.N : S2x256x1.Idx → EReal) (ix3 q b 0)
      = (tsChain (xb V c) (fb V c) (tg V c) (lb V c) (pc V c) (nc V c) (10 * q.val + 9)).1 (ix3 0 b 0)
    ∧ ((dat2 V c).arrAt 7 cfg2.N : S2x256x1.Idx → EReal) (ix3 q b 0)
      = (tsChain (xb V c) (fb V c) (tg V c) (lb V c) (pc V c) (nc V c) (10 * q.val + 9)).2 (ix3 0 b 0) :=
  ⟨(congrFun (final6 V c) (ix3 q b 0)).trans rfl, (congrFun (final7 V c) (ix3 q b 0)).trans rfl⟩

end Cert.KernelIdeal.R2

end
-- ==== Proof.R0Value.lean ====
/-
  The cross-entropy kernel's chain in closed form: after the ten tiles of core q, row b holds the maximum, the sum of exponentials and the sum of that core's logits.

  The road: each payload of the kernel read at a row (a matrix product as the sum over the shared axis, a lane
  maximum as the fold of `max` from −∞, a lane sum as the sum over the lanes, the column shape casts and the column
  broadcast at their coordinates); one step at a row over real logits, in the extended reals; the real statistics
  over the columns a core has seen so far and their recurrence (a maximum over a disjoint union is the `max`, a sum
  of exponentials is rescaled by `exp (old maximum - new maximum)`); the induction over a core's ten tiles.
-/
import proofs.«411386_j43001212567993_2_alg».proof.Proof.Steps
import proofs.«411386_j43001212567993_2_alg».proof.Proof.Spec
import Idealize.ShloMosaic.PureOps.Ideal.Laws
import Idealize.ShloMosaic.PureOps.IdealRules
import Idealize.ShloMosaic.Lib.Pipeline.Value
import Idealize.ShloMosaic.Lib.ValueIdx
import Idealize.ShloMosaic.Lib.ValueLayout

noncomputable section

namespace Cert.KernelIdeal.R0V

open Idealize.ShloMosaic Idealize.ShloMosaic.ValueIdx
open Cert.KernelIdeal Cert.KernelIdeal.Gen Cert.KernelIdeal.Steps Cert.Spec

/-! ## Layout operations at the kernel's column shapes -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a lane reduction of a `256 × 5000` array inserts at row `b`, lane `r`, is `(b, r)`. -/
theorem lift_row (b : Fin 256) (r : Fin 5000) : reduces_S256x5000_S256.lift (ix1 b) r = ix2 b r := by
  funext c
  match c with
  | ⟨0, _⟩ => exact Fin.ext rfl
  | ⟨1, _⟩ => exact Fin.ext rfl

/-! ## The matrix product at an index -/

theorem lhs_0 (i : S256x5000.Idx) (q : dot_S256x256_S256x5000_S256x5000_1_0_0_1_n_n.contr.Idx) :
    (dot_S256x256_S256x5000_S256x5000_1_0_0_1_n_n.lhsIdx i q 0).val = (i 0).val := by
  unfold DotDims.lhsIdx
  rw [dif_neg (show ¬(0 : Fin S256x256.rank) ∈ dot_S256x256_S256x5000_S256x5000_1_0_0_1_n_n.lhsBatch by decide), dif_pos (show (0 : Fin S256x256.rank) ∈ dot_S256x256_S256x5000_S256x5000_1_0_0_1_n_n.lhsNonContracting by decide)]
  rfl
theorem lhs_1 (i : S256x5000.Idx) (q : dot_S256x256_S256x5000_S256x5000_1_0_0_1_n_n.contr.Idx) :
    (dot_S256x256_S256x5000_S256x5000_1_0_0_1_n_n.lhsIdx i q 1).val = (q ⟨0, by decide⟩).val :=
  dot_S256x256_S256x5000_S256x5000_1_0_0_1_n_n.lhsIdx_val_of_single rfl i q
theorem rhs_0 (i : S256x5000.Idx) (q : dot_S256x256_S256x5000_S256x5000_1_0_0_1_n_n.contr.Idx) :
    (dot_S256x256_S256x5000_S256x5000_1_0_0_1_n_n.rhsIdx i q 0).val = (q ⟨0, by decide⟩).val :=
  dot_S256x256_S256x5000_S256x5000_1_0_0_1_n_n.rhsIdx_val_of_single rfl i q
theorem rhs_1 (i : S256x5000.Idx) (q : dot_S256x256_S256x5000_S256x5000_1_0_0_1_n_n.contr.Idx) :
    (dot_S256x256_S256x5000_S256x5000_1_0_0_1_n_n.rhsIdx i q 1).val = (i 1).val := by
  unfold DotDims.rhsIdx
  rw [dif_neg (show ¬(1 : Fin S256x5000.rank) ∈ dot_S256x256_S256x5000_S256x5000_1_0_0_1_n_n.rhsBatch by decide), dif_pos (show (1 : Fin S256x5000.rank) ∈ dot_S256x256_S256x5000_S256x5000_1_0_0_1_n_n.rhsNonContracting by decide)]
  rfl

/-- The product of a `256 × 256` by a `256 × 5000` matrix into the zero splat, at `(b, r)`: the sum over the shared axis. -/
theorem matmul_row (l : FVec Ideal S256x256 .bf16) (rr : FVec Ideal S256x5000 .bf16) (b : Fin 256) (r : Fin 5000) :
    matmul dot_S256x256_S256x5000_S256x5000_1_0_0_1_n_n none l rr (constant (F := Ideal) S256x5000 .f32 0x00000000#32) (ix2 b r)
      = ∑ k : Fin 256, l (ix2 b k) * rr (ix2 k r) := by
  simp only [matmul]
  rw [Ideal.matmul_constant_zero_apply, ← Equiv.sum_comp (contrEquiv1 dot_S256x256_S256x5000_S256x5000_1_0_0_1_n_n 256 rfl rfl).symm]
  refine Finset.sum_congr rfl fun k _ => ?_
  have hk := contrEquiv1_symm_val dot_S256x256_S256x5000_S256x5000_1_0_0_1_n_n 256 rfl rfl k
  have el : dot_S256x256_S256x5000_S256x5000_1_0_0_1_n_n.lhsIdx (ix2 b r) ((contrEquiv1 dot_S256x256_S256x5000_S256x5000_1_0_0_1_n_n 256 rfl rfl).symm k) = ix2 b k := funext fun a => Fin.ext (by
    match a with
    | ⟨0, _⟩ => exact lhs_0 _ _
    | ⟨1, _⟩ => exact (lhs_1 _ _).trans hk)
  have er : dot_S256x256_S256x5000_S256x5000_1_0_0_1_n_n.rhsIdx (ix2 b r) ((contrEquiv1 dot_S256x256_S256x5000_S256x5000_1_0_0_1_n_n 256 rfl rfl).symm k) = ix2 k r := funext fun a => Fin.ext (by
    match a with
    | ⟨0, _⟩ => exact (rhs_0 _ _).trans hk
    | ⟨1, _⟩ => exact rhs_1 _ _)
  rw [el, er]

/-- The named reciprocal of the temperature denotes the real `invTemp`. -/
theorem inv_temp_eq : Named.named (F := Ideal) Cert.KernelIdeal.κ "inv_temp" (φ := .f32) 0x41A00000#32 = ((invTemp : ℝ) : EReal) :=
  IdealRules.named_const.ideal_named_scalar _ _ _ _ rfl

/-- The tile's logits at row `b`, lane `r`: row `b` of `x` against bank row `r`, times the named reciprocal. -/
theorem pay6_apply (x : Vec Ideal S256x256 .f32) (fb : Vec Ideal S5000x256 .f32) (b : Fin 256) (r : Fin 5000) :
    k0_pay6 x fb (ix2 b r) = (∑ k : Fin 256, x (ix2 b k) * fb (ix2 r k)) * ((invTemp : ℝ) : EReal) := by
  unfold k0_pay6
  refine (mulf_apply _ _ _).trans ?_
  refine congrArg₂ (· * ·) ?_ inv_temp_eq
  refine (matmul_row _ _ b r).trans ?_
  refine Finset.sum_congr rfl fun k _ => ?_
  refine congrArg₂ (· * ·) ?_ ?_
  · exact congrFun (shapeCast_self x shapeCasts_S256x256_S256x256) (ix2 b k)
  · exact transpose_ix2_apply _ _ k r

/-! ## The lane reductions at a row -/

/-- The f32 word of −∞ denotes the bottom element. -/
theorem ofBits_neg_inf : Ideal.ofBits .f32 0xFF800000#32 = ⊥ := by simp [Ideal.ofBits, Ideal.ieee]

/-- A lane maximum of a `256 × 5000` array at row `b`: the fold of `max` from −∞ over the row. -/
theorem rowMax_apply (v : FVec Ideal S256x5000 .f32) (hφ : FKind.Formats .f32)
    (hacc : (0xFF800000#32 : BitVec 32) = FKind.maximumf.neutral .f32 hφ) (b : Fin 256) :
    multiReduction (F := Ideal) .maximumf [1] S256 v 0xFF800000#32 reduces_S256x5000_S256 hφ hacc (ix1 b)
      = (Finset.univ : Finset (Fin 5000)).fold max (⊥ : EReal) (fun r => v (ix2 b r)) := by
  refine (Ideal.multiReduction_maximumf_single v _ reduces_S256x5000_S256 hφ hacc (ix1 b)).trans ?_
  show (Finset.univ : Finset (Fin 5000)).fold max (Ideal.ofBits .f32 0xFF800000#32) (v ∘ reduces_S256x5000_S256.lift (ix1 b)) = _
  rw [ofBits_neg_inf]
  exact Finset.fold_congr fun r _ => congrArg v (lift_row b r)

/-- A lane sum of a `256 × 5000` array at row `b`: the sum over the row. -/
theorem rowSum_apply (v : FVec Ideal S256x5000 .f32) (hφ : FKind.Formats .f32)
    (hacc : (0x00000000#32 : BitVec 32) = FKind.add.neutral .f32 hφ) (b : Fin 256) :
    multiReduction (F := Ideal) .add [1] S256 v 0x00000000#32 reduces_S256x5000_S256 hφ hacc (ix1 b)
      = ∑ r : Fin 5000, v (ix2 b r) := by
  refine (Ideal.multiReduction_add_single v _ reduces_S256x5000_S256 hφ hacc (ix1 b)).trans ?_
  exact Finset.sum_congr rfl fun r _ => congrArg v (lift_row b r)

/-! ## The statistics' payloads at a row -/

/-- The new maximum at row `b`: the old one against the tile's. -/
theorem pay7_apply (x : Vec Ideal S256x256 .f32) (fb : Vec Ideal S5000x256 .f32) (m : Vec Ideal S1x256x1 .f32) (b : Fin 256) :
    k0_pay7 x fb m (ix2 b 0)
      = max (m (ix3 0 b 0)) ((Finset.univ : Finset (Fin 5000)).fold max (⊥ : EReal) (fun r => k0_pay6 x fb (ix2 b r))) := by
  unfold k0_pay7
  refine (maximumf_apply _ _ _).trans ?_
  refine congrArg₂ max ?_ ?_
  · exact shapeCast_1ab_ab_apply m shapeCasts_S1x256x1_S256x1 b 0
  · refine (shapeCast_a_a1_apply _ shapeCasts_S256_S256x1 b 0).trans ?_
    exact rowMax_apply _ _ _ b

/-- The stored maximum is the column's entry. -/
theorem pay2_apply (v : FVec Ideal S256x1 .f32) (b : Fin 256) : k0_pay2 v (ix3 0 b 0) = v (ix2 b 0) := by
  unfold k0_pay2
  exact shapeCast_ab_1ab_apply v shapeCasts_S256x1_S1x256x1 0 b 0

/-- The new sum of exponentials at row `b`: the old one rescaled to the new maximum, plus the tile's. -/
theorem pay8_apply (x : Vec Ideal S256x256 .f32) (fb : Vec Ideal S5000x256 .f32) (m m' l : Vec Ideal S1x256x1 .f32) (b : Fin 256) :
    k0_pay8 x fb m m' l (ix3 0 b 0)
      = Ideal.exp (m' (ix3 0 b 0) - k0_pay7 x fb m (ix2 b 0)) * l (ix3 0 b 0)
        + ∑ r : Fin 5000, Ideal.exp (k0_pay6 x fb (ix2 b r) - k0_pay7 x fb m (ix2 b 0)) := by
  unfold k0_pay8
  refine (shapeCast_ab_1ab_apply _ shapeCasts_S256x1_S1x256x1 0 b 0).trans ?_
  refine (addf_apply _ _ _).trans ?_
  refine congrArg₂ (· + ·) ?_ ?_
  · refine (mulf_apply _ _ _).trans ?_
    refine congrArg₂ (· * ·) ?_ ?_
    · show Ideal.exp (shapeCast S256x1 m' shapeCasts_S1x256x1_S256x1 (ix2 b 0) - k0_pay7 x fb m (ix2 b 0)) = _
      rw [shapeCast_1ab_ab_apply]
    · exact shapeCast_1ab_ab_apply l shapeCasts_S1x256x1_S256x1 b 0
  · refine (shapeCast_a_a1_apply _ shapeCasts_S256_S256x1 b 0).trans ?_
    refine (rowSum_apply _ _ _ b).trans ?_
    refine Finset.sum_congr rfl fun r _ => ?_
    show Ideal.exp (k0_pay6 x fb (ix2 b r)
      - broadcastTo S256x5000 (k0_pay7 x fb m) broadcasts_S256x1_S256x5000 (ix2 b r)) = _
    rw [broadcastTo_a1_ab_apply]

/-- The new sum of logits at row `b`: the old one plus the tile's. -/
theorem pay1_apply (v : FVec Ideal S256x5000 .f32) (s : Vec Ideal S1x256x1 .f32) (b : Fin 256) :
    k0_pay1 v s (ix3 0 b 0) = s (ix3 0 b 0) + ∑ r : Fin 5000, v (ix2 b r) := by
  unfold k0_pay1
  refine (shapeCast_ab_1ab_apply _ shapeCasts_S256x1_S1x256x1 0 b 0).trans ?_
  refine (addf_apply _ _ _).trans ?_
  refine congrArg₂ (· + ·) ?_ ?_
  · exact shapeCast_1ab_ab_apply s shapeCasts_S1x256x1_S256x1 b 0
  · refine (shapeCast_a_a1_apply _ shapeCasts_S256_S256x1 b 0).trans ?_
    exact rowSum_apply _ _ _ b

/-- Before the first tile the maximum is −∞ … -/
theorem pay3_apply (b : Fin 256) : (k0_pay3 (F := Ideal)) (ix3 0 b 0) = ⊥ := by
  unfold k0_pay3
  refine (shapeCast_ab_1ab_apply _ shapeCasts_S256x1_S1x256x1 0 b 0).trans ?_
  exact ofBits_neg_inf
/-- … and the two sums are zero. -/
theorem pay4_apply (b : Fin 256) : (k0_pay4 (F := Ideal)) (ix3 0 b 0) = 0 := by
  unfold k0_pay4
  refine (shapeCast_ab_1ab_apply _ shapeCasts_S256x1_S1x256x1 0 b 0).trans ?_
  exact Ideal.ofBits_zero_f32
theorem pay5_apply (b : Fin 256) : (k0_pay5 (F := Ideal)) (ix3 0 b 0) = 0 := by
  unfold k0_pay5
  refine (shapeCast_ab_1ab_apply _ shapeCasts_S256x1_S1x256x1 0 b 0).trans ?_
  exact Ideal.ofBits_zero_f32

/-! ## Coercions of finite maxima and sums to the extended reals -/

/-- The 5000 lanes of a tile are not empty. -/
theorem lanesNE : (Finset.univ : Finset (Fin 5000)).Nonempty := ⟨⟨0, by decide⟩, Finset.mem_univ _⟩

/-- The coercion of the reals commutes with `max`. -/
theorem coe_max (x y : ℝ) : ((max x y : ℝ) : EReal) = max (x : EReal) (y : EReal) :=
  EReal.coe_strictMono.monotone.map_max

/-- The fold of `max` from −∞ over coerced reals is the coerced maximum. -/
theorem fold_max_coe {ι : Type} (s : Finset ι) (hs : s.Nonempty) (z : ι → ℝ) :
    s.fold max (⊥ : EReal) (fun r => ((z r : ℝ) : EReal)) = ((s.sup' hs z : ℝ) : EReal) := by
  induction hs using Finset.Nonempty.cons_induction with
  | singleton a => rw [Finset.fold_singleton, Finset.sup'_singleton]; exact max_bot_right _
  | cons a s ha hs ih => rw [Finset.fold_cons, ih, Finset.sup'_cons hs]; exact (coe_max _ _).symm

/-- A finite sum of coerced reals is the coerced sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The columns of a tile, and the columns a core has seen -/

theorem tcol_val (n : ℕ) (hn : n < 20) (r : Fin 5000) : (tcol n hn r).val = 5000 * n + r.val := rfl

theorem tcol_injective (n : ℕ) (hn : n < 20) : Function.Injective (tcol n hn) := fun r r' h =>
  Fin.ext (by have := congrArg Fin.val h; rw [tcol_val, tcol_val] at this; omega)

/-- The columns of tile `n`. -/
def tileCols (n : ℕ) : Finset (Fin 100000) :=
  Finset.univ.filter fun j => 5000 * n ≤ j.val ∧ j.val < 5000 * n + 5000

/-- The columns core `q` has seen after its tiles `0 … i`. -/
def seen (q : Fin 2) (i : ℕ) : Finset (Fin 100000) :=
  Finset.univ.filter fun j => 50000 * q.val ≤ j.val ∧ j.val < 50000 * q.val + 5000 * (i + 1)

theorem tileCols_eq_image (n : ℕ) (hn : n < 20) : tileCols n = Finset.univ.image (tcol n hn) := by
  ext j
  simp only [tileCols, Finset.mem_filter, Finset.mem_univ, true_and, Finset.mem_image]
  constructor
  · rintro ⟨h1, h2⟩
    exact ⟨⟨j.val - 5000 * n, by omega⟩, Fin.ext (by rw [tcol_val]; show 5000 * n + (j.val - 5000 * n) = j.val; omega)⟩
  · rintro ⟨r, rfl⟩
    have := r.isLt
    rw [tcol_val]; omega

theorem tileCols_nonempty (n : ℕ) (hn : n < 20) : (tileCols n).Nonempty :=
  ⟨⟨5000 * n, by omega⟩, by simp only [tileCols, Finset.mem_filter, Finset.mem_univ, true_and]; omega⟩

theorem seen_nonempty (q : Fin 2) (i : ℕ) : (seen q i).Nonempty :=
  ⟨⟨50000 * q.val, by have := q.isLt; omega⟩, by simp only [seen, Finset.mem_filter, Finset.mem_univ, true_and]; omega⟩

theorem seen_zero (q : Fin 2) : seen q 0 = tileCols (10 * q.val) := by
  ext j
  simp only [seen, tileCols, Finset.mem_filter, Finset.mem_univ, true_and]
  omega

theorem seen_succ (q : Fin 2) (i : ℕ) : seen q (i + 1) = seen q i ∪ tileCols (10 * q.val + (i + 1)) := by
  ext j
  simp only [seen, tileCols, Finset.mem_union, Finset.mem_filter, Finset.mem_univ, true_and]
  omega

theorem seen_disjoint (q : Fin 2) (i : ℕ) : Disjoint (seen q i) (tileCols (10 * q.val + (i + 1))) :=
  Finset.disjoint_left.2 fun j h1 h2 => by
    simp only [seen, tileCols, Finset.mem_filter, Finset.mem_univ, true_and] at h1 h2
    omega

theorem seen_nine (q : Fin 2) : seen q 9 = cols q := by
  ext j
  simp only [seen, cols, Finset.mem_filter, Finset.mem_univ, true_and]
  have := j.isLt
  omega

/-- A sum over a tile's columns is the sum over its lanes. -/
theorem sum_tileCols (n : ℕ) (hn : n < 20) (f : Fin 100000 → ℝ) :
    ∑ j ∈ tileCols n, f j = ∑ r : Fin 5000, f (tcol n hn r) := by
  rw [tileCols_eq_image n hn, Finset.sum_image fun a _ b _ h => tcol_injective n hn h]

/-- A maximum over a tile's columns is the maximum over its lanes. -/
theorem sup'_tileCols (n : ℕ) (hn : n < 20) (f : Fin 100000 → ℝ) :
    (tileCols n).sup' (tileCols_nonempty n hn) f = Finset.univ.sup' lanesNE fun r => f (tcol n hn r) := by
  refine (Finset.sup'_congr (tileCols_nonempty n hn) (tileCols_eq_image n hn) fun _ _ => rfl).trans ?_
  exact Finset.sup'_image _ f

/-! ## The statistics over the columns seen, and their recurrence -/

variable (z : Fin 100000 → ℝ)

/-- The maximum, the sum of `exp (z - maximum)` and the sum of `z` over the columns core `q` has seen after tile `i`. -/
def sMax (q : Fin 2) (i : ℕ) : ℝ := (seen q i).sup' (seen_nonempty q i) z
def sSumExp (q : Fin 2) (i : ℕ) : ℝ := ∑ j ∈ seen q i, Real.exp (z j - sMax z q i)
def sSum (q : Fin 2) (i : ℕ) : ℝ := ∑ j ∈ seen q i, z j

/-- A tile's own maximum. -/
def tMax (n : ℕ) (hn : n < 20) : ℝ := Finset.univ.sup' lanesNE fun r => z (tcol n hn r)

theorem sMax_zero (q : Fin 2) (hn : 10 * q.val < 20) : sMax z q 0 = tMax z (10 * q.val) hn := by
  unfold sMax tMax
  refine (Finset.sup'_congr (seen_nonempty q 0) (seen_zero q) fun _ _ => rfl).trans ?_
  exact sup'_tileCols _ hn z

theorem sSumExp_zero (q : Fin 2) (hn : 10 * q.val < 20) :
    sSumExp z q 0 = ∑ r : Fin 5000, Real.exp (z (tcol (10 * q.val) hn r) - tMax z (10 * q.val) hn) := by
  unfold sSumExp
  rw [sMax_zero z q hn, seen_zero, sum_tileCols _ hn]

theorem sSum_zero (q : Fin 2) (hn : 10 * q.val < 20) : sSum z q 0 = ∑ r : Fin 5000, z (tcol (10 * q.val) hn r) := by
  unfold sSum
  rw [seen_zero, sum_tileCols _ hn]

theorem sMax_succ (q : Fin 2) (i : ℕ) (hn : 10 * q.val + (i + 1) < 20) :
    sMax z q (i + 1) = max (sMax z q i) (tMax z (10 * q.val + (i + 1)) hn) := by
  unfold sMax tMax
  refine (Finset.sup'_congr (seen_nonempty q (i + 1)) (seen_succ q i) fun _ _ => rfl).trans ?_
  refine (Finset.sup'_union (seen_nonempty q i) (tileCols_nonempty _ hn) z).trans ?_
  rw [sup'_tileCols _ hn]

theorem sSumExp_succ (q : Fin 2) (i : ℕ) (hn : 10 * q.val + (i + 1) < 20) :
    sSumExp z q (i + 1) = Real.exp (sMax z q i - sMax z q (i + 1)) * sSumExp z q i
      + ∑ r : Fin 5000, Real.exp (z (tcol (10 * q.val + (i + 1)) hn r) - sMax z q (i + 1)) := by
  unfold sSumExp
  rw [seen_succ, Finset.sum_union (seen_disjoint q i), sum_tileCols _ hn, Finset.mul_sum]
  refine congrArg₂ (· + ·) (Finset.sum_congr rfl fun j _ => ?_) rfl
  rw [← Real.exp_add]
  exact congrArg Real.exp (by ring)

theorem sSum_succ (q : Fin 2) (i : ℕ) (hn : 10 * q.val + (i + 1) < 20) :
    sSum z q (i + 1) = sSum z q i + ∑ r : Fin 5000, z (tcol (10 * q.val + (i + 1)) hn r) := by
  unfold sSum
  rw [seen_succ, Finset.sum_union (seen_disjoint q i), sum_tileCols _ hn]

theorem sMax_nine (q : Fin 2) : sMax z q 9 = cMax z q :=
  Finset.sup'_congr (seen_nonempty q 9) (seen_nine q) fun _ _ => rfl

theorem sSumExp_nine (q : Fin 2) : sSumExp z q 9 = cSumExp z q := by
  unfold sSumExp cSumExp
  rw [sMax_nine, seen_nine]

theorem sSum_nine (q : Fin 2) : sSum z q 9 = cSum z q := by
  unfold sSum cSum
  rw [seen_nine]

/-! ## One step at a row, in the extended reals -/

section Step
variable (x : Vec Ideal S256x256 .f32) (fb : Vec Ideal S5000x256 .f32) (b : Fin 256)

/-- The step at row `b` over a tile of real logits `zt`, from real statistics `(m, l, s)`. -/
theorem step_real (st : Stat Ideal × Stat Ideal × Stat Ideal) (zt : Fin 5000 → ℝ) (m l s : ℝ)
    (hz : ∀ r, k0_pay6 x fb (ix2 b r) = ((zt r : ℝ) : EReal))
    (h1 : st.1 (ix3 0 b 0) = ((m : ℝ) : EReal)) (h2 : st.2.1 (ix3 0 b 0) = ((l : ℝ) : EReal))
    (h3 : st.2.2 (ix3 0 b 0) = ((s : ℝ) : EReal)) :
    (ceStep x fb st).1 (ix3 0 b 0) = ((max m (Finset.univ.sup' lanesNE zt) : ℝ) : EReal)
    ∧ (ceStep x fb st).2.1 (ix3 0 b 0)
        = ((Real.exp (m - max m (Finset.univ.sup' lanesNE zt)) * l
            + ∑ r, Real.exp (zt r - max m (Finset.univ.sup' lanesNE zt)) : ℝ) : EReal)
    ∧ (ceStep x fb st).2.2 (ix3 0 b 0) = ((s + ∑ r, zt r : ℝ) : EReal) := by
  have h7 : k0_pay7 x fb st.1 (ix2 b 0) = ((max m (Finset.univ.sup' lanesNE zt) : ℝ) : EReal) := by
    rw [pay7_apply, h1, coe_max, ← fold_max_coe Finset.univ lanesNE zt]
    exact congrArg (max (m : EReal)) (Finset.fold_congr fun r _ => hz r)
  refine ⟨?_, ?_, ?_⟩
  · show k0_pay2 (k0_pay7 x fb st.1) (ix3 0 b 0) = _
    rw [pay2_apply, h7]
  · show k0_pay8 x fb st.1 st.1 st.2.1 (ix3 0 b 0) = _
    rw [pay8_apply, h7, h1, h2, EReal.coe_add, EReal.coe_mul, coe_sum]
    refine congrArg₂ (· + ·) ?_ (Finset.sum_congr rfl fun r _ => ?_)
    · rw [← EReal.coe_sub, Ideal.exp_coe]
    · rw [hz r, ← EReal.coe_sub, Ideal.exp_coe]
  · show k0_pay1 (k0_pay6 x fb) st.2.2 (ix3 0 b 0) = _
    rw [pay1_apply, h3, EReal.coe_add, coe_sum]
    exact congrArg ((s : EReal) + ·) (Finset.sum_congr rfl fun r _ => hz r)

/-- The first step of a core at row `b`: from `(−∞, 0, 0)` the tile's own statistics. -/
theorem step_init (zt : Fin 5000 → ℝ) (hz : ∀ r, k0_pay6 x fb (ix2 b r) = ((zt r : ℝ) : EReal)) :
    (ceStep x fb (ceInit (F := Ideal))).1 (ix3 0 b 0) = ((Finset.univ.sup' lanesNE zt : ℝ) : EReal)
    ∧ (ceStep x fb (ceInit (F := Ideal))).2.1 (ix3 0 b 0)
        = ((∑ r, Real.exp (zt r - Finset.univ.sup' lanesNE zt) : ℝ) : EReal)
    ∧ (ceStep x fb (ceInit (F := Ideal))).2.2 (ix3 0 b 0) = ((∑ r, zt r : ℝ) : EReal) := by
  have h7 : k0_pay7 x fb (k0_pay3 (F := Ideal)) (ix2 b 0) = ((Finset.univ.sup' lanesNE zt : ℝ) : EReal) := by
    rw [pay7_apply, pay3_apply, max_bot_left, ← fold_max_coe Finset.univ lanesNE zt]
    exact Finset.fold_congr fun r _ => hz r
  refine ⟨?_, ?_, ?_⟩
  · show k0_pay2 (k0_pay7 x fb (k0_pay3 (F := Ideal))) (ix3 0 b 0) = _
    rw [pay2_apply, h7]
  · show k0_pay8 x fb (k0_pay3 (F := Ideal)) (k0_pay3 (F := Ideal)) (k0_pay4 (F := Ideal)) (ix3 0 b 0) = _
    rw [pay8_apply, h7, pay3_apply, pay4_apply, EReal.bot_sub, Ideal.exp_bot, zero_mul, zero_add, coe_sum]
    exact Finset.sum_congr rfl fun r _ => by rw [hz r, ← EReal.coe_sub, Ideal.exp_coe]
  · show k0_pay1 (k0_pay6 x fb) (k0_pay5 (F := Ideal)) (ix3 0 b 0) = _
    rw [pay1_apply, pay5_apply, zero_add, coe_sum]
    exact Finset.sum_congr rfl fun r _ => hz r

end Step

/-! ## The chain -/

section Chain
variable (xb : ℕ → Vec Ideal S256x256 .f32) (fb : ℕ → Vec Ideal S5000x256 .f32)

/-- At the first tile of a core the chain starts over. -/
theorem ceChain_restart (n : ℕ) (h : n % 10 = 0) : ceChain xb fb n = ceStep (xb n) (fb n) ceInit := by
  cases n with
  | zero => rfl
  | succ k =>
    show ceStep (xb (k + 1)) (fb (k + 1)) (if (k + 1) % 10 = 0 then ceInit else ceChain xb fb k) = _
    rw [if_pos h]

/-- Elsewhere it steps from the tile before. -/
theorem ceChain_cont (n : ℕ) (h : (n + 1) % 10 ≠ 0) :
    ceChain xb fb (n + 1) = ceStep (xb (n + 1)) (fb (n + 1)) (ceChain xb fb n) := by
  show ceStep (xb (n + 1)) (fb (n + 1)) (if (n + 1) % 10 = 0 then ceInit else ceChain xb fb n) = _
  rw [if_neg h]

variable (xr : Fin 256 → Fin 256 → ℝ) (fr : Fin 100000 → Fin 256 → ℝ)
  (hx : ∀ (n : ℕ) (b k : Fin 256), xb n (ix2 b k) = ((xr b k : ℝ) : EReal))
  (hf : ∀ (n : ℕ) (hn : n < 20) (r : Fin 5000) (k : Fin 256), fb n (ix2 r k) = ((fr (tcol n hn r) k : ℝ) : EReal))
include hx hf

/-- Tile `n`'s logits at row `b` are the real logits of the tile's columns. -/
theorem logits_tile (n : ℕ) (hn : n < 20) (b : Fin 256) (r : Fin 5000) :
    k0_pay6 (xb n) (fb n) (ix2 b r) = ((logitK xr fr b (tcol n hn r) : ℝ) : EReal) := by
  rw [pay6_apply]
  show _ = ((dotR xr fr b (tcol n hn r) * invTemp : ℝ) : EReal)
  rw [EReal.coe_mul]
  congr 1
  unfold dotR
  rw [coe_sum]
  exact Finset.sum_congr rfl fun k _ => by rw [hx, hf n hn, EReal.coe_mul]

/-- After tile `i` of core `q` the statistics at row `b` are those of the columns seen. -/
theorem chain_inv (q : Fin 2) (b : Fin 256) (i : ℕ) (hi : i < 10) :
    (ceChain xb fb (10 * q.val + i)).1 (ix3 0 b 0) = ((sMax (logitK xr fr b) q i : ℝ) : EReal)
    ∧ (ceChain xb fb (10 * q.val + i)).2.1 (ix3 0 b 0) = ((sSumExp (logitK xr fr b) q i : ℝ) : EReal)
    ∧ (ceChain xb fb (10 * q.val + i)).2.2 (ix3 0 b 0) = ((sSum (logitK xr fr b) q i : ℝ) : EReal) := by
  induction i with
  | zero =>
    have hn : 10 * q.val < 20 := by have := q.isLt; omega
    rw [show ceChain xb fb (10 * q.val + 0) = _ from ceChain_restart xb fb (10 * q.val) (by omega),
      sMax_zero _ q hn, sSumExp_zero _ q hn, sSum_zero _ q hn]
    exact step_init (xb _) (fb _) b (fun r => logitK xr fr b (tcol _ hn r)) fun r => logits_tile xb fb xr fr hx hf _ hn b r
  | succ i ih =>
    have hn : 10 * q.val + (i + 1) < 20 := by have := q.isLt; omega
    obtain ⟨h1, h2, h3⟩ := ih (by omega)
    rw [show ceChain xb fb (10 * q.val + (i + 1)) = _ from ceChain_cont xb fb (10 * q.val + i) (by omega),
      sSumExp_succ _ q i hn, sSum_succ _ q i hn, sMax_succ _ q i hn]
    exact step_real (xb _) (fb _) b _ (fun r => logitK xr fr b (tcol _ hn r)) _ _ _
      (fun r => logits_tile xb fb xr fr hx hf _ hn b r) h1 h2 h3

end Chain

/-- With the blocks holding real numbers — every point's `x` block the array `xr`, point n's bank block the rows
    5000 n … 5000 n + 4999 of `fr` —, the statistics after the last tile of core `q` are, at row `b`, the maximum, the sum
    of `exp (z - maximum)` and the sum of the core's logits `z j = (Σ_k xr b k · fr j k) · invTemp`. -/
theorem ceChain_value (xb : ℕ → Vec Ideal S256x256 .f32) (fb : ℕ → Vec Ideal S5000x256 .f32)
    (xr : Fin 256 → Fin 256 → ℝ) (fr : Fin 100000 → Fin 256 → ℝ)
    (hx : ∀ (n : ℕ) (b k : Fin 256), xb n (ix2 b k) = ((xr b k : ℝ) : EReal))
    (hf : ∀ (n : ℕ) (hn : n < 20) (r : Fin 5000) (k : Fin 256), fb n (ix2 r k) = ((fr (tcol n hn r) k : ℝ) : EReal))
    (q : Fin 2) (b : Fin 256) :
    (ceChain xb fb (10 * q.val + 9)).1 (ix3 0 b 0) = ((cMax (logitK xr fr b) q : ℝ) : EReal)
    ∧ (ceChain xb fb (10 * q.val + 9)).2.1 (ix3 0 b 0) = ((cSumExp (logitK xr fr b) q : ℝ) : EReal)
    ∧ (ceChain xb fb (10 * q.val + 9)).2.2 (ix3 0 b 0) = ((cSum (logitK xr fr b) q : ℝ) : EReal) := by
  have h := chain_inv xb fb xr fr hx hf q b 9 (by decide)
  rw [sMax_nine, sSumExp_nine, sSum_nine] at h
  exact h

end Cert.KernelIdeal.R0V

end
-- ==== Proof.R12Value.lean ====
/-
  The two triplet kernels' chains in closed form: after the ten tiles of core q, row b holds that core's maxima over positives and negatives and the positive-seen flag (row-maximum kernel), and that core's two thresholded sums (thresholded-sum kernel).
-/
import proofs.«411386_j43001212567993_2_alg».proof.Proof.Steps
import proofs.«411386_j43001212567993_2_alg».proof.Proof.Spec
import Idealize.ShloMosaic.PureOps.Ideal.Laws
import Idealize.ShloMosaic.PureOps.IdealRules
import Idealize.ShloMosaic.Lib.Pipeline.Value
import Idealize.ShloMosaic.Lib.ValueIdx
import Idealize.ShloMosaic.Lib.ValueLayout

noncomputable section

namespace Cert.KernelIdeal.R12V

open Idealize.ShloMosaic Idealize.ShloMosaic.ValueIdx
open Cert.KernelIdeal Cert.KernelIdeal.Gen Cert.KernelIdeal.Steps Cert.Spec

/-! ## Layout operations at explicit coordinates -/

section Layout
variable {α : Type}

/-- A vector of 256 entries cast to a 256 × 1 column reads, at (b, 0), entry b. -/
theorem col_of_vec (v : S256.Idx → α) (h : S256.ShapeCasts S256x1) (b : Fin 256) (z : Fin 1) :
    shapeCast S256x1 v h (ix2 b z) = v (ix1 b) :=
  shapeCast_apply v h _ _ (by
    have hz : z.val = 0 := by omega
    rw [Shape.rowMajor_val_one, Shape.rowMajor_val_two]
    show b.val = b.val * 1 + z.val
    omega)

/-- A 256 × 1 column broadcast along 5000 lanes reads, at (b, r), the column's entry (b, 0). -/
theorem bcast_col (v : S256x1.Idx → α) (h : S256x1.Broadcasts S256x5000) (b : Fin 256) (r : Fin 5000) :
    broadcastTo S256x5000 v h (ix2 b r) = v (ix2 b (0 : Fin 1)) := by
  refine broadcastTo_apply v h (ix2 b r) (ix2 b (0 : Fin 1)) fun ax => ?_
  match ax with
  | ⟨0, _⟩ => rfl
  | ⟨1, _⟩ => rfl

/-- The lane reduction's inserted index: row b with lane r. -/
theorem lift_row (h : S256x5000.Reduces [1] S256) (b : Fin 256) (r : Fin 5000) :
    h.lift (ix1 b) r = ix2 b r := by
  funext a
  refine Fin.ext ?_
  match a with
  | ⟨0, _⟩ => rfl
  | ⟨1, _⟩ => rfl

end Layout

/-! ## The literal words -/

theorem ofBits_ninf : Ideal.ofBits .f32 0xFF800000#32 = ⊥ := by simp [Ideal.ofBits, Ideal.ieee]
theorem ofBits_one : Ideal.ofBits .f32 0x3F800000#32 = 1 := IdealRules.sign_bit.ideal_onePat .f32

/-! ## The similarity tile: the matrix product at an index -/

theorem lhs_ax0 (i : S256x5000.Idx) (q : dot_S256x256_S256x5000_S256x5000_1_0_0_1_n_n.contr.Idx) :
    (dot_S256x256_S256x5000_S256x5000_1_0_0_1_n_n.lhsIdx i q 0).val = (i 0).val := by
  unfold DotDims.lhsIdx
  rw [dif_neg (show ¬(0 : Fin S256x256.rank) ∈ dot_S256x256_S256x5000_S256x5000_1_0_0_1_n_n.lhsBatch by decide), dif_pos (show (0 : Fin S256x256.rank) ∈ dot_S256x256_S256x5000_S256x5000_1_0_0_1_n_n.lhsNonContracting by decide)]
  rfl
theorem lhs_ax1 (i : S256x5000.Idx) (q : dot_S256x256_S256x5000_S256x5000_1_0_0_1_n_n.contr.Idx) :
    (dot_S256x256_S256x5000_S256x5000_1_0_0_1_n_n.lhsIdx i q 1).val = (q ⟨0, by decide⟩).val :=
  dot_S256x256_S256x5000_S256x5000_1_0_0_1_n_n.lhsIdx_val_of_single rfl i q
theorem rhs_ax0 (i : S256x5000.Idx) (q : dot_S256x256_S256x5000_S256x5000_1_0_0_1_n_n.contr.Idx) :
    (dot_S256x256_S256x5000_S256x5000_1_0_0_1_n_n.rhsIdx i q 0).val = (q ⟨0, by decide⟩).val :=
  dot_S256x256_S256x5000_S256x5000_1_0_0_1_n_n.rhsIdx_val_of_single rfl i q
theorem rhs_ax1 (i : S256x5000.Idx) (q : dot_S256x256_S256x5000_S256x5000_1_0_0_1_n_n.contr.Idx) :
    (dot_S256x256_S256x5000_S256x5000_1_0_0_1_n_n.rhsIdx i q 1).val = (i 1).val := by
  unfold DotDims.rhsIdx
  rw [dif_neg (show ¬(1 : Fin S256x5000.rank) ∈ dot_S256x256_S256x5000_S256x5000_1_0_0_1_n_n.rhsBatch by decide), dif_pos (show (1 : Fin S256x5000.rank) ∈ dot_S256x256_S256x5000_S256x5000_1_0_0_1_n_n.rhsNonContracting by decide)]
  rfl

/-- The product into the zero accumulator at (b, r): the sum over the contracted coordinate. -/
theorem matmul_at (l : FVec Ideal S256x256 .bf16) (rt : FVec Ideal S256x5000 .bf16) (b : Fin 256) (r : Fin 5000) :
    matmul dot_S256x256_S256x5000_S256x5000_1_0_0_1_n_n none l rt (constant (F := Ideal) S256x5000 .f32 0x00000000#32) (ix2 b r)
      = ∑ k : Fin 256, l (ix2 b k) * rt (ix2 k r) := by
  simp only [matmul]
  rw [Ideal.matmul_constant_zero_apply, ← Equiv.sum_comp (contrEquiv1 dot_S256x256_S256x5000_S256x5000_1_0_0_1_n_n 256 rfl rfl).symm]
  refine Finset.sum_congr rfl fun k _ => ?_
  have hk := contrEquiv1_symm_val dot_S256x256_S256x5000_S256x5000_1_0_0_1_n_n 256 rfl rfl k
  have el : dot_S256x256_S256x5000_S256x5000_1_0_0_1_n_n.lhsIdx (ix2 b r) ((contrEquiv1 dot_S256x256_S256x5000_S256x5000_1_0_0_1_n_n 256 rfl rfl).symm k) = ix2 b k := funext fun a => Fin.ext (by
    match a with
    | ⟨0, _⟩ => exact lhs_ax0 _ _
    | ⟨1, _⟩ => exact (lhs_ax1 _ _).trans hk)
  have er : dot_S256x256_S256x5000_S256x5000_1_0_0_1_n_n.rhsIdx (ix2 b r) ((contrEquiv1 dot_S256x256_S256x5000_S256x5000_1_0_0_1_n_n 256 rfl rfl).symm k) = ix2 k r := funext fun a => Fin.ext (by
    match a with
    | ⟨0, _⟩ => exact (rhs_ax0 _ _).trans hk
    | ⟨1, _⟩ => exact rhs_ax1 _ _)
  rw [el, er]

/-- The row-maximum kernel's similarity tile at (b, r): row b of the block against bank row r of the tile. -/
theorem pay7_apply (x : Vec Ideal S256x256 .f32) (fb : Vec Ideal S5000x256 .f32) (b : Fin 256) (r : Fin 5000) :
    k1_pay7 x fb (ix2 b r) = ∑ k : Fin 256, x (ix2 b k) * fb (ix2 r k) := by
  unfold k1_pay7
  refine (matmul_at _ _ b r).trans ?_
  refine Finset.sum_congr rfl fun k _ => ?_
  refine congrArg₂ (· * ·) ?_ ?_
  · exact congrFun (shapeCast_self x shapeCasts_S256x256_S256x256) (ix2 b k)
  · exact transpose_ix2_apply (truncf (F := Ideal) .bf16 fb bitsLt_bf16_f32) transposes_S5000x256_p1_0_S256x5000 k r

/-- The thresholded-sum kernel's similarity tile is the same term. -/
theorem pay5_eq (x : Vec Ideal S256x256 .f32) (fb : Vec Ideal S5000x256 .f32) : k2_pay5 x fb = k1_pay7 x fb := rfl

/-! ## The label mask at an index -/

/-- The mask at (b, r): the bit "target of row b equals label of bank row r". -/
theorem pay8_apply (lb : Vec Ideal S5000x1 .i32) (tg : Vec Ideal S256x1 .i32) (b : Fin 256) (r : Fin 5000) :
    k1_pay8 (F := Ideal) lb tg (ix2 b r) = IntOp.cmpi .eq (tg (ix2 b (0 : Fin 1))) (lb (ix2 r (0 : Fin 1))) := by
  unfold k1_pay8
  refine congrArg₂ (IntOp.cmpi .eq) ?_ ?_
  · refine (bcast_col _ broadcasts_S256x1_S256x5000 b r).trans ?_
    exact congrFun (shapeCast_self tg shapeCasts_S256x1_S256x1) _
  · refine (broadcastTo_1b_ab_apply _ broadcasts_S1x5000_S256x5000 b r).trans ?_
    refine (transpose_ix2_apply _ transposes_S5000x1_p1_0_S1x5000 (0 : Fin 1) r).trans ?_
    exact congrFun (shapeCast_self lb shapeCasts_S5000x1_S5000x1) _

theorem pay6_eq (lb : Vec Ideal S5000x1 .i32) (tg : Vec Ideal S256x1 .i32) : k2_pay6 (F := Ideal) lb tg = k1_pay8 (F := Ideal) lb tg := rfl

/-! ## Bits and selections -/

theorem select_cmpi_eq {α : Type} (t l : BitVec 32) (A B : α) :
    Scalar.select (IntOp.cmpi .eq t l) A B = if t = l then A else B := by
  unfold Scalar.select
  exact if_congr IntOp.cmpi_eq rfl rfl

theorem xori_one_eq_one : ∀ c : BitVec 1, IntOp.xori c 1#1 = 1#1 ↔ ¬ c = 1#1 := by decide

theorem select_not_cmpi_eq {α : Type} (t l : BitVec 32) (A B : α) :
    Scalar.select (IntOp.xori (IntOp.cmpi .eq t l) 1#1) A B = if t = l then B else A := by
  unfold Scalar.select
  by_cases h : t = l
  · rw [if_pos h]; exact if_neg (fun h1 => (xori_one_eq_one _).mp h1 (IntOp.cmpi_eq.mpr h))
  · rw [if_neg h]; exact if_pos ((xori_one_eq_one _).mpr fun h1 => h (IntOp.cmpi_eq.mp h1))

theorem select_andi {α : Type} (c d : BitVec 1) (A B : α) :
    Scalar.select (IntOp.andi c d) A B = if c = 1#1 ∧ d = 1#1 then A else B := by
  unfold Scalar.select
  exact if_congr IntOp.andi_eq_one rfl rfl

theorem cmp_olt_eq_one (x y : EReal) : Ideal.cmp .olt x y = 1#1 ↔ x < y := by
  by_cases h : x < y <;> simp [Ideal.cmp, h]

theorem cmp_ogt_eq_one (x y : EReal) : Ideal.cmp .ogt x y = 1#1 ↔ y < x := by
  by_cases h : y < x <;> simp [Ideal.cmp, h]

/-- A comparison bit widened to a word and converted: 1 when the comparison holds, else 0. -/
theorem flag_value (M : EReal) :
    FloatOps.sitofp (F := Ideal) .f32 ((Ideal.cmp .ogt M 0).setWidth 32) = if 0 < M then 1 else 0 := by
  show (((((Ideal.cmp .ogt M 0).setWidth 32).toInt : ℤ) : ℝ) : EReal) = _
  by_cases h : 0 < M
  · have hc : Ideal.cmp .ogt M 0 = 1#1 := (cmp_ogt_eq_one M 0).mpr h
    have e1 : ((1#1 : BitVec 1).setWidth 32).toInt = 1 := by decide
    rw [hc, if_pos h, e1]; simp
  · have hc : Ideal.cmp .ogt M 0 = 0#1 := eq_zero_of_ne_one fun h1 => h ((cmp_ogt_eq_one M 0).mp h1)
    have e0 : ((0#1 : BitVec 1).setWidth 32).toInt = 0 := by decide
    rw [hc, if_neg h, e0]; simp

/-! ## Lane reductions of a 256 × 5000 tile, row by row -/

/-- The lane maximum from -∞ at row b: the supremum over the 5000 lanes. -/
theorem lane_max (src : FVec Ideal S256x5000 .f32) (b : Fin 256) :
    multiReduction (F := Ideal) .maximumf [1] S256 src 0xFF800000#32 reduces_S256x5000_S256 (.inl rfl) rfl (ix1 b)
      = Finset.univ.sup fun r : Fin 5000 => src (ix2 b r) := by
  refine (Ideal.multiReduction_maximumf_single src 0xFF800000#32 reduces_S256x5000_S256 (.inl rfl) rfl (ix1 b)).trans ?_
  show (Finset.univ : Finset (Fin 5000)).fold max (Ideal.ofBits .f32 0xFF800000#32) _ = _
  rw [ofBits_ninf]
  show (Finset.univ : Finset (Fin 5000)).sup _ = _
  refine Finset.sup_congr rfl fun r _ => ?_
  exact congrArg src (lift_row reduces_S256x5000_S256 b r)

/-- The lane sum at row b: the sum over the 5000 lanes. -/
theorem lane_sum (src : FVec Ideal S256x5000 .f32) (b : Fin 256) :
    multiReduction (F := Ideal) .add [1] S256 src 0x00000000#32 reduces_S256x5000_S256 (.inl rfl) rfl (ix1 b)
      = ∑ r : Fin 5000, src (ix2 b r) := by
  refine (Ideal.multiReduction_add_single src 0x00000000#32 reduces_S256x5000_S256 (.inl rfl) rfl (ix1 b)).trans ?_
  show ∑ r : Fin 5000, _ = _
  refine Finset.sum_congr rfl fun r _ => ?_
  exact congrArg src (lift_row reduces_S256x5000_S256 b r)

/-- "Entry b is above zero", widened and converted, as a 256 × 1 column: 1 when it is, else 0. -/
theorem flag_vec (M : FVec Ideal S256 .f32) (b : Fin 256) (z : Fin 1) :
    sitofp (F := Ideal) .f32 (extui 32 (shapeCast S256x1 (cmpf .ogt M
      (broadcast S256 (Scalar.ofBits (F := Ideal) .f32 0x00000000#32))) shapeCasts_S256_S256x1) natLt_1_32) (ix2 b z)
      = if 0 < M (ix1 b) then 1 else 0 := by
  refine Eq.trans (congrArg (fun w : BitVec 1 => FloatOps.sitofp (F := Ideal) .f32 (w.setWidth 32))
    (col_of_vec _ shapeCasts_S256_S256x1 b z)) ?_
  show FloatOps.sitofp (F := Ideal) .f32 ((Ideal.cmp .ogt (M (ix1 b)) (Ideal.ofBits .f32 0x00000000#32)).setWidth 32) = _
  rw [Ideal.ofBits_zero_f32]
  exact flag_value _

/-! ## The row-maximum kernel's three tile statistics at row b -/

/-- The tile's maximum over the positives. -/
theorem pay10_apply (x : Vec Ideal S256x256 .f32) (fb : Vec Ideal S5000x256 .f32) (lb : Vec Ideal S5000x1 .i32)
    (tg : Vec Ideal S256x1 .i32) (b : Fin 256) (z : Fin 1) :
    k1_pay10 x fb lb tg (ix2 b z)
      = Finset.univ.sup fun r : Fin 5000 =>
          if tg (ix2 b (0 : Fin 1)) = lb (ix2 r (0 : Fin 1)) then ∑ k : Fin 256, x (ix2 b k) * fb (ix2 r k) else ⊥ := by
  unfold k1_pay10
  refine (col_of_vec _ shapeCasts_S256_S256x1 b z).trans ?_
  refine (lane_max _ b).trans ?_
  refine Finset.sup_congr rfl fun r _ => ?_
  refine (select_apply _ _ _ _).trans ?_
  rw [pay8_apply, pay7_apply, select_cmpi_eq]
  show (if _ then _ else Ideal.ofBits .f32 0xFF800000#32) = _
  rw [ofBits_ninf]

/-- The tile's maximum over the negatives. -/
theorem pay9_apply (x : Vec Ideal S256x256 .f32) (fb : Vec Ideal S5000x256 .f32) (lb : Vec Ideal S5000x1 .i32)
    (tg : Vec Ideal S256x1 .i32) (b : Fin 256) (z : Fin 1) :
    k1_pay9 x fb lb tg (ix2 b z)
      = Finset.univ.sup fun r : Fin 5000 =>
          if tg (ix2 b (0 : Fin 1)) = lb (ix2 r (0 : Fin 1)) then ⊥ else ∑ k : Fin 256, x (ix2 b k) * fb (ix2 r k) := by
  unfold k1_pay9
  refine (col_of_vec _ shapeCasts_S256_S256x1 b z).trans ?_
  refine (lane_max _ b).trans ?_
  refine Finset.sup_congr rfl fun r _ => ?_
  refine (select_apply _ _ _ _).trans ?_
  show Scalar.select (IntOp.xori (k1_pay8 (F := Ideal) lb tg (ix2 b r)) 1#1) (k1_pay7 x fb (ix2 b r))
    (Ideal.ofBits .f32 0xFF800000#32) = _
  rw [pay8_apply, pay7_apply, select_not_cmpi_eq, ofBits_ninf]

/-- The tile's flag: 1 when the tile holds a positive of row b, else 0. -/
theorem pay11_apply (lb : Vec Ideal S5000x1 .i32) (tg : Vec Ideal S256x1 .i32) (b : Fin 256) (z : Fin 1) :
    k1_pay11 (F := Ideal) lb tg (ix2 b z)
      = if ∃ r : Fin 5000, tg (ix2 b (0 : Fin 1)) = lb (ix2 r (0 : Fin 1)) then 1 else 0 := by
  unfold k1_pay11
  refine (flag_vec _ b z).trans ?_
  refine Eq.trans (congrArg (fun m : EReal => if 0 < m then (1 : EReal) else 0) (lane_max _ b)) ?_
  refine if_congr ?_ rfl rfl
  rw [Finset.lt_sup_iff]
  constructor
  · rintro ⟨r, _, hr⟩
    refine ⟨r, ?_⟩
    by_contra hne
    have h0 : select (k1_pay8 (F := Ideal) lb tg) (broadcast S256x5000 (Scalar.ofBits (F := Ideal) .f32 0x3F800000#32))
        (broadcast S256x5000 (Scalar.ofBits (F := Ideal) .f32 0x00000000#32)) (ix2 b r) = 0 := by
      refine (select_apply _ _ _ _).trans ?_
      rw [pay8_apply, select_cmpi_eq, if_neg hne]
      exact Ideal.ofBits_zero_f32
    rw [h0] at hr
    exact lt_irrefl _ hr
  · rintro ⟨r, hr⟩
    refine ⟨r, Finset.mem_univ _, ?_⟩
    have h1 : select (k1_pay8 (F := Ideal) lb tg) (broadcast S256x5000 (Scalar.ofBits (F := Ideal) .f32 0x3F800000#32))
        (broadcast S256x5000 (Scalar.ofBits (F := Ideal) .f32 0x00000000#32)) (ix2 b r) = 1 := by
      refine (select_apply _ _ _ _).trans ?_
      rw [pay8_apply, select_cmpi_eq, if_pos hr]
      exact ofBits_one
    rw [h1]
    exact zero_lt_one

/-! ## The thresholded-sum kernel's tile terms at (b, r) -/

/-- The positives' term: 1 - similarity where the column is a positive below the cut, else 0. -/
theorem k2pay9_apply (x : Vec Ideal S256x256 .f32) (fb : Vec Ideal S5000x256 .f32) (lb : Vec Ideal S5000x1 .i32)
    (tg : Vec Ideal S256x1 .i32) (pc : Vec Ideal S256x1 .f32) (b : Fin 256) (r : Fin 5000) :
    k2_pay9 x fb lb tg pc (ix2 b r)
      = if tg (ix2 b (0 : Fin 1)) = lb (ix2 r (0 : Fin 1))
            ∧ (∑ k : Fin 256, x (ix2 b k) * fb (ix2 r k)) < pc (ix2 b (0 : Fin 1))
        then oneW - ∑ k : Fin 256, x (ix2 b k) * fb (ix2 r k) else 0 := by
  unfold k2_pay9
  refine (select_apply _ _ _ _).trans ?_
  show Scalar.select (IntOp.andi (k2_pay6 (F := Ideal) lb tg (ix2 b r))
      (Ideal.cmp .olt (k2_pay5 x fb (ix2 b r))
        (broadcastTo S256x5000 (shapeCast S256x1 pc shapeCasts_S256x1_S256x1) broadcasts_S256x1_S256x5000 (ix2 b r))))
    (Ideal.ofBits .f32 0x3F800000#32 - k2_pay5 x fb (ix2 b r)) (Ideal.ofBits .f32 0x00000000#32) = _
  rw [bcast_col, shapeCast_self, pay6_eq, pay5_eq, pay8_apply, pay7_apply, Ideal.ofBits_zero_f32, select_andi]
  exact if_congr (and_congr IntOp.cmpi_eq (cmp_olt_eq_one _ _)) rfl rfl

/-- The negatives' mask: the column is a negative above the cut. -/
theorem k2pay7_apply (x : Vec Ideal S256x256 .f32) (fb : Vec Ideal S5000x256 .f32) (lb : Vec Ideal S5000x1 .i32)
    (tg : Vec Ideal S256x1 .i32) (nc : Vec Ideal S256x1 .f32) (b : Fin 256) (r : Fin 5000) :
    k2_pay7 x fb lb tg nc (ix2 b r) = 1#1
      ↔ ¬ tg (ix2 b (0 : Fin 1)) = lb (ix2 r (0 : Fin 1))
          ∧ nc (ix2 b (0 : Fin 1)) < ∑ k : Fin 256, x (ix2 b k) * fb (ix2 r k) := by
  unfold k2_pay7
  show IntOp.andi (IntOp.xori (k2_pay6 (F := Ideal) lb tg (ix2 b r)) 1#1)
      (Ideal.cmp .ogt (k2_pay5 x fb (ix2 b r))
        (broadcastTo S256x5000 (shapeCast S256x1 nc shapeCasts_S256x1_S256x1) broadcasts_S256x1_S256x5000 (ix2 b r))) = 1#1 ↔ _
  rw [bcast_col, shapeCast_self, pay6_eq, pay5_eq, pay8_apply, pay7_apply, IntOp.andi_eq_one, xori_one_eq_one,
    IntOp.cmpi_eq, cmp_ogt_eq_one]

/-! ## One tile's step, row by row -/

section Steps
variable (x : Vec Ideal S256x256 .f32) (fb : Vec Ideal S5000x256 .f32) (tg : Vec Ideal S256x1 .i32)
  (lb : Vec Ideal S5000x1 .i32)

theorem tmStep_1 (st : Stat Ideal × Stat Ideal × Stat Ideal) (b : Fin 256) :
    (tmStep x fb tg lb st).1 (ix3 0 b 0)
      = max (st.1 (ix3 0 b 0)) (Finset.univ.sup fun r : Fin 5000 =>
          if tg (ix2 b (0 : Fin 1)) = lb (ix2 r (0 : Fin 1)) then ∑ k : Fin 256, x (ix2 b k) * fb (ix2 r k) else ⊥) := by
  show k1_pay2 (k1_pay10 x fb lb tg) st.1 (ix3 0 b 0) = _
  unfold k1_pay2
  refine (shapeCast_ab_1ab_apply _ shapeCasts_S256x1_S1x256x1 0 b 0).trans ?_
  refine (maximumf_apply _ _ _).trans ?_
  refine congrArg₂ max ?_ ?_
  · exact shapeCast_1ab_ab_apply _ shapeCasts_S1x256x1_S256x1 b 0
  · exact pay10_apply x fb lb tg b 0

theorem tmStep_2 (st : Stat Ideal × Stat Ideal × Stat Ideal) (b : Fin 256) :
    (tmStep x fb tg lb st).2.1 (ix3 0 b 0)
      = max (st.2.1 (ix3 0 b 0)) (Finset.univ.sup fun r : Fin 5000 =>
          if tg (ix2 b (0 : Fin 1)) = lb (ix2 r (0 : Fin 1)) then ⊥ else ∑ k : Fin 256, x (ix2 b k) * fb (ix2 r k)) := by
  show k1_pay1 (k1_pay9 x fb lb tg) st.2.1 (ix3 0 b 0) = _
  unfold k1_pay1
  refine (shapeCast_ab_1ab_apply _ shapeCasts_S256x1_S1x256x1 0 b 0).trans ?_
  refine (maximumf_apply _ _ _).trans ?_
  refine congrArg₂ max ?_ ?_
  · exact shapeCast_1ab_ab_apply _ shapeCasts_S1x256x1_S256x1 b 0
  · exact pay9_apply x fb lb tg b 0

theorem tmStep_3 (st : Stat Ideal × Stat Ideal × Stat Ideal) (b : Fin 256) :
    (tmStep x fb tg lb st).2.2 (ix3 0 b 0)
      = max (st.2.2 (ix3 0 b 0))
          (if ∃ r : Fin 5000, tg (ix2 b (0 : Fin 1)) = lb (ix2 r (0 : Fin 1)) then 1 else 0) := by
  show k1_pay3 (k1_pay11 (F := Ideal) lb tg) st.2.2 (ix3 0 b 0) = _
  unfold k1_pay3
  refine (shapeCast_ab_1ab_apply _ shapeCasts_S256x1_S1x256x1 0 b 0).trans ?_
  refine (maximumf_apply _ _ _).trans ?_
  refine congrArg₂ max ?_ ?_
  · exact shapeCast_1ab_ab_apply _ shapeCasts_S1x256x1_S256x1 b 0
  · exact pay11_apply lb tg b 0

variable (pc nc : Vec Ideal S256x1 .f32)

theorem tsStep_1 (st : Stat Ideal × Stat Ideal) (b : Fin 256) :
    (tsStep x fb tg lb pc nc st).1 (ix3 0 b 0)
      = st.1 (ix3 0 b 0) + ∑ r : Fin 5000,
          if tg (ix2 b (0 : Fin 1)) = lb (ix2 r (0 : Fin 1))
              ∧ (∑ k : Fin 256, x (ix2 b k) * fb (ix2 r k)) < pc (ix2 b (0 : Fin 1))
          then oneW - ∑ k : Fin 256, x (ix2 b k) * fb (ix2 r k) else 0 := by
  show k2_pay1 (k2_pay8 st.1) (k2_pay9 x fb lb tg pc) (ix3 0 b 0) = _
  unfold k2_pay1
  refine (shapeCast_ab_1ab_apply _ shapeCasts_S256x1_S1x256x1 0 b 0).trans ?_
  refine (addf_apply _ _ _).trans ?_
  refine congrArg₂ (· + ·) ?_ ?_
  · unfold k2_pay8
    exact shapeCast_1ab_ab_apply _ shapeCasts_S1x256x1_S256x1 b 0
  · refine (col_of_vec _ shapeCasts_S256_S256x1 b 0).trans ?_
    refine (lane_sum _ b).trans ?_
    exact Finset.sum_congr rfl fun r _ => k2pay9_apply x fb lb tg pc b r

theorem tsStep_2 (st : Stat Ideal × Stat Ideal) (b : Fin 256) :
    (tsStep x fb tg lb pc nc st).2 (ix3 0 b 0)
      = st.2 (ix3 0 b 0) + ∑ r : Fin 5000,
          if ¬ tg (ix2 b (0 : Fin 1)) = lb (ix2 r (0 : Fin 1))
              ∧ nc (ix2 b (0 : Fin 1)) < ∑ k : Fin 256, x (ix2 b k) * fb (ix2 r k)
          then ∑ k : Fin 256, x (ix2 b k) * fb (ix2 r k) else 0 := by
  show k2_pay2 (k2_pay5 x fb) (k2_pay7 x fb lb tg nc) st.2 (ix3 0 b 0) = _
  unfold k2_pay2
  refine (shapeCast_ab_1ab_apply _ shapeCasts_S256x1_S1x256x1 0 b 0).trans ?_
  refine (addf_apply _ _ _).trans ?_
  refine congrArg₂ (· + ·) ?_ ?_
  · exact shapeCast_1ab_ab_apply _ shapeCasts_S1x256x1_S256x1 b 0
  · refine (col_of_vec _ shapeCasts_S256_S256x1 b 0).trans ?_
    refine (lane_sum _ b).trans ?_
    refine Finset.sum_congr rfl fun r _ => ?_
    refine (select_apply _ _ _ _).trans ?_
    show Scalar.select (k2_pay7 x fb lb tg nc (ix2 b r)) (k2_pay5 x fb (ix2 b r)) (Ideal.ofBits .f32 0x00000000#32) = _
    unfold Scalar.select
    rw [pay5_eq, pay7_apply, Ideal.ofBits_zero_f32]
    exact if_congr (k2pay7_apply x fb lb tg nc b r) rfl rfl

end Steps

/-! ## What a core's first tile starts from -/

theorem tmInit_1 (b : Fin 256) : (tmInit (F := Ideal)).1 (ix3 0 b 0) = ⊥ := by
  show k1_pay4 (F := Ideal) (ix3 0 b 0) = _
  unfold k1_pay4
  refine (shapeCast_ab_1ab_apply _ shapeCasts_S256x1_S1x256x1 0 b 0).trans ?_
  exact ofBits_ninf

theorem tmInit_2 (b : Fin 256) : (tmInit (F := Ideal)).2.1 (ix3 0 b 0) = ⊥ := by
  show k1_pay5 (F := Ideal) (ix3 0 b 0) = _
  unfold k1_pay5
  refine (shapeCast_ab_1ab_apply _ shapeCasts_S256x1_S1x256x1 0 b 0).trans ?_
  exact ofBits_ninf

theorem tmInit_3 (b : Fin 256) : (tmInit (F := Ideal)).2.2 (ix3 0 b 0) = 0 := by
  show k1_pay6 (F := Ideal) (ix3 0 b 0) = _
  unfold k1_pay6
  refine (shapeCast_ab_1ab_apply _ shapeCasts_S256x1_S1x256x1 0 b 0).trans ?_
  exact Ideal.ofBits_zero_f32

theorem tsInit_1 (b : Fin 256) : (tsInit (F := Ideal)).1 (ix3 0 b 0) = 0 := by
  show k2_pay3 (F := Ideal) (ix3 0 b 0) = _
  unfold k2_pay3
  refine (shapeCast_ab_1ab_apply _ shapeCasts_S256x1_S1x256x1 0 b 0).trans ?_
  exact Ideal.ofBits_zero_f32

theorem tsInit_2 (b : Fin 256) : (tsInit (F := Ideal)).2 (ix3 0 b 0) = 0 := by
  show k2_pay4 (F := Ideal) (ix3 0 b 0) = _
  unfold k2_pay4
  refine (shapeCast_ab_1ab_apply _ shapeCasts_S256x1_S1x256x1 0 b 0).trans ?_
  exact Ideal.ofBits_zero_f32

/-! ## The columns of a tile and of the tiles seen so far -/

/-- The columns of tile n. -/
def tileCols (n : ℕ) : Finset (Fin 100000) := Finset.univ.filter fun j => j.val / 5000 = n

/-- The columns of the tiles 10 q, …, 10 q + i of core q. -/
def seenCols (q : Fin 2) (i : ℕ) : Finset (Fin 100000) :=
  Finset.univ.filter fun j => 10 * q.val ≤ j.val / 5000 ∧ j.val / 5000 ≤ 10 * q.val + i

theorem tcol_injective (n : ℕ) (hn : n < 20) : Function.Injective (tcol n hn) := by
  intro r r' h
  have h' : 5000 * n + r.val = 5000 * n + r'.val := congrArg Fin.val h
  exact Fin.ext (by omega)

/-- Tile n's columns are its 5000 bank rows, each once. -/
theorem tileCols_eq_map (n : ℕ) (hn : n < 20) :
    tileCols n = Finset.univ.map ⟨tcol n hn, tcol_injective n hn⟩ := by
  ext j
  simp only [tileCols, Finset.mem_filter, Finset.mem_univ, true_and, Finset.mem_map, Function.Embedding.coeFn_mk]
  constructor
  · intro h
    refine ⟨⟨j.val - 5000 * n, by have := j.isLt; omega⟩, Fin.ext ?_⟩
    show 5000 * n + (j.val - 5000 * n) = j.val
    omega
  · rintro ⟨r, rfl⟩
    show (5000 * n + r.val) / 5000 = n
    have := r.isLt
    omega

theorem seenCols_zero (q : Fin 2) : seenCols q 0 = tileCols (10 * q.val) := by
  ext j
  simp only [seenCols, tileCols, Finset.mem_filter, Finset.mem_univ, true_and]
  omega

theorem seenCols_succ (q : Fin 2) (i : ℕ) : seenCols q (i + 1) = seenCols q i ∪ tileCols (10 * q.val + i + 1) := by
  ext j
  simp only [seenCols, tileCols, Finset.mem_union, Finset.mem_filter, Finset.mem_univ, true_and]
  omega

theorem seenCols_disjoint (q : Fin 2) (i : ℕ) : Disjoint (seenCols q i) (tileCols (10 * q.val + i + 1)) := by
  rw [Finset.disjoint_left]
  intro j h1 h2
  simp only [seenCols, tileCols, Finset.mem_filter, Finset.mem_univ, true_and] at h1 h2
  omega

/-- After its ten tiles a core has seen exactly its columns. -/
theorem seenCols_nine (q : Fin 2) : seenCols q 9 = cols q := by
  ext j
  simp only [seenCols, cols, Finset.mem_filter, Finset.mem_univ, true_and]
  have := j.isLt
  omega

/-! ## The statistics over a union of column sets, and over one tile -/

section SpecLaws
variable (s : Fin 100000 → EReal) (e : Fin 100000 → Prop) [DecidablePred e]

theorem mPos_union (A B : Finset (Fin 100000)) : mPos s e (A ∪ B) = max (mPos s e A) (mPos s e B) :=
  Finset.sup_union

theorem mNeg_union (A B : Finset (Fin 100000)) : mNeg s e (A ∪ B) = max (mNeg s e A) (mNeg s e B) :=
  Finset.sup_union

theorem hPos_nonneg (A : Finset (Fin 100000)) : 0 ≤ hPos e A := by
  unfold hPos
  split
  · exact zero_le_one
  · exact le_refl _

theorem hPos_union (A B : Finset (Fin 100000)) : hPos e (A ∪ B) = max (hPos e A) (hPos e B) := by
  unfold hPos
  by_cases hA : ∃ j ∈ A, e j
  · have hU : ∃ j ∈ A ∪ B, e j := by
      obtain ⟨j, hj, he⟩ := hA
      exact ⟨j, Finset.mem_union_left _ hj, he⟩
    rw [if_pos hU, if_pos hA]
    by_cases hB : ∃ j ∈ B, e j
    · rw [if_pos hB, max_self]
    · rw [if_neg hB, max_eq_left zero_le_one]
  · by_cases hB : ∃ j ∈ B, e j
    · have hU : ∃ j ∈ A ∪ B, e j := by
        obtain ⟨j, hj, he⟩ := hB
        exact ⟨j, Finset.mem_union_right _ hj, he⟩
      rw [if_pos hU, if_neg hA, if_pos hB, max_eq_right zero_le_one]
    · have hU : ¬ ∃ j ∈ A ∪ B, e j := by
        rintro ⟨j, hj, he⟩
        rcases Finset.mem_union.mp hj with h | h
        · exact hA ⟨j, h, he⟩
        · exact hB ⟨j, h, he⟩
      rw [if_neg hU, if_neg hA, if_neg hB, max_self]

theorem posLoss_union (pc : EReal) (A B : Finset (Fin 100000)) (h : Disjoint A B) :
    posLoss s e pc (A ∪ B) = posLoss s e pc A + posLoss s e pc B :=
  Finset.sum_union h

theorem negLoss_union (nc : EReal) (A B : Finset (Fin 100000)) (h : Disjoint A B) :
    negLoss s e nc (A ∪ B) = negLoss s e nc A + negLoss s e nc B :=
  Finset.sum_union h

variable (n : ℕ) (hn : n < 20)

theorem mPos_tile : mPos s e (tileCols n)
    = Finset.univ.sup fun r : Fin 5000 => if e (tcol n hn r) then s (tcol n hn r) else ⊥ := by
  unfold mPos
  rw [tileCols_eq_map n hn, Finset.sup_map]
  rfl

theorem mNeg_tile : mNeg s e (tileCols n)
    = Finset.univ.sup fun r : Fin 5000 => if e (tcol n hn r) then ⊥ else s (tcol n hn r) := by
  unfold mNeg
  rw [tileCols_eq_map n hn, Finset.sup_map]
  rfl

theorem hPos_tile : hPos e (tileCols n) = if ∃ r : Fin 5000, e (tcol n hn r) then 1 else 0 := by
  have hiff : (∃ j ∈ tileCols n, e j) ↔ ∃ r : Fin 5000, e (tcol n hn r) := by
    rw [tileCols_eq_map n hn]
    constructor
    · rintro ⟨j, hj, he⟩
      obtain ⟨r, _, rfl⟩ := Finset.mem_map.mp hj
      exact ⟨r, he⟩
    · rintro ⟨r, he⟩
      exact ⟨tcol n hn r, Finset.mem_map.mpr ⟨r, Finset.mem_univ _, rfl⟩, he⟩
  unfold hPos
  by_cases h : ∃ r : Fin 5000, e (tcol n hn r)
  · exact (if_pos (hiff.mpr h)).trans (if_pos h).symm
  · exact (if_neg fun h' => h (hiff.mp h')).trans (if_neg h).symm

theorem posLoss_tile (pc : EReal) : posLoss s e pc (tileCols n)
    = ∑ r : Fin 5000, if e (tcol n hn r) ∧ s (tcol n hn r) < pc then oneW - s (tcol n hn r) else 0 := by
  unfold posLoss
  rw [tileCols_eq_map n hn, Finset.sum_map]
  rfl

theorem negLoss_tile (nc : EReal) : negLoss s e nc (tileCols n)
    = ∑ r : Fin 5000, if ¬ e (tcol n hn r) ∧ nc < s (tcol n hn r) then s (tcol n hn r) else 0 := by
  unfold negLoss
  rw [tileCols_eq_map n hn, Finset.sum_map]
  rfl

end SpecLaws

/-! ## The chains -/

section TmChain
variable (xb : ℕ → Vec Ideal S256x256 .f32) (fb : ℕ → Vec Ideal S5000x256 .f32)
  (tg : ℕ → Vec Ideal S256x1 .i32) (lb : ℕ → Vec Ideal S5000x1 .i32)

/-- At a core's first tile the chain restarts from the initial statistics. -/
theorem tmChain_restart (n : ℕ) (h : n % 10 = 0) :
    tmChain xb fb tg lb n = tmStep (xb n) (fb n) (tg n) (lb n) tmInit := by
  cases n with
  | zero => rfl
  | succ m =>
    show tmStep _ _ _ _ (if (m + 1) % 10 = 0 then tmInit else tmChain xb fb tg lb m) = _
    rw [if_pos h]

/-- At any other tile it steps from the statistics so far. -/
theorem tmChain_next (n : ℕ) (h : (n + 1) % 10 ≠ 0) :
    tmChain xb fb tg lb (n + 1)
      = tmStep (xb (n + 1)) (fb (n + 1)) (tg (n + 1)) (lb (n + 1)) (tmChain xb fb tg lb n) := by
  show tmStep _ _ _ _ (if (n + 1) % 10 = 0 then tmInit else tmChain xb fb tg lb n) = _
  rw [if_neg h]

variable (X : Fin 256 → Fin 256 → EReal) (Fs : Fin 100000 → Fin 256 → EReal) (T : Fin 256 → BitVec 32)
  (Lb : Fin 100000 → BitVec 32)
  (hx : ∀ (n : ℕ) (b k : Fin 256), xb n (ix2 b k) = X b k)
  (hf : ∀ (n : ℕ) (hn : n < 20) (r : Fin 5000) (k : Fin 256), fb n (ix2 r k) = Fs (tcol n hn r) k)
  (ht : ∀ (n : ℕ) (b : Fin 256), tg n (ix2 b 0) = T b)
  (hl : ∀ (n : ℕ) (hn : n < 20) (r : Fin 5000), lb n (ix2 r 0) = Lb (tcol n hn r))

include hx hf ht hl

/-- Tile n joins each statistic with the tile's own, over the tile's columns. -/
theorem tm_tile (n : ℕ) (hn : n < 20) (st : Stat Ideal × Stat Ideal × Stat Ideal) (b : Fin 256) :
    (tmStep (xb n) (fb n) (tg n) (lb n) st).1 (ix3 0 b 0)
        = max (st.1 (ix3 0 b 0)) (mPos (dotE X Fs b) (fun j => T b = Lb j) (tileCols n))
    ∧ (tmStep (xb n) (fb n) (tg n) (lb n) st).2.1 (ix3 0 b 0)
        = max (st.2.1 (ix3 0 b 0)) (mNeg (dotE X Fs b) (fun j => T b = Lb j) (tileCols n))
    ∧ (tmStep (xb n) (fb n) (tg n) (lb n) st).2.2 (ix3 0 b 0)
        = max (st.2.2 (ix3 0 b 0)) (hPos (fun j => T b = Lb j) (tileCols n)) := by
  refine ⟨?_, ?_, ?_⟩
  · rw [tmStep_1, mPos_tile _ _ n hn]
    refine congrArg (max _) (Finset.sup_congr rfl fun r _ => ?_)
    show _ = if T b = Lb (tcol n hn r) then dotE X Fs b (tcol n hn r) else ⊥
    rw [ht, hl n hn]
    unfold dotE
    simp only [hx, hf n hn]
  · rw [tmStep_2, mNeg_tile _ _ n hn]
    refine congrArg (max _) (Finset.sup_congr rfl fun r _ => ?_)
    show _ = if T b = Lb (tcol n hn r) then ⊥ else dotE X Fs b (tcol n hn r)
    rw [ht, hl n hn]
    unfold dotE
    simp only [hx, hf n hn]
  · rw [tmStep_3, hPos_tile _ n hn]
    refine congrArg (max _) (if_congr ?_ rfl rfl)
    simp only [ht, hl n hn]

/-- After the tiles 10 q … 10 q + i the statistics are the closed forms over the columns seen. -/
theorem tm_seen (q : Fin 2) (b : Fin 256) : ∀ i : ℕ, i ≤ 9 →
    (tmChain xb fb tg lb (10 * q.val + i)).1 (ix3 0 b 0) = mPos (dotE X Fs b) (fun j => T b = Lb j) (seenCols q i)
    ∧ (tmChain xb fb tg lb (10 * q.val + i)).2.1 (ix3 0 b 0) = mNeg (dotE X Fs b) (fun j => T b = Lb j) (seenCols q i)
    ∧ (tmChain xb fb tg lb (10 * q.val + i)).2.2 (ix3 0 b 0) = hPos (fun j => T b = Lb j) (seenCols q i)
  | 0, _ => by
    have hq := q.isLt
    obtain ⟨h1, h2, h3⟩ := tm_tile xb fb tg lb X Fs T Lb hx hf ht hl (10 * q.val) (by omega) tmInit b
    rw [Nat.add_zero, tmChain_restart xb fb tg lb _ (by omega), seenCols_zero]
    refine ⟨h1.trans ?_, h2.trans ?_, h3.trans ?_⟩
    · rw [tmInit_1]; exact max_eq_right bot_le
    · rw [tmInit_2]; exact max_eq_right bot_le
    · rw [tmInit_3]; exact max_eq_right (hPos_nonneg _ _)
  | i + 1, hi => by
    have hq := q.isLt
    obtain ⟨ih1, ih2, ih3⟩ := tm_seen q b i (by omega)
    obtain ⟨h1, h2, h3⟩ := tm_tile xb fb tg lb X Fs T Lb hx hf ht hl (10 * q.val + i + 1) (by omega)
      (tmChain xb fb tg lb (10 * q.val + i)) b
    rw [show 10 * q.val + (i + 1) = (10 * q.val + i) + 1 from rfl,
      tmChain_next xb fb tg lb _ (by omega), seenCols_succ]
    refine ⟨h1.trans ?_, h2.trans ?_, h3.trans ?_⟩
    · rw [ih1, mPos_union]
    · rw [ih2, mNeg_union]
    · rw [ih3, hPos_union]

end TmChain

section TsChain
variable (xb : ℕ → Vec Ideal S256x256 .f32) (fb : ℕ → Vec Ideal S5000x256 .f32)
  (tg : ℕ → Vec Ideal S256x1 .i32) (lb : ℕ → Vec Ideal S5000x1 .i32) (pc nc : ℕ → Vec Ideal S256x1 .f32)

theorem tsChain_restart (n : ℕ) (h : n % 10 = 0) :
    tsChain xb fb tg lb pc nc n = tsStep (xb n) (fb n) (tg n) (lb n) (pc n) (nc n) tsInit := by
  cases n with
  | zero => rfl
  | succ m =>
    show tsStep _ _ _ _ _ _ (if (m + 1) % 10 = 0 then tsInit else tsChain xb fb tg lb pc nc m) = _
    rw [if_pos h]

theorem tsChain_next (n : ℕ) (h : (n + 1) % 10 ≠ 0) :
    tsChain xb fb tg lb pc nc (n + 1)
      = tsStep (xb (n + 1)) (fb (n + 1)) (tg (n + 1)) (lb (n + 1)) (pc (n + 1)) (nc (n + 1))
          (tsChain xb fb tg lb pc nc n) := by
  show tsStep _ _ _ _ _ _ (if (n + 1) % 10 = 0 then tsInit else tsChain xb fb tg lb pc nc n) = _
  rw [if_neg h]

variable (X : Fin 256 → Fin 256 → EReal) (Fs : Fin 100000 → Fin 256 → EReal) (T : Fin 256 → BitVec 32)
  (Lb : Fin 100000 → BitVec 32) (Pc Nc : Fin 256 → EReal)
  (hx : ∀ (n : ℕ) (b k : Fin 256), xb n (ix2 b k) = X b k)
  (hf : ∀ (n : ℕ) (hn : n < 20) (r : Fin 5000) (k : Fin 256), fb n (ix2 r k) = Fs (tcol n hn r) k)
  (ht : ∀ (n : ℕ) (b : Fin 256), tg n (ix2 b 0) = T b)
  (hl : ∀ (n : ℕ) (hn : n < 20) (r : Fin 5000), lb n (ix2 r 0) = Lb (tcol n hn r))
  (hp : ∀ (n : ℕ) (b : Fin 256), pc n (ix2 b 0) = Pc b)
  (hnc : ∀ (n : ℕ) (b : Fin 256), nc n (ix2 b 0) = Nc b)

include hx hf ht hl hp hnc

/-- Tile n adds the tile's two thresholded sums, over the tile's columns. -/
theorem ts_tile (n : ℕ) (hn : n < 20) (st : Stat Ideal × Stat Ideal) (b : Fin 256) :
    (tsStep (xb n) (fb n) (tg n) (lb n) (pc n) (nc n) st).1 (ix3 0 b 0)
        = st.1 (ix3 0 b 0) + posLoss (dotE X Fs b) (fun j => T b = Lb j) (Pc b) (tileCols n)
    ∧ (tsStep (xb n) (fb n) (tg n) (lb n) (pc n) (nc n) st).2 (ix3 0 b 0)
        = st.2 (ix3 0 b 0) + negLoss (dotE X Fs b) (fun j => T b = Lb j) (Nc b) (tileCols n) := by
  refine ⟨?_, ?_⟩
  · rw [tsStep_1, posLoss_tile _ _ n hn]
    refine congrArg (_ + ·) (Finset.sum_congr rfl fun r _ => ?_)
    show _ = if T b = Lb (tcol n hn r) ∧ dotE X Fs b (tcol n hn r) < Pc b
      then oneW - dotE X Fs b (tcol n hn r) else 0
    rw [ht, hl n hn, hp]
    unfold dotE
    simp only [hx, hf n hn]
  · rw [tsStep_2, negLoss_tile _ _ n hn]
    refine congrArg (_ + ·) (Finset.sum_congr rfl fun r _ => ?_)
    show _ = if ¬ T b = Lb (tcol n hn r) ∧ Nc b < dotE X Fs b (tcol n hn r)
      then dotE X Fs b (tcol n hn r) else 0
    rw [ht, hl n hn, hnc]
    unfold dotE
    simp only [hx, hf n hn]

theorem ts_seen (q : Fin 2) (b : Fin 256) : ∀ i : ℕ, i ≤ 9 →
    (tsChain xb fb tg lb pc nc (10 * q.val + i)).1 (ix3 0 b 0)
        = posLoss (dotE X Fs b) (fun j => T b = Lb j) (Pc b) (seenCols q i)
    ∧ (tsChain xb fb tg lb pc nc (10 * q.val + i)).2 (ix3 0 b 0)
        = negLoss (dotE X Fs b) (fun j => T b = Lb j) (Nc b) (seenCols q i)
  | 0, _ => by
    have hq := q.isLt
    obtain ⟨h1, h2⟩ := ts_tile xb fb tg lb pc nc X Fs T Lb Pc Nc hx hf ht hl hp hnc (10 * q.val) (by omega) tsInit b
    rw [Nat.add_zero, tsChain_restart xb fb tg lb pc nc _ (by omega), seenCols_zero]
    refine ⟨h1.trans ?_, h2.trans ?_⟩
    · rw [tsInit_1, zero_add]
    · rw [tsInit_2, zero_add]
  | i + 1, hi => by
    have hq := q.isLt
    obtain ⟨ih1, ih2⟩ := ts_seen q b i (by omega)
    obtain ⟨h1, h2⟩ := ts_tile xb fb tg lb pc nc X Fs T Lb Pc Nc hx hf ht hl hp hnc (10 * q.val + i + 1) (by omega)
      (tsChain xb fb tg lb pc nc (10 * q.val + i)) b
    rw [show 10 * q.val + (i + 1) = (10 * q.val + i) + 1 from rfl,
      tsChain_next xb fb tg lb pc nc _ (by omega), seenCols_succ]
    refine ⟨h1.trans ?_, h2.trans ?_⟩
    · rw [ih1, posLoss_union _ _ _ _ _ (seenCols_disjoint q i)]
    · rw [ih2, negLoss_union _ _ _ _ _ (seenCols_disjoint q i)]

end TsChain

/-- Row-maximum kernel. `X`, `Fs`: the row block and the bank as extended reals; `T`, `Lb`: targets and labels (32-bit words);
    column `j` is a positive of row `b` when `T b = Lb j`. -/
theorem tmChain_value (xb : ℕ → Vec Ideal S256x256 .f32) (fb : ℕ → Vec Ideal S5000x256 .f32)
    (tg : ℕ → Vec Ideal S256x1 .i32) (lb : ℕ → Vec Ideal S5000x1 .i32)
    (X : Fin 256 → Fin 256 → EReal) (Fs : Fin 100000 → Fin 256 → EReal) (T : Fin 256 → BitVec 32) (Lb : Fin 100000 → BitVec 32)
    (hx : ∀ (n : ℕ) (b k : Fin 256), xb n (ix2 b k) = X b k)
    (hf : ∀ (n : ℕ) (hn : n < 20) (r : Fin 5000) (k : Fin 256), fb n (ix2 r k) = Fs (tcol n hn r) k)
    (ht : ∀ (n : ℕ) (b : Fin 256), tg n (ix2 b 0) = T b)
    (hl : ∀ (n : ℕ) (hn : n < 20) (r : Fin 5000), lb n (ix2 r 0) = Lb (tcol n hn r))
    (q : Fin 2) (b : Fin 256) :
    (tmChain xb fb tg lb (10 * q.val + 9)).1 (ix3 0 b 0) = mPos (dotE X Fs b) (fun j => T b = Lb j) (cols q)
    ∧ (tmChain xb fb tg lb (10 * q.val + 9)).2.1 (ix3 0 b 0) = mNeg (dotE X Fs b) (fun j => T b = Lb j) (cols q)
    ∧ (tmChain xb fb tg lb (10 * q.val + 9)).2.2 (ix3 0 b 0) = hPos (fun j => T b = Lb j) (cols q) := by
  have h := tm_seen xb fb tg lb X Fs T Lb hx hf ht hl q b 9 (le_refl _)
  rw [seenCols_nine] at h
  exact h

/-- Thresholded-sum kernel. `Pc b`, `Nc b`: row `b`'s two cuts. -/
theorem tsChain_value (xb : ℕ → Vec Ideal S256x256 .f32) (fb : ℕ → Vec Ideal S5000x256 .f32)
    (tg : ℕ → Vec Ideal S256x1 .i32) (lb : ℕ → Vec Ideal S5000x1 .i32) (pc nc : ℕ → Vec Ideal S256x1 .f32)
    (X : Fin 256 → Fin 256 → EReal) (Fs : Fin 100000 → Fin 256 → EReal) (T : Fin 256 → BitVec 32) (Lb : Fin 100000 → BitVec 32)
    (Pc Nc : Fin 256 → EReal)
    (hx : ∀ (n : ℕ) (b k : Fin 256), xb n (ix2 b k) = X b k)
    (hf : ∀ (n : ℕ) (hn : n < 20) (r : Fin 5000) (k : Fin 256), fb n (ix2 r k) = Fs (tcol n hn r) k)
    (ht : ∀ (n : ℕ) (b : Fin 256), tg n (ix2 b 0) = T b)
    (hl : ∀ (n : ℕ) (hn : n < 20) (r : Fin 5000), lb n (ix2 r 0) = Lb (tcol n hn r))
    (hp : ∀ (n : ℕ) (b : Fin 256), pc n (ix2 b 0) = Pc b)
    (hnc : ∀ (n : ℕ) (b : Fin 256), nc n (ix2 b 0) = Nc b)
    (q : Fin 2) (b : Fin 256) :
    (tsChain xb fb tg lb pc nc (10 * q.val + 9)).1 (ix3 0 b 0) = posLoss (dotE X Fs b) (fun j => T b = Lb j) (Pc b) (cols q)
    ∧ (tsChain xb fb tg lb pc nc (10 * q.val + 9)).2 (ix3 0 b 0) = negLoss (dotE X Fs b) (fun j => T b = Lb j) (Nc b) (cols q) := by
  have h := ts_seen xb fb tg lb pc nc X Fs T Lb Pc Nc hx hf ht hl hp hnc q b 9 (le_refl _)
  rw [seenCols_nine] at h
  exact h

end Cert.KernelIdeal.R12V

end
-- ==== Proof.RegionsK.lean ====
/-
  The three regions' output arrays when each region is left, row by row in closed form: the frame's reading of
  the arrays as chains of per-tile steps, composed with the chains' closed forms.
-/
import proofs.«411386_j43001212567993_2_alg».proof.Proof.R0Struct
import proofs.«411386_j43001212567993_2_alg».proof.Proof.R1Struct
import proofs.«411386_j43001212567993_2_alg».proof.Proof.R2Struct
import proofs.«411386_j43001212567993_2_alg».proof.Proof.R0Value
import proofs.«411386_j43001212567993_2_alg».proof.Proof.R12Value

set_option maxRecDepth 16384

noncomputable section

namespace Cert.KernelIdeal.RegK

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Steps Cert.Spec

variable (V : (c : Dev nD) → (b : Ref sig .tc) → Buf (Elt Ideal) ((c : Thread nD τ).loc b))

/-- Region 0 from real entry contents: core q's maximum, sum of exponentials and sum of logits of row b. -/
theorem region0 (c : Dev nD) (xr : Fin 256 → Fin 256 → ℝ) (fr : Fin 100000 → Fin 256 → ℝ)
    (hx : ∀ b k : Fin 256, (V c (Pipeline.arrRef spec0 0) : S256x256.Idx → EReal) (ix2 b k) = ((xr b k : ℝ) : EReal))
    (hf : ∀ (j : Fin 100000) (k : Fin 256), (V c (Pipeline.arrRef spec0 1) : S100000x256.Idx → EReal) (ix2 j k) = ((fr j k : ℝ) : EReal))
    (q : Fin 2) (b : Fin 256) :
    ((dat0 V c).arrAt 2 cfg0.N : S2x256x1.Idx → EReal) (ix3 q b 0) = ((cMax (logitK xr fr b) q : ℝ) : EReal)
    ∧ ((dat0 V c).arrAt 3 cfg0.N : S2x256x1.Idx → EReal) (ix3 q b 0) = ((cSumExp (logitK xr fr b) q : ℝ) : EReal)
    ∧ ((dat0 V c).arrAt 4 cfg0.N : S2x256x1.Idx → EReal) (ix3 q b 0) = ((cSum (logitK xr fr b) q : ℝ) : EReal) := by
  have h := R0.final V c q b
  have v := R0V.ceChain_value (R0.xb V c) (R0.fb V c) xr fr
    (fun n b k => (R0.xb_apply V c n b k).trans (hx b k))
    (fun n hn r k => (R0.fb_apply V c n hn r k).trans (hf _ k)) q b
  exact ⟨h.1.trans v.1, h.2.1.trans v.2.1, h.2.2.trans v.2.2⟩

/-- Region 1: core q's maxima over the positives and the negatives of row b, and its positive-seen flag. -/
theorem region1 (c : Dev nD) (X : Fin 256 → Fin 256 → EReal) (Fs : Fin 100000 → Fin 256 → EReal)
    (T : Fin 256 → BitVec 32) (Lb : Fin 100000 → BitVec 32)
    (hx : ∀ b k : Fin 256, (V c (Pipeline.arrRef spec1 0) : S256x256.Idx → EReal) (ix2 b k) = X b k)
    (hf : ∀ (j : Fin 100000) (k : Fin 256), (V c (Pipeline.arrRef spec1 1) : S100000x256.Idx → EReal) (ix2 j k) = Fs j k)
    (ht : ∀ b : Fin 256, (V c (Pipeline.arrRef spec1 2) : S256x1.Idx → BitVec 32) (ix2 b 0) = T b)
    (hl : ∀ j : Fin 100000, (V c (Pipeline.arrRef spec1 3) : S100000x1.Idx → BitVec 32) (ix2 j 0) = Lb j)
    (q : Fin 2) (b : Fin 256) :
    ((dat1 V c).arrAt 4 cfg1.N : S2x256x1.Idx → EReal) (ix3 q b 0) = mPos (dotE X Fs b) (fun j => T b = Lb j) (cols q)
    ∧ ((dat1 V c).arrAt 5 cfg1.N : S2x256x1.Idx → EReal) (ix3 q b 0) = mNeg (dotE X Fs b) (fun j => T b = Lb j) (cols q)
    ∧ ((dat1 V c).arrAt 6 cfg1.N : S2x256x1.Idx → EReal) (ix3 q b 0) = hPos (fun j => T b = Lb j) (cols q) := by
  have h := R1.final V c q b
  have v := R12V.tmChain_value (R1.xb V c) (R1.fb V c) (R1.tg V c) (R1.lb V c) X Fs T Lb
    (fun n b k => (R1.xb_apply V c n b k).trans (hx b k))
    (fun n hn r k => (R1.fb_apply V c n hn r k).trans (hf _ k))
    (fun n b => (R1.tg_apply V c n b).trans (ht b))
    (fun n hn r => (R1.lb_apply V c n hn r).trans (hl _)) q b
  exact ⟨h.1.trans v.1, h.2.1.trans v.2.1, h.2.2.trans v.2.2⟩

/-- Region 2: core q's two thresholded sums of row b, at the row's cuts. -/
theorem region2 (c : Dev nD) (X : Fin 256 → Fin 256 → EReal) (Fs : Fin 100000 → Fin 256 → EReal)
    (T : Fin 256 → BitVec 32) (Lb : Fin 100000 → BitVec 32) (Pc Nc : Fin 256 → EReal)
    (hx : ∀ b k : Fin 256, (V c (Pipeline.arrRef spec2 0) : S256x256.Idx → EReal) (ix2 b k) = X b k)
    (hf : ∀ (j : Fin 100000) (k : Fin 256), (V c (Pipeline.arrRef spec2 1) : S100000x256.Idx → EReal) (ix2 j k) = Fs j k)
    (ht : ∀ b : Fin 256, (V c (Pipeline.arrRef spec2 2) : S256x1.Idx → BitVec 32) (ix2 b 0) = T b)
    (hl : ∀ j : Fin 100000, (V c (Pipeline.arrRef spec2 3) : S100000x1.Idx → BitVec 32) (ix2 j 0) = Lb j)
    (hp : ∀ b : Fin 256, (V c (Pipeline.arrRef spec2 4) : S256x1.Idx → EReal) (ix2 b 0) = Pc b)
    (hn : ∀ b : Fin 256, (V c (Pipeline.arrRef spec2 5) : S256x1.Idx → EReal) (ix2 b 0) = Nc b)
    (q : Fin 2) (b : Fin 256) :
    ((dat2 V c).arrAt 6 cfg2.N : S2x256x1.Idx → EReal) (ix3 q b 0)
      = posLoss (dotE X Fs b) (fun j => T b = Lb j) (Pc b) (cols q)
    ∧ ((dat2 V c).arrAt 7 cfg2.N : S2x256x1.Idx → EReal) (ix3 q b 0)
      = negLoss (dotE X Fs b) (fun j => T b = Lb j) (Nc b) (cols q) := by
  have h := R2.final V c q b
  have v := R12V.tsChain_value (R2.xb V c) (R2.fb V c) (R2.tg V c) (R2.lb V c) (R2.pc V c) (R2.nc V c) X Fs T Lb Pc Nc
    (fun n b k => (R2.xb_apply V c n b k).trans (hx b k))
    (fun n hn r k => (R2.fb_apply V c n hn r k).trans (hf _ k))
    (fun n b => (R2.tg_apply V c n b).trans (ht b))
    (fun n hn r => (R2.lb_apply V c n hn r).trans (hl _))
    (fun n b => (R2.pc_apply V c n b).trans (hp b))
    (fun n b => (R2.nc_apply V c n b).trans (hn b)) q b
  exact ⟨h.1.trans v.1, h.2.trans v.2⟩

end Cert.KernelIdeal.RegK

end
-- ==== Proof.Shared.lean ====
/-
  Three host computations that the kernel's program and the reference spell operation for operation alike, as
  functions of their operands (the shape relations they take are propositions, so either program's witnesses do):

  * `normX a`: each row of `a` divided by its Euclidean norm, `a / sqrt (Σ_k a² )`;
  * `tail1 p s`: the label-smoothed cross-entropy from the per-row target log-probability `p` and the per-row
    sum of log-probabilities `s`: the mean over the 256 rows of `-(0.9 p + 1e-6 s)`;
  * `tail2 h v`: the triplet loss from the per-row mask "the row has a positive" and the per-row sum of the two
    thresholded sums: the mean over the rows of `v` where the mask holds, else 0.
-/
import Idealize.ShloMosaic.PureOps.Ideal
import Idealize.ShloMosaic.PureOps
import Idealize.ShloMosaic.Lib.StableHlo

noncomputable section

namespace Cert.Shared

open Idealize.ShloMosaic

abbrev S256x256 : Shape := ⟨2, ![256, 256]⟩
abbrev S256x1 : Shape := ⟨2, ![256, 1]⟩
abbrev S256 : Shape := ⟨1, ![256]⟩
abbrev S_ : Shape := ⟨0, ![]⟩

def normX (h1 : S256x1.BroadcastsInDim S256x256 ![0, 1]) (h2 : S256.BroadcastsInDim S256x1 ![0])
    (h3 : S256x256.ReducesTo [1] S256) (h4 : 0 < S_.numel) (a : FVec Ideal S256x256 .f32) : FVec Ideal S256x256 .f32 :=
  Host.divf a (broadcastInDim S256x256 ![0, 1] h1 (Host.sqrt (broadcastInDim S256x1 ![0] h2
    (Host.reduceAdd (mulf a a) (constant S_ .f32 0x00000000#32) h3 h4))))

def tail1 (hb : S_.BroadcastsInDim S256 ![]) (hr : S256.ReducesTo [0] S_) (h0 : 0 < S_.numel)
    (p s : FVec Ideal S256 .f32) : FVec Ideal S_ .f32 :=
  Host.divf (Host.reduceAdd (Host.negf (addf (mulf (broadcastInDim S256 ![] hb (constant S_ .f32 0x3F666666#32)) p)
    (mulf (broadcastInDim S256 ![] hb (constant S_ .f32 0x358637BD#32)) s))) (constant S_ .f32 0x00000000#32) hr h0)
    (constant S_ .f32 0x43800000#32)

def tail2 (hb : S_.BroadcastsInDim S256 ![]) (hr : S256.ReducesTo [0] S_) (h0 : 0 < S_.numel)
    (h : IVec S256 1) (v : FVec Ideal S256 .f32) : FVec Ideal S_ .f32 :=
  Host.divf (Host.reduceAdd (select h v (broadcastInDim S256 ![] hb (id (constant S_ .f32 0x00000000#32))))
    (constant S_ .f32 0x00000000#32) hr h0) (constant S_ .f32 0x43800000#32)

end Cert.Shared

end
-- ==== Proof.Rows.lean ====
/-
  The per-row quantities both programs end at, as vectors over the 256 rows.

  Cross-entropy: row b's target log-probability `logit b (t b) - kLse` and row sum of log-probabilities
  `Σ logits - 100000 · kLse`.  Triplet: whether row b has a positive, and the sum of its two thresholded sums over all
  columns, the cuts taken from the row's maxima over the negatives (plus the margin word) and over the positives
  (joined with the 0.6 word, minus the margin word).
-/
import proofs.«411386_j43001212567993_2_alg».proof.Proof.Spec
import proofs.«411386_j43001212567993_2_alg».proof.Proof.Shared

noncomputable section

namespace Cert.Rows

open Idealize.ShloMosaic Cert.Spec

/-- The row an index of a 256-vector names. -/
def row (i : Shared.S256.Idx) : Fin 256 := ⟨(i 0).val, (i 0).isLt⟩
/-- A vector over the rows from its entries. -/
def vec (f : Fin 256 → EReal) : FVec Ideal Shared.S256 .f32 := fun i => f (row i)
open Classical in
/-- A mask over the rows from a predicate. -/
def mask (p : Fin 256 → Prop) : IVec Shared.S256 1 := fun i => if p (row i) then 1#1 else 0#1

/-- A target word below 100000 as a column. -/
def tIdx (T : Fin 256 → BitVec 32) (hT : ∀ b, (T b).toNat < 100000) (b : Fin 256) : Fin 100000 := ⟨(T b).toNat, hT b⟩

/-- Row b's target log-probability. -/
def lpt (xr : Fin 256 → Fin 256 → ℝ) (fr : Fin 100000 → Fin 256 → ℝ) (t : Fin 256 → Fin 100000) (b : Fin 256) : ℝ :=
  logitR xr fr b (t b) - kLse (logitR xr fr b)
/-- Row b's sum of log-probabilities. -/
def slp (xr : Fin 256 → Fin 256 → ℝ) (fr : Fin 100000 → Fin 256 → ℝ) (b : Fin 256) : ℝ :=
  (cSum (logitR xr fr b) 0 + cSum (logitR xr fr b) 1) - 100000 * kLse (logitR xr fr b)

/-- The margin word and the 0.6 word as both programs carry them. -/
abbrev marginW : EReal := Ideal.ofBits .f32 0x3DCCCCCD#32
abbrev floorW : EReal := Ideal.ofBits .f32 0x3F19999A#32

variable (X : Fin 256 → Fin 256 → EReal) (Fs : Fin 100000 → Fin 256 → EReal) (T : Fin 256 → BitVec 32) (Lb : Fin 100000 → BitVec 32)

/-- Row b has a positive. -/
def has (b : Fin 256) : Prop := ∃ j : Fin 100000, T b = Lb j
/-- Row b's sum of the two thresholded sums. -/
def loss (b : Fin 256) : EReal :=
  posLoss (dotE X Fs b) (fun j => T b = Lb j) (mNeg (dotE X Fs b) (fun j => T b = Lb j) Finset.univ + marginW) Finset.univ
  + negLoss (dotE X Fs b) (fun j => T b = Lb j)
      (max floorW (mPos (dotE X Fs b) (fun j => T b = Lb j) Finset.univ) - marginW) Finset.univ

end Cert.Rows

end
-- ==== Proof.Algebra.lean ====
/-
  The laws that join the kernel's per-core statistics to the reference's whole-row quantities.

  Cross-entropy (real numbers): the two cores' (maximum, sum of exponentials) merge to the whole row's
  log-sum-exp, so the reference's log-probability of column t is `z t - kLse z` and the row sum of the
  log-probabilities is the sum of the logits minus 100000 · kLse z; and the kernel's logits (dot product times the
  reciprocal of the temperature word) are the reference's (dot product divided by it).

  Triplet (extended reals): the two cores' column sets partition the columns, so a maximum, an existence and a sum
  over all columns split into the two cores'.
-/
import proofs.«411386_j43001212567993_2_alg».proof.Proof.Spec
import Mathlib.Analysis.SpecialFunctions.Log.Basic
import Mathlib.Analysis.SpecialFunctions.Exp

noncomputable section

namespace Cert.Spec

theorem logitK_eq_logitR (x : Fin 256 → Fin 256 → ℝ) (f : Fin 100000 → Fin 256 → ℝ) (b : Fin 256) :
    logitK x f b = logitR x f b := by
  -- a * (c / d) = a / (d / c)
  funext j
  show dotR x f b j * (268435456 / 13421773) = dotR x f b j / (13421773 / 268435456)
  rw [div_div_eq_mul_div, mul_div_assoc]

/-- Every column belongs to one of the two cores. -/
theorem mem_cols_or (j : Fin 100000) : j ∈ cols 0 ∨ j ∈ cols 1 := by
  simp only [cols, Finset.mem_filter, Finset.mem_univ, true_and]
  have hj := j.isLt
  show j.val / 50000 = 0 ∨ j.val / 50000 = 1
  omega

theorem cols_union : cols 0 ∪ cols 1 = Finset.univ := by
  ext j
  simp only [Finset.mem_union, Finset.mem_univ, iff_true]
  exact mem_cols_or j

theorem cols_disjoint : Disjoint (cols 0) (cols 1) := by
  rw [Finset.disjoint_left]
  intro j h0 h1
  simp only [cols, Finset.mem_filter, Finset.mem_univ, true_and] at h0 h1
  have h : (0 : Fin 2).val = (1 : Fin 2).val := h0.symm.trans h1
  exact absurd h (by decide)

/-- A sum over all columns is the sum of the two cores' sums. -/
theorem sum_cols {M : Type*} [AddCommMonoid M] (g : Fin 100000 → M) :
    ∑ j ∈ cols 0, g j + ∑ j ∈ cols 1, g j = ∑ j, g j := by
  rw [← Finset.sum_union cols_disjoint, cols_union]

/-- The whole row's maximum is the larger of the two cores' maxima. -/
theorem gMax_eq_kMax (z : Fin 100000 → ℝ) : gMax z = kMax z := by
  unfold gMax kMax cMax
  apply le_antisymm
  · apply Finset.sup'_le
    intro j _
    rcases mem_cols_or j with h | h
    · exact le_trans (Finset.le_sup' z h) (le_max_left _ _)
    · exact le_trans (Finset.le_sup' z h) (le_max_right _ _)
  · apply max_le
    · apply Finset.sup'_le
      intro j _
      exact Finset.le_sup' z (Finset.mem_univ j)
    · apply Finset.sup'_le
      intro j _
      exact Finset.le_sup' z (Finset.mem_univ j)

/-- Rescaling a core's sum of exponentials from its own maximum m to any M:
    exp (m - M) * Σ exp (z j - m) = Σ exp (z j - M), by exp (a + b) = exp a * exp b. -/
theorem core_rescale (z : Fin 100000 → ℝ) (q : Fin 2) (M : ℝ) :
    Real.exp (cMax z q - M) * ∑ j ∈ cols q, Real.exp (z j - cMax z q) = ∑ j ∈ cols q, Real.exp (z j - M) := by
  rw [Finset.mul_sum]
  apply Finset.sum_congr rfl
  intro j _
  rw [← Real.exp_add]
  refine congrArg Real.exp ?_
  ring

/-- The two cores' rescaled sums of exponentials add up to the whole row's sum. -/
theorem kSumExp_eq (z : Fin 100000 → ℝ) : kSumExp z = gSumExp z := by
  have hM := gMax_eq_kMax z
  unfold kSumExp gSumExp cSumExp
  rw [← hM, core_rescale, core_rescale, sum_cols]

/-- The merged log-sum-exp is the whole row's. -/
theorem kLse_eq (z : Fin 100000 → ℝ) : kLse z = gMax z + Real.log (gSumExp z) := by
  unfold kLse
  rw [kSumExp_eq, gMax_eq_kMax]

theorem lp_eq (z : Fin 100000 → ℝ) (t : Fin 100000) : lp z t = z t - kLse z := by
  rw [kLse_eq]
  unfold lp
  ring

theorem sum_lp_eq (z : Fin 100000 → ℝ) : ∑ j, lp z j = (cSum z 0 + cSum z 1) - 100000 * kLse z := by
  -- Σ (z j - L) = Σ z j - card · L, and the card is 100000
  simp only [lp_eq]
  rw [Finset.sum_sub_distrib, Finset.sum_const, Finset.card_univ, Fintype.card_fin, nsmul_eq_mul]
  unfold cSum
  rw [sum_cols]
  norm_num

theorem gSumExp_pos (z : Fin 100000 → ℝ) : 0 < gSumExp z := by
  unfold gSumExp
  exact Finset.sum_pos (fun j _ => Real.exp_pos _) ⟨⟨0, by norm_num⟩, Finset.mem_univ _⟩

/-- The merged sum of exponentials is positive (so its logarithm is the real logarithm). -/
theorem kSumExp_pos (z : Fin 100000 → ℝ) : 0 < kSumExp z := by
  rw [kSumExp_eq]
  exact gSumExp_pos z

variable (s : Fin 100000 → EReal) (e : Fin 100000 → Prop) [DecidablePred e]

theorem mPos_univ : max (mPos s e (cols 0)) (mPos s e (cols 1)) = mPos s e Finset.univ := by
  unfold mPos
  rw [← cols_union, Finset.sup_union]

theorem mNeg_univ : max (mNeg s e (cols 0)) (mNeg s e (cols 1)) = mNeg s e Finset.univ := by
  unfold mNeg
  rw [← cols_union, Finset.sup_union]

/-- The flag of a column set is positive exactly when the set holds a positive. -/
theorem hPos_pos_iff (J : Finset (Fin 100000)) : (0 : EReal) < hPos e J ↔ ∃ j ∈ J, e j := by
  unfold hPos
  split_ifs with h
  · exact iff_of_true (by exact_mod_cast (zero_lt_one : (0 : ℝ) < 1)) h
  · exact iff_of_false (lt_irrefl _) h

/-- The merged positive-seen flag is positive exactly when some column is a positive. -/
theorem hPos_univ : (0 : EReal) < max (hPos e (cols 0)) (hPos e (cols 1)) ↔ ∃ j, e j := by
  rw [lt_max_iff, hPos_pos_iff, hPos_pos_iff]
  constructor
  · rintro (⟨j, _, hj⟩ | ⟨j, _, hj⟩)
    · exact ⟨j, hj⟩
    · exact ⟨j, hj⟩
  · rintro ⟨j, hj⟩
    rcases mem_cols_or j with h | h
    · exact Or.inl ⟨j, h, hj⟩
    · exact Or.inr ⟨j, h, hj⟩

theorem posLoss_univ (pc : EReal) : posLoss s e pc (cols 0) + posLoss s e pc (cols 1) = posLoss s e pc Finset.univ := by
  unfold posLoss
  exact sum_cols _

theorem negLoss_univ (nc : EReal) : negLoss s e nc (cols 0) + negLoss s e nc (cols 1) = negLoss s e nc Finset.univ := by
  unfold negLoss
  exact sum_cols _

end Cert.Spec

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.HostK1.lean ====
/-
  The kernel program's first result, read back through @main: the buffer of the cross-entropy loss at the last boundary is the shared tail of the per-row target log-probabilities and row sums, in closed form.
-/
import proofs.«411386_j43001212567993_2_alg».proof.Proof.Gen.KernelIdeal.Frame
import proofs.«411386_j43001212567993_2_alg».proof.Proof.RegionsK
import proofs.«411386_j43001212567993_2_alg».proof.Proof.Rows
import proofs.«411386_j43001212567993_2_alg».proof.Proof.Shared
import proofs.«411386_j43001212567993_2_alg».proof.Proof.Algebra
import proofs.«411386_j43001212567993_2_alg».proof.Proof.LibGatherScatter
import Idealize.ShloMosaic.Lib.StableHlo.Run
import Idealize.ShloMosaic.Lib.StableHlo.Predicate
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.HostK1

open Idealize.ShloMosaic Idealize.ShloMosaic.TcCoe Idealize.SL.Sem Idealize.ShloMosaic.ValueIdx
open Idealize.ShloMosaic.Pipeline (Dat)
open Cert.KernelIdeal Cert.KernelIdeal.Gen Cert.Spec

/-! ## Words and real arithmetic under the coercion -/

/-- The word 0x47C35000 denotes the real 100000. -/
theorem ofBits_1e5 : Ideal.ofBits .f32 0x47C35000#32 = ((100000 : ℝ) : EReal) := by
  simp [Ideal.ofBits, Ideal.ieee, -EReal.coe_mul]; norm_num

/-- The word 0x3D4CCCCD denotes the temperature 13421773 / 2^28. -/
theorem ofBits_temp : Ideal.ofBits .f32 0x3D4CCCCD#32 = ((Spec.temp : ℝ) : EReal) := by
  unfold Spec.temp
  simp [Ideal.ofBits, Ideal.ieee, -EReal.coe_mul]; norm_num

theorem temp_ne_zero : Spec.temp ≠ 0 := by unfold Spec.temp; norm_num

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum. -/
theorem coe_max (a b : ℝ) : max (a : EReal) (b : EReal) = ((max a b : ℝ) : EReal) :=
  (EReal.coe_strictMono.monotone.map_max).symm

/-- The two cores' maxima and sums of exponentials, merged over the extended reals, are the merged log-sum-exp. -/
theorem lse_coe (z : Fin 100000 → ℝ) :
    max ((cMax z 0 : ℝ) : EReal) ((cMax z 1 : ℝ) : EReal)
      + Ideal.log (Ideal.exp (((cMax z 0 : ℝ) : EReal) - max ((cMax z 0 : ℝ) : EReal) ((cMax z 1 : ℝ) : EReal)) * ((cSumExp z 0 : ℝ) : EReal)
          + Ideal.exp (((cMax z 1 : ℝ) : EReal) - max ((cMax z 0 : ℝ) : EReal) ((cMax z 1 : ℝ) : EReal)) * ((cSumExp z 1 : ℝ) : EReal))
      = ((kLse z : ℝ) : EReal) := by
  have hpos : ¬ (kSumExp z ≤ 0) := not_le.2 (kSumExp_pos z)
  unfold kLse
  unfold kSumExp kMax at hpos ⊢
  rw [coe_max, ← EReal.coe_sub, ← EReal.coe_sub, Ideal.exp_coe, Ideal.exp_coe, ← EReal.coe_mul, ← EReal.coe_mul,
    ← EReal.coe_add, Ideal.log_coe, if_neg hpos, ← EReal.coe_add]

/-- The dot product of two real rows over the extended reals, from the zero word, divided by the temperature word. -/
theorem logit_coe (x : Fin 256 → Fin 256 → ℝ) (f : Fin 100000 → Fin 256 → ℝ) (b : Fin 256) (t : Fin 100000) :
    Ideal.div (Ideal.ofBits .f32 0x00000000#32 + ∑ k : Fin 256, ((x b k : ℝ) : EReal) * ((f t k : ℝ) : EReal))
        (Ideal.ofBits .f32 0x3D4CCCCD#32)
      = ((logitR x f b t : ℝ) : EReal) := by
  rw [Ideal.ofBits_zero_f32, zero_add, ofBits_temp, Ideal.div_coe temp_ne_zero]
  have e : ∑ k : Fin 256, ((x b k : ℝ) : EReal) * ((f t k : ℝ) : EReal) = ((dotR x f b t : ℝ) : EReal) := by
    unfold dotR
    rw [coe_sum]
    exact Finset.sum_congr rfl fun k _ => (EReal.coe_mul _ _).symm
  rw [e, ← EReal.coe_mul]
  unfold logitR
  rw [mul_one_div]

/-- Row b's two entries from the kernel's statistics over the extended reals. -/
theorem lpt_coe (x : Fin 256 → Fin 256 → ℝ) (f : Fin 100000 → Fin 256 → ℝ) (t : Fin 256 → Fin 100000) (b : Fin 256) :
    ((logitR x f b (t b) : ℝ) : EReal) - ((kLse (logitK x f b) : ℝ) : EReal) = ((Rows.lpt x f t b : ℝ) : EReal) := by
  rw [logitK_eq_logitR, ← EReal.coe_sub]
  rfl

theorem slp_coe (x : Fin 256 → Fin 256 → ℝ) (f : Fin 100000 → Fin 256 → ℝ) (b : Fin 256) :
    (((cSum (logitK x f b) 0 : ℝ) : EReal) + ((cSum (logitK x f b) 1 : ℝ) : EReal))
        - Ideal.ofBits .f32 0x47C35000#32 * ((kLse (logitK x f b) : ℝ) : EReal)
      = ((Rows.slp x f b : ℝ) : EReal) := by
  rw [logitK_eq_logitR, ofBits_1e5, ← EReal.coe_add, ← EReal.coe_mul, ← EReal.coe_sub]
  rfl

variable (m : (ℓ : Loc nD τ sig) → Buf (Elt Ideal) ℓ) (ρ : Dev nD → PrngReg)

/-- A stretch of host operations leaves a buffer it does not write as it was. -/
local macro "host_skip" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Each stretch's written buffers as functions of the buffers it reads, from any contents -/

/-- Core 0's and core 1's column of a two-core per-row statistic. -/
def col0 (A : FVec Ideal S2x256x1 .f32) : FVec Ideal S256x1 .f32 :=
  shapeCast S256x1 (extractStridedSlice S1x256x1 ![0, 0, 0] A slices_S2x256x1_S1x256x1_0_0_0) shapeCasts_S1x256x1_S256x1
def col1 (A : FVec Ideal S2x256x1 .f32) : FVec Ideal S256x1 .f32 :=
  shapeCast S256x1 (extractStridedSlice S1x256x1 ![1, 0, 0] A slices_S2x256x1_S1x256x1_1_0_0) shapeCasts_S1x256x1_S256x1

/-- The merged log-sum-exp column from the two cores' maxima M and sums of exponentials L. -/
def lseCol (M L : FVec Ideal S2x256x1 .f32) : FVec Ideal S256x1 .f32 :=
  addf (maximumf (col0 M) (col1 M))
    (Host.log (addf (mulf (Host.exp (subf (col0 M) (maximumf (col0 M) (col1 M)))) (col0 L))
      (mulf (Host.exp (subf (col1 M) (maximumf (col0 M) (col1 M)))) (col1 L))))

/-- The column of row sums of log-probabilities: the two cores' sums of logits minus 100000 times the log-sum-exp. -/
def slpCol (M L S : FVec Ideal S2x256x1 .f32) : FVec Ideal S256x1 .f32 :=
  subf (addf (col0 S) (col1 S))
    (mulf (broadcastInDim S256x1 ![] bcast_S_S256x1 (constant (F := Ideal) S_ .f32 0x47C35000#32)) (lseCol M L))

set_option maxHeartbeats 1000000 in
theorem after1_v26 (V : Valuation τ sig (Elt Ideal)) :
    StableHlo.after (hostOps1 (F := Ideal)) V (Proc.devRef .tc main_v26)
      = lseCol (V (Proc.devRef .tc main_v3_0)) (V (Proc.devRef .tc main_v3_1)) := by
  after_results_simp
  rfl

set_option maxHeartbeats 1000000 in
theorem after1_v29 (V : Valuation τ sig (Elt Ideal)) :
    StableHlo.after (hostOps1 (F := Ideal)) V (Proc.devRef .tc main_v29)
      = slpCol (V (Proc.devRef .tc main_v3_0)) (V (Proc.devRef .tc main_v3_1)) (V (Proc.devRef .tc main_v3_2)) := by
  after_results_simp
  rfl

/-- The targets as start indices: a negative one counted from the end, then laid as a column. -/
def takeIdx (tg : IVec S256 32) : IVec S256x1 32 :=
  broadcastInDim S256x1 ![0] bcast_S256_S256x1_0
    (select (cmpi .slt tg (broadcastInDim S256 ![] bcast_S_S256 (constantI S_ 32 0#32)))
      (addi tg (broadcastInDim S256 ![] bcast_S_S256 (constantI S_ 32 100000#32))) tg)

/-- Which rows' start indices lie in [0, 99999]. -/
def takeOk (tg : IVec S256 32) : IVec S256 1 :=
  Host.reduce IntOp.andi
    (andi (cmpi .sge (takeIdx tg) (broadcastInDim S256x1 ![] bcast_S_S256x1 (constantI S_ 32 0#32)))
      (cmpi .sle (takeIdx tg) (broadcastInDim S256x1 ![0, 1] bcast_S1x1_S256x1_0_1
        (broadcastInDim S1x1 ![1] bcast_S1_S1x1_1 (constantI S1 32 99999#32)))))
    (constantI S_ 1 1#1) reducesTo_S256x1_S256_d1 h_S_

/-- The bank's rows at the targets, the NaN word where a target is out of range. -/
def takeRows (bank : FVec Ideal S100000x256 .f32) (tg : IVec S256 32) : FVec Ideal S256x256 .f32 :=
  select (broadcastInDim S256x256 ![0] bcast_S256_S256x256_0 (takeOk tg))
    (Host.gather gather_S100000x256_S256x1_S256x256_1_0_n_n_0_1_1256 bank (takeIdx tg))
    (broadcastInDim S256x256 ![] bcast_S_S256x256 (constant (F := Ideal) S_ .f32 0x7FC00000#32))

set_option maxHeartbeats 1000000 in
theorem after1_1_v30 (V : Valuation τ sig (Elt Ideal)) :
    StableHlo.after (hostOps1_1 (F := Ideal)) V (Proc.devRef .tc main_v30)
      = takeRows (V (Proc.devRef .tc main_arg1)) (V (Proc.devRef .tc main_arg3)) := by
  after_results_simp
  rfl

theorem after0_v0 (V : Valuation τ sig (Elt Ideal)) :
    StableHlo.after (hostOps0 (F := Ideal)) V (Proc.devRef .tc main_v0)
      = Host.sqrt (broadcastInDim S256x1 ![0] bcast_S256_S256x1_0
          (Host.reduceAdd (mulf (V (Proc.devRef .tc main_arg0) : FVec Ideal S256x256 .f32) (V (Proc.devRef .tc main_arg0)))
            (constant (F := Ideal) S_ .f32 0x00000000#32) reducesTo_S256x256_S256_d1 h_S_)) := by
  after_results_simp
  rfl

/-- An array divided, row by row, by a column. -/
def divCol (a : FVec Ideal S256x256 .f32) (n : FVec Ideal S256x1 .f32) : FVec Ideal S256x256 .f32 :=
  Host.divf a (broadcastInDim S256x256 ![0, 1] bcast_S256x1_S256x256_0_1 n)

theorem after0_1_v2 (V : Valuation τ sig (Elt Ideal)) :
    StableHlo.after (hostOps0_1 (F := Ideal)) V (Proc.devRef .tc main_v2)
      = divCol (V (Proc.devRef .tc main_arg0)) (V (Proc.devRef .tc main_v0)) := by
  after_results_simp
  rfl

/-- The normalised inputs at region 0's entry. -/
theorem W2_v2 (c : Dev nD) :
    W2 m ρ c (Proc.devRef .tc main_v2)
      = Shared.normX bcast_S256x1_S256x256_0_1 bcast_S256_S256x1_0 reducesTo_S256x256_S256_d1 h_S_
          (m ((c.tc : Thread nD τ).loc main_arg0)) := by
  show StableHlo.after hostOps0_1 (StableHlo.after hostOps0 (W0 m ρ c)) (Proc.devRef .tc main_v2) = _
  rw [after0_1_v2, after0_v0]
  have e : StableHlo.after hostOps0 (W0 m ρ c) (Proc.devRef .tc main_arg0) = m ((c.tc : Thread nD τ).loc main_arg0) :=
    (by host_skip hostOps0 : StableHlo.after hostOps0 (W0 m ρ c) (Proc.devRef .tc main_arg0) = W0 m ρ c (Proc.devRef .tc main_arg0)).trans rfl
  rw [e]
  rfl

/-- Row b's scaled dot product with the gathered bank row, minus the row's log-sum-exp, as a vector over the rows. -/
def rowP (x g : FVec Ideal S256x256 .f32) (lse : FVec Ideal S256x1 .f32) : FVec Ideal S256 .f32 :=
  shapeCast S256 (subf (Host.divf (broadcastInDim S256x1 ![0] bcast_S256_S256x1_0
      (Host.reduceAdd (mulf x g) (constant (F := Ideal) S_ .f32 0x00000000#32) reducesTo_S256x256_S256_d1 h_S_))
    (broadcastInDim S256x1 ![] bcast_S_S256x1 (constant (F := Ideal) S_ .f32 0x3D4CCCCD#32))) lse) shapeCasts_S256x1_S256

set_option maxHeartbeats 1000000 in
theorem after1_2_v46 (V : Valuation τ sig (Elt Ideal)) :
    StableHlo.after (hostOps1_2 (F := Ideal)) V (Proc.devRef .tc main_v46)
      = Shared.tail1 bcast_S_S256 reducesTo_S256_S_d0 h_S_
          (rowP (V (Proc.devRef .tc main_v2)) (V (Proc.devRef .tc main_v30)) (V (Proc.devRef .tc main_v26)))
          (shapeCast S256 (V (Proc.devRef .tc main_v29) : FVec Ideal S256x1 .f32) shapeCasts_S256x1_S256) := by
  after_results_simp
  rfl

/-! ## Reading the stretches' functions at a row -/

/-- A vector laid as a column reads, at (b, 0), the vector at b. -/
theorem bcast_col {α : Type} (v : S256.Idx → α) (b : Fin 256) :
    broadcastInDim S256x1 ![0] bcast_S256_S256x1_0 v (ix2 b 0) = v (ix1 b) := by
  refine broadcastInDim_apply _ _ v _ (ix1 b) fun a => ?_
  match a with
  | ⟨0, _⟩ => rfl

/-- A column flattened to a vector reads, at b, the column at (b, 0). -/
theorem flat_apply {α : Type} (x : S256x1.Idx → α) (b : Fin 256) :
    shapeCast S256 x shapeCasts_S256x1_S256 (ix1 b) = x (ix2 b 0) :=
  shapeCast_apply x _ _ _ (by
    rw [Shape.rowMajor_val_two, Shape.rowMajor_val_one]
    show b.val * 1 + 0 = b.val
    omega)

theorem col0_apply (A : FVec Ideal S2x256x1 .f32) (b : Fin 256) :
    col0 A (ix2 b 0) = A (ix3 (0 : Fin 2) b (0 : Fin 1)) := by
  unfold col0
  refine (shapeCast_1ab_ab_apply _ _ b 0).trans ?_
  unfold extractStridedSlice
  refine congrArg A (funext fun a => Fin.ext ?_)
  match a with
  | ⟨0, _⟩ => rfl
  | ⟨1, _⟩ => exact Nat.zero_add _
  | ⟨2, _⟩ => rfl

theorem col1_apply (A : FVec Ideal S2x256x1 .f32) (b : Fin 256) :
    col1 A (ix2 b 0) = A (ix3 (1 : Fin 2) b (0 : Fin 1)) := by
  unfold col1
  refine (shapeCast_1ab_ab_apply _ _ b 0).trans ?_
  unfold extractStridedSlice
  refine congrArg A (funext fun a => Fin.ext ?_)
  match a with
  | ⟨0, _⟩ => rfl
  | ⟨1, _⟩ => exact Nat.zero_add _
  | ⟨2, _⟩ => rfl

theorem lseCol_apply (M L : FVec Ideal S2x256x1 .f32) (b : Fin 256) :
    lseCol M L (ix2 b 0)
      = max (M (ix3 (0 : Fin 2) b (0 : Fin 1))) (M (ix3 (1 : Fin 2) b (0 : Fin 1)))
        + Ideal.log (Ideal.exp (M (ix3 (0 : Fin 2) b (0 : Fin 1))
              - max (M (ix3 (0 : Fin 2) b (0 : Fin 1))) (M (ix3 (1 : Fin 2) b (0 : Fin 1)))) * L (ix3 (0 : Fin 2) b (0 : Fin 1))
            + Ideal.exp (M (ix3 (1 : Fin 2) b (0 : Fin 1))
              - max (M (ix3 (0 : Fin 2) b (0 : Fin 1))) (M (ix3 (1 : Fin 2) b (0 : Fin 1)))) * L (ix3 (1 : Fin 2) b (0 : Fin 1))) := by
  rw [← col0_apply M b, ← col1_apply M b, ← col0_apply L b, ← col1_apply L b]
  rfl

theorem slpCol_apply (M L S : FVec Ideal S2x256x1 .f32) (b : Fin 256) :
    slpCol M L S (ix2 b 0)
      = (S (ix3 (0 : Fin 2) b (0 : Fin 1)) + S (ix3 (1 : Fin 2) b (0 : Fin 1)))
        - Ideal.ofBits .f32 0x47C35000#32 * lseCol M L (ix2 b 0) := by
  rw [← col0_apply S b, ← col1_apply S b]
  rfl

/-- The row sums of products read at a row: the zero word plus the sum over the row of the products. -/
theorem rowdot_apply (x g : FVec Ideal S256x256 .f32) (b : Fin 256) :
    Host.reduceAdd (mulf x g) (constant (F := Ideal) S_ .f32 0x00000000#32) reducesTo_S256x256_S256_d1 h_S_ (ix1 b)
      = Ideal.ofBits .f32 0x00000000#32 + ∑ k : Fin 256, x (ix2 b k) * g (ix2 b k) := by
  have hR : S256x256.Reduces [1] S256 := by decide
  show Ideal.hostReduceAdd reducesTo_S256x256_S256_d1 (mulf x g) (Ideal.ofBits .f32 0x00000000#32) (ix1 b) = _
  rw [Ideal.hostReduceAdd_single reducesTo_S256x256_S256_d1 hR]
  refine congrArg (Ideal.ofBits .f32 0x00000000#32 + ·) (Finset.sum_congr rfl fun k _ => ?_)
  have e : hR.lift (ix1 b) k = ix2 b k := by
    funext d
    match d with
    | ⟨0, _⟩ => rfl
    | ⟨1, _⟩ => rfl
  rw [e]
  rfl

theorem rowP_apply (x g : FVec Ideal S256x256 .f32) (lse : FVec Ideal S256x1 .f32) (b : Fin 256) :
    rowP x g lse (ix1 b)
      = Ideal.div (Ideal.ofBits .f32 0x00000000#32 + ∑ k : Fin 256, x (ix2 b k) * g (ix2 b k)) (Ideal.ofBits .f32 0x3D4CCCCD#32)
        - lse (ix2 b 0) := by
  unfold rowP
  rw [flat_apply]
  show Ideal.div (broadcastInDim S256x1 ![0] bcast_S256_S256x1_0
      (Host.reduceAdd (mulf x g) (constant (F := Ideal) S_ .f32 0x00000000#32) reducesTo_S256x256_S256_d1 h_S_) (ix2 b 0))
    (Ideal.ofBits .f32 0x3D4CCCCD#32) - lse (ix2 b 0) = _
  rw [bcast_col, rowdot_apply]

/-! ## The take with every target in range -/

/-- A word below 100000 is not negative as a signed word. -/
theorem slt_zero_of_small (t : BitVec 32) (h : t.toNat < 100000) : IntOp.cmpi .slt t 0#32 = 0#1 :=
  eq_zero_of_ne_one fun e =>
    Nat.not_lt_zero _ ((StableHlo.Predicate.slt_iff_toNat (a := t) (b := 0#32) (by omega) (by decide)).1 e)

theorem takeIdx_apply (tg : IVec S256 32) (b : Fin 256) (h : (tg (ix1 b)).toNat < 100000) :
    takeIdx tg (ix2 b 0) = tg (ix1 b) := by
  unfold takeIdx
  rw [bcast_col]
  show Scalar.select (IntOp.cmpi .slt (tg (ix1 b)) 0#32) (IntOp.addi (tg (ix1 b)) 100000#32) (tg (ix1 b)) = _
  rw [slt_zero_of_small _ h, select_zero]

/-- A fold of the one-bit conjunction from 1 over ones is 1. -/
theorem fold_andi_one {ι : Type} [DecidableEq ι] (S : Finset ι) (f : ι → BitVec 1) (h : ∀ i ∈ S, f i = 1#1) :
    S.fold IntOp.andi 1#1 f = 1#1 := by
  induction S using Finset.induction_on with
  | empty => rfl
  | insert a s ha ih =>
    rw [Finset.fold_insert ha, h a (Finset.mem_insert_self _ _), ih fun i hi => h i (Finset.mem_insert_of_mem hi)]
    decide

theorem takeOk_apply (tg : IVec S256 32) (hT : ∀ b : Fin 256, (tg (ix1 b)).toNat < 100000) (j : S256.Idx) :
    takeOk tg j = 1#1 := by
  unfold takeOk
  rw [Host.reduce_eq_fold]
  refine fold_andi_one _ _ fun i _ => ?_
  obtain ⟨p, q, rfl⟩ : ∃ (p : Fin 256) (q : Fin 1), i = ix2 p q := ⟨i 0, i 1, eq_ix2 i⟩
  obtain rfl : q = 0 := Subsingleton.elim _ _
  have ht := hT p
  show IntOp.andi (IntOp.cmpi .sge (takeIdx tg (ix2 p 0)) 0#32) (IntOp.cmpi .sle (takeIdx tg (ix2 p 0)) 99999#32) = 1#1
  rw [takeIdx_apply tg p ht]
  have h31 : (tg (ix1 p)).toNat < 2 ^ 31 := by omega
  have h1 : IntOp.cmpi .sge (tg (ix1 p)) 0#32 = 1#1 :=
    (StableHlo.Predicate.sge_iff_toNat h31 (by decide)).2 (Nat.zero_le _)
  have h2 : IntOp.cmpi .sle (tg (ix1 p)) 99999#32 = 1#1 :=
    (StableHlo.Predicate.sle_iff_toNat h31 (by decide)).2 (by show (tg (ix1 p)).toNat ≤ 99999; omega)
  rw [h1, h2]
  rfl

theorem takeRows_apply (bank : FVec Ideal S100000x256 .f32) (tg : IVec S256 32)
    (hT : ∀ b : Fin 256, (tg (ix1 b)).toNat < 100000) (b k : Fin 256) :
    takeRows bank tg (ix2 b k) = bank (ix2 (⟨(tg (ix1 b)).toNat, hT b⟩ : Fin 100000) k) := by
  unfold takeRows
  rw [select_apply]
  have hc : broadcastInDim S256x256 ![0] bcast_S256_S256x256_0 (takeOk tg) (ix2 b k) = 1#1 := takeOk_apply tg hT _
  rw [hc, select_one]
  have hg : gather_S100000x256_S256x1_S256x256_1_0_n_n_0_1_1256
      = Cert.Lib.rowGatherDims 100000 256 256 gather_S100000x256_S256x1_S256x256_1_0_n_n_0_1_1256_wf := rfl
  rw [hg, Cert.Lib.gather_rows_apply (by decide : 0 < 100000), takeIdx_apply tg b (hT b)]
  refine congrArg bank (congrArg (fun r => ix2 r k) (Fin.ext ?_))
  have ht := hT b
  show min (tg (ix1 b)).toInt.toNat (100000 - 1) = (tg (ix1 b)).toNat
  have h31 : (tg (ix1 b)).toNat < 2 ^ 31 := by omega
  rw [StableHlo.Predicate.toInt_eq_toNat_of_lt h31, Int.toNat_natCast]
  omega

/-! ## From the rows' entries to the two vectors -/

theorem lseCol_value (M L : FVec Ideal S2x256x1 .f32) (z : Fin 256 → Fin 100000 → ℝ)
    (hM : ∀ (q : Fin 2) (b : Fin 256), M (ix3 q b (0 : Fin 1)) = ((cMax (z b) q : ℝ) : EReal))
    (hL : ∀ (q : Fin 2) (b : Fin 256), L (ix3 q b (0 : Fin 1)) = ((cSumExp (z b) q : ℝ) : EReal)) (b : Fin 256) :
    lseCol M L (ix2 b 0) = ((kLse (z b) : ℝ) : EReal) := by
  rw [lseCol_apply, hM 0 b, hM 1 b, hL 0 b, hL 1 b]
  exact lse_coe _

theorem slpCol_value (M L S : FVec Ideal S2x256x1 .f32) (xr : Fin 256 → Fin 256 → ℝ) (fr : Fin 100000 → Fin 256 → ℝ)
    (hM : ∀ (q : Fin 2) (b : Fin 256), M (ix3 q b (0 : Fin 1)) = ((cMax (logitK xr fr b) q : ℝ) : EReal))
    (hL : ∀ (q : Fin 2) (b : Fin 256), L (ix3 q b (0 : Fin 1)) = ((cSumExp (logitK xr fr b) q : ℝ) : EReal))
    (hS : ∀ (q : Fin 2) (b : Fin 256), S (ix3 q b (0 : Fin 1)) = ((cSum (logitK xr fr b) q : ℝ) : EReal)) (b : Fin 256) :
    slpCol M L S (ix2 b 0) = ((Rows.slp xr fr b : ℝ) : EReal) := by
  rw [slpCol_apply, lseCol_value M L (fun b => logitK xr fr b) hM hL b, hS 0 b, hS 1 b]
  exact slp_coe xr fr b

/-- The vector of target log-probabilities from the rows' entries. -/
theorem rowP_value (x g : FVec Ideal S256x256 .f32) (lse : FVec Ideal S256x1 .f32)
    (xr : Fin 256 → Fin 256 → ℝ) (fr : Fin 100000 → Fin 256 → ℝ) (t : Fin 256 → Fin 100000)
    (hx : ∀ b k : Fin 256, x (ix2 b k) = ((xr b k : ℝ) : EReal))
    (hg : ∀ b k : Fin 256, g (ix2 b k) = ((fr (t b) k : ℝ) : EReal))
    (hl : ∀ b : Fin 256, lse (ix2 b 0) = ((kLse (logitK xr fr b) : ℝ) : EReal)) :
    rowP x g lse = Rows.vec fun b => ((Rows.lpt xr fr t b : ℝ) : EReal) := by
  funext i
  obtain ⟨b, rfl⟩ : ∃ b : Fin 256, i = ix1 b := ⟨i 0, eq_ix1 i⟩
  rw [rowP_apply, hl b]
  have e : ∑ k : Fin 256, x (ix2 b k) * g (ix2 b k)
      = ∑ k : Fin 256, ((xr b k : ℝ) : EReal) * ((fr (t b) k : ℝ) : EReal) :=
    Finset.sum_congr rfl fun k _ => by rw [hx b k, hg b k]
  rw [e, logit_coe xr fr b (t b), lpt_coe xr fr t b]
  rfl

/-- The vector of row sums of log-probabilities from the column's entries. -/
theorem slp_value (sl : FVec Ideal S256x1 .f32) (xr : Fin 256 → Fin 256 → ℝ) (fr : Fin 100000 → Fin 256 → ℝ)
    (hs : ∀ b : Fin 256, sl (ix2 b 0) = ((Rows.slp xr fr b : ℝ) : EReal)) :
    shapeCast S256 sl shapeCasts_S256x1_S256 = Rows.vec fun b => ((Rows.slp xr fr b : ℝ) : EReal) := by
  funext i
  obtain ⟨b, rfl⟩ : ∃ b : Fin 256, i = ix1 b := ⟨i 0, eq_ix1 i⟩
  rw [flat_apply, hs b]
  rfl

/-! ## The buffers along @main -/

/-- The first bank at region 0's entry is the launched one. -/
theorem W2_arg1 (c : Dev nD) : W2 m ρ c (Proc.devRef .tc main_arg1) = m ((c.tc : Thread nD τ).loc main_arg1) :=
  calc W2 m ρ c (Proc.devRef .tc main_arg1)
    _ = W1 m ρ c (Proc.devRef .tc main_arg1) := by host_skip hostOps0_1
    _ = W0 m ρ c (Proc.devRef .tc main_arg1) := by host_skip hostOps0
    _ = m ((c.tc : Thread nD τ).loc main_arg1) := rfl

/-- The first bank before the take: region 0 only reads it. -/
theorem W4_arg1 (c : Dev nD) : W4 m ρ c (Proc.devRef .tc main_arg1) = m ((c.tc : Thread nD τ).loc main_arg1) :=
  calc W4 m ρ c (Proc.devRef .tc main_arg1)
    _ = W3 m ρ c (Proc.devRef .tc main_arg1) := by host_skip hostOps1
    _ = W2 m ρ c (Proc.devRef .tc main_arg1) :=
        (W3_arr m ρ c 1).trans (((dat0 (V2 m ρ) c).arrAt_in 1 rfl _).trans (A_eq0 (V2 m ρ) c 1))
    _ = m ((c.tc : Thread nD τ).loc main_arg1) := W2_arg1 m ρ c

/-- The targets before the take. -/
theorem W4_arg3 (c : Dev nD) : W4 m ρ c (Proc.devRef .tc main_arg3) = m ((c.tc : Thread nD τ).loc main_arg3) :=
  calc W4 m ρ c (Proc.devRef .tc main_arg3)
    _ = W3 m ρ c (Proc.devRef .tc main_arg3) := by host_skip hostOps1
    _ = W2 m ρ c (Proc.devRef .tc main_arg3) := W3_of_ne m ρ c main_arg3 (by decide)
    _ = W1 m ρ c (Proc.devRef .tc main_arg3) := by host_skip hostOps0_1
    _ = W0 m ρ c (Proc.devRef .tc main_arg3) := by host_skip hostOps0
    _ = m ((c.tc : Thread nD τ).loc main_arg3) := rfl

/-- The normalised inputs after the take: region 0 only reads them. -/
theorem W5_v2 (c : Dev nD) :
    W5 m ρ c (Proc.devRef .tc main_v2)
      = Shared.normX bcast_S256x1_S256x256_0_1 bcast_S256_S256x1_0 reducesTo_S256x256_S256_d1 h_S_
          (m ((c.tc : Thread nD τ).loc main_arg0)) :=
  calc W5 m ρ c (Proc.devRef .tc main_v2)
    _ = W4 m ρ c (Proc.devRef .tc main_v2) := by host_skip hostOps1_1
    _ = W3 m ρ c (Proc.devRef .tc main_v2) := by host_skip hostOps1
    _ = W2 m ρ c (Proc.devRef .tc main_v2) :=
        (W3_arr m ρ c 0).trans (((dat0 (V2 m ρ) c).arrAt_in 0 rfl _).trans (A_eq0 (V2 m ρ) c 0))
    _ = _ := W2_v2 m ρ c

/-- The gathered bank rows. -/
theorem W5_v30 (c : Dev nD) :
    W5 m ρ c (Proc.devRef .tc main_v30)
      = takeRows (m ((c.tc : Thread nD τ).loc main_arg1)) (m ((c.tc : Thread nD τ).loc main_arg3)) := by
  show StableHlo.after hostOps1_1 (W4 m ρ c) (Proc.devRef .tc main_v30) = _
  rw [after1_1_v30, W4_arg1, W4_arg3]

/-- Region 0's three output arrays at its exit. -/
theorem W3_v3_0 (c : Dev nD) :
    W3 m ρ c (Proc.devRef .tc main_v3_0) = ((dat0 (V2 m ρ) c).arrAt 2 cfg0.N : S2x256x1.Idx → EReal) := W3_arr m ρ c 2
theorem W3_v3_1 (c : Dev nD) :
    W3 m ρ c (Proc.devRef .tc main_v3_1) = ((dat0 (V2 m ρ) c).arrAt 3 cfg0.N : S2x256x1.Idx → EReal) := W3_arr m ρ c 3
theorem W3_v3_2 (c : Dev nD) :
    W3 m ρ c (Proc.devRef .tc main_v3_2) = ((dat0 (V2 m ρ) c).arrAt 4 cfg0.N : S2x256x1.Idx → EReal) := W3_arr m ρ c 4

/-- The log-sum-exp column and the row-sum column after the take. -/
theorem W5_v26 (c : Dev nD) :
    W5 m ρ c (Proc.devRef .tc main_v26)
      = lseCol ((dat0 (V2 m ρ) c).arrAt 2 cfg0.N : S2x256x1.Idx → EReal) ((dat0 (V2 m ρ) c).arrAt 3 cfg0.N : S2x256x1.Idx → EReal) :=
  calc W5 m ρ c (Proc.devRef .tc main_v26)
    _ = W4 m ρ c (Proc.devRef .tc main_v26) := by host_skip hostOps1_1
    _ = _ := by
      show StableHlo.after hostOps1 (W3 m ρ c) (Proc.devRef .tc main_v26) = _
      rw [after1_v26, W3_v3_0, W3_v3_1]

theorem W5_v29 (c : Dev nD) :
    W5 m ρ c (Proc.devRef .tc main_v29)
      = slpCol ((dat0 (V2 m ρ) c).arrAt 2 cfg0.N : S2x256x1.Idx → EReal) ((dat0 (V2 m ρ) c).arrAt 3 cfg0.N : S2x256x1.Idx → EReal)
          ((dat0 (V2 m ρ) c).arrAt 4 cfg0.N : S2x256x1.Idx → EReal) :=
  calc W5 m ρ c (Proc.devRef .tc main_v29)
    _ = W4 m ρ c (Proc.devRef .tc main_v29) := by host_skip hostOps1_1
    _ = _ := by
      show StableHlo.after hostOps1 (W3 m ρ c) (Proc.devRef .tc main_v29) = _
      rw [after1_v29, W3_v3_0, W3_v3_1, W3_v3_2]

/-- The first result buffer is written before region 1 and by nothing after. -/
theorem W12_v46 (c : Dev nD) : W12 m ρ c (Proc.devRef .tc main_v46) = W6 m ρ c (Proc.devRef .tc main_v46) :=
  calc W12 m ρ c (Proc.devRef .tc main_v46)
    _ = W11 m ρ c (Proc.devRef .tc main_v46) := by host_skip hostOps3_2
    _ = W10 m ρ c (Proc.devRef .tc main_v46) := by host_skip hostOps3_1
    _ = W9 m ρ c (Proc.devRef .tc main_v46) := by host_skip hostOps3
    _ = W8 m ρ c (Proc.devRef .tc main_v46) := W9_of_ne m ρ c main_v46 (by decide)
    _ = W7 m ρ c (Proc.devRef .tc main_v46) := by host_skip hostOps2
    _ = W6 m ρ c (Proc.devRef .tc main_v46) := W7_of_ne m ρ c main_v46 (by decide)

/-- With the normalised inputs real (`xr`), the first bank real (`fr`) and every target below 100000, the first result
    buffer holds the cross-entropy tail of row b's `logit b (target b) - kLse` and `Σ logits - 100000 · kLse`. -/
theorem v46_value (c : Dev nD) (xr : Fin 256 → Fin 256 → ℝ) (fr : Fin 100000 → Fin 256 → ℝ)
    (hX : ∀ b k : Fin 256, Shared.normX bcast_S256x1_S256x256_0_1 bcast_S256_S256x1_0 reducesTo_S256x256_S256_d1 h_S_
      (m ((c.tc : Thread nD τ).loc main_arg0)) (ix2 b k) = ((xr b k : ℝ) : EReal))
    (hF : ∀ (j : Fin 100000) (k : Fin 256),
      (m ((c.tc : Thread nD τ).loc main_arg1) : S100000x256.Idx → EReal) (ix2 j k) = ((fr j k : ℝ) : EReal))
    (hT : ∀ b : Fin 256, ((m ((c.tc : Thread nD τ).loc main_arg3) : S256.Idx → BitVec 32) (ix1 b)).toNat < 100000) :
    W12 m ρ c (Proc.devRef .tc main_v46)
      = Shared.tail1 bcast_S_S256 reducesTo_S256_S_d0 h_S_
          (Rows.vec fun b => ((Rows.lpt xr fr
            (Rows.tIdx (fun b => (m ((c.tc : Thread nD τ).loc main_arg3) : S256.Idx → BitVec 32) (ix1 b)) hT) b : ℝ) : EReal))
          (Rows.vec fun b => ((Rows.slp xr fr b : ℝ) : EReal)) := by
  rw [W12_v46]
  show StableHlo.after hostOps1_2 (W5 m ρ c) (Proc.devRef .tc main_v46) = _
  rw [after1_2_v46]
  -- region 0's per-core statistics of each row, from its entry contents
  have hr := RegK.region0 (V2 m ρ) c xr fr
    (fun b k => (congrFun (W2_v2 m ρ c) (ix2 b k)).trans (hX b k))
    (fun j k => (congrFun (W2_arg1 m ρ c) (ix2 j k)).trans (hF j k))
  refine congrArg₂ (Shared.tail1 bcast_S_S256 reducesTo_S256_S_d0 h_S_)
    (rowP_value _ _ _ xr fr _ (fun b k => ?_) (fun b k => ?_) (fun b => ?_)) (slp_value _ xr fr fun b => ?_)
  · rw [W5_v2]
    exact hX b k
  · rw [W5_v30, takeRows_apply _ _ hT]
    exact hF _ k
  · rw [W5_v26]
    exact lseCol_value _ _ (fun b => logitK xr fr b) (fun q b => (hr q b).1) (fun q b => (hr q b).2.1) b
  · rw [W5_v29]
    exact slpCol_value _ _ _ xr fr (fun q b => (hr q b).1) (fun q b => (hr q b).2.1) (fun q b => (hr q b).2.2) b

end Cert.KernelIdeal.HostK1

end
-- ==== Proof.HostK2.lean ====
/-
  The kernel program's second result, read back through @main: the buffer of the triplet loss at the last boundary is the shared tail of the per-row has-a-positive mask and the per-row sums, in closed form.
-/
import proofs.«411386_j43001212567993_2_alg».proof.Proof.Gen.KernelIdeal.Frame
import proofs.«411386_j43001212567993_2_alg».proof.Proof.RegionsK
import proofs.«411386_j43001212567993_2_alg».proof.Proof.Rows
import proofs.«411386_j43001212567993_2_alg».proof.Proof.Shared
import proofs.«411386_j43001212567993_2_alg».proof.Proof.Algebra
import Idealize.ShloMosaic.Lib.StableHlo.Run
import Idealize.ShloMosaic.Lib.StableHlo.Predicate
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.HostK2

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-- A buffer that no operation of a host stretch writes holds after the stretch what it held before. -/
macro "host_pass" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Layout operations read at a row

A two-core array [2, 256, 1] sliced at core q and cast to a column [256, 1] reads, at row b, the array at (q, b, 0); a
column cast to a vector reads the column's row, a vector cast to a column the vector's entry; a broadcast scalar reads
the scalar. -/

section Layout
variable {α : Type}

/-- Core 0's slice of a two-core array as a column. -/
def core0 (A : S2x256x1.Idx → α) : S256x1.Idx → α :=
  shapeCast S256x1 (extractStridedSlice S1x256x1 ![0, 0, 0] A slices_S2x256x1_S1x256x1_0_0_0) shapeCasts_S1x256x1_S256x1
/-- Core 1's slice of a two-core array as a column. -/
def core1 (A : S2x256x1.Idx → α) : S256x1.Idx → α :=
  shapeCast S256x1 (extractStridedSlice S1x256x1 ![1, 0, 0] A slices_S2x256x1_S1x256x1_1_0_0) shapeCasts_S1x256x1_S256x1

theorem core0_apply (A : S2x256x1.Idx → α) (b : Fin 256) : core0 A (ix2 b (0 : Fin 1)) = A (ix3 (0 : Fin 2) b (0 : Fin 1)) := by
  unfold core0
  refine (shapeCast_1ab_ab_apply _ shapeCasts_S1x256x1_S256x1 b (0 : Fin 1)).trans ?_
  refine extractStridedSlice_apply _ A slices_S2x256x1_S1x256x1_0_0_0 _ _ fun a => ?_
  match a with
  | ⟨0, _⟩ => rfl
  | ⟨1, _⟩ => exact (Nat.zero_add _).symm
  | ⟨2, _⟩ => rfl

theorem core1_apply (A : S2x256x1.Idx → α) (b : Fin 256) : core1 A (ix2 b (0 : Fin 1)) = A (ix3 (1 : Fin 2) b (0 : Fin 1)) := by
  unfold core1
  refine (shapeCast_1ab_ab_apply _ shapeCasts_S1x256x1_S256x1 b (0 : Fin 1)).trans ?_
  refine extractStridedSlice_apply _ A slices_S2x256x1_S1x256x1_1_0_0 _ _ fun a => ?_
  match a with
  | ⟨0, _⟩ => rfl
  | ⟨1, _⟩ => exact (Nat.zero_add _).symm
  | ⟨2, _⟩ => rfl

/-- A column cast to a vector reads the column's row. -/
theorem colVec_apply (A : S256x1.Idx → α) (b : Fin 256) :
    shapeCast S256 A shapeCasts_S256x1_S256 (ix1 b) = A (ix2 b (0 : Fin 1)) :=
  shapeCast_apply A shapeCasts_S256x1_S256 _ _ (by
    rw [Shape.rowMajor_val_two, Shape.rowMajor_val_one]
    show b.val * 1 + 0 = b.val
    omega)

/-- A vector cast to a column reads the vector's entry. -/
theorem vecCol_apply (A : S256.Idx → α) (b : Fin 256) :
    shapeCast S256x1 A shapeCasts_S256_S256x1 (ix2 b (0 : Fin 1)) = A (ix1 b) :=
  shapeCast_apply A shapeCasts_S256_S256x1 _ _ (by
    rw [Shape.rowMajor_val_two, Shape.rowMajor_val_one]
    show b.val = b.val * 1 + 0
    omega)

/-- The same over the 100000 bank rows. -/
theorem vecCol_apply' (A : S100000.Idx → α) (j : Fin 100000) :
    shapeCast S100000x1 A shapeCasts_S100000_S100000x1 (ix2 j (0 : Fin 1)) = A (ix1 j) :=
  shapeCast_apply A shapeCasts_S100000_S100000x1 _ _ (by
    rw [Shape.rowMajor_val_two, Shape.rowMajor_val_one]
    show j.val = j.val * 1 + 0
    omega)

end Layout

section Stretches0
variable (V : Valuation τ sig (Elt Ideal))

/-- The rows' Euclidean norms as a column. -/
theorem st0_v0 : StableHlo.after hostOps0 V (Proc.devRef .tc main_v0)
    = Host.sqrt (F := Ideal) (φ := .f32) (broadcastInDim S256x1 ![0] bcast_S256_S256x1_0
        (Host.reduceAdd (F := Ideal) (φ := .f32) (mulf (F := Ideal) (φ := .f32) (V (Proc.devRef .tc main_arg0) : FVec Ideal S256x256 .f32)
            (V (Proc.devRef .tc main_arg0) : FVec Ideal S256x256 .f32))
          (constant (F := Ideal) S_ .f32 0x00000000#32) reducesTo_S256x256_S256_d1 h_S_)) := by
  after_results <;> rfl

/-- The inputs divided by the broadcast norms. -/
theorem st0_1_v2 : StableHlo.after hostOps0_1 V (Proc.devRef .tc main_v2)
    = Host.divf (F := Ideal) (φ := .f32) (V (Proc.devRef .tc main_arg0) : FVec Ideal S256x256 .f32)
        (broadcastInDim S256x256 ![0, 1] bcast_S256x1_S256x256_0_1 (V (Proc.devRef .tc main_v0) : FVec Ideal S256x1 .f32)) := by
  after_results <;> rfl

end Stretches0

/-! ## The host stretches on the path of the second result, each over any contents before the stretch -/

section Stretches
variable (V : Valuation τ sig (Elt Ideal))

/-- The last stretch: the mean over the rows of the selected sums. -/
theorem st3_2 : StableHlo.after hostOps3_2 V (Proc.devRef .tc main_v90)
    = Host.divf (Host.reduceAdd (V (Proc.devRef .tc main_v88) : FVec Ideal S256 .f32) (constant (F := Ideal) S_ .f32 0x00000000#32) reducesTo_S256_S_d0 h_S_)
        (constant (F := Ideal) S_ .f32 0x43800000#32) := by
  after_results

/-- The select of the per-row sums under the mask, else the zero word. -/
theorem st3_1 : StableHlo.after hostOps3_1 V (Proc.devRef .tc main_v88)
    = select (V (Proc.devRef .tc main_v84) : IVec S256 1) (V (Proc.devRef .tc main_v87) : FVec Ideal S256 .f32)
        (broadcastInDim S256 ![] bcast_S_S256 (id (V (Proc.devRef .tc main_cst_10) : FVec Ideal S_ .f32))) := by
  after_results
  rfl

/-- The zero word the select falls back to. -/
theorem st3_cst : StableHlo.after hostOps3 V (Proc.devRef .tc main_cst_10) = constant (F := Ideal) S_ .f32 0x00000000#32 := by
  after_results

/-- The mask: the merged positive-seen flag above the zero word. -/
theorem st3_v84 : StableHlo.after hostOps3 V (Proc.devRef .tc main_v84)
    = cmpf (F := Ideal) (φ := .f32) .ogt (shapeCast S256 (V (Proc.devRef .tc main_v64) : FVec Ideal S256x1 .f32) shapeCasts_S256x1_S256)
        (broadcastInDim S256 ![] bcast_S_S256 (constant (F := Ideal) S_ .f32 0x00000000#32)) := by
  after_results
  rfl

/-- The per-row sums: the two cores' thresholded sums over the positives plus those over the negatives. -/
theorem st3_v87 : StableHlo.after hostOps3 V (Proc.devRef .tc main_v87)
    = addf (F := Ideal) (φ := .f32) (shapeCast S256 (addf (F := Ideal) (φ := .f32) (core0 (V (Proc.devRef .tc main_v71_0) : FVec Ideal S2x256x1 .f32))
                (core1 (V (Proc.devRef .tc main_v71_0) : FVec Ideal S2x256x1 .f32))) shapeCasts_S256x1_S256)
           (shapeCast S256 (addf (F := Ideal) (φ := .f32) (core0 (V (Proc.devRef .tc main_v71_1) : FVec Ideal S2x256x1 .f32))
                (core1 (V (Proc.devRef .tc main_v71_1) : FVec Ideal S2x256x1 .f32))) shapeCasts_S256x1_S256) := by
  after_results_simp
  rfl

/-- The merged positive-seen flag. -/
theorem st2_v64 : StableHlo.after hostOps2 V (Proc.devRef .tc main_v64)
    = maximumf (F := Ideal) (φ := .f32) (core0 (V (Proc.devRef .tc main_v49_2) : FVec Ideal S2x256x1 .f32))
        (core1 (V (Proc.devRef .tc main_v49_2) : FVec Ideal S2x256x1 .f32)) := by
  after_results
  rfl

/-- The positives' cut: the merged maximum over the negatives plus the margin word. -/
theorem st2_v66 : StableHlo.after hostOps2 V (Proc.devRef .tc main_v66)
    = addf (F := Ideal) (φ := .f32) (maximumf (F := Ideal) (φ := .f32) (core0 (V (Proc.devRef .tc main_v49_1) : FVec Ideal S2x256x1 .f32))
              (core1 (V (Proc.devRef .tc main_v49_1) : FVec Ideal S2x256x1 .f32)))
        (broadcastInDim S256x1 ![] bcast_S_S256x1 (constant (F := Ideal) S_ .f32 0x3DCCCCCD#32)) := by
  after_results
  rfl

/-- The negatives' cut: the merged maximum over the positives joined with the 0.6 word, minus the margin word. -/
theorem st2_v70 : StableHlo.after hostOps2 V (Proc.devRef .tc main_v70)
    = subf (F := Ideal) (φ := .f32) (maximumf (F := Ideal) (φ := .f32) (broadcastInDim S256x1 ![] bcast_S_S256x1 (constant (F := Ideal) S_ .f32 0x3F19999A#32))
              (maximumf (F := Ideal) (φ := .f32) (core0 (V (Proc.devRef .tc main_v49_0) : FVec Ideal S2x256x1 .f32))
                (core1 (V (Proc.devRef .tc main_v49_0) : FVec Ideal S2x256x1 .f32))))
        (broadcastInDim S256x1 ![] bcast_S_S256x1 (constant (F := Ideal) S_ .f32 0x3DCCCCCD#32)) := by
  after_results
  rfl

/-- The targets as a column. -/
theorem st1_2_v47 : StableHlo.after hostOps1_2 V (Proc.devRef .tc main_v47)
    = shapeCast S256x1 (V (Proc.devRef .tc main_arg3) : IVec S256 32) shapeCasts_S256_S256x1 := by
  after_results
  rfl

/-- The labels as a column. -/
theorem st1_2_v48 : StableHlo.after hostOps1_2 V (Proc.devRef .tc main_v48)
    = shapeCast S100000x1 (V (Proc.devRef .tc main_arg4) : IVec S100000 32) shapeCasts_S100000_S100000x1 := by
  after_results
  rfl

end Stretches

/-! ## The buffers on the path, boundary by boundary -/

section Run
variable (c : Dev nD)

/-- The launched arrays as functions of plain indices: the normalised inputs, the second bank, the targets, the labels. -/
abbrev X : Fin 256 → Fin 256 → EReal := fun b k =>
  Shared.normX bcast_S256x1_S256x256_0_1 bcast_S256_S256x1_0 reducesTo_S256x256_S256_d1 h_S_
    (m ((c.tc : Thread nD τ).loc main_arg0)) (ix2 b k)
abbrev Fs : Fin 100000 → Fin 256 → EReal := fun j k =>
  (m ((c.tc : Thread nD τ).loc main_arg2) : S100000x256.Idx → EReal) (ix2 j k)
abbrev T : Fin 256 → BitVec 32 := fun b => (m ((c.tc : Thread nD τ).loc main_arg3) : S256.Idx → BitVec 32) (ix1 b)
abbrev Lb : Fin 100000 → BitVec 32 := fun j => (m ((c.tc : Thread nD τ).loc main_arg4) : S100000.Idx → BitVec 32) (ix1 j)

/-- The normalised inputs when region 0 is entered. -/
theorem v2_W2 : W2 m ρ c (Proc.devRef .tc main_v2)
    = Shared.normX bcast_S256x1_S256x256_0_1 bcast_S256_S256x1_0 reducesTo_S256x256_S256_d1 h_S_
        (m ((c.tc : Thread nD τ).loc main_arg0)) := by
  have h0 : W1 m ρ c (Proc.devRef .tc main_arg0) = W0 m ρ c (Proc.devRef .tc main_arg0) := by host_pass hostOps0
  have h1 : W1 m ρ c (Proc.devRef .tc main_v0) = _ := st0_v0 (W0 m ρ c)
  show StableHlo.after hostOps0_1 (W1 m ρ c) (Proc.devRef .tc main_v2) = _
  rw [st0_1_v2, h0, h1]
  rfl

/-- They pass region 0 (which only reads them) and the stretches up to region 1 … -/
theorem v2_W6 : W6 m ρ c (Proc.devRef .tc main_v2) = W2 m ρ c (Proc.devRef .tc main_v2) :=
  calc W6 m ρ c (Proc.devRef .tc main_v2)
    _ = W5 m ρ c (Proc.devRef .tc main_v2) := by host_pass hostOps1_2
    _ = W4 m ρ c (Proc.devRef .tc main_v2) := by host_pass hostOps1_1
    _ = W3 m ρ c (Proc.devRef .tc main_v2) := by host_pass hostOps1
    _ = W2 m ρ c (Proc.devRef .tc main_v2) :=
        (W3_arr m ρ c 0).trans (((dat0 (V2 m ρ) c).arrAt_in 0 rfl _).trans (A_eq0 (V2 m ρ) c 0))

/-- … and region 1 and the stretch up to region 2. -/
theorem v2_W8 : W8 m ρ c (Proc.devRef .tc main_v2) = W6 m ρ c (Proc.devRef .tc main_v2) :=
  calc W8 m ρ c (Proc.devRef .tc main_v2)
    _ = W7 m ρ c (Proc.devRef .tc main_v2) := by host_pass hostOps2
    _ = W6 m ρ c (Proc.devRef .tc main_v2) :=
        (W7_arr m ρ c 0).trans (((dat1 (V6 m ρ) c).arrAt_in 0 rfl _).trans (A_eq1 (V6 m ρ) c 0))

/-- The second bank is as launched when region 1 is entered … -/
theorem arg2_W6 : W6 m ρ c (Proc.devRef .tc main_arg2) = m ((c.tc : Thread nD τ).loc main_arg2) :=
  calc W6 m ρ c (Proc.devRef .tc main_arg2)
    _ = W5 m ρ c (Proc.devRef .tc main_arg2) := by host_pass hostOps1_2
    _ = W4 m ρ c (Proc.devRef .tc main_arg2) := by host_pass hostOps1_1
    _ = W3 m ρ c (Proc.devRef .tc main_arg2) := by host_pass hostOps1
    _ = W2 m ρ c (Proc.devRef .tc main_arg2) := W3_of_ne m ρ c main_arg2 (by decide)
    _ = W1 m ρ c (Proc.devRef .tc main_arg2) := by host_pass hostOps0_1
    _ = W0 m ρ c (Proc.devRef .tc main_arg2) := by host_pass hostOps0
    _ = m ((c.tc : Thread nD τ).loc main_arg2) := rfl

/-- … and when region 2 is. -/
theorem arg2_W8 : W8 m ρ c (Proc.devRef .tc main_arg2) = W6 m ρ c (Proc.devRef .tc main_arg2) :=
  calc W8 m ρ c (Proc.devRef .tc main_arg2)
    _ = W7 m ρ c (Proc.devRef .tc main_arg2) := by host_pass hostOps2
    _ = W6 m ρ c (Proc.devRef .tc main_arg2) :=
        (W7_arr m ρ c 1).trans (((dat1 (V6 m ρ) c).arrAt_in 1 rfl _).trans (A_eq1 (V6 m ρ) c 1))

/-- The targets are as launched before the stretch that casts them to a column. -/
theorem arg3_W5 : W5 m ρ c (Proc.devRef .tc main_arg3) = m ((c.tc : Thread nD τ).loc main_arg3) :=
  calc W5 m ρ c (Proc.devRef .tc main_arg3)
    _ = W4 m ρ c (Proc.devRef .tc main_arg3) := by host_pass hostOps1_1
    _ = W3 m ρ c (Proc.devRef .tc main_arg3) := by host_pass hostOps1
    _ = W2 m ρ c (Proc.devRef .tc main_arg3) := W3_of_ne m ρ c main_arg3 (by decide)
    _ = W1 m ρ c (Proc.devRef .tc main_arg3) := by host_pass hostOps0_1
    _ = W0 m ρ c (Proc.devRef .tc main_arg3) := by host_pass hostOps0
    _ = m ((c.tc : Thread nD τ).loc main_arg3) := rfl

/-- So are the labels. -/
theorem arg4_W5 : W5 m ρ c (Proc.devRef .tc main_arg4) = m ((c.tc : Thread nD τ).loc main_arg4) :=
  calc W5 m ρ c (Proc.devRef .tc main_arg4)
    _ = W4 m ρ c (Proc.devRef .tc main_arg4) := by host_pass hostOps1_1
    _ = W3 m ρ c (Proc.devRef .tc main_arg4) := by host_pass hostOps1
    _ = W2 m ρ c (Proc.devRef .tc main_arg4) := W3_of_ne m ρ c main_arg4 (by decide)
    _ = W1 m ρ c (Proc.devRef .tc main_arg4) := by host_pass hostOps0_1
    _ = W0 m ρ c (Proc.devRef .tc main_arg4) := by host_pass hostOps0
    _ = m ((c.tc : Thread nD τ).loc main_arg4) := rfl

/-- The targets' column when region 1 is entered, read at a row. -/
theorem v47_W6 (b : Fin 256) :
    (W6 m ρ c (Proc.devRef .tc main_v47) : S256x1.Idx → BitVec 32) (ix2 b (0 : Fin 1)) = T m c b := by
  have h : W6 m ρ c (Proc.devRef .tc main_v47) = _ := st1_2_v47 (W5 m ρ c)
  refine (congrFun h (ix2 b (0 : Fin 1))).trans ?_
  refine (vecCol_apply _ b).trans ?_
  exact congrFun (arg3_W5 m ρ c) (ix1 b)

/-- The labels' column when region 1 is entered, read at a bank row. -/
theorem v48_W6 (j : Fin 100000) :
    (W6 m ρ c (Proc.devRef .tc main_v48) : S100000x1.Idx → BitVec 32) (ix2 j (0 : Fin 1)) = Lb m c j := by
  have h : W6 m ρ c (Proc.devRef .tc main_v48) = _ := st1_2_v48 (W5 m ρ c)
  refine (congrFun h (ix2 j (0 : Fin 1))).trans ?_
  refine (vecCol_apply' _ j).trans ?_
  exact congrFun (arg4_W5 m ρ c) (ix1 j)

/-- Both columns pass region 1 and the stretch up to region 2. -/
theorem v47_W8 : W8 m ρ c (Proc.devRef .tc main_v47) = W6 m ρ c (Proc.devRef .tc main_v47) :=
  calc W8 m ρ c (Proc.devRef .tc main_v47)
    _ = W7 m ρ c (Proc.devRef .tc main_v47) := by host_pass hostOps2
    _ = W6 m ρ c (Proc.devRef .tc main_v47) :=
        (W7_arr m ρ c 2).trans (((dat1 (V6 m ρ) c).arrAt_in 2 rfl _).trans (A_eq1 (V6 m ρ) c 2))
theorem v48_W8 : W8 m ρ c (Proc.devRef .tc main_v48) = W6 m ρ c (Proc.devRef .tc main_v48) :=
  calc W8 m ρ c (Proc.devRef .tc main_v48)
    _ = W7 m ρ c (Proc.devRef .tc main_v48) := by host_pass hostOps2
    _ = W6 m ρ c (Proc.devRef .tc main_v48) :=
        (W7_arr m ρ c 3).trans (((dat1 (V6 m ρ) c).arrAt_in 3 rfl _).trans (A_eq1 (V6 m ρ) c 3))

end Run

/-! ## The regions' output arrays, and what the host makes of them -/

section Regions
variable (c : Dev nD)

/-- A merged column read at a row: the larger, or the sum, of the two cores' entries; a broadcast word reads the word. -/
theorem mergeMax_apply (A : FVec Ideal S2x256x1 .f32) (b : Fin 256) :
    maximumf (F := Ideal) (φ := .f32) (core0 A) (core1 A) (ix2 b (0 : Fin 1))
      = max (A (ix3 (0 : Fin 2) b (0 : Fin 1))) (A (ix3 (1 : Fin 2) b (0 : Fin 1))) := by
  rw [maximumf_apply, core0_apply, core1_apply]
theorem mergeAdd_apply (A : FVec Ideal S2x256x1 .f32) (b : Fin 256) :
    addf (F := Ideal) (φ := .f32) (core0 A) (core1 A) (ix2 b (0 : Fin 1))
      = A (ix3 (0 : Fin 2) b (0 : Fin 1)) + A (ix3 (1 : Fin 2) b (0 : Fin 1)) := by
  rw [addf_apply, core0_apply, core1_apply]
theorem wordCol_apply (w : BitVec 32) (j : S256x1.Idx) :
    broadcastInDim S256x1 ![] bcast_S_S256x1 (constant (F := Ideal) S_ .f32 w) j = Ideal.ofBits .f32 w := rfl
theorem wordVec_apply (w : BitVec 32) (j : S256.Idx) :
    broadcastInDim S256 ![] bcast_S_S256 (constant (F := Ideal) S_ .f32 w) j = Ideal.ofBits .f32 w := rfl

/-- Region 1's output arrays at core q and row b: the maxima over the positives and over the negatives among core q's
    columns, and the positive-seen flag. -/
theorem r1 (q : Fin 2) (b : Fin 256) :
    ((dat1 (V6 m ρ) c).arrAt 4 cfg1.N : S2x256x1.Idx → EReal) (ix3 q b 0)
        = mPos (dotE (X m c) (Fs m c) b) (fun j => T m c b = Lb m c j) (cols q)
    ∧ ((dat1 (V6 m ρ) c).arrAt 5 cfg1.N : S2x256x1.Idx → EReal) (ix3 q b 0)
        = mNeg (dotE (X m c) (Fs m c) b) (fun j => T m c b = Lb m c j) (cols q)
    ∧ ((dat1 (V6 m ρ) c).arrAt 6 cfg1.N : S2x256x1.Idx → EReal) (ix3 q b 0)
        = hPos (fun j => T m c b = Lb m c j) (cols q) :=
  RegK.region1 (V6 m ρ) c (X m c) (Fs m c) (T m c) (Lb m c)
    (fun b k => congrFun ((v2_W6 m ρ c).trans (v2_W2 m ρ c)) (ix2 b k))
    (fun j k => congrFun (arg2_W6 m ρ c) (ix2 j k))
    (fun b => v47_W6 m ρ c b)
    (fun j => v48_W6 m ρ c j) q b

/-- The positives' cut of row b: the largest similarity among the negatives plus the margin word. -/
abbrev Pc (b : Fin 256) : EReal :=
  mNeg (dotE (X m c) (Fs m c) b) (fun j => T m c b = Lb m c j) Finset.univ + Rows.marginW
/-- The negatives' cut of row b: the largest similarity among the positives joined with the 0.6 word, minus the margin word. -/
abbrev Nc (b : Fin 256) : EReal :=
  max Rows.floorW (mPos (dotE (X m c) (Fs m c) b) (fun j => T m c b = Lb m c j) Finset.univ) - Rows.marginW

/-- The positives' cut when region 2 is entered. -/
theorem v66_W8 (b : Fin 256) :
    (W8 m ρ c (Proc.devRef .tc main_v66) : S256x1.Idx → EReal) (ix2 b (0 : Fin 1)) = Pc m c b := by
  have h : W8 m ρ c (Proc.devRef .tc main_v66) = _ := st2_v66 (W7 m ρ c)
  have e : W7 m ρ c (Proc.devRef .tc main_v49_1) = (dat1 (V6 m ρ) c).arrAt 5 cfg1.N := W7_arr m ρ c 5
  refine (congrFun h (ix2 b (0 : Fin 1))).trans ?_
  rw [addf_apply, mergeMax_apply, wordCol_apply, e, (r1 m ρ c 0 b).2.1, (r1 m ρ c 1 b).2.1, mNeg_univ]

/-- The negatives' cut when region 2 is entered. -/
theorem v70_W8 (b : Fin 256) :
    (W8 m ρ c (Proc.devRef .tc main_v70) : S256x1.Idx → EReal) (ix2 b (0 : Fin 1)) = Nc m c b := by
  have h : W8 m ρ c (Proc.devRef .tc main_v70) = _ := st2_v70 (W7 m ρ c)
  have e : W7 m ρ c (Proc.devRef .tc main_v49_0) = (dat1 (V6 m ρ) c).arrAt 4 cfg1.N := W7_arr m ρ c 4
  refine (congrFun h (ix2 b (0 : Fin 1))).trans ?_
  rw [subf_apply, maximumf_apply, mergeMax_apply, wordCol_apply, wordCol_apply, e, (r1 m ρ c 0 b).1, (r1 m ρ c 1 b).1,
    mPos_univ]

/-- The merged positive-seen flag of row b is positive exactly when the row has a positive. -/
theorem v64_W8 (b : Fin 256) :
    (0 : EReal) < (W8 m ρ c (Proc.devRef .tc main_v64) : S256x1.Idx → EReal) (ix2 b (0 : Fin 1))
      ↔ Rows.has (T m c) (Lb m c) b := by
  have h : W8 m ρ c (Proc.devRef .tc main_v64) = _ := st2_v64 (W7 m ρ c)
  have e : W7 m ρ c (Proc.devRef .tc main_v49_2) = (dat1 (V6 m ρ) c).arrAt 6 cfg1.N := W7_arr m ρ c 6
  rw [congrFun h (ix2 b (0 : Fin 1)), mergeMax_apply, e, (r1 m ρ c 0 b).2.2, (r1 m ρ c 1 b).2.2]
  exact hPos_univ (fun j => T m c b = Lb m c j)

/-- Region 2's output arrays at core q and row b: the two thresholded sums over core q's columns, at the row's cuts. -/
theorem r2 (q : Fin 2) (b : Fin 256) :
    ((dat2 (V8 m ρ) c).arrAt 6 cfg2.N : S2x256x1.Idx → EReal) (ix3 q b 0)
        = posLoss (dotE (X m c) (Fs m c) b) (fun j => T m c b = Lb m c j) (Pc m c b) (cols q)
    ∧ ((dat2 (V8 m ρ) c).arrAt 7 cfg2.N : S2x256x1.Idx → EReal) (ix3 q b 0)
        = negLoss (dotE (X m c) (Fs m c) b) (fun j => T m c b = Lb m c j) (Nc m c b) (cols q) :=
  RegK.region2 (V8 m ρ) c (X m c) (Fs m c) (T m c) (Lb m c) (Pc m c) (Nc m c)
    (fun b k => congrFun ((v2_W8 m ρ c).trans ((v2_W6 m ρ c).trans (v2_W2 m ρ c))) (ix2 b k))
    (fun j k => congrFun ((arg2_W8 m ρ c).trans (arg2_W6 m ρ c)) (ix2 j k))
    (fun b => (congrFun (v47_W8 m ρ c) (ix2 b (0 : Fin 1))).trans (v47_W6 m ρ c b))
    (fun j => (congrFun (v48_W8 m ρ c) (ix2 j (0 : Fin 1))).trans (v48_W6 m ρ c j))
    (fun b => v66_W8 m ρ c b)
    (fun b => v70_W8 m ρ c b) q b

/-- The per-row sums after the stretch that follows region 2: row b's sum of the two thresholded sums over all columns. -/
theorem v87_W10 (b : Fin 256) :
    (W10 m ρ c (Proc.devRef .tc main_v87) : S256.Idx → EReal) (ix1 b)
      = Rows.loss (X m c) (Fs m c) (T m c) (Lb m c) b := by
  have h : W10 m ρ c (Proc.devRef .tc main_v87) = _ := st3_v87 (W9 m ρ c)
  have e0 : W9 m ρ c (Proc.devRef .tc main_v71_0) = (dat2 (V8 m ρ) c).arrAt 6 cfg2.N := W9_arr m ρ c 6
  have e1 : W9 m ρ c (Proc.devRef .tc main_v71_1) = (dat2 (V8 m ρ) c).arrAt 7 cfg2.N := W9_arr m ρ c 7
  refine (congrFun h (ix1 b)).trans ?_
  rw [addf_apply, colVec_apply, colVec_apply, mergeAdd_apply, mergeAdd_apply, e0, e1,
    (r2 m ρ c 0 b).1, (r2 m ρ c 1 b).1, (r2 m ρ c 0 b).2, (r2 m ρ c 1 b).2, posLoss_univ, negLoss_univ]
  rfl

/-- A comparison "above zero" of an extended real that is positive exactly when p holds of row b is the mask's bit. -/
theorem maskBit (p : Fin 256 → Prop) (b : Fin 256) (x : EReal) (h : (0 : EReal) < x ↔ p b) :
    Ideal.cmp .ogt x (Ideal.ofBits .f32 0x00000000#32) = Rows.mask p (ix1 b) := by
  rw [Ideal.ofBits_zero_f32]
  have hc : Ideal.cmp .ogt x 0 = BitVec.ofBool (decide ((0 : EReal) < x)) := rfl
  rw [hc]
  dsimp only [Rows.mask]
  by_cases hp : p (Rows.row (ix1 b))
  · rw [if_pos hp, decide_eq_true (h.mpr hp)]; rfl
  · rw [if_neg hp, decide_eq_false (fun h0 => hp (h.mp h0))]; rfl

/-- The mask after the stretch that follows region 2: row b's bit says whether the row has a positive. -/
theorem v84_W10 (b : Fin 256) :
    (W10 m ρ c (Proc.devRef .tc main_v84) : S256.Idx → BitVec 1) (ix1 b)
      = Rows.mask (Rows.has (T m c) (Lb m c)) (ix1 b) := by
  have h : W10 m ρ c (Proc.devRef .tc main_v84) = _ := st3_v84 (W9 m ρ c)
  have e : W9 m ρ c (Proc.devRef .tc main_v64) = W8 m ρ c (Proc.devRef .tc main_v64) := W9_of_ne m ρ c main_v64 (by decide)
  refine (congrFun h (ix1 b)).trans ?_
  rw [cmpf_apply, colVec_apply, wordVec_apply, e]
  exact maskBit _ b _ (v64_W8 m ρ c b)

end Regions

/-- The second result buffer holds the triplet tail of "row b has a positive" and row b's sum of the two thresholded
    sums, over the normalised inputs, the second bank, the targets and the labels as launched. -/
theorem v90_value (c : Dev nD) :
    W12 m ρ c (Proc.devRef .tc main_v90)
      = Shared.tail2 bcast_S_S256 reducesTo_S256_S_d0 h_S_
          (Rows.mask (Rows.has
            (fun b => (m ((c.tc : Thread nD τ).loc main_arg3) : S256.Idx → BitVec 32) (ix1 b))
            (fun j => (m ((c.tc : Thread nD τ).loc main_arg4) : S100000.Idx → BitVec 32) (ix1 j))))
          (Rows.vec (Rows.loss
            (fun b k => Shared.normX bcast_S256x1_S256x256_0_1 bcast_S256_S256x1_0 reducesTo_S256x256_S256_d1 h_S_
              (m ((c.tc : Thread nD τ).loc main_arg0)) (ix2 b k))
            (fun j k => (m ((c.tc : Thread nD τ).loc main_arg2) : S100000x256.Idx → EReal) (ix2 j k))
            (fun b => (m ((c.tc : Thread nD τ).loc main_arg3) : S256.Idx → BitVec 32) (ix1 b))
            (fun j => (m ((c.tc : Thread nD τ).loc main_arg4) : S100000.Idx → BitVec 32) (ix1 j)))) := by
  -- the mask and the per-row sums, entry by entry
  have e84 : W10 m ρ c (Proc.devRef .tc main_v84) = Rows.mask (Rows.has (T m c) (Lb m c)) := by
    funext i
    obtain ⟨b, rfl⟩ : ∃ b : Fin 256, i = ix1 b := ⟨i 0, eq_ix1 i⟩
    exact v84_W10 m ρ c b
  have e87 : W10 m ρ c (Proc.devRef .tc main_v87) = Rows.vec (Rows.loss (X m c) (Fs m c) (T m c) (Lb m c)) := by
    funext i
    obtain ⟨b, rfl⟩ : ∃ b : Fin 256, i = ix1 b := ⟨i 0, eq_ix1 i⟩
    exact v87_W10 m ρ c b
  -- the last two stretches are the shared tail applied to them
  have e10 : W10 m ρ c (Proc.devRef .tc main_cst_10) = _ := st3_cst (W9 m ρ c)
  have e88 : W11 m ρ c (Proc.devRef .tc main_v88) = _ := st3_1 (W10 m ρ c)
  show StableHlo.after hostOps3_2 (W11 m ρ c) (Proc.devRef .tc main_v90) = _
  rw [st3_2, e88, e84, e87, e10]
  rfl

end Cert.KernelIdeal.HostK2

end
-- ==== Proof.RefValue.lean ====
/-
  The reference program read row by row.

  Its two results are the shared tails (`Shared.tail1`, `Shared.tail2`) of four per-row vectors; its normalised
  `inputs` is `Shared.normX`; and, row by row: the target's log-probability and the row sum of log-probabilities
  (real numbers, under the precondition's facts), whether the row has a positive, and the sum of the two
  thresholded sums, with the cuts taken from the row's maxima over negatives and positives.
-/
import proofs.«411386_j43001212567993_2_alg».proof.Proof.RefRead
import proofs.«411386_j43001212567993_2_alg».proof.Proof.Spec
import proofs.«411386_j43001212567993_2_alg».proof.Proof.Shared
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Predicate

noncomputable section

namespace Cert.ReferenceIdeal.RefV

open Idealize.ShloMosaic Idealize.ShloMosaic.TcCoe Idealize.SL.Sem Idealize.ShloMosaic.ValueIdx
open Cert.ReferenceIdeal Cert.ReferenceIdeal.Gen Cert.ReferenceIdeal.ReadP Cert.Spec

variable (x0 : FVec Ideal S256x256 .f32) (x1 x2 : FVec Ideal S100000x256 .f32) (x3 : IVec S256 32) (x4 : IVec S100000 32)

/-- The first result is the cross-entropy tail of the target log-probabilities and the row sums. -/
theorem out0_eq : val_main_v19 (F := Ideal) x0 x1 x3
    = Shared.tail1 bcast_S_S256 reducesTo_S256_S_d0 h_S_ (val_main_v10 (F := Ideal) x0 x1 x3) (val_main_v13 (F := Ideal) x0 x1) := by
  unfold val_main_v19 val_main_v18 val_main_v17 val_main_v16 val_main_v12 val_main_v15 val_main_v11 val_main_v14
    val_main_cst_0 val_main_cst_2 val_main_cst_3 val_main_cst_4 Shared.tail1
  rfl

/-- The second result is the triplet tail of the has-a-positive mask and the per-row sums. -/
theorem out1_eq : val_main_v56 (F := Ideal) x0 x2 x3 x4
    = Shared.tail2 bcast_S_S256 reducesTo_S256_S_d0 h_S_ (val_main_v34 (F := Ideal) x3 x4) (val_main_v53 (F := Ideal) x0 x2 x3 x4) := by
  unfold val_main_v56 val_main_v55 val_main_v54 val_main_call7_v1 val_main_call7_v0 val_main_cst_17 val_main_cst_18
    val_main_cst_19 Shared.tail2
  rfl

/-- The normalised `inputs`. -/
theorem normX_eq : val_main_v2 (F := Ideal) x0
    = Shared.normX bcast_S256x1_S256x256_0_1 bcast_S256_S256x1_0 reducesTo_S256x256_S256_d1 h_S_ x0 := by
  unfold val_main_v2 val_main_v1 val_main_v0 val_main_call0_v2 val_main_call0_v1 val_main_call0_v0 val_main_call0_cst Shared.normX
  rfl

/-! ## Words, constants and folds -/

/-- The word of the temperature, 0.05 rounded to f32, is 13421773 / 2^28. -/
theorem ofBits_temp : Ideal.ofBits .f32 0x3D4CCCCD#32 = ((Spec.temp : ℝ) : EReal) := by
  simp [Ideal.ofBits, Ideal.ieee, -EReal.coe_mul]; norm_num [Spec.temp]

/-- The word 0xFF800000 is minus infinity. -/
theorem ofBits_negInf : Ideal.ofBits .f32 0xFF800000#32 = ⊥ := by
  simp [Ideal.ofBits, Ideal.ieee]

/-- A finite sum of coerced reals is the coerced sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A fold of `max` from the bottom is the supremum. -/
theorem fold_max_eq_sup {ι : Type} (s : Finset ι) (f : ι → EReal) : s.fold max ⊥ f = s.sup f := rfl

/-- The supremum of a row of coerced reals is the coerced maximum of the row. -/
theorem sup_coe_eq (z : Fin 100000 → ℝ) : (Finset.univ.sup fun k => ((z k : ℝ) : EReal)) = ((gMax z : ℝ) : EReal) := by
  unfold gMax
  apply le_antisymm
  · exact Finset.sup_le fun k _ => EReal.coe_le_coe_iff.2 (Finset.le_sup' z (Finset.mem_univ k))
  · obtain ⟨k, _, hk⟩ := Finset.exists_mem_eq_sup' ⟨⟨0, by decide⟩, Finset.mem_univ _⟩ z
    rw [hk]
    exact Finset.le_sup (f := fun k => ((z k : ℝ) : EReal)) (Finset.mem_univ k)

/-- An or-fold from 0 is 1 exactly when some entry is 1. -/
theorem fold_ori_eq_one {ι : Type} (s : Finset ι) (f : ι → BitVec 1) :
    s.fold IntOp.ori 0#1 f = 1#1 ↔ ∃ j ∈ s, f j = 1#1 := by
  classical
  induction s using Finset.induction_on with
  | empty => simp
  | insert a s ha ih =>
    rw [Finset.fold_insert ha, IntOp.ori_eq_one, ih]
    constructor
    · rintro (h | ⟨j, hj, h⟩)
      · exact ⟨a, Finset.mem_insert_self a s, h⟩
      · exact ⟨j, Finset.mem_insert_of_mem hj, h⟩
    · rintro ⟨j, hj, h⟩
      rcases Finset.mem_insert.1 hj with rfl | hj
      · exact Or.inl h
      · exact Or.inr ⟨j, hj, h⟩

/-! ## The reductions along the columns, and the gather, read at a row -/

/-- A max-reduce along the columns from minus infinity is, at row `b`, the supremum of the row. -/
theorem reduce_max_row (y : FVec Ideal S256x100000 .f32) (init : FVec Ideal S_ .f32)
    (hinit : init (Shape.Idx.first h_S_) = ⊥) (b : Fin 256) :
    Host.reduce FloatOps.maximumf y init reducesTo_S256x100000_S256_d1 h_S_ (ix1 b)
      = Finset.univ.sup fun j : Fin 100000 => y (ix2 b j) := by
  rw [Host.reduce_eq_fold_single FloatOps.maximumf y init reducesTo_S256x100000_S256_d1 (by decide) h_S_ (ix1 b), hinit]
  show Finset.fold max ⊥ _ _ = _
  rw [fold_max_eq_sup]
  refine Finset.sup_congr rfl fun j _ => ?_
  exact congrArg y (funext fun a => Fin.ext (by match a with | ⟨0, _⟩ => rfl | ⟨1, _⟩ => rfl))

/-- An or-reduce along the columns from 0 is 1 at row `b` exactly when the row has a 1. -/
theorem reduce_or_row (y : IVec S256x100000 1) (init : IVec S_ 1) (hinit : init (Shape.Idx.first h_S_) = 0#1) (b : Fin 256) :
    Host.reduce IntOp.ori y init reducesTo_S256x100000_S256_d1 h_S_ (ix1 b) = 1#1 ↔ ∃ j : Fin 100000, y (ix2 b j) = 1#1 := by
  rw [Host.reduce_eq_fold_single IntOp.ori y init reducesTo_S256x100000_S256_d1 (by decide) h_S_ (ix1 b), hinit, fold_ori_eq_one]
  have e : ∀ j : Fin 100000, (y ∘ (by decide : S256x100000.Reduces [1] S256).lift (ix1 b)) j = y (ix2 b j) := fun j =>
    congrArg y (funext fun a => Fin.ext (by match a with | ⟨0, _⟩ => rfl | ⟨1, _⟩ => rfl))
  constructor
  · rintro ⟨j, _, h⟩; exact ⟨j, (e j).symm.trans h⟩
  · rintro ⟨j, h⟩; exact ⟨j, Finset.mem_univ _, (e j).trans h⟩

/-- An and-fold from 1 over one entry is the entry. -/
theorem fold_andi_fin1 (f : Fin 1 → BitVec 1) : (Finset.univ : Finset (Fin 1)).fold IntOp.andi 1#1 f = f 0 := by
  rw [show (Finset.univ : Finset (Fin 1)) = {0} from rfl, Finset.fold_singleton]
  generalize f 0 = c
  revert c; decide

/-- An and-reduce of a [256, 1, 1] mask along its last axis from 1 is, at (b, 0), the mask's entry at (b, 0, 0). -/
theorem reduce_and_unit (y : IVec S256x1x1 1) (init : IVec S_ 1) (hinit : init (Shape.Idx.first h_S_) = 1#1) (b : Fin 256) :
    Host.reduce IntOp.andi y init reducesTo_S256x1x1_S256x1_d2 h_S_ (ix2 b 0) = y (ix3 b 0 0) := by
  rw [Host.reduce_eq_fold_single IntOp.andi y init reducesTo_S256x1x1_S256x1_d2 (by decide) h_S_ (ix2 b 0), hinit]
  have e : (by decide : S256x1x1.Reduces [2] S256x1).lift (ix2 b 0) (0 : Fin 1) = ix3 b 0 0 :=
    funext fun a => Fin.ext (by match a with | ⟨0, _⟩ => rfl | ⟨1, _⟩ => rfl | ⟨2, _⟩ => rfl)
  exact (fold_andi_fin1 _).trans (congrArg y e)

/-- The take-along-axis gather: operand [256, 100000], batching axis 0, collapsed axis 1, indices [256, 1, 1]. At (b, 0)
    it reads the operand's row `b` at the start word of (b, 0, 0), read signed and clamped into [0, 99999]. -/
theorem gather_row_apply {α : Type} (x : S256x100000.Idx → α) (idx : IVec S256x1x1 32) (b : Fin 256) :
    Host.gather gather_S256x100000_S256x1x1_S256x1_n_1_0_0_1_2_11 x idx (ix2 b 0)
      = x (ix2 b ⟨min (idx (ix3 b 0 0)).toInt.toNat 99999, by omega⟩) := by
  unfold Host.gather
  congr 1
  -- axis 0 is the batching axis: no start, no offset, the batch coordinate is the row
  have h0 : gather_S256x100000_S256x1x1_S256x1_n_1_0_0_1_2_11.start (ix2 b 0) idx (0 : Fin 2)
      + gather_S256x100000_S256x1x1_S256x1_n_1_0_0_1_2_11.batchCoord (ix2 b 0) (0 : Fin 2)
      + gather_S256x100000_S256x1x1_S256x1_n_1_0_0_1_2_11.offCoord (ix2 b 0) (0 : Fin 2) = b.val := by
    rw [GatherDims.start_batching _ _ _ _ (show (0 : Fin 2) ∈ gather_S256x100000_S256x1x1_S256x1_n_1_0_0_1_2_11.operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S256x100000_S256x1x1_S256x1_n_1_0_0_1_2_11.operandBatchingDims from List.mem_singleton.mpr rfl)]
    rfl
  -- axis 1 is collapsed and start-indexed: the clamped start word, no batching and no offset coordinate
  have h1 : gather_S256x100000_S256x1x1_S256x1_n_1_0_0_1_2_11.start (ix2 b 0) idx (1 : Fin 2)
      + gather_S256x100000_S256x1x1_S256x1_n_1_0_0_1_2_11.batchCoord (ix2 b 0) (1 : Fin 2)
      + gather_S256x100000_S256x1x1_S256x1_n_1_0_0_1_2_11.offCoord (ix2 b 0) (1 : Fin 2)
      = min (idx (ix3 b 0 0)).toInt.toNat 99999 := by
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x100000_S256x1x1_S256x1_n_1_0_0_1_2_11.startIndexMap from List.mem_singleton.mpr rfl)]
    have hsi : gather_S256x100000_S256x1x1_S256x1_n_1_0_0_1_2_11.siIdx (ix2 b 0)
        ⟨List.idxOf (1 : Fin 2) gather_S256x100000_S256x1x1_S256x1_n_1_0_0_1_2_11.startIndexMap,
          List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl
  funext a
  refine Fin.ext ?_
  match a with
  | ⟨0, _⟩ => exact h0
  | ⟨1, _⟩ => exact h1

/-! ## The log-softmax of row `b`, for real logits -/

theorem temp_ne_zero : (Spec.temp : ℝ) ≠ 0 := by unfold Spec.temp; norm_num

theorem gSumExp_pos' (z : Fin 100000 → ℝ) : 0 < gSumExp z := by
  unfold gSumExp
  exact Finset.sum_pos (fun j _ => Real.exp_pos _) ⟨⟨0, by norm_num⟩, Finset.mem_univ _⟩

section Logits
variable (xr : Fin 256 → Fin 256 → ℝ) (fr : Fin 100000 → Fin 256 → ℝ)

/-- The scaled logits: the row's dot products with the bank rows, divided by the temperature word. -/
theorem v6_row (hX : ∀ b k : Fin 256, val_main_v2 (F := Ideal) x0 (ix2 b k) = ((xr b k : ℝ) : EReal))
    (hF : ∀ (j : Fin 100000) (k : Fin 256), x1 (ix2 j k) = ((fr j k : ℝ) : EReal)) (b : Fin 256) (j : Fin 100000) :
    val_main_v6 (F := Ideal) x0 x1 (ix2 b j) = ((logitR xr fr b j : ℝ) : EReal) := by
  rw [val_main_v6_apply, val_main_v4_apply, val_main_v5_apply, val_main_cst_apply]
  have hs : ∀ k : Fin 256, val_main_v2 (F := Ideal) x0 (lidx_main_v4 (ix2 b j) k) * val_main_v3 (F := Ideal) x1 (ridx_main_v4 (ix2 b j) k)
      = ((xr b k * fr j k : ℝ) : EReal) := by
    intro k
    have e1 : lidx_main_v4 (ix2 b j) k = ix2 b k := funext fun a => by match a with | ⟨0, _⟩ => rfl | ⟨1, _⟩ => rfl
    have e2 : idx_main_v3 (ridx_main_v4 (ix2 b j) k) = ix2 j k := funext fun a => by match a with | ⟨0, _⟩ => rfl | ⟨1, _⟩ => rfl
    rw [val_main_v3_apply, e1, e2, hX, hF, EReal.coe_mul]
  rw [Finset.sum_congr rfl (fun k _ => hs k), coe_sum, Ideal.hostDivf_def, Ideal.ofBits_def, ofBits_temp,
    Ideal.div_coe temp_ne_zero, ← EReal.coe_mul]
  congr 1
  unfold logitR dotR
  rw [mul_one_div]

end Logits

section LogSoftmax
variable {x0 x1} (z : Fin 100000 → ℝ) (b : Fin 256)
  (hz : ∀ j : Fin 100000, val_main_v6 (F := Ideal) x0 x1 (ix2 b j) = ((z j : ℝ) : EReal))
include hz

/-- The max-reduce of the row from minus infinity: the row's maximum. -/
theorem call1_v0_row : val_main_call1_v0 (F := Ideal) x0 x1 (ix1 b) = ((gMax z : ℝ) : EReal) := by
  unfold val_main_call1_v0
  exact (reduce_max_row (val_main_v6 (F := Ideal) x0 x1) (val_main_call1_cst (F := Ideal))
      ((val_main_call1_cst_apply (F := Ideal) _).trans ofBits_negInf) b).trans
    ((Finset.sup_congr rfl fun j _ => hz j).trans (sup_coe_eq z))

/-- The maximum with minus infinity changes nothing. -/
theorem call1_v2_row : val_main_call1_v2 (F := Ideal) x0 x1 (ix1 b) = ((gMax z : ℝ) : EReal) := by
  rw [val_main_call1_v2_apply, val_main_call1_v1_apply, val_main_call1_cst_0_apply, call1_v0_row z b hz,
    Ideal.maximumf_def, Ideal.ofBits_def, ofBits_negInf]
  exact max_eq_right bot_le

/-- The shifted logits. -/
theorem call1_v5_row (j : Fin 100000) : val_main_call1_v5 (F := Ideal) x0 x1 (ix2 b j) = ((z j - gMax z : ℝ) : EReal) := by
  have e : idx_main_call1_v3 (idx_main_call1_v4 (ix2 b j)) = ix1 b := funext fun a => by match a with | ⟨0, _⟩ => rfl
  rw [val_main_call1_v5_apply, val_main_call1_v4_apply, val_main_call1_v3_apply, hz j, e, call1_v2_row z b hz,
    Ideal.subf_def, ← EReal.coe_sub]

/-- Their exponentials. -/
theorem call1_v6_row (j : Fin 100000) :
    val_main_call1_v6 (F := Ideal) x0 x1 (ix2 b j) = ((Real.exp (z j - gMax z) : ℝ) : EReal) := by
  rw [val_main_call1_v6_apply, call1_v5_row z b hz j, Ideal.hostUnary_exp_def, Ideal.exp_coe]

/-- The sum of the exponentials. -/
theorem call1_v7_row : val_main_call1_v7 (F := Ideal) x0 x1 (ix1 b) = ((gSumExp z : ℝ) : EReal) := by
  have e1 : ∀ k : Fin 100000, idx_main_call1_v7 (ix1 b) k = ix2 b k := fun k =>
    funext fun a => by match a with | ⟨0, _⟩ => rfl | ⟨1, _⟩ => rfl
  have e : ∀ k : Fin 100000, val_main_call1_v6 (F := Ideal) x0 x1 (idx_main_call1_v7 (ix1 b) k)
      = ((Real.exp (z k - gMax z) : ℝ) : EReal) := fun k =>
    (congrArg (val_main_call1_v6 (F := Ideal) x0 x1) (e1 k)).trans (call1_v6_row z b hz k)
  rw [val_main_call1_v7_apply, val_main_call1_cst_1_apply, Finset.sum_congr rfl (fun k _ => e k), coe_sum,
    Ideal.ofBits_def, Ideal.ofBits_zero_f32, zero_add]
  rfl

/-- Its logarithm: a real number, the sum being positive. -/
theorem call1_v9_row : val_main_call1_v9 (F := Ideal) x0 x1 (ix2 b 0) = ((Real.log (gSumExp z) : ℝ) : EReal) := by
  have e : idx_main_call1_v8 (ix2 b (0 : Fin 1)) = ix1 b := funext fun a => by match a with | ⟨0, _⟩ => rfl
  rw [val_main_call1_v9_apply, val_main_call1_v8_apply, e, call1_v7_row z b hz, Ideal.hostUnary_log_def, Ideal.log_coe,
    if_neg (not_le.2 (gSumExp_pos' z))]

/-- The log-probabilities of the row. -/
theorem v7_row (j : Fin 100000) : val_main_v7 (F := Ideal) x0 x1 (ix2 b j) = ((lp z j : ℝ) : EReal) := by
  have e : idx_main_call1_v10 (ix2 b j) = ix2 b (0 : Fin 1) := funext fun a => by match a with | ⟨0, _⟩ => rfl | ⟨1, _⟩ => rfl
  rw [val_main_v7_apply, call1_v5_row z b hz j, val_main_call1_v10_apply, e, call1_v9_row z b hz, Ideal.subf_def,
    ← EReal.coe_sub]
  rfl

/-- Their sum over the row. -/
theorem v13_row : val_main_v13 (F := Ideal) x0 x1 (ix1 b) = ((∑ j, lp z j : ℝ) : EReal) := by
  have e1 : ∀ k : Fin 100000, idx_main_v13 (ix1 b) k = ix2 b k := fun k =>
    funext fun a => by match a with | ⟨0, _⟩ => rfl | ⟨1, _⟩ => rfl
  have e : ∀ k : Fin 100000, val_main_v7 (F := Ideal) x0 x1 (idx_main_v13 (ix1 b) k) = ((lp z k : ℝ) : EReal) := fun k =>
    (congrArg (val_main_v7 (F := Ideal) x0 x1) (e1 k)).trans (v7_row z b hz k)
  rw [val_main_v13_apply, val_main_cst_1_apply, Finset.sum_congr rfl (fun k _ => e k), coe_sum,
    Ideal.ofBits_def, Ideal.ofBits_zero_f32, zero_add]

end LogSoftmax

/-! ## The take along the columns at the target word -/

/-- A word below 100000 reads the same signed and unsigned. -/
theorem toInt_of_lt {t : BitVec 32} (h : t.toNat < 100000) : t.toInt = (t.toNat : Int) :=
  StableHlo.Predicate.toInt_eq_toNat_of_lt (by omega)

section Take
variable {x3} (b : Fin 256) (hT : (x3 (ix1 b)).toNat < 100000)
include hT

/-- The normalised index: a non-negative target is kept. -/
theorem call2_v4_row : val_main_call2_v4 (F := Ideal) x3 (ix2 b 0) = x3 (ix1 b) := by
  have e : idx_main_v8 (ix2 b (0 : Fin 1)) = ix1 b := funext fun a => by match a with | ⟨0, _⟩ => rfl
  rw [val_main_call2_v4_apply, val_main_call2_v1_apply, val_main_v8_apply, e, val_main_call2_v0_apply, val_main_call2_c_apply]
  have hn : ¬ IntOp.cmpi .slt (x3 (ix1 b)) 0#32 = 1#1 := by
    rw [IntOp.cmpi_slt, toInt_of_lt hT, show (0#32 : BitVec 32).toInt = 0 from by decide]
    omega
  rw [eq_zero_of_ne_one hn, select_zero]

/-- The same as a [256, 1, 1] array. -/
theorem call2_v5_row : val_main_call2_v5 (F := Ideal) x3 (ix3 b 0 0) = x3 (ix1 b) := by
  have e : idx_main_call2_v5 (ix3 b (0 : Fin 1) (0 : Fin 1)) = ix2 b 0 := funext fun a => by
    match a with
    | ⟨0, _⟩ => exact Fin.ext (by show ((b.val * 1 + 0) * 1 + 0) / 1 = b.val; omega)
    | ⟨1, _⟩ => rfl
  rw [val_main_call2_v5_apply, e, call2_v4_row b hT]

/-- The range mask holds: the index is between 0 and 99999. -/
theorem call2_v12_row : val_main_call2_v12 (F := Ideal) x3 (ix2 b 0) = 1#1 := by
  unfold val_main_call2_v12
  rw [reduce_and_unit (val_main_call2_v11 (F := Ideal) x3) (val_main_call2_c_3 (F := Ideal)) (val_main_call2_c_3_apply (F := Ideal) _) b, val_main_call2_v11_apply, IntOp.andi_eq_one,
    val_main_call2_v7_apply, val_main_call2_v10_apply, call2_v5_row b hT, val_main_call2_v6_apply, val_main_call2_c_2_apply,
    val_main_call2_v9_apply, val_main_call2_v8_apply, val_main_call2_c_1_apply, IntOp.cmpi_sge, IntOp.cmpi_sle, toInt_of_lt hT,
    show (0#32 : BitVec 32).toInt = 0 from by decide, show (99999#32 : BitVec 32).toInt = 99999 from by decide]
  omega

/-- The gather reads the log-probability of the target column. -/
theorem call2_v13_row : val_main_call2_v13 (F := Ideal) x0 x1 x3 (ix2 b 0)
    = val_main_v7 (F := Ideal) x0 x1 (ix2 b ⟨(x3 (ix1 b)).toNat, hT⟩) := by
  unfold val_main_call2_v13
  rw [gather_row_apply]
  refine congrArg (fun c => val_main_v7 (F := Ideal) x0 x1 (ix2 b c)) (Fin.ext ?_)
  show min (val_main_call2_v5 (F := Ideal) x3 (ix3 b 0 0)).toInt.toNat 99999 = (x3 (ix1 b)).toNat
  rw [call2_v5_row b hT, toInt_of_lt hT]
  omega

/-- So the taken value, as a [256] array. -/
theorem v10_row : val_main_v10 (F := Ideal) x0 x1 x3 (ix1 b)
    = val_main_v7 (F := Ideal) x0 x1 (ix2 b ⟨(x3 (ix1 b)).toNat, hT⟩) := by
  have e : idx_main_v10 (ix1 b) = ix2 b (0 : Fin 1) := funext fun a => by
    match a with
    | ⟨0, _⟩ => exact Fin.ext (by show b.val / 1 = b.val; omega)
    | ⟨1, _⟩ => rfl
  rw [val_main_v10_apply, e, val_main_v9_apply, call2_v12_row b hT, select_one, call2_v13_row x0 x1 b hT]

end Take

/-- Row `b`'s target log-probability and sum of log-probabilities, for real normalised inputs `xr`, a real bank `fr`
    and a target below 100000. -/
theorem lp_rows (xr : Fin 256 → Fin 256 → ℝ) (fr : Fin 100000 → Fin 256 → ℝ)
    (hX : ∀ b k : Fin 256, val_main_v2 (F := Ideal) x0 (ix2 b k) = ((xr b k : ℝ) : EReal))
    (hF : ∀ (j : Fin 100000) (k : Fin 256), x1 (ix2 j k) = ((fr j k : ℝ) : EReal))
    (hT : ∀ b : Fin 256, (x3 (ix1 b)).toNat < 100000) (b : Fin 256) :
    val_main_v10 (F := Ideal) x0 x1 x3 (ix1 b) = ((lp (logitR xr fr b) ⟨(x3 (ix1 b)).toNat, hT b⟩ : ℝ) : EReal)
    ∧ val_main_v13 (F := Ideal) x0 x1 (ix1 b) = ((∑ j, lp (logitR xr fr b) j : ℝ) : EReal) := by
  have hz : ∀ j : Fin 100000, val_main_v6 (F := Ideal) x0 x1 (ix2 b j) = ((logitR xr fr b j : ℝ) : EReal) :=
    fun j => v6_row x0 x1 xr fr hX hF b j
  exact ⟨(v10_row x0 x1 b (hT b)).trans (v7_row (logitR xr fr b) b hz _), v13_row (logitR xr fr b) b hz⟩

/-! ## The positives' mask and the has-a-positive bit -/

/-- A select on a bit is the `if` on what the bit being 1 says. -/
theorem select_bit {α : Type} (c : BitVec 1) (p : Prop) [Decidable p] (h : c = 1#1 ↔ p) (a b : α) :
    Scalar.select c a b = if p then a else b := by
  by_cases hp : p
  · rw [if_pos hp, h.2 hp, select_one]
  · rw [if_neg hp, eq_zero_of_ne_one (fun hc => hp (h.1 hc)), select_zero]

/-- The ordered less-than of extended reals is the bit of the strict order. -/
theorem cmpf_olt_iff (a c : EReal) : FloatOps.cmpf (F := Ideal) (φ := .f32) .olt a c = 1#1 ↔ a < c := by
  show BitVec.ofBool (decide (a < c)) = 1#1 ↔ a < c
  rw [StableHlo.Predicate.ofBool_eq_one_iff, decide_eq_true_eq]

/-- The ordered greater-than likewise. -/
theorem cmpf_ogt_iff (a c : EReal) : FloatOps.cmpf (F := Ideal) (φ := .f32) .ogt a c = 1#1 ↔ c < a := by
  show BitVec.ofBool (decide (c < a)) = 1#1 ↔ c < a
  rw [StableHlo.Predicate.ofBool_eq_one_iff, decide_eq_true_eq]

theorem ofBits_zero' : FloatOps.ofBits (F := Ideal) .f32 0x00000000#32 = (0 : EReal) := Ideal.ofBits_zero_f32
theorem ofBits_negInf' : FloatOps.ofBits (F := Ideal) .f32 0xFF800000#32 = (⊥ : EReal) := ofBits_negInf

/-- The mask at (b, j) compares the row's target with the column's label. -/
theorem v26_elt (b : Fin 256) (j : Fin 100000) :
    val_main_v26 (F := Ideal) x3 x4 (ix2 b j) = IntOp.cmpi .eq (x3 (ix1 b)) (x4 (ix1 j)) := by
  have e1 : idx_main_v22 (idx_main_v24 (ix2 b j)) = ix1 b := funext fun a => by match a with | ⟨0, _⟩ => rfl
  have e2 : idx_main_v23 (idx_main_v25 (ix2 b j)) = ix1 j := funext fun a => by match a with | ⟨0, _⟩ => rfl
  rw [val_main_v26_apply, val_main_v24_apply, val_main_v22_apply, e1, val_main_v25_apply, val_main_v23_apply, e2]

theorem v26_eq_one_iff (b : Fin 256) (j : Fin 100000) :
    val_main_v26 (F := Ideal) x3 x4 (ix2 b j) = 1#1 ↔ x3 (ix1 b) = x4 (ix1 j) := by
  rw [v26_elt, IntOp.cmpi_eq]

/-- Row `b` has a positive exactly when some label equals its target. -/
theorem hasPos_row (b : Fin 256) :
    val_main_v34 (F := Ideal) x3 x4 (ix1 b) = 1#1 ↔ ∃ j : Fin 100000, x3 (ix1 b) = x4 (ix1 j) := by
  unfold val_main_v34
  exact (reduce_or_row (val_main_v26 (F := Ideal) x3 x4) (val_main_c (F := Ideal)) (val_main_c_apply (F := Ideal) _) b).trans
    (exists_congr fun j => v26_eq_one_iff x3 x4 b j)

/-! ## The thresholded sums of row `b` -/

/-- The similarities: the normalised row against the second bank. -/
theorem v21_elt (b : Fin 256) (j : Fin 100000) :
    val_main_v21 (F := Ideal) x0 x2 (ix2 b j)
      = dotE (fun b k => val_main_v2 (F := Ideal) x0 (ix2 b k)) (fun j k => x2 (ix2 j k)) b j := by
  rw [val_main_v21_apply]
  unfold dotE
  refine Finset.sum_congr rfl fun k _ => ?_
  have e1 : lidx_main_v21 (ix2 b j) k = ix2 b k := funext fun a => by match a with | ⟨0, _⟩ => rfl | ⟨1, _⟩ => rfl
  have e2 : idx_main_v20 (ridx_main_v21 (ix2 b j) k) = ix2 j k := funext fun a => by match a with | ⟨0, _⟩ => rfl | ⟨1, _⟩ => rfl
  rw [val_main_v20_apply, e1, e2]

section Triplet
variable {x0 x2 x3 x4} (b : Fin 256) (s : Fin 100000 → EReal) (e : Fin 100000 → Prop) [DecidablePred e]
  (hs : ∀ j : Fin 100000, val_main_v21 (F := Ideal) x0 x2 (ix2 b j) = s j)
  (he : ∀ j : Fin 100000, val_main_v26 (F := Ideal) x3 x4 (ix2 b j) = 1#1 ↔ e j)
include hs he

/-- The similarities with the positives at minus infinity. -/
theorem v28_elt (j : Fin 100000) : val_main_v28 (F := Ideal) x0 x2 x3 x4 (ix2 b j) = if e j then ⊥ else s j := by
  rw [val_main_v28_apply, val_main_v27_apply, hs j, val_main_call3_v0_apply, val_main_cst_5_apply, ofBits_negInf',
    select_bit _ (¬ e j) (IntOp.not_eq_one.trans (not_congr (he j))), ite_not]

/-- The negatives' maximum: their max-reduce from minus infinity. -/
theorem v29_row : val_main_v29 (F := Ideal) x0 x2 x3 x4 (ix1 b) = mNeg s e Finset.univ := by
  unfold val_main_v29 mNeg
  exact (reduce_max_row (val_main_v28 (F := Ideal) x0 x2 x3 x4) (val_main_cst_6 (F := Ideal))
      ((val_main_cst_6_apply (F := Ideal) _).trans ofBits_negInf) b).trans
    (Finset.sup_congr rfl fun j _ => v28_elt b s e hs he j)

/-- The similarities with the negatives at minus infinity. -/
theorem v31_elt (j : Fin 100000) : val_main_v31 (F := Ideal) x0 x2 x3 x4 (ix2 b j) = if e j then s j else ⊥ := by
  rw [val_main_v31_apply, hs j, val_main_call4_v0_apply, val_main_cst_7_apply, ofBits_negInf', select_bit _ (e j) (he j)]

/-- The positives' maximum. -/
theorem v32_row : val_main_v32 (F := Ideal) x0 x2 x3 x4 (ix1 b) = mPos s e Finset.univ := by
  unfold val_main_v32 mPos
  exact (reduce_max_row (val_main_v31 (F := Ideal) x0 x2 x3 x4) (val_main_cst_8 (F := Ideal))
      ((val_main_cst_8_apply (F := Ideal) _).trans ofBits_negInf) b).trans
    (Finset.sup_congr rfl fun j _ => v31_elt b s e hs he j)

/-- The positives' cut, along the row. -/
theorem v37_elt (j : Fin 100000) : val_main_v37 (F := Ideal) x0 x2 x3 x4 (ix2 b j)
    = mNeg s e Finset.univ + Ideal.ofBits .f32 0x3DCCCCCD#32 := by
  have e1 : idx_main_v30 (idx_main_v37 (ix2 b j)) = ix1 b := funext fun a => by match a with | ⟨0, _⟩ => rfl
  rw [val_main_v37_apply, val_main_v36_apply, val_main_v30_apply, e1, v29_row b s e hs he, val_main_v35_apply,
    val_main_cst_9_apply, Ideal.ofBits_def, Ideal.addf_def]

/-- The negatives' cut, along the row. -/
theorem v44_elt (j : Fin 100000) : val_main_v44 (F := Ideal) x0 x2 x3 x4 (ix2 b j)
    = max (Ideal.ofBits .f32 0x3F19999A#32) (mPos s e Finset.univ) - Ideal.ofBits .f32 0x3DCCCCCD#32 := by
  have e1 : idx_main_v33 (idx_main_v44 (ix2 b j)) = ix1 b := funext fun a => by match a with | ⟨0, _⟩ => rfl
  rw [val_main_v44_apply, val_main_v43_apply, val_main_v41_apply, val_main_v40_apply, val_main_cst_10_apply,
    Ideal.ofBits_def, val_main_v33_apply, e1, v32_row b s e hs he, val_main_v42_apply, val_main_cst_11_apply,
    Ideal.ofBits_def, Ideal.maximumf_def, Ideal.subf_def]

/-- A positive below the positives' cut. -/
theorem v39_iff (j : Fin 100000) : val_main_v39 (F := Ideal) x0 x2 x3 x4 (ix2 b j) = 1#1
    ↔ e j ∧ s j < mNeg s e Finset.univ + Ideal.ofBits .f32 0x3DCCCCCD#32 := by
  rw [val_main_v39_apply, IntOp.andi_eq_one, he j, val_main_v38_apply, hs j, v37_elt b s e hs he j, cmpf_olt_iff]

/-- A negative above the negatives' cut. -/
theorem v46_iff (j : Fin 100000) : val_main_v46 (F := Ideal) x0 x2 x3 x4 (ix2 b j) = 1#1
    ↔ ¬ e j ∧ max (Ideal.ofBits .f32 0x3F19999A#32) (mPos s e Finset.univ) - Ideal.ofBits .f32 0x3DCCCCCD#32 < s j := by
  rw [val_main_v46_apply, IntOp.andi_eq_one, val_main_v27_apply, IntOp.not_eq_one, he j, val_main_v45_apply, hs j,
    v44_elt b s e hs he j, cmpf_ogt_iff]

/-- One minus the similarity. -/
theorem v48_elt (j : Fin 100000) : val_main_v48 (F := Ideal) x0 x2 (ix2 b j) = oneW - s j := by
  rw [val_main_v48_apply, val_main_v47_apply, val_main_cst_12_apply, hs j, Ideal.ofBits_def, Ideal.subf_def]

/-- The positives' summands. -/
theorem v49_elt (j : Fin 100000) : val_main_v49 (F := Ideal) x0 x2 x3 x4 (ix2 b j)
    = if e j ∧ s j < mNeg s e Finset.univ + Ideal.ofBits .f32 0x3DCCCCCD#32 then oneW - s j else 0 := by
  rw [val_main_v49_apply, v48_elt b s e hs he j, val_main_call5_v1_apply, val_main_call5_v0_apply, val_main_cst_13_apply,
    ofBits_zero', select_bit _ _ (v39_iff b s e hs he j)]

/-- The negatives' summands. -/
theorem v51_elt (j : Fin 100000) : val_main_v51 (F := Ideal) x0 x2 x3 x4 (ix2 b j)
    = if ¬ e j ∧ max (Ideal.ofBits .f32 0x3F19999A#32) (mPos s e Finset.univ) - Ideal.ofBits .f32 0x3DCCCCCD#32 < s j
        then s j else 0 := by
  rw [val_main_v51_apply, hs j, val_main_call6_v1_apply, val_main_call6_v0_apply, val_main_cst_15_apply, ofBits_zero',
    select_bit _ _ (v46_iff b s e hs he j)]

/-- The positives' thresholded sum. -/
theorem v50_row : val_main_v50 (F := Ideal) x0 x2 x3 x4 (ix1 b)
    = posLoss s e (mNeg s e Finset.univ + Ideal.ofBits .f32 0x3DCCCCCD#32) Finset.univ := by
  have e1 : ∀ k : Fin 100000, idx_main_v50 (ix1 b) k = ix2 b k := fun k =>
    funext fun a => by match a with | ⟨0, _⟩ => rfl | ⟨1, _⟩ => rfl
  rw [val_main_v50_apply, val_main_cst_14_apply, ofBits_zero', zero_add]
  unfold posLoss
  exact Finset.sum_congr rfl fun j _ =>
    (congrArg (val_main_v49 (F := Ideal) x0 x2 x3 x4) (e1 j)).trans (v49_elt b s e hs he j)

/-- The negatives' thresholded sum. -/
theorem v52_row : val_main_v52 (F := Ideal) x0 x2 x3 x4 (ix1 b)
    = negLoss s e (max (Ideal.ofBits .f32 0x3F19999A#32) (mPos s e Finset.univ) - Ideal.ofBits .f32 0x3DCCCCCD#32) Finset.univ := by
  have e1 : ∀ k : Fin 100000, idx_main_v52 (ix1 b) k = ix2 b k := fun k =>
    funext fun a => by match a with | ⟨0, _⟩ => rfl | ⟨1, _⟩ => rfl
  rw [val_main_v52_apply, val_main_cst_16_apply, ofBits_zero', zero_add]
  unfold negLoss
  exact Finset.sum_congr rfl fun j _ =>
    (congrArg (val_main_v51 (F := Ideal) x0 x2 x3 x4) (e1 j)).trans (v51_elt b s e hs he j)

end Triplet

/-- Row `b`'s sum of the two thresholded sums: the similarities `s j = Σ_k X b k · x2 j k` of the normalised row against the
    second bank, column `j` a positive when its label is the row's target; the positives' cut is the negatives'
    maximum plus the margin word, the negatives' cut the larger of the 0.6 word and the positives' maximum, minus
    the margin word. -/
theorem loss_row (b : Fin 256) :
    val_main_v53 (F := Ideal) x0 x2 x3 x4 (ix1 b)
      = posLoss (dotE (fun b k => val_main_v2 (F := Ideal) x0 (ix2 b k)) (fun j k => x2 (ix2 j k)) b)
          (fun j => x3 (ix1 b) = x4 (ix1 j))
          (mNeg (dotE (fun b k => val_main_v2 (F := Ideal) x0 (ix2 b k)) (fun j k => x2 (ix2 j k)) b)
            (fun j => x3 (ix1 b) = x4 (ix1 j)) Finset.univ + Ideal.ofBits .f32 0x3DCCCCCD#32) Finset.univ
        + negLoss (dotE (fun b k => val_main_v2 (F := Ideal) x0 (ix2 b k)) (fun j k => x2 (ix2 j k)) b)
          (fun j => x3 (ix1 b) = x4 (ix1 j))
          (max (Ideal.ofBits .f32 0x3F19999A#32)
            (mPos (dotE (fun b k => val_main_v2 (F := Ideal) x0 (ix2 b k)) (fun j k => x2 (ix2 j k)) b)
              (fun j => x3 (ix1 b) = x4 (ix1 j)) Finset.univ) - Ideal.ofBits .f32 0x3DCCCCCD#32) Finset.univ := by
  rw [val_main_v53_apply,
    v50_row b (dotE (fun b k => val_main_v2 (F := Ideal) x0 (ix2 b k)) (fun j k => x2 (ix2 j k)) b)
      (fun j => x3 (ix1 b) = x4 (ix1 j)) (v21_elt x0 x2 b) (v26_eq_one_iff x3 x4 b),
    v52_row b (dotE (fun b k => val_main_v2 (F := Ideal) x0 (ix2 b k)) (fun j k => x2 (ix2 j k)) b)
      (fun j => x3 (ix1 b) = x4 (ix1 j)) (v21_elt x0 x2 b) (v26_eq_one_iff x3 x4 b),
    Ideal.addf_def]

end Cert.ReferenceIdeal.RefV

end
-- ==== Proof.PreFacts.lean ====
/-
  What the precondition gives: every entry of `inputs` and of the first bank is a real number, every row of
  `inputs` has a positive sum of squares — so every entry of the row-normalised `inputs` is a real number —, and
  every target is a class index below 100000.
-/
import proofs.«411386_j43001212567993_2_alg».proof.Defs
import proofs.«411386_j43001212567993_2_alg».proof.Proof.Gen.Pre_finite_inputs
import proofs.«411386_j43001212567993_2_alg».proof.Proof.Gen.KernelIdeal
import proofs.«411386_j43001212567993_2_alg».proof.Proof.Shared
import Idealize.ShloMosaic.Lib.ReduceAll
import Idealize.ShloMosaic.Lib.StableHlo.Predicate
import Idealize.ShloMosaic.Lib.ValueIdx
import Idealize.ShloMosaic.Lib.ValueLayout
import Idealize.ShloMosaic.PureOps.Ideal.Laws

noncomputable section

namespace Cert.PreFacts

open Idealize.ShloMosaic Idealize.ShloMosaic.TcCoe Idealize.SL.Sem Idealize.ShloMosaic.ValueIdx
open Cert.KernelIdeal

variable (m : (ℓ : Loc nD τ sig) → Buf (Elt Ideal) ℓ)

/-! ## Words and extended reals: the three element facts -/

/-- The scalar shape has one index. -/
local instance : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  rw [Ideal.hostAbsf_def, Ideal.cmpf_def, Ideal.absf_def, Ideal.ofBits_def, ofBits_inf] at h
  induction x using EReal.rec with
  | bot => simp [Ideal.cmp] at h
  | top => simp [Ideal.cmp] at h
  | coe r => exact ⟨r, rfl⟩

/-- A 32-bit word that is at least 0 and below 100000 as a signed word is below 100000 as an unsigned one. -/
theorem toNat_lt_of_signed (t : BitVec 32)
    (h : IntOp.andi (IntOp.cmpi .sge t 0#32) (IntOp.cmpi .slt t 100000#32) = 1#1) : t.toNat < 100000 := by
  obtain ⟨h0, h1⟩ := IntOp.andi_eq_one.1 h
  simp only [IntOp.cmpi, StableHlo.Predicate.ofBool_eq_one_iff, BitVec.sle, BitVec.slt, decide_eq_true_eq] at h0 h1
  have e0 : (0#32 : BitVec 32).toInt = 0 := by decide
  have e1 : (100000#32 : BitVec 32).toInt = 100000 := by decide
  rw [e0] at h0
  rw [e1] at h1
  rw [BitVec.toInt_eq_toNat_cond] at h0 h1
  have := t.isLt
  split at h0 <;> omega

/-! ## The row sums of squares -/

/-- The row sums of squares read at a row: the sum over the row's entries of their squares. -/
theorem rowsum_apply (h3 : Shared.S256x256.ReducesTo [1] Shared.S256) (h4 : 0 < Shared.S_.numel)
    (a : FVec Ideal Shared.S256x256 .f32) (b : Fin 256) :
    Host.reduceAdd (mulf a a) (constant Shared.S_ .f32 0x00000000#32) h3 h4 (ix1 b)
      = ∑ k : Fin 256, a (ix2 b k) * a (ix2 b k) := by
  have hR : Shared.S256x256.Reduces [1] Shared.S256 := by decide
  show Ideal.hostReduceAdd h3 (mulf a a) (Ideal.ofBits .f32 0x00000000#32) (ix1 b) = _
  rw [Ideal.hostReduceAdd_single h3 hR, Ideal.ofBits_zero_f32, zero_add]
  refine Finset.sum_congr rfl fun k _ => ?_
  have e : hR.lift (ix1 b) k = ix2 b k := by
    funext d
    match d with
    | ⟨0, _⟩ => rfl
    | ⟨1, _⟩ => rfl
  rw [e]
  rfl

/-! ## The precondition read back -/

/-- The three argument arrays the facts are about, at their literal types. -/
abbrev inputsArr (c : Dev nD) : FVec Ideal Shared.S256x256 .f32 := m ((c.tc : Thread nD τ).loc main_arg0)
abbrev bankArr (c : Dev nD) : FVec Ideal S100000x256 .f32 := m ((c.tc : Thread nD τ).loc main_arg1)
abbrev targetsArr (c : Dev nD) : IVec S256 32 := m ((c.tc : Thread nD τ).loc main_arg3)

/-- The precondition, read back: the entries of `inputs` and of the first bank are real numbers, every row of
    `inputs` has a positive sum of squares, and every target is below 100000. -/
theorem decode (hpre : Cert.Pre_KernelIdeal m) (c : Dev nD) :
    (∀ i : Shared.S256x256.Idx, ∃ r : ℝ, inputsArr m c i = (r : EReal))
    ∧ (∀ i : S100000x256.Idx, ∃ r : ℝ, bankArr m c i = (r : EReal))
    ∧ (∀ b : Fin 256, (0 : EReal) < ∑ k : Fin 256, inputsArr m c (ix2 b k) * inputsArr m c (ix2 b k))
    ∧ (∀ b : Fin 256, (targetsArr m c (ix1 b)).toNat < 100000) := by
  have h := congrFun (hpre c) ValueIdx.ix0
  dsimp only [Cert.Pre_finite_inputs.fn, Cert.Pre_finite_inputs.fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨fun i => ?_, fun i => ?_, fun b => ?_, fun b => ?_⟩
  · exact real_of_abs_lt_inf _ (Host.reduce_andi_all _ _ _ _ ix0 h0 i)
  · exact real_of_abs_lt_inf _ (Host.reduce_andi_all _ _ _ _ ix0 h1 i)
  · have e := Host.reduce_andi_all _ _ _ _ ix0 h3 (ix1 b)
    rw [cmpf_apply, rowsum_apply] at e
    change Ideal.cmp .ogt _ (Ideal.ofBits .f32 0x00000000#32) = 1#1 at e
    rw [Ideal.ofBits_zero_f32] at e
    simp only [Ideal.cmp, StableHlo.Predicate.ofBool_eq_one_iff, decide_eq_true_eq] at e
    exact e
  · exact toNat_lt_of_signed _ (Host.reduce_andi_all _ _ _ _ ix0 h4 (ix1 b))

/-! ## The row-normalised array at an entry -/

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A vector laid along the rows of the square (through the one-column rectangle) reads, at (b, k), the vector at b. -/
theorem bcast_read {α : Type} (h1 : Shared.S256x1.BroadcastsInDim Shared.S256x256 ![0, 1])
    (h2 : Shared.S256.BroadcastsInDim Shared.S256x1 ![0]) (v : Shared.S256.Idx → α) (b k : Fin 256) :
    broadcastInDim Shared.S256x256 ![0, 1] h1 (broadcastInDim Shared.S256x1 ![0] h2 v) (ix2 b k) = v (ix1 b) := by
  have e := StableHlo.Predicate.bcast_rows h2 h1 v b k
  have e1 : (StableHlo.Predicate.ij b k : Shared.S256x256.Idx) = ix2 b k := by
    funext d
    match d with
    | ⟨0, _⟩ => rfl
    | ⟨1, _⟩ => rfl
  have e2 : (Shape.Idx.ofFin b : Shared.S256.Idx) = ix1 b := by
    funext d
    match d with
    | ⟨0, _⟩ => rfl
  rw [e1, e2] at e
  exact e

/-- The row-normalised array read at (b, k): the entry divided by the square root of its row's sum of squares. -/
theorem normX_apply (h1 : Shared.S256x1.BroadcastsInDim Shared.S256x256 ![0, 1])
    (h2 : Shared.S256.BroadcastsInDim Shared.S256x1 ![0]) (h3 : Shared.S256x256.ReducesTo [1] Shared.S256)
    (h4 : 0 < Shared.S_.numel) (a : FVec Ideal Shared.S256x256 .f32) (b k : Fin 256) :
    Shared.normX h1 h2 h3 h4 a (ix2 b k)
      = Ideal.div (a (ix2 b k)) (Ideal.sqrt (∑ j : Fin 256, a (ix2 b j) * a (ix2 b j))) := by
  unfold Shared.normX
  show Ideal.div (a (ix2 b k)) (broadcastInDim Shared.S256x256 ![0, 1] h1 (broadcastInDim Shared.S256x1 ![0] h2
    (Host.sqrt (Host.reduceAdd (mulf a a) (constant Shared.S_ .f32 0x00000000#32) h3 h4))) (ix2 b k)) = _
  rw [bcast_read]
  show Ideal.div _ (Ideal.sqrt (Host.reduceAdd (mulf a a) (constant Shared.S_ .f32 0x00000000#32) h3 h4 (ix1 b))) = _
  rw [rowsum_apply]

/-! ## The three facts -/

/-- The row-normalised `inputs` holds real numbers. -/
theorem normX_real (hpre : Cert.Pre_KernelIdeal m) (c : Dev nD)
    (h1 : Shared.S256x1.BroadcastsInDim Shared.S256x256 ![0, 1]) (h2 : Shared.S256.BroadcastsInDim Shared.S256x1 ![0])
    (h3 : Shared.S256x256.ReducesTo [1] Shared.S256) (h4 : 0 < Shared.S_.numel) :
    ∃ xr : Fin 256 → Fin 256 → ℝ, ∀ b k : Fin 256,
      Shared.normX h1 h2 h3 h4 (m ((c.tc : Thread nD τ).loc main_arg0)) (ix2 b k) = ((xr b k : ℝ) : EReal) := by
  obtain ⟨hx, -, hpos, -⟩ := decode m hpre c
  choose ar har using hx
  -- each row's sum of squares is the coercion of the real sum of squares
  have hsum : ∀ b : Fin 256, ∑ k : Fin 256, inputsArr m c (ix2 b k) * inputsArr m c (ix2 b k)
      = ((∑ k : Fin 256, ar (ix2 b k) * ar (ix2 b k) : ℝ) : EReal) := by
    intro b
    rw [coe_sum]
    refine Finset.sum_congr rfl fun k _ => ?_
    rw [har, EReal.coe_mul]
  refine ⟨fun b k => ar (ix2 b k) / Real.sqrt (∑ j : Fin 256, ar (ix2 b j) * ar (ix2 b j)), fun b k => ?_⟩
  have hS : 0 < ∑ j : Fin 256, ar (ix2 b j) * ar (ix2 b j) := by
    have hp := hpos b
    rw [hsum b] at hp
    exact_mod_cast hp
  have hne : Real.sqrt (∑ j : Fin 256, ar (ix2 b j) * ar (ix2 b j)) ≠ 0 := (Real.sqrt_pos.2 hS).ne'
  refine (normX_apply h1 h2 h3 h4 (inputsArr m c) b k).trans ?_
  rw [hsum b, Ideal.sqrt_coe, if_neg (not_lt.2 hS.le), Ideal.div_coe hne, har, ← EReal.coe_mul]
  congr 1
  rw [mul_one_div]

/-- The first bank holds real numbers. -/
theorem feat_real (hpre : Cert.Pre_KernelIdeal m) (c : Dev nD) :
    ∃ fr : Fin 100000 → Fin 256 → ℝ, ∀ (j : Fin 100000) (k : Fin 256),
      (m ((c.tc : Thread nD τ).loc main_arg1) : S100000x256.Idx → EReal) (ix2 j k) = ((fr j k : ℝ) : EReal) := by
  obtain ⟨-, hf, -, -⟩ := decode m hpre c
  choose fr hfr using hf
  exact ⟨fun j k => fr (ix2 j k), fun j k => hfr (ix2 j k)⟩

/-- Every target is a class index: as an unsigned word it is below 100000 (so it is non-negative as a signed one). -/
theorem tgt_range (hpre : Cert.Pre_KernelIdeal m) (c : Dev nD) (b : Fin 256) :
    ((m ((c.tc : Thread nD τ).loc main_arg3) : S256.Idx → BitVec 32) (ix1 b)).toNat < 100000 :=
  (decode m hpre c).2.2.2 b

end Cert.PreFacts

end
-- ==== Proof.RefRunHand.lean ====
/-
  The reference program's run, stated over its stages: every weakly fair execution of @main ends with the two results
  at the last stages `val_main_v19` and `val_main_v56` of the arguments' launch contents, the arguments unchanged.
  The operation list is cut into five stretches; each stretch is read at its live results from an arbitrary valuation,
  and the stretches are joined by `after_append`.
-/
import proofs.«411386_j43001212567993_2_alg».proof.Proof.RefOps
import proofs.«411386_j43001212567993_2_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.RunOps Cert.ReferenceIdeal.ReadP
open Idealize.ShloMosaic Idealize.ShloMosaic.TcCoe Idealize.SL.Sem Idealize.ShloMosaic.StableHlo

variable {F : FTy → Type} [FloatOps F]

/-! ## The operation list in five stretches

The cuts fall where few buffers are live: after the normalised input (`main_v2`), after the log-softmax (`main_v7`),
after the first result (`main_v19`), after the masks and the two row maxima (`main_v34`). Each stretch is spelt as a
skeleton — its buffers in program order, the operations' functions as parameters — applied to the program's functions,
so that a stretch can be read with the functions abstract. -/

/-- Stretch A with its operations' functions as parameters: the buffers and the order of the program, nothing else. -/
abbrev skelA
    (g0 : (⟨S256x256, .f32⟩ : BufTy).Contents (Elt F) → (⟨S256x256, .f32⟩ : BufTy).Contents (Elt F) → (⟨S256x256, .f32⟩ : BufTy).Contents (Elt F))
    (g1 : (⟨S_, .f32⟩ : BufTy).Contents (Elt F))
    (g2 : (⟨S256x256, .f32⟩ : BufTy).Contents (Elt F) → (⟨S_, .f32⟩ : BufTy).Contents (Elt F) → (⟨S256, .f32⟩ : BufTy).Contents (Elt F))
    (g3 : (⟨S256, .f32⟩ : BufTy).Contents (Elt F) → (⟨S256x1, .f32⟩ : BufTy).Contents (Elt F))
    (g4 : (⟨S256x1, .f32⟩ : BufTy).Contents (Elt F) → (⟨S256x1, .f32⟩ : BufTy).Contents (Elt F))
    (g5 : (⟨S256x1, .f32⟩ : BufTy).Contents (Elt F) → (⟨S256x256, .f32⟩ : BufTy).Contents (Elt F))
    (g6 : (⟨S256x256, .f32⟩ : BufTy).Contents (Elt F) → (⟨S256x256, .f32⟩ : BufTy).Contents (Elt F) → (⟨S256x256, .f32⟩ : BufTy).Contents (Elt F)) : List (HloOp τ sig (Elt F)) :=
  [ TRef.binary (TRef.of (T := ⟨S256x256, .f32⟩) main_arg0) (TRef.of (T := ⟨S256x256, .f32⟩) main_arg0) (TRef.of (T := ⟨S256x256, .f32⟩) main_call0_v0) g0,
    TRef.nullary (TRef.of (T := ⟨S_, .f32⟩) main_call0_cst) g1,
    TRef.binary (TRef.of (T := ⟨S256x256, .f32⟩) main_call0_v0) (TRef.of (T := ⟨S_, .f32⟩) main_call0_cst) (TRef.of (T := ⟨S256, .f32⟩) main_call0_v1) g2,
    TRef.unary (TRef.of (T := ⟨S256, .f32⟩) main_call0_v1) (TRef.of (T := ⟨S256x1, .f32⟩) main_call0_v2) g3,
    TRef.unary (TRef.of (T := ⟨S256x1, .f32⟩) main_call0_v2) (TRef.of (T := ⟨S256x1, .f32⟩) main_v0) g4,
    unary main_v0 main_v1 g5,
    binary main_arg0 main_v1 main_v2 g6 ]

/-- Stretch A: operations 0 to 6 of the program. -/
abbrev opsA : List (HloOp τ sig (Elt F)) :=
  skelA
    (mulf)
    (constant S_ .f32 0x00000000#32)
    (fun x v => Host.reduceAdd x v reducesTo_S256x256_S256_d1 h_S_)
    (broadcastInDim S256x1 ![0] bcast_S256_S256x1_0)
    (Host.sqrt)
    (broadcastInDim S256x256 ![0, 1] bcast_S256x1_S256x256_0_1 : (⟨S256x1, .f32⟩ : BufTy).Contents (Elt F) → (⟨S256x256, .f32⟩ : BufTy).Contents (Elt F))
    (Host.divf : (⟨S256x256, .f32⟩ : BufTy).Contents (Elt F) → (⟨S256x256, .f32⟩ : BufTy).Contents (Elt F) → (⟨S256x256, .f32⟩ : BufTy).Contents (Elt F))

/-- Stretch B with its operations' functions as parameters: the buffers and the order of the program, nothing else. -/
abbrev skelB
    (g7 : (⟨S100000x256, .f32⟩ : BufTy).Contents (Elt F) → (⟨S256x100000, .f32⟩ : BufTy).Contents (Elt F))
    (g8 : (⟨S256x256, .f32⟩ : BufTy).Contents (Elt F) → (⟨S256x100000, .f32⟩ : BufTy).Contents (Elt F) → (⟨S256x100000, .f32⟩ : BufTy).Contents (Elt F))
    (g9 : (⟨S_, .f32⟩ : BufTy).Contents (Elt F))
    (g10 : (⟨S_, .f32⟩ : BufTy).Contents (Elt F) → (⟨S256x100000, .f32⟩ : BufTy).Contents (Elt F))
    (g11 : (⟨S256x100000, .f32⟩ : BufTy).Contents (Elt F) → (⟨S256x100000, .f32⟩ : BufTy).Contents (Elt F) → (⟨S256x100000, .f32⟩ : BufTy).Contents (Elt F))
    (g12 : (⟨S_, .f32⟩ : BufTy).Contents (Elt F))
    (g13 : (⟨S256x100000, .f32⟩ : BufTy).Contents (Elt F) → (⟨S_, .f32⟩ : BufTy).Contents (Elt F) → (⟨S256, .f32⟩ : BufTy).Contents (Elt F))
    (g14 : (⟨S_, .f32⟩ : BufTy).Contents (Elt F))
    (g15 : (⟨S_, .f32⟩ : BufTy).Contents (Elt F) → (⟨S256, .f32⟩ : BufTy).Contents (Elt F))
    (g16 : (⟨S256, .f32⟩ : BufTy).Contents (Elt F) → (⟨S256, .f32⟩ : BufTy).Contents (Elt F) → (⟨S256, .f32⟩ : BufTy).Contents (Elt F))
    (g17 : (⟨S256, .f32⟩ : BufTy).Contents (Elt F) → (⟨S256x1, .f32⟩ : BufTy).Contents (Elt F))
    (g18 : (⟨S256x1, .f32⟩ : BufTy).Contents (Elt F) → (⟨S256x100000, .f32⟩ : BufTy).Contents (Elt F))
    (g19 : (⟨S256x100000, .f32⟩ : BufTy).Contents (Elt F) → (⟨S256x100000, .f32⟩ : BufTy).Contents (Elt F) → (⟨S256x100000, .f32⟩ : BufTy).Contents (Elt F))
    (g20 : (⟨S256x100000, .f32⟩ : BufTy).Contents (Elt F) → (⟨S256x100000, .f32⟩ : BufTy).Contents (Elt F))
    (g21 : (⟨S_, .f32⟩ : BufTy).Contents (Elt F))
    (g22 : (⟨S256x100000, .f32⟩ : BufTy).Contents (Elt F) → (⟨S_, .f32⟩ : BufTy).Contents (Elt F) → (⟨S256, .f32⟩ : BufTy).Contents (Elt F))
    (g23 : (⟨S256, .f32⟩ : BufTy).Contents (Elt F) → (⟨S256x1, .f32⟩ : BufTy).Contents (Elt F))
    (g24 : (⟨S256x1, .f32⟩ : BufTy).Contents (Elt F) → (⟨S256x1, .f32⟩ : BufTy).Contents (Elt F))
    (g25 : (⟨S256x1, .f32⟩ : BufTy).Contents (Elt F) → (⟨S256x100000, .f32⟩ : BufTy).Contents (Elt F))
    (g26 : (⟨S256x100000, .f32⟩ : BufTy).Contents (Elt F) → (⟨S256x100000, .f32⟩ : BufTy).Contents (Elt F) → (⟨S256x100000, .f32⟩ : BufTy).Contents (Elt F)) : List (HloOp τ sig (Elt F)) :=
  [ unary main_arg1 main_v3 g7,
    binary main_v2 main_v3 main_v4 g8,
    nullary main_cst g9,
    unary main_cst main_v5 g10,
    binary main_v4 main_v5 main_v6 g11,
    TRef.nullary (TRef.of (T := ⟨S_, .f32⟩) main_call1_cst) g12,
    TRef.binary (TRef.of (T := ⟨S256x100000, .f32⟩) main_v6) (TRef.of (T := ⟨S_, .f32⟩) main_call1_cst) (TRef.of (T := ⟨S256, .f32⟩) main_call1_v0) g13,
    TRef.nullary (TRef.of (T := ⟨S_, .f32⟩) main_call1_cst_0) g14,
    TRef.unary (TRef.of (T := ⟨S_, .f32⟩) main_call1_cst_0) (TRef.of (T := ⟨S256, .f32⟩) main_call1_v1) g15,
    TRef.binary (TRef.of (T := ⟨S256, .f32⟩) main_call1_v1) (TRef.of (T := ⟨S256, .f32⟩) main_call1_v0) (TRef.of (T := ⟨S256, .f32⟩) main_call1_v2) g16,
    TRef.unary (TRef.of (T := ⟨S256, .f32⟩) main_call1_v2) (TRef.of (T := ⟨S256x1, .f32⟩) main_call1_v3) g17,
    TRef.unary (TRef.of (T := ⟨S256x1, .f32⟩) main_call1_v3) (TRef.of (T := ⟨S256x100000, .f32⟩) main_call1_v4) g18,
    TRef.binary (TRef.of (T := ⟨S256x100000, .f32⟩) main_v6) (TRef.of (T := ⟨S256x100000, .f32⟩) main_call1_v4) (TRef.of (T := ⟨S256x100000, .f32⟩) main_call1_v5) g19,
    TRef.unary (TRef.of (T := ⟨S256x100000, .f32⟩) main_call1_v5) (TRef.of (T := ⟨S256x100000, .f32⟩) main_call1_v6) g20,
    TRef.nullary (TRef.of (T := ⟨S_, .f32⟩) main_call1_cst_1) g21,
    TRef.binary (TRef.of (T := ⟨S256x100000, .f32⟩) main_call1_v6) (TRef.of (T := ⟨S_, .f32⟩) main_call1_cst_1) (TRef.of (T := ⟨S256, .f32⟩) main_call1_v7) g22,
    TRef.unary (TRef.of (T := ⟨S256, .f32⟩) main_call1_v7) (TRef.of (T := ⟨S256x1, .f32⟩) main_call1_v8) g23,
    TRef.unary (TRef.of (T := ⟨S256x1, .f32⟩) main_call1_v8) (TRef.of (T := ⟨S256x1, .f32⟩) main_call1_v9) g24,
    TRef.unary (TRef.of (T := ⟨S256x1, .f32⟩) main_call1_v9) (TRef.of (T := ⟨S256x100000, .f32⟩) main_call1_v10) g25,
    TRef.binary (TRef.of (T := ⟨S256x100000, .f32⟩) main_call1_v5) (TRef.of (T := ⟨S256x100000, .f32⟩) main_call1_v10) (TRef.of (T := ⟨S256x100000, .f32⟩) main_v7) g26 ]

/-- Stretch B: operations 7 to 26 of the program. -/
abbrev opsB : List (HloOp τ sig (Elt F)) :=
  skelB
    ((transpose S256x100000 [1, 0] · transposes_S100000x256_S256x100000_1_0) : (⟨S100000x256, .f32⟩ : BufTy).Contents (Elt F) → (⟨S256x100000, .f32⟩ : BufTy).Contents (Elt F))
    ((fun l r => Host.dotGeneral dot_S256x256_S256x100000_S256x100000_1_0_0_1_n_n none l r) : (⟨S256x256, .f32⟩ : BufTy).Contents (Elt F) → (⟨S256x100000, .f32⟩ : BufTy).Contents (Elt F) → (⟨S256x100000, .f32⟩ : BufTy).Contents (Elt F))
    (constant S_ .f32 0x3D4CCCCD#32)
    (broadcastInDim S256x100000 ![] bcast_S_S256x100000 : (⟨S_, .f32⟩ : BufTy).Contents (Elt F) → (⟨S256x100000, .f32⟩ : BufTy).Contents (Elt F))
    (Host.divf : (⟨S256x100000, .f32⟩ : BufTy).Contents (Elt F) → (⟨S256x100000, .f32⟩ : BufTy).Contents (Elt F) → (⟨S256x100000, .f32⟩ : BufTy).Contents (Elt F))
    (constant S_ .f32 0xFF800000#32)
    (fun x v => Host.reduce FloatOps.maximumf x v reducesTo_S256x100000_S256_d1 h_S_)
    (constant S_ .f32 0xFF800000#32)
    (broadcastInDim S256 ![] bcast_S_S256)
    (maximumf)
    (broadcastInDim S256x1 ![0] bcast_S256_S256x1_0)
    (broadcastInDim S256x100000 ![0, 1] bcast_S256x1_S256x100000_0_1)
    (subf)
    (Host.exp)
    (constant S_ .f32 0x00000000#32)
    (fun x v => Host.reduceAdd x v reducesTo_S256x100000_S256_d1 h_S_)
    (broadcastInDim S256x1 ![0] bcast_S256_S256x1_0)
    (Host.log)
    (broadcastInDim S256x100000 ![0, 1] bcast_S256x1_S256x100000_0_1)
    (subf)

/-- Stretch C with its operations' functions as parameters: the buffers and the order of the program, nothing else. -/
abbrev skelC
    (g27 : (⟨S256, .i32⟩ : BufTy).Contents (Elt F) → (⟨S256x1, .i32⟩ : BufTy).Contents (Elt F))
    (g28 : (⟨S_, .i32⟩ : BufTy).Contents (Elt F))
    (g29 : (⟨S_, .i32⟩ : BufTy).Contents (Elt F) → (⟨S256x1, .i32⟩ : BufTy).Contents (Elt F))
    (g30 : (⟨S256x1, .i32⟩ : BufTy).Contents (Elt F) → (⟨S256x1, .i32⟩ : BufTy).Contents (Elt F) → (⟨S256x1, .i1⟩ : BufTy).Contents (Elt F))
    (g31 : (⟨S_, .i32⟩ : BufTy).Contents (Elt F))
    (g32 : (⟨S_, .i32⟩ : BufTy).Contents (Elt F) → (⟨S256x1, .i32⟩ : BufTy).Contents (Elt F))
    (g33 : (⟨S256x1, .i32⟩ : BufTy).Contents (Elt F) → (⟨S256x1, .i32⟩ : BufTy).Contents (Elt F) → (⟨S256x1, .i32⟩ : BufTy).Contents (Elt F))
    (g34 : (⟨S256x1, .i1⟩ : BufTy).Contents (Elt F) → (⟨S256x1, .i32⟩ : BufTy).Contents (Elt F) → (⟨S256x1, .i32⟩ : BufTy).Contents (Elt F) → (⟨S256x1, .i32⟩ : BufTy).Contents (Elt F))
    (g36 : (⟨S1, .i32⟩ : BufTy).Contents (Elt F))
    (g37 : (⟨S_, .i32⟩ : BufTy).Contents (Elt F))
    (g38 : (⟨S_, .i32⟩ : BufTy).Contents (Elt F) → (⟨S256x1x1, .i32⟩ : BufTy).Contents (Elt F))
    (g39 : (⟨S256x1x1, .i32⟩ : BufTy).Contents (Elt F) → (⟨S256x1x1, .i32⟩ : BufTy).Contents (Elt F) → (⟨S256x1x1, .i1⟩ : BufTy).Contents (Elt F))
    (g40 : (⟨S1, .i32⟩ : BufTy).Contents (Elt F) → (⟨S1x1x1, .i32⟩ : BufTy).Contents (Elt F))
    (g41 : (⟨S1x1x1, .i32⟩ : BufTy).Contents (Elt F) → (⟨S256x1x1, .i32⟩ : BufTy).Contents (Elt F))
    (g42 : (⟨S256x1x1, .i32⟩ : BufTy).Contents (Elt F) → (⟨S256x1x1, .i32⟩ : BufTy).Contents (Elt F) → (⟨S256x1x1, .i1⟩ : BufTy).Contents (Elt F))
    (g43 : (⟨S256x1x1, .i1⟩ : BufTy).Contents (Elt F) → (⟨S256x1x1, .i1⟩ : BufTy).Contents (Elt F) → (⟨S256x1x1, .i1⟩ : BufTy).Contents (Elt F))
    (g44 : (⟨S_, .i1⟩ : BufTy).Contents (Elt F))
    (g45 : (⟨S256x1x1, .i1⟩ : BufTy).Contents (Elt F) → (⟨S_, .i1⟩ : BufTy).Contents (Elt F) → (⟨S256x1, .i1⟩ : BufTy).Contents (Elt F))
    (g46 : (⟨S256x100000, .f32⟩ : BufTy).Contents (Elt F) → (⟨S256x1x1, .i32⟩ : BufTy).Contents (Elt F) → (⟨S256x1, .f32⟩ : BufTy).Contents (Elt F))
    (g47 : (⟨S_, .f32⟩ : BufTy).Contents (Elt F))
    (g48 : (⟨S_, .f32⟩ : BufTy).Contents (Elt F) → (⟨S256x1, .f32⟩ : BufTy).Contents (Elt F))
    (g49 : (⟨S256x1, .i1⟩ : BufTy).Contents (Elt F) → (⟨S256x1, .f32⟩ : BufTy).Contents (Elt F) → (⟨S256x1, .f32⟩ : BufTy).Contents (Elt F) → (⟨S256x1, .f32⟩ : BufTy).Contents (Elt F))
    (g51 : (⟨S_, .f32⟩ : BufTy).Contents (Elt F))
    (g52 : (⟨S_, .f32⟩ : BufTy).Contents (Elt F) → (⟨S256, .f32⟩ : BufTy).Contents (Elt F))
    (g53 : (⟨S256, .f32⟩ : BufTy).Contents (Elt F) → (⟨S256, .f32⟩ : BufTy).Contents (Elt F) → (⟨S256, .f32⟩ : BufTy).Contents (Elt F))
    (g54 : (⟨S_, .f32⟩ : BufTy).Contents (Elt F))
    (g55 : (⟨S256x100000, .f32⟩ : BufTy).Contents (Elt F) → (⟨S_, .f32⟩ : BufTy).Contents (Elt F) → (⟨S256, .f32⟩ : BufTy).Contents (Elt F))
    (g56 : (⟨S_, .f32⟩ : BufTy).Contents (Elt F))
    (g57 : (⟨S_, .f32⟩ : BufTy).Contents (Elt F) → (⟨S256, .f32⟩ : BufTy).Contents (Elt F))
    (g58 : (⟨S256, .f32⟩ : BufTy).Contents (Elt F) → (⟨S256, .f32⟩ : BufTy).Contents (Elt F) → (⟨S256, .f32⟩ : BufTy).Contents (Elt F))
    (g59 : (⟨S256, .f32⟩ : BufTy).Contents (Elt F) → (⟨S256, .f32⟩ : BufTy).Contents (Elt F) → (⟨S256, .f32⟩ : BufTy).Contents (Elt F))
    (g60 : (⟨S256, .f32⟩ : BufTy).Contents (Elt F) → (⟨S256, .f32⟩ : BufTy).Contents (Elt F))
    (g61 : (⟨S_, .f32⟩ : BufTy).Contents (Elt F))
    (g62 : (⟨S256, .f32⟩ : BufTy).Contents (Elt F) → (⟨S_, .f32⟩ : BufTy).Contents (Elt F) → (⟨S_, .f32⟩ : BufTy).Contents (Elt F))
    (g63 : (⟨S_, .f32⟩ : BufTy).Contents (Elt F))
    (g64 : (⟨S_, .f32⟩ : BufTy).Contents (Elt F) → (⟨S_, .f32⟩ : BufTy).Contents (Elt F) → (⟨S_, .f32⟩ : BufTy).Contents (Elt F)) : List (HloOp τ sig (Elt F)) :=
  [ unary main_arg3 main_v8 g27,
    TRef.nullary (TRef.of (T := ⟨S_, .i32⟩) main_call2_c) g28,
    TRef.unary (TRef.of (T := ⟨S_, .i32⟩) main_call2_c) (TRef.of (T := ⟨S256x1, .i32⟩) main_call2_v0) g29,
    TRef.binary (TRef.of (T := ⟨S256x1, .i32⟩) main_v8) (TRef.of (T := ⟨S256x1, .i32⟩) main_call2_v0) (TRef.of (T := ⟨S256x1, .i1⟩) main_call2_v1) g30,
    TRef.nullary (TRef.of (T := ⟨S_, .i32⟩) main_call2_c_0) g31,
    TRef.unary (TRef.of (T := ⟨S_, .i32⟩) main_call2_c_0) (TRef.of (T := ⟨S256x1, .i32⟩) main_call2_v2) g32,
    TRef.binary (TRef.of (T := ⟨S256x1, .i32⟩) main_v8) (TRef.of (T := ⟨S256x1, .i32⟩) main_call2_v2) (TRef.of (T := ⟨S256x1, .i32⟩) main_call2_v3) g33,
    TRef.ternary (TRef.of (T := ⟨S256x1, .i1⟩) main_call2_v1) (TRef.of (T := ⟨S256x1, .i32⟩) main_call2_v3) (TRef.of (T := ⟨S256x1, .i32⟩) main_v8) (TRef.of (T := ⟨S256x1, .i32⟩) main_call2_v4) g34,
    TRef.reshape (TRef.of (T := ⟨S256x1, .i32⟩) main_call2_v4) (TRef.of (T := ⟨S256x1x1, .i32⟩) main_call2_v5) rfl shapeCasts_S256x1_S256x1x1,
    TRef.nullary (TRef.of (T := ⟨S1, .i32⟩) main_call2_c_1) g36,
    TRef.nullary (TRef.of (T := ⟨S_, .i32⟩) main_call2_c_2) g37,
    TRef.unary (TRef.of (T := ⟨S_, .i32⟩) main_call2_c_2) (TRef.of (T := ⟨S256x1x1, .i32⟩) main_call2_v6) g38,
    TRef.binary (TRef.of (T := ⟨S256x1x1, .i32⟩) main_call2_v5) (TRef.of (T := ⟨S256x1x1, .i32⟩) main_call2_v6) (TRef.of (T := ⟨S256x1x1, .i1⟩) main_call2_v7) g39,
    TRef.unary (TRef.of (T := ⟨S1, .i32⟩) main_call2_c_1) (TRef.of (T := ⟨S1x1x1, .i32⟩) main_call2_v8) g40,
    TRef.unary (TRef.of (T := ⟨S1x1x1, .i32⟩) main_call2_v8) (TRef.of (T := ⟨S256x1x1, .i32⟩) main_call2_v9) g41,
    TRef.binary (TRef.of (T := ⟨S256x1x1, .i32⟩) main_call2_v5) (TRef.of (T := ⟨S256x1x1, .i32⟩) main_call2_v9) (TRef.of (T := ⟨S256x1x1, .i1⟩) main_call2_v10) g42,
    TRef.binary (TRef.of (T := ⟨S256x1x1, .i1⟩) main_call2_v7) (TRef.of (T := ⟨S256x1x1, .i1⟩) main_call2_v10) (TRef.of (T := ⟨S256x1x1, .i1⟩) main_call2_v11) g43,
    TRef.nullary (TRef.of (T := ⟨S_, .i1⟩) main_call2_c_3) g44,
    TRef.binary (TRef.of (T := ⟨S256x1x1, .i1⟩) main_call2_v11) (TRef.of (T := ⟨S_, .i1⟩) main_call2_c_3) (TRef.of (T := ⟨S256x1, .i1⟩) main_call2_v12) g45,
    TRef.binary (TRef.of (T := ⟨S256x100000, .f32⟩) main_v7) (TRef.of (T := ⟨S256x1x1, .i32⟩) main_call2_v5) (TRef.of (T := ⟨S256x1, .f32⟩) main_call2_v13) g46,
    TRef.nullary (TRef.of (T := ⟨S_, .f32⟩) main_call2_cst) g47,
    TRef.unary (TRef.of (T := ⟨S_, .f32⟩) main_call2_cst) (TRef.of (T := ⟨S256x1, .f32⟩) main_call2_v14) g48,
    TRef.ternary (TRef.of (T := ⟨S256x1, .i1⟩) main_call2_v12) (TRef.of (T := ⟨S256x1, .f32⟩) main_call2_v13) (TRef.of (T := ⟨S256x1, .f32⟩) main_call2_v14) (TRef.of (T := ⟨S256x1, .f32⟩) main_v9) g49,
    reshape main_v9 main_v10 rfl shapeCasts_S256x1_S256,
    nullary main_cst_0 g51,
    unary main_cst_0 main_v11 g52,
    binary main_v11 main_v10 main_v12 g53,
    nullary main_cst_1 g54,
    binary main_v7 main_cst_1 main_v13 g55,
    nullary main_cst_2 g56,
    unary main_cst_2 main_v14 g57,
    binary main_v14 main_v13 main_v15 g58,
    binary main_v12 main_v15 main_v16 g59,
    unary main_v16 main_v17 g60,
    nullary main_cst_3 g61,
    binary main_v17 main_cst_3 main_v18 g62,
    nullary main_cst_4 g63,
    binary main_v18 main_cst_4 main_v19 g64 ]

/-- Stretch C: operations 27 to 64 of the program. -/
abbrev opsC : List (HloOp τ sig (Elt F)) :=
  skelC
    (broadcastInDim S256x1 ![0] bcast_S256_S256x1_0 : (⟨S256, .i32⟩ : BufTy).Contents (Elt F) → (⟨S256x1, .i32⟩ : BufTy).Contents (Elt F))
    (constantI S_ 32 0#32)
    (broadcastInDim S256x1 ![] bcast_S_S256x1)
    (cmpi .slt)
    (constantI S_ 32 100000#32)
    (broadcastInDim S256x1 ![] bcast_S_S256x1)
    (addi)
    (select)
    (constantI S1 32 99999#32)
    (constantI S_ 32 0#32)
    (broadcastInDim S256x1x1 ![] bcast_S_S256x1x1)
    (cmpi .sge)
    (broadcastInDim S1x1x1 ![2] bcast_S1_S1x1x1_2)
    (broadcastInDim S256x1x1 ![0, 1, 2] bcast_S1x1x1_S256x1x1_0_1_2)
    (cmpi .sle)
    (andi)
    (constantI S_ 1 1#1)
    (fun x v => Host.reduce IntOp.andi x v reducesTo_S256x1x1_S256x1_d2 h_S_)
    (fun x i => Host.gather gather_S256x100000_S256x1x1_S256x1_n_1_0_0_1_2_11 x i)
    (constant S_ .f32 0x7FC00000#32)
    (broadcastInDim S256x1 ![] bcast_S_S256x1)
    (select)
    (constant S_ .f32 0x3F666666#32)
    (broadcastInDim S256 ![] bcast_S_S256 : (⟨S_, .f32⟩ : BufTy).Contents (Elt F) → (⟨S256, .f32⟩ : BufTy).Contents (Elt F))
    (mulf : (⟨S256, .f32⟩ : BufTy).Contents (Elt F) → (⟨S256, .f32⟩ : BufTy).Contents (Elt F) → (⟨S256, .f32⟩ : BufTy).Contents (Elt F))
    (constant S_ .f32 0x00000000#32)
    ((fun x v => Host.reduceAdd x v reducesTo_S256x100000_S256_d1 h_S_) : (⟨S256x100000, .f32⟩ : BufTy).Contents (Elt F) → (⟨S_, .f32⟩ : BufTy).Contents (Elt F) → (⟨S256, .f32⟩ : BufTy).Contents (Elt F))
    (constant S_ .f32 0x358637BD#32)
    (broadcastInDim S256 ![] bcast_S_S256 : (⟨S_, .f32⟩ : BufTy).Contents (Elt F) → (⟨S256, .f32⟩ : BufTy).Contents (Elt F))
    (mulf : (⟨S256, .f32⟩ : BufTy).Contents (Elt F) → (⟨S256, .f32⟩ : BufTy).Contents (Elt F) → (⟨S256, .f32⟩ : BufTy).Contents (Elt F))
    (addf : (⟨S256, .f32⟩ : BufTy).Contents (Elt F) → (⟨S256, .f32⟩ : BufTy).Contents (Elt F) → (⟨S256, .f32⟩ : BufTy).Contents (Elt F))
    (Host.negf : (⟨S256, .f32⟩ : BufTy).Contents (Elt F) → (⟨S256, .f32⟩ : BufTy).Contents (Elt F))
    (constant S_ .f32 0x00000000#32)
    ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F))
    (constant S_ .f32 0x43800000#32)
    (Host.divf : (⟨S_, .f32⟩ : BufTy).Contents (Elt F) → (⟨S_, .f32⟩ : BufTy).Contents (Elt F) → (⟨S_, .f32⟩ : BufTy).Contents (Elt F))

/-- Stretch D with its operations' functions as parameters: the buffers and the order of the program, nothing else. -/
abbrev skelD
    (g65 : (⟨S100000x256, .f32⟩ : BufTy).Contents (Elt F) → (⟨S256x100000, .f32⟩ : BufTy).Contents (Elt F))
    (g66 : (⟨S256x256, .f32⟩ : BufTy).Contents (Elt F) → (⟨S256x100000, .f32⟩ : BufTy).Contents (Elt F) → (⟨S256x100000, .f32⟩ : BufTy).Contents (Elt F))
    (g67 : (⟨S256, .i32⟩ : BufTy).Contents (Elt F) → (⟨S256x1, .i32⟩ : BufTy).Contents (Elt F))
    (g68 : (⟨S100000, .i32⟩ : BufTy).Contents (Elt F) → (⟨S1x100000, .i32⟩ : BufTy).Contents (Elt F))
    (g69 : (⟨S256x1, .i32⟩ : BufTy).Contents (Elt F) → (⟨S256x100000, .i32⟩ : BufTy).Contents (Elt F))
    (g70 : (⟨S1x100000, .i32⟩ : BufTy).Contents (Elt F) → (⟨S256x100000, .i32⟩ : BufTy).Contents (Elt F))
    (g71 : (⟨S256x100000, .i32⟩ : BufTy).Contents (Elt F) → (⟨S256x100000, .i32⟩ : BufTy).Contents (Elt F) → (⟨S256x100000, .i1⟩ : BufTy).Contents (Elt F))
    (g72 : (⟨S256x100000, .i1⟩ : BufTy).Contents (Elt F) → (⟨S256x100000, .i1⟩ : BufTy).Contents (Elt F))
    (g73 : (⟨S_, .f32⟩ : BufTy).Contents (Elt F))
    (g74 : (⟨S_, .f32⟩ : BufTy).Contents (Elt F) → (⟨S256x100000, .f32⟩ : BufTy).Contents (Elt F))
    (g75 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g76 : (⟨S_, .f32⟩ : BufTy).Contents (Elt F))
    (g77 : (⟨S256x100000, .f32⟩ : BufTy).Contents (Elt F) → (⟨S_, .f32⟩ : BufTy).Contents (Elt F) → (⟨S256, .f32⟩ : BufTy).Contents (Elt F))
    (g78 : (⟨S256, .f32⟩ : BufTy).Contents (Elt F) → (⟨S256x1, .f32⟩ : BufTy).Contents (Elt F))
    (g79 : (⟨S_, .f32⟩ : BufTy).Contents (Elt F))
    (g80 : (⟨S_, .f32⟩ : BufTy).Contents (Elt F) → (⟨S256x100000, .f32⟩ : BufTy).Contents (Elt F))
    (g81 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g82 : (⟨S_, .f32⟩ : BufTy).Contents (Elt F))
    (g83 : (⟨S256x100000, .f32⟩ : BufTy).Contents (Elt F) → (⟨S_, .f32⟩ : BufTy).Contents (Elt F) → (⟨S256, .f32⟩ : BufTy).Contents (Elt F))
    (g84 : (⟨S256, .f32⟩ : BufTy).Contents (Elt F) → (⟨S256x1, .f32⟩ : BufTy).Contents (Elt F))
    (g85 : (⟨S_, .i1⟩ : BufTy).Contents (Elt F))
    (g86 : (⟨S256x100000, .i1⟩ : BufTy).Contents (Elt F) → (⟨S_, .i1⟩ : BufTy).Contents (Elt F) → (⟨S256, .i1⟩ : BufTy).Contents (Elt F)) : List (HloOp τ sig (Elt F)) :=
  [ unary main_arg2 main_v20 g65,
    binary main_v2 main_v20 main_v21 g66,
    unary main_arg3 main_v22 g67,
    unary main_arg4 main_v23 g68,
    unary main_v22 main_v24 g69,
    unary main_v23 main_v25 g70,
    binary main_v24 main_v25 main_v26 g71,
    unary main_v26 main_v27 g72,
    nullary main_cst_5 g73,
    TRef.unary (TRef.of (T := ⟨S_, .f32⟩) main_cst_5) (TRef.of (T := ⟨S256x100000, .f32⟩) main_call3_v0) g74,
    TRef.ternary (TRef.of (T := ⟨S256x100000, .i1⟩) main_v27) (TRef.of (T := ⟨S256x100000, .f32⟩) main_v21) (TRef.of (T := ⟨S256x100000, .f32⟩) main_call3_v0) (TRef.of (T := ⟨S256x100000, .f32⟩) main_v28) g75,
    nullary main_cst_6 g76,
    binary main_v28 main_cst_6 main_v29 g77,
    unary main_v29 main_v30 g78,
    nullary main_cst_7 g79,
    TRef.unary (TRef.of (T := ⟨S_, .f32⟩) main_cst_7) (TRef.of (T := ⟨S256x100000, .f32⟩) main_call4_v0) g80,
    TRef.ternary (TRef.of (T := ⟨S256x100000, .i1⟩) main_v26) (TRef.of (T := ⟨S256x100000, .f32⟩) main_v21) (TRef.of (T := ⟨S256x100000, .f32⟩) main_call4_v0) (TRef.of (T := ⟨S256x100000, .f32⟩) main_v31) g81,
    nullary main_cst_8 g82,
    binary main_v31 main_cst_8 main_v32 g83,
    unary main_v32 main_v33 g84,
    nullary main_c g85,
    binary main_v26 main_c main_v34 g86 ]

/-- Stretch D: operations 65 to 86 of the program. -/
abbrev opsD : List (HloOp τ sig (Elt F)) :=
  skelD
    ((transpose S256x100000 [1, 0] · transposes_S100000x256_S256x100000_1_0) : (⟨S100000x256, .f32⟩ : BufTy).Contents (Elt F) → (⟨S256x100000, .f32⟩ : BufTy).Contents (Elt F))
    ((fun l r => Host.dotGeneral dot_S256x256_S256x100000_S256x100000_1_0_0_1_n_n none l r) : (⟨S256x256, .f32⟩ : BufTy).Contents (Elt F) → (⟨S256x100000, .f32⟩ : BufTy).Contents (Elt F) → (⟨S256x100000, .f32⟩ : BufTy).Contents (Elt F))
    (broadcastInDim S256x1 ![0] bcast_S256_S256x1_0 : (⟨S256, .i32⟩ : BufTy).Contents (Elt F) → (⟨S256x1, .i32⟩ : BufTy).Contents (Elt F))
    (broadcastInDim S1x100000 ![1] bcast_S100000_S1x100000_1 : (⟨S100000, .i32⟩ : BufTy).Contents (Elt F) → (⟨S1x100000, .i32⟩ : BufTy).Contents (Elt F))
    (broadcastInDim S256x100000 ![0, 1] bcast_S256x1_S256x100000_0_1 : (⟨S256x1, .i32⟩ : BufTy).Contents (Elt F) → (⟨S256x100000, .i32⟩ : BufTy).Contents (Elt F))
    (broadcastInDim S256x100000 ![0, 1] bcast_S1x100000_S256x100000_0_1 : (⟨S1x100000, .i32⟩ : BufTy).Contents (Elt F) → (⟨S256x100000, .i32⟩ : BufTy).Contents (Elt F))
    (cmpi .eq : (⟨S256x100000, .i32⟩ : BufTy).Contents (Elt F) → (⟨S256x100000, .i32⟩ : BufTy).Contents (Elt F) → (⟨S256x100000, .i1⟩ : BufTy).Contents (Elt F))
    (noti : (⟨S256x100000, .i1⟩ : BufTy).Contents (Elt F) → (⟨S256x100000, .i1⟩ : BufTy).Contents (Elt F))
    (constant S_ .f32 0xFF800000#32)
    (broadcastInDim S256x100000 ![] bcast_S_S256x100000)
    (select)
    (constant S_ .f32 0xFF800000#32)
    ((fun x v => Host.reduce FloatOps.maximumf x v reducesTo_S256x100000_S256_d1 h_S_) : (⟨S256x100000, .f32⟩ : BufTy).Contents (Elt F) → (⟨S_, .f32⟩ : BufTy).Contents (Elt F) → (⟨S256, .f32⟩ : BufTy).Contents (Elt F))
    (broadcastInDim S256x1 ![0] bcast_S256_S256x1_0 : (⟨S256, .f32⟩ : BufTy).Contents (Elt F) → (⟨S256x1, .f32⟩ : BufTy).Contents (Elt F))
    (constant S_ .f32 0xFF800000#32)
    (broadcastInDim S256x100000 ![] bcast_S_S256x100000)
    (select)
    (constant S_ .f32 0xFF800000#32)
    ((fun x v => Host.reduce FloatOps.maximumf x v reducesTo_S256x100000_S256_d1 h_S_) : (⟨S256x100000, .f32⟩ : BufTy).Contents (Elt F) → (⟨S_, .f32⟩ : BufTy).Contents (Elt F) → (⟨S256, .f32⟩ : BufTy).Contents (Elt F))
    (broadcastInDim S256x1 ![0] bcast_S256_S256x1_0 : (⟨S256, .f32⟩ : BufTy).Contents (Elt F) → (⟨S256x1, .f32⟩ : BufTy).Contents (Elt F))
    (constantI S_ 1 0#1)
    ((fun x v => Host.reduce IntOp.ori x v reducesTo_S256x100000_S256_d1 h_S_) : (⟨S256x100000, .i1⟩ : BufTy).Contents (Elt F) → (⟨S_, .i1⟩ : BufTy).Contents (Elt F) → (⟨S256, .i1⟩ : BufTy).Contents (Elt F))

/-- Stretch E with its operations' functions as parameters: the buffers and the order of the program, nothing else. -/
abbrev skelE
    (g87 : (⟨S_, .f32⟩ : BufTy).Contents (Elt F))
    (g88 : (⟨S_, .f32⟩ : BufTy).Contents (Elt F) → (⟨S256x1, .f32⟩ : BufTy).Contents (Elt F))
    (g89 : (⟨S256x1, .f32⟩ : BufTy).Contents (Elt F) → (⟨S256x1, .f32⟩ : BufTy).Contents (Elt F) → (⟨S256x1, .f32⟩ : BufTy).Contents (Elt F))
    (g90 : (⟨S256x1, .f32⟩ : BufTy).Contents (Elt F) → (⟨S256x100000, .f32⟩ : BufTy).Contents (Elt F))
    (g91 : (⟨S256x100000, .f32⟩ : BufTy).Contents (Elt F) → (⟨S256x100000, .f32⟩ : BufTy).Contents (Elt F) → (⟨S256x100000, .i1⟩ : BufTy).Contents (Elt F))
    (g92 : (⟨S256x100000, .i1⟩ : BufTy).Contents (Elt F) → (⟨S256x100000, .i1⟩ : BufTy).Contents (Elt F) → (⟨S256x100000, .i1⟩ : BufTy).Contents (Elt F))
    (g93 : (⟨S_, .f32⟩ : BufTy).Contents (Elt F))
    (g94 : (⟨S_, .f32⟩ : BufTy).Contents (Elt F) → (⟨S256x1, .f32⟩ : BufTy).Contents (Elt F))
    (g95 : (⟨S256x1, .f32⟩ : BufTy).Contents (Elt F) → (⟨S256x1, .f32⟩ : BufTy).Contents (Elt F) → (⟨S256x1, .f32⟩ : BufTy).Contents (Elt F))
    (g96 : (⟨S_, .f32⟩ : BufTy).Contents (Elt F))
    (g97 : (⟨S_, .f32⟩ : BufTy).Contents (Elt F) → (⟨S256x1, .f32⟩ : BufTy).Contents (Elt F))
    (g98 : (⟨S256x1, .f32⟩ : BufTy).Contents (Elt F) → (⟨S256x1, .f32⟩ : BufTy).Contents (Elt F) → (⟨S256x1, .f32⟩ : BufTy).Contents (Elt F))
    (g99 : (⟨S256x1, .f32⟩ : BufTy).Contents (Elt F) → (⟨S256x100000, .f32⟩ : BufTy).Contents (Elt F))
    (g100 : (⟨S256x100000, .f32⟩ : BufTy).Contents (Elt F) → (⟨S256x100000, .f32⟩ : BufTy).Contents (Elt F) → (⟨S256x100000, .i1⟩ : BufTy).Contents (Elt F))
    (g101 : (⟨S256x100000, .i1⟩ : BufTy).Contents (Elt F) → (⟨S256x100000, .i1⟩ : BufTy).Contents (Elt F) → (⟨S256x100000, .i1⟩ : BufTy).Contents (Elt F))
    (g102 : (⟨S_, .f32⟩ : BufTy).Contents (Elt F))
    (g103 : (⟨S_, .f32⟩ : BufTy).Contents (Elt F) → (⟨S256x100000, .f32⟩ : BufTy).Contents (Elt F))
    (g104 : (⟨S256x100000, .f32⟩ : BufTy).Contents (Elt F) → (⟨S256x100000, .f32⟩ : BufTy).Contents (Elt F) → (⟨S256x100000, .f32⟩ : BufTy).Contents (Elt F))
    (g105 : (⟨S_, .f32⟩ : BufTy).Contents (Elt F))
    (g106 : (⟨S_, .f32⟩ : BufTy).Contents (Elt F) → (⟨S_, .f32⟩ : BufTy).Contents (Elt F))
    (g107 : (⟨S_, .f32⟩ : BufTy).Contents (Elt F) → (⟨S256x100000, .f32⟩ : BufTy).Contents (Elt F))
    (g108 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g109 : (⟨S_, .f32⟩ : BufTy).Contents (Elt F))
    (g110 : (⟨S256x100000, .f32⟩ : BufTy).Contents (Elt F) → (⟨S_, .f32⟩ : BufTy).Contents (Elt F) → (⟨S256, .f32⟩ : BufTy).Contents (Elt F))
    (g111 : (⟨S_, .f32⟩ : BufTy).Contents (Elt F))
    (g112 : (⟨S_, .f32⟩ : BufTy).Contents (Elt F) → (⟨S_, .f32⟩ : BufTy).Contents (Elt F))
    (g113 : (⟨S_, .f32⟩ : BufTy).Contents (Elt F) → (⟨S256x100000, .f32⟩ : BufTy).Contents (Elt F))
    (g114 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g115 : (⟨S_, .f32⟩ : BufTy).Contents (Elt F))
    (g116 : (⟨S256x100000, .f32⟩ : BufTy).Contents (Elt F) → (⟨S_, .f32⟩ : BufTy).Contents (Elt F) → (⟨S256, .f32⟩ : BufTy).Contents (Elt F))
    (g117 : (⟨S256, .f32⟩ : BufTy).Contents (Elt F) → (⟨S256, .f32⟩ : BufTy).Contents (Elt F) → (⟨S256, .f32⟩ : BufTy).Contents (Elt F))
    (g118 : (⟨S_, .f32⟩ : BufTy).Contents (Elt F))
    (g119 : (⟨S_, .f32⟩ : BufTy).Contents (Elt F) → (⟨S_, .f32⟩ : BufTy).Contents (Elt F))
    (g120 : (⟨S_, .f32⟩ : BufTy).Contents (Elt F) → (⟨S256, .f32⟩ : BufTy).Contents (Elt F))
    (g121 : (⟨S256, .i1⟩ : BufTy).Contents (Elt F) → (⟨S256, .f32⟩ : BufTy).Contents (Elt F) → (⟨S256, .f32⟩ : BufTy).Contents (Elt F) → (⟨S256, .f32⟩ : BufTy).Contents (Elt F))
    (g122 : (⟨S_, .f32⟩ : BufTy).Contents (Elt F))
    (g123 : (⟨S256, .f32⟩ : BufTy).Contents (Elt F) → (⟨S_, .f32⟩ : BufTy).Contents (Elt F) → (⟨S_, .f32⟩ : BufTy).Contents (Elt F))
    (g124 : (⟨S_, .f32⟩ : BufTy).Contents (Elt F))
    (g125 : (⟨S_, .f32⟩ : BufTy).Contents (Elt F) → (⟨S_, .f32⟩ : BufTy).Contents (Elt F) → (⟨S_, .f32⟩ : BufTy).Contents (Elt F)) : List (HloOp τ sig (Elt F)) :=
  [ nullary main_cst_9 g87,
    unary main_cst_9 main_v35 g88,
    binary main_v30 main_v35 main_v36 g89,
    unary main_v36 main_v37 g90,
    binary main_v21 main_v37 main_v38 g91,
    binary main_v26 main_v38 main_v39 g92,
    nullary main_cst_10 g93,
    unary main_cst_10 main_v40 g94,
    binary main_v40 main_v33 main_v41 g95,
    nullary main_cst_11 g96,
    unary main_cst_11 main_v42 g97,
    binary main_v41 main_v42 main_v43 g98,
    unary main_v43 main_v44 g99,
    binary main_v21 main_v44 main_v45 g100,
    binary main_v27 main_v45 main_v46 g101,
    nullary main_cst_12 g102,
    unary main_cst_12 main_v47 g103,
    binary main_v47 main_v21 main_v48 g104,
    nullary main_cst_13 g105,
    TRef.unary (TRef.of (T := ⟨S_, .f32⟩) main_cst_13) (TRef.of (T := ⟨S_, .f32⟩) main_call5_v0) g106,
    TRef.unary (TRef.of (T := ⟨S_, .f32⟩) main_call5_v0) (TRef.of (T := ⟨S256x100000, .f32⟩) main_call5_v1) g107,
    TRef.ternary (TRef.of (T := ⟨S256x100000, .i1⟩) main_v39) (TRef.of (T := ⟨S256x100000, .f32⟩) main_v48) (TRef.of (T := ⟨S256x100000, .f32⟩) main_call5_v1) (TRef.of (T := ⟨S256x100000, .f32⟩) main_v49) g108,
    nullary main_cst_14 g109,
    binary main_v49 main_cst_14 main_v50 g110,
    nullary main_cst_15 g111,
    TRef.unary (TRef.of (T := ⟨S_, .f32⟩) main_cst_15) (TRef.of (T := ⟨S_, .f32⟩) main_call6_v0) g112,
    TRef.unary (TRef.of (T := ⟨S_, .f32⟩) main_call6_v0) (TRef.of (T := ⟨S256x100000, .f32⟩) main_call6_v1) g113,
    TRef.ternary (TRef.of (T := ⟨S256x100000, .i1⟩) main_v46) (TRef.of (T := ⟨S256x100000, .f32⟩) main_v21) (TRef.of (T := ⟨S256x100000, .f32⟩) main_call6_v1) (TRef.of (T := ⟨S256x100000, .f32⟩) main_v51) g114,
    nullary main_cst_16 g115,
    binary main_v51 main_cst_16 main_v52 g116,
    binary main_v50 main_v52 main_v53 g117,
    nullary main_cst_17 g118,
    TRef.unary (TRef.of (T := ⟨S_, .f32⟩) main_cst_17) (TRef.of (T := ⟨S_, .f32⟩) main_call7_v0) g119,
    TRef.unary (TRef.of (T := ⟨S_, .f32⟩) main_call7_v0) (TRef.of (T := ⟨S256, .f32⟩) main_call7_v1) g120,
    TRef.ternary (TRef.of (T := ⟨S256, .i1⟩) main_v34) (TRef.of (T := ⟨S256, .f32⟩) main_v53) (TRef.of (T := ⟨S256, .f32⟩) main_call7_v1) (TRef.of (T := ⟨S256, .f32⟩) main_v54) g121,
    nullary main_cst_18 g122,
    binary main_v54 main_cst_18 main_v55 g123,
    nullary main_cst_19 g124,
    binary main_v55 main_cst_19 main_v56 g125 ]

/-- Stretch E: operations 87 to 125 of the program. -/
abbrev opsE : List (HloOp τ sig (Elt F)) :=
  skelE
    (constant S_ .f32 0x3DCCCCCD#32)
    (broadcastInDim S256x1 ![] bcast_S_S256x1 : (⟨S_, .f32⟩ : BufTy).Contents (Elt F) → (⟨S256x1, .f32⟩ : BufTy).Contents (Elt F))
    (addf : (⟨S256x1, .f32⟩ : BufTy).Contents (Elt F) → (⟨S256x1, .f32⟩ : BufTy).Contents (Elt F) → (⟨S256x1, .f32⟩ : BufTy).Contents (Elt F))
    (broadcastInDim S256x100000 ![0, 1] bcast_S256x1_S256x100000_0_1 : (⟨S256x1, .f32⟩ : BufTy).Contents (Elt F) → (⟨S256x100000, .f32⟩ : BufTy).Contents (Elt F))
    (cmpf .olt : (⟨S256x100000, .f32⟩ : BufTy).Contents (Elt F) → (⟨S256x100000, .f32⟩ : BufTy).Contents (Elt F) → (⟨S256x100000, .i1⟩ : BufTy).Contents (Elt F))
    (andi : (⟨S256x100000, .i1⟩ : BufTy).Contents (Elt F) → (⟨S256x100000, .i1⟩ : BufTy).Contents (Elt F) → (⟨S256x100000, .i1⟩ : BufTy).Contents (Elt F))
    (constant S_ .f32 0x3F19999A#32)
    (broadcastInDim S256x1 ![] bcast_S_S256x1 : (⟨S_, .f32⟩ : BufTy).Contents (Elt F) → (⟨S256x1, .f32⟩ : BufTy).Contents (Elt F))
    (maximumf : (⟨S256x1, .f32⟩ : BufTy).Contents (Elt F) → (⟨S256x1, .f32⟩ : BufTy).Contents (Elt F) → (⟨S256x1, .f32⟩ : BufTy).Contents (Elt F))
    (constant S_ .f32 0x3DCCCCCD#32)
    (broadcastInDim S256x1 ![] bcast_S_S256x1 : (⟨S_, .f32⟩ : BufTy).Contents (Elt F) → (⟨S256x1, .f32⟩ : BufTy).Contents (Elt F))
    (subf : (⟨S256x1, .f32⟩ : BufTy).Contents (Elt F) → (⟨S256x1, .f32⟩ : BufTy).Contents (Elt F) → (⟨S256x1, .f32⟩ : BufTy).Contents (Elt F))
    (broadcastInDim S256x100000 ![0, 1] bcast_S256x1_S256x100000_0_1 : (⟨S256x1, .f32⟩ : BufTy).Contents (Elt F) → (⟨S256x100000, .f32⟩ : BufTy).Contents (Elt F))
    (cmpf .ogt : (⟨S256x100000, .f32⟩ : BufTy).Contents (Elt F) → (⟨S256x100000, .f32⟩ : BufTy).Contents (Elt F) → (⟨S256x100000, .i1⟩ : BufTy).Contents (Elt F))
    (andi : (⟨S256x100000, .i1⟩ : BufTy).Contents (Elt F) → (⟨S256x100000, .i1⟩ : BufTy).Contents (Elt F) → (⟨S256x100000, .i1⟩ : BufTy).Contents (Elt F))
    (constant S_ .f32 0x3F800000#32)
    (broadcastInDim S256x100000 ![] bcast_S_S256x100000 : (⟨S_, .f32⟩ : BufTy).Contents (Elt F) → (⟨S256x100000, .f32⟩ : BufTy).Contents (Elt F))
    (subf : (⟨S256x100000, .f32⟩ : BufTy).Contents (Elt F) → (⟨S256x100000, .f32⟩ : BufTy).Contents (Elt F) → (⟨S256x100000, .f32⟩ : BufTy).Contents (Elt F))
    (constant S_ .f32 0x00000000#32)
    (id)
    (broadcastInDim S256x100000 ![] bcast_S_S256x100000)
    (select)
    (constant S_ .f32 0x00000000#32)
    ((fun x v => Host.reduceAdd x v reducesTo_S256x100000_S256_d1 h_S_) : (⟨S256x100000, .f32⟩ : BufTy).Contents (Elt F) → (⟨S_, .f32⟩ : BufTy).Contents (Elt F) → (⟨S256, .f32⟩ : BufTy).Contents (Elt F))
    (constant S_ .f32 0x00000000#32)
    (id)
    (broadcastInDim S256x100000 ![] bcast_S_S256x100000)
    (select)
    (constant S_ .f32 0x00000000#32)
    ((fun x v => Host.reduceAdd x v reducesTo_S256x100000_S256_d1 h_S_) : (⟨S256x100000, .f32⟩ : BufTy).Contents (Elt F) → (⟨S_, .f32⟩ : BufTy).Contents (Elt F) → (⟨S256, .f32⟩ : BufTy).Contents (Elt F))
    (addf : (⟨S256, .f32⟩ : BufTy).Contents (Elt F) → (⟨S256, .f32⟩ : BufTy).Contents (Elt F) → (⟨S256, .f32⟩ : BufTy).Contents (Elt F))
    (constant S_ .f32 0x00000000#32)
    (id)
    (broadcastInDim S256 ![] bcast_S_S256)
    (select)
    (constant S_ .f32 0x00000000#32)
    ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F))
    (constant S_ .f32 0x43800000#32)
    (Host.divf : (⟨S_, .f32⟩ : BufTy).Contents (Elt F) → (⟨S_, .f32⟩ : BufTy).Contents (Elt F) → (⟨S_, .f32⟩ : BufTy).Contents (Elt F))

/-- The program's operations are the five stretches in a row. -/
theorem ops_eq : (ops : List (HloOp τ sig (Elt F))) = opsA ++ (opsB ++ (opsC ++ (opsD ++ opsE))) := rfl

/-- The fold over the whole list is the fold over the stretches, one after the other (`after_append`). -/
theorem after_ops (V : Valuation τ sig (Elt F)) :
    after ops V = after opsE (after opsD (after opsC (after opsB (after opsA V)))) := by
  rw [ops_eq, after_append, after_append, after_append, after_append]

/-! ## What each stretch writes, and that it keeps every other buffer -/

/-- The buffers stretch A writes. -/
abbrev opsA_W : List (Ref sig .tc) := [main_call0_v0, main_call0_cst, main_call0_v1, main_call0_v2, main_v0, main_v1, main_v2]
theorem opsA_writes : (opsA : List (HloOp τ sig (Elt F))).Forall fun op => op.writes ⊆ (opsA_W.map (Proc.devRef (τ := τ) .tc)).toFinset := by
  simp only [opsA, skelA, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch A does not write keeps its contents through it. -/
theorem keepA (W : Valuation τ sig (Elt F)) (r : Ref sig .tc) (h : r ∉ opsA_W) :
    after opsA W (Proc.devRef .tc r) = W (Proc.devRef .tc r) :=
  after_of_writes_sub opsA _ opsA_writes h

/-- The buffers stretch B writes. -/
abbrev opsB_W : List (Ref sig .tc) := [main_v3, main_v4, main_cst, main_v5, main_v6, main_call1_cst, main_call1_v0, main_call1_cst_0, main_call1_v1, main_call1_v2, main_call1_v3, main_call1_v4, main_call1_v5, main_call1_v6, main_call1_cst_1, main_call1_v7, main_call1_v8, main_call1_v9, main_call1_v10, main_v7]
theorem opsB_writes : (opsB : List (HloOp τ sig (Elt F))).Forall fun op => op.writes ⊆ (opsB_W.map (Proc.devRef (τ := τ) .tc)).toFinset := by
  simp only [opsB, skelB, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch B does not write keeps its contents through it. -/
theorem keepB (W : Valuation τ sig (Elt F)) (r : Ref sig .tc) (h : r ∉ opsB_W) :
    after opsB W (Proc.devRef .tc r) = W (Proc.devRef .tc r) :=
  after_of_writes_sub opsB _ opsB_writes h

/-- The buffers stretch C writes. -/
abbrev opsC_W : List (Ref sig .tc) := [main_v8, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v9, main_v10, main_cst_0, main_v11, main_v12, main_cst_1, main_v13, main_cst_2, main_v14, main_v15, main_v16, main_v17, main_cst_3, main_v18, main_cst_4, main_v19]
theorem opsC_writes : (opsC : List (HloOp τ sig (Elt F))).Forall fun op => op.writes ⊆ (opsC_W.map (Proc.devRef (τ := τ) .tc)).toFinset := by
  simp only [opsC, skelC, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch C does not write keeps its contents through it. -/
theorem keepC (W : Valuation τ sig (Elt F)) (r : Ref sig .tc) (h : r ∉ opsC_W) :
    after opsC W (Proc.devRef .tc r) = W (Proc.devRef .tc r) :=
  after_of_writes_sub opsC _ opsC_writes h

/-- The buffers stretch D writes. -/
abbrev opsD_W : List (Ref sig .tc) := [main_v20, main_v21, main_v22, main_v23, main_v24, main_v25, main_v26, main_v27, main_cst_5, main_call3_v0, main_v28, main_cst_6, main_v29, main_v30, main_cst_7, main_call4_v0, main_v31, main_cst_8, main_v32, main_v33, main_c, main_v34]
theorem opsD_writes : (opsD : List (HloOp τ sig (Elt F))).Forall fun op => op.writes ⊆ (opsD_W.map (Proc.devRef (τ := τ) .tc)).toFinset := by
  simp only [opsD, skelD, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch D does not write keeps its contents through it. -/
theorem keepD (W : Valuation τ sig (Elt F)) (r : Ref sig .tc) (h : r ∉ opsD_W) :
    after opsD W (Proc.devRef .tc r) = W (Proc.devRef .tc r) :=
  after_of_writes_sub opsD _ opsD_writes h

/-- The buffers stretch E writes. -/
abbrev opsE_W : List (Ref sig .tc) := [main_cst_9, main_v35, main_v36, main_v37, main_v38, main_v39, main_cst_10, main_v40, main_v41, main_cst_11, main_v42, main_v43, main_v44, main_v45, main_v46, main_cst_12, main_v47, main_v48, main_cst_13, main_call5_v0, main_call5_v1, main_v49, main_cst_14, main_v50, main_cst_15, main_call6_v0, main_call6_v1, main_v51, main_cst_16, main_v52, main_v53, main_cst_17, main_call7_v0, main_call7_v1, main_v54, main_cst_18, main_v55, main_cst_19, main_v56]
theorem opsE_writes : (opsE : List (HloOp τ sig (Elt F))).Forall fun op => op.writes ⊆ (opsE_W.map (Proc.devRef (τ := τ) .tc)).toFinset := by
  simp only [opsE, skelE, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch E does not write keeps its contents through it. -/
theorem keepE (W : Valuation τ sig (Elt F)) (r : Ref sig .tc) (h : r ∉ opsE_W) :
    after opsE W (Proc.devRef .tc r) = W (Proc.devRef .tc r) :=
  after_of_writes_sub opsE _ opsE_writes h

/-! ## No operation leaves a buffer undetermined -/

theorem freshA : ∀ op ∈ (opsA : List (HloOp τ sig (Elt F))), op.fresh = ∅ := by
  intro _ h; (repeat (cases h with | head => rfl | tail _ h => ?_)); exact nomatch h

theorem freshB : ∀ op ∈ (opsB : List (HloOp τ sig (Elt F))), op.fresh = ∅ := by
  intro _ h; (repeat (cases h with | head => rfl | tail _ h => ?_)); exact nomatch h

theorem freshC : ∀ op ∈ (opsC : List (HloOp τ sig (Elt F))), op.fresh = ∅ := by
  intro _ h; (repeat (cases h with | head => rfl | tail _ h => ?_)); exact nomatch h

theorem freshD : ∀ op ∈ (opsD : List (HloOp τ sig (Elt F))), op.fresh = ∅ := by
  intro _ h; (repeat (cases h with | head => rfl | tail _ h => ?_)); exact nomatch h

theorem freshE : ∀ op ∈ (opsE : List (HloOp τ sig (Elt F))), op.fresh = ∅ := by
  intro _ h; (repeat (cases h with | head => rfl | tail _ h => ?_)); exact nomatch h

theorem fresh_ops : ∀ op ∈ (ops : List (HloOp τ sig (Elt F))), op.fresh = ∅ := by
  intro op h
  rw [ops_eq] at h
  simp only [List.mem_append] at h
  rcases h with h | h | h | h | h
  · exact freshA op h
  · exact freshB op h
  · exact freshC op h
  · exact freshD op h
  · exact freshE op h

/-! ## Each stretch read at its live results

First over the skeleton, the functions abstract: the fold at a result buffer is the composition of the functions along
the data flow, from the contents `W` holds at the buffers the stretch reads (given as hypotheses). Then at the
program's functions: the composition is the stage of that buffer, by unfolding the stage definitions of the stretch
itself; the stages the stretch starts from stay folded. -/

theorem skelA_v2
    (g0 : (⟨S256x256, .f32⟩ : BufTy).Contents (Elt F) → (⟨S256x256, .f32⟩ : BufTy).Contents (Elt F) → (⟨S256x256, .f32⟩ : BufTy).Contents (Elt F))
    (g1 : (⟨S_, .f32⟩ : BufTy).Contents (Elt F))
    (g2 : (⟨S256x256, .f32⟩ : BufTy).Contents (Elt F) → (⟨S_, .f32⟩ : BufTy).Contents (Elt F) → (⟨S256, .f32⟩ : BufTy).Contents (Elt F))
    (g3 : (⟨S256, .f32⟩ : BufTy).Contents (Elt F) → (⟨S256x1, .f32⟩ : BufTy).Contents (Elt F))
    (g4 : (⟨S256x1, .f32⟩ : BufTy).Contents (Elt F) → (⟨S256x1, .f32⟩ : BufTy).Contents (Elt F))
    (g5 : (⟨S256x1, .f32⟩ : BufTy).Contents (Elt F) → (⟨S256x256, .f32⟩ : BufTy).Contents (Elt F))
    (g6 : (⟨S256x256, .f32⟩ : BufTy).Contents (Elt F) → (⟨S256x256, .f32⟩ : BufTy).Contents (Elt F) → (⟨S256x256, .f32⟩ : BufTy).Contents (Elt F))
    (W : Valuation τ sig (Elt F))
    (y_main_arg0 : (⟨S256x256, .f32⟩ : BufTy).Contents (Elt F))
    (h_main_arg0 : W (Proc.devRef .tc main_arg0) = y_main_arg0) :
    after (skelA g0 g1 g2 g3 g4 g5 g6) W (Proc.devRef .tc main_v2)
      = (g6 y_main_arg0 (g5 (g4 (g3 (g2 (g0 y_main_arg0 y_main_arg0) g1))))) := by
  simp only [skelA]
  after_results_simp
  simp only [h_main_arg0]
  try rfl

theorem A_v2 (W : Valuation τ sig (Elt F)) (x0 : (⟨S256x256, .f32⟩ : BufTy).Contents (Elt F))
    (h_main_arg0 : W (Proc.devRef .tc main_arg0) = x0) :
    after opsA W (Proc.devRef .tc main_v2) = val_main_v2 (F := F) x0 :=
  (skelA_v2 _ _ _ _ _ _ _ W _ h_main_arg0).trans (by
    unfold val_main_v2 val_main_v1 val_main_v0 val_main_call0_v2 val_main_call0_v1 val_main_call0_cst val_main_call0_v0
    with_reducible rfl)

theorem skelB_v7
    (g7 : (⟨S100000x256, .f32⟩ : BufTy).Contents (Elt F) → (⟨S256x100000, .f32⟩ : BufTy).Contents (Elt F))
    (g8 : (⟨S256x256, .f32⟩ : BufTy).Contents (Elt F) → (⟨S256x100000, .f32⟩ : BufTy).Contents (Elt F) → (⟨S256x100000, .f32⟩ : BufTy).Contents (Elt F))
    (g9 : (⟨S_, .f32⟩ : BufTy).Contents (Elt F))
    (g10 : (⟨S_, .f32⟩ : BufTy).Contents (Elt F) → (⟨S256x100000, .f32⟩ : BufTy).Contents (Elt F))
    (g11 : (⟨S256x100000, .f32⟩ : BufTy).Contents (Elt F) → (⟨S256x100000, .f32⟩ : BufTy).Contents (Elt F) → (⟨S256x100000, .f32⟩ : BufTy).Contents (Elt F))
    (g12 : (⟨S_, .f32⟩ : BufTy).Contents (Elt F))
    (g13 : (⟨S256x100000, .f32⟩ : BufTy).Contents (Elt F) → (⟨S_, .f32⟩ : BufTy).Contents (Elt F) → (⟨S256, .f32⟩ : BufTy).Contents (Elt F))
    (g14 : (⟨S_, .f32⟩ : BufTy).Contents (Elt F))
    (g15 : (⟨S_, .f32⟩ : BufTy).Contents (Elt F) → (⟨S256, .f32⟩ : BufTy).Contents (Elt F))
    (g16 : (⟨S256, .f32⟩ : BufTy).Contents (Elt F) → (⟨S256, .f32⟩ : BufTy).Contents (Elt F) → (⟨S256, .f32⟩ : BufTy).Contents (Elt F))
    (g17 : (⟨S256, .f32⟩ : BufTy).Contents (Elt F) → (⟨S256x1, .f32⟩ : BufTy).Contents (Elt F))
    (g18 : (⟨S256x1, .f32⟩ : BufTy).Contents (Elt F) → (⟨S256x100000, .f32⟩ : BufTy).Contents (Elt F))
    (g19 : (⟨S256x100000, .f32⟩ : BufTy).Contents (Elt F) → (⟨S256x100000, .f32⟩ : BufTy).Contents (Elt F) → (⟨S256x100000, .f32⟩ : BufTy).Contents (Elt F))
    (g20 : (⟨S256x100000, .f32⟩ : BufTy).Contents (Elt F) → (⟨S256x100000, .f32⟩ : BufTy).Contents (Elt F))
    (g21 : (⟨S_, .f32⟩ : BufTy).Contents (Elt F))
    (g22 : (⟨S256x100000, .f32⟩ : BufTy).Contents (Elt F) → (⟨S_, .f32⟩ : BufTy).Contents (Elt F) → (⟨S256, .f32⟩ : BufTy).Contents (Elt F))
    (g23 : (⟨S256, .f32⟩ : BufTy).Contents (Elt F) → (⟨S256x1, .f32⟩ : BufTy).Contents (Elt F))
    (g24 : (⟨S256x1, .f32⟩ : BufTy).Contents (Elt F) → (⟨S256x1, .f32⟩ : BufTy).Contents (Elt F))
    (g25 : (⟨S256x1, .f32⟩ : BufTy).Contents (Elt F) → (⟨S256x100000, .f32⟩ : BufTy).Contents (Elt F))
    (g26 : (⟨S256x100000, .f32⟩ : BufTy).Contents (Elt F) → (⟨S256x100000, .f32⟩ : BufTy).Contents (Elt F) → (⟨S256x100000, .f32⟩ : BufTy).Contents (Elt F))
    (W : Valuation τ sig (Elt F))
    (y_main_v2 : (⟨S256x256, .f32⟩ : BufTy).Contents (Elt F)) (y_main_arg1 : (⟨S100000x256, .f32⟩ : BufTy).Contents (Elt F))
    (h_main_v2 : W (Proc.devRef .tc main_v2) = y_main_v2) (h_main_arg1 : W (Proc.devRef .tc main_arg1) = y_main_arg1) :
    after (skelB g7 g8 g9 g10 g11 g12 g13 g14 g15 g16 g17 g18 g19 g20 g21 g22 g23 g24 g25 g26) W (Proc.devRef .tc main_v7)
      = (g26 (g19 (g11 (g8 y_main_v2 (g7 y_main_arg1)) (g10 g9)) (g18 (g17 (g16 (g15 g14) (g13 (g11 (g8 y_main_v2 (g7 y_main_arg1)) (g10 g9)) g12))))) (g25 (g24 (g23 (g22 (g20 (g19 (g11 (g8 y_main_v2 (g7 y_main_arg1)) (g10 g9)) (g18 (g17 (g16 (g15 g14) (g13 (g11 (g8 y_main_v2 (g7 y_main_arg1)) (g10 g9)) g12)))))) g21))))) := by
  simp only [skelB]
  after_results_simp
  simp only [h_main_v2, h_main_arg1]
  try rfl

theorem B_v7 (W : Valuation τ sig (Elt F)) (x0 : (⟨S256x256, .f32⟩ : BufTy).Contents (Elt F)) (x1 : (⟨S100000x256, .f32⟩ : BufTy).Contents (Elt F))
    (h_main_v2 : W (Proc.devRef .tc main_v2) = val_main_v2 (F := F) x0)
    (h_main_arg1 : W (Proc.devRef .tc main_arg1) = x1) :
    after opsB W (Proc.devRef .tc main_v7) = val_main_v7 (F := F) x0 x1 :=
  (skelB_v7 _ _ _ _ _ _ _ _ _ _ _ _ _ _ _ _ _ _ _ _ W _ _ h_main_v2 h_main_arg1).trans (by
    unfold val_main_v7 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst val_main_v6 val_main_v5 val_main_cst val_main_v4 val_main_v3
    with_reducible rfl)

theorem skelC_v19
    (g27 : (⟨S256, .i32⟩ : BufTy).Contents (Elt F) → (⟨S256x1, .i32⟩ : BufTy).Contents (Elt F))
    (g28 : (⟨S_, .i32⟩ : BufTy).Contents (Elt F))
    (g29 : (⟨S_, .i32⟩ : BufTy).Contents (Elt F) → (⟨S256x1, .i32⟩ : BufTy).Contents (Elt F))
    (g30 : (⟨S256x1, .i32⟩ : BufTy).Contents (Elt F) → (⟨S256x1, .i32⟩ : BufTy).Contents (Elt F) → (⟨S256x1, .i1⟩ : BufTy).Contents (Elt F))
    (g31 : (⟨S_, .i32⟩ : BufTy).Contents (Elt F))
    (g32 : (⟨S_, .i32⟩ : BufTy).Contents (Elt F) → (⟨S256x1, .i32⟩ : BufTy).Contents (Elt F))
    (g33 : (⟨S256x1, .i32⟩ : BufTy).Contents (Elt F) → (⟨S256x1, .i32⟩ : BufTy).Contents (Elt F) → (⟨S256x1, .i32⟩ : BufTy).Contents (Elt F))
    (g34 : (⟨S256x1, .i1⟩ : BufTy).Contents (Elt F) → (⟨S256x1, .i32⟩ : BufTy).Contents (Elt F) → (⟨S256x1, .i32⟩ : BufTy).Contents (Elt F) → (⟨S256x1, .i32⟩ : BufTy).Contents (Elt F))
    (g36 : (⟨S1, .i32⟩ : BufTy).Contents (Elt F))
    (g37 : (⟨S_, .i32⟩ : BufTy).Contents (Elt F))
    (g38 : (⟨S_, .i32⟩ : BufTy).Contents (Elt F) → (⟨S256x1x1, .i32⟩ : BufTy).Contents (Elt F))
    (g39 : (⟨S256x1x1, .i32⟩ : BufTy).Contents (Elt F) → (⟨S256x1x1, .i32⟩ : BufTy).Contents (Elt F) → (⟨S256x1x1, .i1⟩ : BufTy).Contents (Elt F))
    (g40 : (⟨S1, .i32⟩ : BufTy).Contents (Elt F) → (⟨S1x1x1, .i32⟩ : BufTy).Contents (Elt F))
    (g41 : (⟨S1x1x1, .i32⟩ : BufTy).Contents (Elt F) → (⟨S256x1x1, .i32⟩ : BufTy).Contents (Elt F))
    (g42 : (⟨S256x1x1, .i32⟩ : BufTy).Contents (Elt F) → (⟨S256x1x1, .i32⟩ : BufTy).Contents (Elt F) → (⟨S256x1x1, .i1⟩ : BufTy).Contents (Elt F))
    (g43 : (⟨S256x1x1, .i1⟩ : BufTy).Contents (Elt F) → (⟨S256x1x1, .i1⟩ : BufTy).Contents (Elt F) → (⟨S256x1x1, .i1⟩ : BufTy).Contents (Elt F))
    (g44 : (⟨S_, .i1⟩ : BufTy).Contents (Elt F))
    (g45 : (⟨S256x1x1, .i1⟩ : BufTy).Contents (Elt F) → (⟨S_, .i1⟩ : BufTy).Contents (Elt F) → (⟨S256x1, .i1⟩ : BufTy).Contents (Elt F))
    (g46 : (⟨S256x100000, .f32⟩ : BufTy).Contents (Elt F) → (⟨S256x1x1, .i32⟩ : BufTy).Contents (Elt F) → (⟨S256x1, .f32⟩ : BufTy).Contents (Elt F))
    (g47 : (⟨S_, .f32⟩ : BufTy).Contents (Elt F))
    (g48 : (⟨S_, .f32⟩ : BufTy).Contents (Elt F) → (⟨S256x1, .f32⟩ : BufTy).Contents (Elt F))
    (g49 : (⟨S256x1, .i1⟩ : BufTy).Contents (Elt F) → (⟨S256x1, .f32⟩ : BufTy).Contents (Elt F) → (⟨S256x1, .f32⟩ : BufTy).Contents (Elt F) → (⟨S256x1, .f32⟩ : BufTy).Contents (Elt F))
    (g51 : (⟨S_, .f32⟩ : BufTy).Contents (Elt F))
    (g52 : (⟨S_, .f32⟩ : BufTy).Contents (Elt F) → (⟨S256, .f32⟩ : BufTy).Contents (Elt F))
    (g53 : (⟨S256, .f32⟩ : BufTy).Contents (Elt F) → (⟨S256, .f32⟩ : BufTy).Contents (Elt F) → (⟨S256, .f32⟩ : BufTy).Contents (Elt F))
    (g54 : (⟨S_, .f32⟩ : BufTy).Contents (Elt F))
    (g55 : (⟨S256x100000, .f32⟩ : BufTy).Contents (Elt F) → (⟨S_, .f32⟩ : BufTy).Contents (Elt F) → (⟨S256, .f32⟩ : BufTy).Contents (Elt F))
    (g56 : (⟨S_, .f32⟩ : BufTy).Contents (Elt F))
    (g57 : (⟨S_, .f32⟩ : BufTy).Contents (Elt F) → (⟨S256, .f32⟩ : BufTy).Contents (Elt F))
    (g58 : (⟨S256, .f32⟩ : BufTy).Contents (Elt F) → (⟨S256, .f32⟩ : BufTy).Contents (Elt F) → (⟨S256, .f32⟩ : BufTy).Contents (Elt F))
    (g59 : (⟨S256, .f32⟩ : BufTy).Contents (Elt F) → (⟨S256, .f32⟩ : BufTy).Contents (Elt F) → (⟨S256, .f32⟩ : BufTy).Contents (Elt F))
    (g60 : (⟨S256, .f32⟩ : BufTy).Contents (Elt F) → (⟨S256, .f32⟩ : BufTy).Contents (Elt F))
    (g61 : (⟨S_, .f32⟩ : BufTy).Contents (Elt F))
    (g62 : (⟨S256, .f32⟩ : BufTy).Contents (Elt F) → (⟨S_, .f32⟩ : BufTy).Contents (Elt F) → (⟨S_, .f32⟩ : BufTy).Contents (Elt F))
    (g63 : (⟨S_, .f32⟩ : BufTy).Contents (Elt F))
    (g64 : (⟨S_, .f32⟩ : BufTy).Contents (Elt F) → (⟨S_, .f32⟩ : BufTy).Contents (Elt F) → (⟨S_, .f32⟩ : BufTy).Contents (Elt F))
    (W : Valuation τ sig (Elt F))
    (y_main_arg3 : (⟨S256, .i32⟩ : BufTy).Contents (Elt F)) (y_main_v7 : (⟨S256x100000, .f32⟩ : BufTy).Contents (Elt F))
    (h_main_arg3 : W (Proc.devRef .tc main_arg3) = y_main_arg3) (h_main_v7 : W (Proc.devRef .tc main_v7) = y_main_v7) :
    after (skelC g27 g28 g29 g30 g31 g32 g33 g34 g36 g37 g38 g39 g40 g41 g42 g43 g44 g45 g46 g47 g48 g49 g51 g52 g53 g54 g55 g56 g57 g58 g59 g60 g61 g62 g63 g64) W (Proc.devRef .tc main_v19)
      = (g64 (g62 (g60 (g59 (g53 (g52 g51) (shapeCast _ (g49 (g45 (g43 (g39 (shapeCast _ (g34 (g30 (g27 y_main_arg3) (g29 g28)) (g33 (g27 y_main_arg3) (g32 g31)) (g27 y_main_arg3)) shapeCasts_S256x1_S256x1x1 : (⟨S256x1x1, .i32⟩ : BufTy).Contents (Elt F)) (g38 g37)) (g42 (shapeCast _ (g34 (g30 (g27 y_main_arg3) (g29 g28)) (g33 (g27 y_main_arg3) (g32 g31)) (g27 y_main_arg3)) shapeCasts_S256x1_S256x1x1 : (⟨S256x1x1, .i32⟩ : BufTy).Contents (Elt F)) (g41 (g40 g36)))) g44) (g46 y_main_v7 (shapeCast _ (g34 (g30 (g27 y_main_arg3) (g29 g28)) (g33 (g27 y_main_arg3) (g32 g31)) (g27 y_main_arg3)) shapeCasts_S256x1_S256x1x1 : (⟨S256x1x1, .i32⟩ : BufTy).Contents (Elt F))) (g48 g47)) shapeCasts_S256x1_S256 : (⟨S256, .f32⟩ : BufTy).Contents (Elt F))) (g58 (g57 g56) (g55 y_main_v7 g54)))) g61) g63) := by
  simp only [skelC]
  after_results_simp
  simp only [h_main_arg3, h_main_v7]
  try rfl

theorem C_v19 (W : Valuation τ sig (Elt F)) (x0 : (⟨S256x256, .f32⟩ : BufTy).Contents (Elt F)) (x1 : (⟨S100000x256, .f32⟩ : BufTy).Contents (Elt F)) (x3 : (⟨S256, .i32⟩ : BufTy).Contents (Elt F))
    (h_main_arg3 : W (Proc.devRef .tc main_arg3) = x3)
    (h_main_v7 : W (Proc.devRef .tc main_v7) = val_main_v7 (F := F) x0 x1) :
    after opsC W (Proc.devRef .tc main_v19) = val_main_v19 (F := F) x0 x1 x3 :=
  (skelC_v19 _ _ _ _ _ _ _ _ _ _ _ _ _ _ _ _ _ _ _ _ _ _ _ _ _ _ _ _ _ _ _ _ _ _ _ _ W _ _ h_main_arg3 h_main_v7).trans (by
    unfold val_main_v19 val_main_cst_4 val_main_v18 val_main_cst_3 val_main_v17 val_main_v16 val_main_v15 val_main_v14 val_main_cst_2 val_main_v13 val_main_cst_1 val_main_v12 val_main_v11 val_main_cst_0 val_main_v10 val_main_v9 val_main_call2_v14 val_main_call2_cst val_main_call2_v13 val_main_call2_v12 val_main_call2_c_3 val_main_call2_v11 val_main_call2_v10 val_main_call2_v9 val_main_call2_v8 val_main_call2_v7 val_main_call2_v6 val_main_call2_c_2 val_main_call2_c_1 val_main_call2_v5 val_main_call2_v4 val_main_call2_v3 val_main_call2_v2 val_main_call2_c_0 val_main_call2_v1 val_main_call2_v0 val_main_call2_c val_main_v8
    with_reducible rfl)

theorem skelD_v21
    (g65 : (⟨S100000x256, .f32⟩ : BufTy).Contents (Elt F) → (⟨S256x100000, .f32⟩ : BufTy).Contents (Elt F))
    (g66 : (⟨S256x256, .f32⟩ : BufTy).Contents (Elt F) → (⟨S256x100000, .f32⟩ : BufTy).Contents (Elt F) → (⟨S256x100000, .f32⟩ : BufTy).Contents (Elt F))
    (g67 : (⟨S256, .i32⟩ : BufTy).Contents (Elt F) → (⟨S256x1, .i32⟩ : BufTy).Contents (Elt F))
    (g68 : (⟨S100000, .i32⟩ : BufTy).Contents (Elt F) → (⟨S1x100000, .i32⟩ : BufTy).Contents (Elt F))
    (g69 : (⟨S256x1, .i32⟩ : BufTy).Contents (Elt F) → (⟨S256x100000, .i32⟩ : BufTy).Contents (Elt F))
    (g70 : (⟨S1x100000, .i32⟩ : BufTy).Contents (Elt F) → (⟨S256x100000, .i32⟩ : BufTy).Contents (Elt F))
    (g71 : (⟨S256x100000, .i32⟩ : BufTy).Contents (Elt F) → (⟨S256x100000, .i32⟩ : BufTy).Contents (Elt F) → (⟨S256x100000, .i1⟩ : BufTy).Contents (Elt F))
    (g72 : (⟨S256x100000, .i1⟩ : BufTy).Contents (Elt F) → (⟨S256x100000, .i1⟩ : BufTy).Contents (Elt F))
    (g73 : (⟨S_, .f32⟩ : BufTy).Contents (Elt F))
    (g74 : (⟨S_, .f32⟩ : BufTy).Contents (Elt F) → (⟨S256x100000, .f32⟩ : BufTy).Contents (Elt F))
    (g75 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g76 : (⟨S_, .f32⟩ : BufTy).Contents (Elt F))
    (g77 : (⟨S256x100000, .f32⟩ : BufTy).Contents (Elt F) → (⟨S_, .f32⟩ : BufTy).Contents (Elt F) → (⟨S256, .f32⟩ : BufTy).Contents (Elt F))
    (g78 : (⟨S256, .f32⟩ : BufTy).Contents (Elt F) → (⟨S256x1, .f32⟩ : BufTy).Contents (Elt F))
    (g79 : (⟨S_, .f32⟩ : BufTy).Contents (Elt F))
    (g80 : (⟨S_, .f32⟩ : BufTy).Contents (Elt F) → (⟨S256x100000, .f32⟩ : BufTy).Contents (Elt F))
    (g81 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g82 : (⟨S_, .f32⟩ : BufTy).Contents (Elt F))
    (g83 : (⟨S256x100000, .f32⟩ : BufTy).Contents (Elt F) → (⟨S_, .f32⟩ : BufTy).Contents (Elt F) → (⟨S256, .f32⟩ : BufTy).Contents (Elt F))
    (g84 : (⟨S256, .f32⟩ : BufTy).Contents (Elt F) → (⟨S256x1, .f32⟩ : BufTy).Contents (Elt F))
    (g85 : (⟨S_, .i1⟩ : BufTy).Contents (Elt F))
    (g86 : (⟨S256x100000, .i1⟩ : BufTy).Contents (Elt F) → (⟨S_, .i1⟩ : BufTy).Contents (Elt F) → (⟨S256, .i1⟩ : BufTy).Contents (Elt F))
    (W : Valuation τ sig (Elt F))
    (y_main_v2 : (⟨S256x256, .f32⟩ : BufTy).Contents (Elt F)) (y_main_arg2 : (⟨S100000x256, .f32⟩ : BufTy).Contents (Elt F))
    (h_main_v2 : W (Proc.devRef .tc main_v2) = y_main_v2) (h_main_arg2 : W (Proc.devRef .tc main_arg2) = y_main_arg2) :
    after (skelD g65 g66 g67 g68 g69 g70 g71 g72 g73 g74 g75 g76 g77 g78 g79 g80 g81 g82 g83 g84 g85 g86) W (Proc.devRef .tc main_v21)
      = (g66 y_main_v2 (g65 y_main_arg2)) := by
  simp only [skelD]
  after_results_simp
  simp only [h_main_v2, h_main_arg2]
  try rfl

theorem D_v21 (W : Valuation τ sig (Elt F)) (x0 : (⟨S256x256, .f32⟩ : BufTy).Contents (Elt F)) (x2 : (⟨S100000x256, .f32⟩ : BufTy).Contents (Elt F))
    (h_main_v2 : W (Proc.devRef .tc main_v2) = val_main_v2 (F := F) x0)
    (h_main_arg2 : W (Proc.devRef .tc main_arg2) = x2) :
    after opsD W (Proc.devRef .tc main_v21) = val_main_v21 (F := F) x0 x2 :=
  (skelD_v21 _ _ _ _ _ _ _ _ _ _ _ _ _ _ _ _ _ _ _ _ _ _ W _ _ h_main_v2 h_main_arg2).trans (by
    unfold val_main_v21 val_main_v20
    with_reducible rfl)

theorem skelD_v26
    (g65 : (⟨S100000x256, .f32⟩ : BufTy).Contents (Elt F) → (⟨S256x100000, .f32⟩ : BufTy).Contents (Elt F))
    (g66 : (⟨S256x256, .f32⟩ : BufTy).Contents (Elt F) → (⟨S256x100000, .f32⟩ : BufTy).Contents (Elt F) → (⟨S256x100000, .f32⟩ : BufTy).Contents (Elt F))
    (g67 : (⟨S256, .i32⟩ : BufTy).Contents (Elt F) → (⟨S256x1, .i32⟩ : BufTy).Contents (Elt F))
    (g68 : (⟨S100000, .i32⟩ : BufTy).Contents (Elt F) → (⟨S1x100000, .i32⟩ : BufTy).Contents (Elt F))
    (g69 : (⟨S256x1, .i32⟩ : BufTy).Contents (Elt F) → (⟨S256x100000, .i32⟩ : BufTy).Contents (Elt F))
    (g70 : (⟨S1x100000, .i32⟩ : BufTy).Contents (Elt F) → (⟨S256x100000, .i32⟩ : BufTy).Contents (Elt F))
    (g71 : (⟨S256x100000, .i32⟩ : BufTy).Contents (Elt F) → (⟨S256x100000, .i32⟩ : BufTy).Contents (Elt F) → (⟨S256x100000, .i1⟩ : BufTy).Contents (Elt F))
    (g72 : (⟨S256x100000, .i1⟩ : BufTy).Contents (Elt F) → (⟨S256x100000, .i1⟩ : BufTy).Contents (Elt F))
    (g73 : (⟨S_, .f32⟩ : BufTy).Contents (Elt F))
    (g74 : (⟨S_, .f32⟩ : BufTy).Contents (Elt F) → (⟨S256x100000, .f32⟩ : BufTy).Contents (Elt F))
    (g75 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g76 : (⟨S_, .f32⟩ : BufTy).Contents (Elt F))
    (g77 : (⟨S256x100000, .f32⟩ : BufTy).Contents (Elt F) → (⟨S_, .f32⟩ : BufTy).Contents (Elt F) → (⟨S256, .f32⟩ : BufTy).Contents (Elt F))
    (g78 : (⟨S256, .f32⟩ : BufTy).Contents (Elt F) → (⟨S256x1, .f32⟩ : BufTy).Contents (Elt F))
    (g79 : (⟨S_, .f32⟩ : BufTy).Contents (Elt F))
    (g80 : (⟨S_, .f32⟩ : BufTy).Contents (Elt F) → (⟨S256x100000, .f32⟩ : BufTy).Contents (Elt F))
    (g81 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g82 : (⟨S_, .f32⟩ : BufTy).Contents (Elt F))
    (g83 : (⟨S256x100000, .f32⟩ : BufTy).Contents (Elt F) → (⟨S_, .f32⟩ : BufTy).Contents (Elt F) → (⟨S256, .f32⟩ : BufTy).Contents (Elt F))
    (g84 : (⟨S256, .f32⟩ : BufTy).Contents (Elt F) → (⟨S256x1, .f32⟩ : BufTy).Contents (Elt F))
    (g85 : (⟨S_, .i1⟩ : BufTy).Contents (Elt F))
    (g86 : (⟨S256x100000, .i1⟩ : BufTy).Contents (Elt F) → (⟨S_, .i1⟩ : BufTy).Contents (Elt F) → (⟨S256, .i1⟩ : BufTy).Contents (Elt F))
    (W : Valuation τ sig (Elt F))
    (y_main_arg3 : (⟨S256, .i32⟩ : BufTy).Contents (Elt F)) (y_main_arg4 : (⟨S100000, .i32⟩ : BufTy).Contents (Elt F))
    (h_main_arg3 : W (Proc.devRef .tc main_arg3) = y_main_arg3) (h_main_arg4 : W (Proc.devRef .tc main_arg4) = y_main_arg4) :
    after (skelD g65 g66 g67 g68 g69 g70 g71 g72 g73 g74 g75 g76 g77 g78 g79 g80 g81 g82 g83 g84 g85 g86) W (Proc.devRef .tc main_v26)
      = (g71 (g69 (g67 y_main_arg3)) (g70 (g68 y_main_arg4))) := by
  simp only [skelD]
  after_results_simp
  simp only [h_main_arg3, h_main_arg4]
  try rfl

theorem D_v26 (W : Valuation τ sig (Elt F)) (x3 : (⟨S256, .i32⟩ : BufTy).Contents (Elt F)) (x4 : (⟨S100000, .i32⟩ : BufTy).Contents (Elt F))
    (h_main_arg3 : W (Proc.devRef .tc main_arg3) = x3)
    (h_main_arg4 : W (Proc.devRef .tc main_arg4) = x4) :
    after opsD W (Proc.devRef .tc main_v26) = val_main_v26 (F := F) x3 x4 :=
  (skelD_v26 _ _ _ _ _ _ _ _ _ _ _ _ _ _ _ _ _ _ _ _ _ _ W _ _ h_main_arg3 h_main_arg4).trans (by
    unfold val_main_v26 val_main_v25 val_main_v24 val_main_v23 val_main_v22
    with_reducible rfl)

theorem skelD_v27
    (g65 : (⟨S100000x256, .f32⟩ : BufTy).Contents (Elt F) → (⟨S256x100000, .f32⟩ : BufTy).Contents (Elt F))
    (g66 : (⟨S256x256, .f32⟩ : BufTy).Contents (Elt F) → (⟨S256x100000, .f32⟩ : BufTy).Contents (Elt F) → (⟨S256x100000, .f32⟩ : BufTy).Contents (Elt F))
    (g67 : (⟨S256, .i32⟩ : BufTy).Contents (Elt F) → (⟨S256x1, .i32⟩ : BufTy).Contents (Elt F))
    (g68 : (⟨S100000, .i32⟩ : BufTy).Contents (Elt F) → (⟨S1x100000, .i32⟩ : BufTy).Contents (Elt F))
    (g69 : (⟨S256x1, .i32⟩ : BufTy).Contents (Elt F) → (⟨S256x100000, .i32⟩ : BufTy).Contents (Elt F))
    (g70 : (⟨S1x100000, .i32⟩ : BufTy).Contents (Elt F) → (⟨S256x100000, .i32⟩ : BufTy).Contents (Elt F))
    (g71 : (⟨S256x100000, .i32⟩ : BufTy).Contents (Elt F) → (⟨S256x100000, .i32⟩ : BufTy).Contents (Elt F) → (⟨S256x100000, .i1⟩ : BufTy).Contents (Elt F))
    (g72 : (⟨S256x100000, .i1⟩ : BufTy).Contents (Elt F) → (⟨S256x100000, .i1⟩ : BufTy).Contents (Elt F))
    (g73 : (⟨S_, .f32⟩ : BufTy).Contents (Elt F))
    (g74 : (⟨S_, .f32⟩ : BufTy).Contents (Elt F) → (⟨S256x100000, .f32⟩ : BufTy).Contents (Elt F))
    (g75 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g76 : (⟨S_, .f32⟩ : BufTy).Contents (Elt F))
    (g77 : (⟨S256x100000, .f32⟩ : BufTy).Contents (Elt F) → (⟨S_, .f32⟩ : BufTy).Contents (Elt F) → (⟨S256, .f32⟩ : BufTy).Contents (Elt F))
    (g78 : (⟨S256, .f32⟩ : BufTy).Contents (Elt F) → (⟨S256x1, .f32⟩ : BufTy).Contents (Elt F))
    (g79 : (⟨S_, .f32⟩ : BufTy).Contents (Elt F))
    (g80 : (⟨S_, .f32⟩ : BufTy).Contents (Elt F) → (⟨S256x100000, .f32⟩ : BufTy).Contents (Elt F))
    (g81 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g82 : (⟨S_, .f32⟩ : BufTy).Contents (Elt F))
    (g83 : (⟨S256x100000, .f32⟩ : BufTy).Contents (Elt F) → (⟨S_, .f32⟩ : BufTy).Contents (Elt F) → (⟨S256, .f32⟩ : BufTy).Contents (Elt F))
    (g84 : (⟨S256, .f32⟩ : BufTy).Contents (Elt F) → (⟨S256x1, .f32⟩ : BufTy).Contents (Elt F))
    (g85 : (⟨S_, .i1⟩ : BufTy).Contents (Elt F))
    (g86 : (⟨S256x100000, .i1⟩ : BufTy).Contents (Elt F) → (⟨S_, .i1⟩ : BufTy).Contents (Elt F) → (⟨S256, .i1⟩ : BufTy).Contents (Elt F))
    (W : Valuation τ sig (Elt F))
    (y_main_arg3 : (⟨S256, .i32⟩ : BufTy).Contents (Elt F)) (y_main_arg4 : (⟨S100000, .i32⟩ : BufTy).Contents (Elt F))
    (h_main_arg3 : W (Proc.devRef .tc main_arg3) = y_main_arg3) (h_main_arg4 : W (Proc.devRef .tc main_arg4) = y_main_arg4) :
    after (skelD g65 g66 g67 g68 g69 g70 g71 g72 g73 g74 g75 g76 g77 g78 g79 g80 g81 g82 g83 g84 g85 g86) W (Proc.devRef .tc main_v27)
      = (g72 (g71 (g69 (g67 y_main_arg3)) (g70 (g68 y_main_arg4)))) := by
  simp only [skelD]
  after_results_simp
  simp only [h_main_arg3, h_main_arg4]
  try rfl

theorem D_v27 (W : Valuation τ sig (Elt F)) (x3 : (⟨S256, .i32⟩ : BufTy).Contents (Elt F)) (x4 : (⟨S100000, .i32⟩ : BufTy).Contents (Elt F))
    (h_main_arg3 : W (Proc.devRef .tc main_arg3) = x3)
    (h_main_arg4 : W (Proc.devRef .tc main_arg4) = x4) :
    after opsD W (Proc.devRef .tc main_v27) = val_main_v27 (F := F) x3 x4 :=
  (skelD_v27 _ _ _ _ _ _ _ _ _ _ _ _ _ _ _ _ _ _ _ _ _ _ W _ _ h_main_arg3 h_main_arg4).trans (by
    unfold val_main_v27 val_main_v26 val_main_v25 val_main_v24 val_main_v23 val_main_v22
    with_reducible rfl)

theorem skelD_v30
    (g65 : (⟨S100000x256, .f32⟩ : BufTy).Contents (Elt F) → (⟨S256x100000, .f32⟩ : BufTy).Contents (Elt F))
    (g66 : (⟨S256x256, .f32⟩ : BufTy).Contents (Elt F) → (⟨S256x100000, .f32⟩ : BufTy).Contents (Elt F) → (⟨S256x100000, .f32⟩ : BufTy).Contents (Elt F))
    (g67 : (⟨S256, .i32⟩ : BufTy).Contents (Elt F) → (⟨S256x1, .i32⟩ : BufTy).Contents (Elt F))
    (g68 : (⟨S100000, .i32⟩ : BufTy).Contents (Elt F) → (⟨S1x100000, .i32⟩ : BufTy).Contents (Elt F))
    (g69 : (⟨S256x1, .i32⟩ : BufTy).Contents (Elt F) → (⟨S256x100000, .i32⟩ : BufTy).Contents (Elt F))
    (g70 : (⟨S1x100000, .i32⟩ : BufTy).Contents (Elt F) → (⟨S256x100000, .i32⟩ : BufTy).Contents (Elt F))
    (g71 : (⟨S256x100000, .i32⟩ : BufTy).Contents (Elt F) → (⟨S256x100000, .i32⟩ : BufTy).Contents (Elt F) → (⟨S256x100000, .i1⟩ : BufTy).Contents (Elt F))
    (g72 : (⟨S256x100000, .i1⟩ : BufTy).Contents (Elt F) → (⟨S256x100000, .i1⟩ : BufTy).Contents (Elt F))
    (g73 : (⟨S_, .f32⟩ : BufTy).Contents (Elt F))
    (g74 : (⟨S_, .f32⟩ : BufTy).Contents (Elt F) → (⟨S256x100000, .f32⟩ : BufTy).Contents (Elt F))
    (g75 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g76 : (⟨S_, .f32⟩ : BufTy).Contents (Elt F))
    (g77 : (⟨S256x100000, .f32⟩ : BufTy).Contents (Elt F) → (⟨S_, .f32⟩ : BufTy).Contents (Elt F) → (⟨S256, .f32⟩ : BufTy).Contents (Elt F))
    (g78 : (⟨S256, .f32⟩ : BufTy).Contents (Elt F) → (⟨S256x1, .f32⟩ : BufTy).Contents (Elt F))
    (g79 : (⟨S_, .f32⟩ : BufTy).Contents (Elt F))
    (g80 : (⟨S_, .f32⟩ : BufTy).Contents (Elt F) → (⟨S256x100000, .f32⟩ : BufTy).Contents (Elt F))
    (g81 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g82 : (⟨S_, .f32⟩ : BufTy).Contents (Elt F))
    (g83 : (⟨S256x100000, .f32⟩ : BufTy).Contents (Elt F) → (⟨S_, .f32⟩ : BufTy).Contents (Elt F) → (⟨S256, .f32⟩ : BufTy).Contents (Elt F))
    (g84 : (⟨S256, .f32⟩ : BufTy).Contents (Elt F) → (⟨S256x1, .f32⟩ : BufTy).Contents (Elt F))
    (g85 : (⟨S_, .i1⟩ : BufTy).Contents (Elt F))
    (g86 : (⟨S256x100000, .i1⟩ : BufTy).Contents (Elt F) → (⟨S_, .i1⟩ : BufTy).Contents (Elt F) → (⟨S256, .i1⟩ : BufTy).Contents (Elt F))
    (W : Valuation τ sig (Elt F))
    (y_main_arg3 : (⟨S256, .i32⟩ : BufTy).Contents (Elt F)) (y_main_arg4 : (⟨S100000, .i32⟩ : BufTy).Contents (Elt F)) (y_main_v2 : (⟨S256x256, .f32⟩ : BufTy).Contents (Elt F)) (y_main_arg2 : (⟨S100000x256, .f32⟩ : BufTy).Contents (Elt F))
    (h_main_arg3 : W (Proc.devRef .tc main_arg3) = y_main_arg3) (h_main_arg4 : W (Proc.devRef .tc main_arg4) = y_main_arg4) (h_main_v2 : W (Proc.devRef .tc main_v2) = y_main_v2) (h_main_arg2 : W (Proc.devRef .tc main_arg2) = y_main_arg2) :
    after (skelD g65 g66 g67 g68 g69 g70 g71 g72 g73 g74 g75 g76 g77 g78 g79 g80 g81 g82 g83 g84 g85 g86) W (Proc.devRef .tc main_v30)
      = (g78 (g77 (g75 (g72 (g71 (g69 (g67 y_main_arg3)) (g70 (g68 y_main_arg4)))) (g66 y_main_v2 (g65 y_main_arg2)) (g74 g73)) g76)) := by
  simp only [skelD]
  after_results_simp
  simp only [h_main_arg3, h_main_arg4, h_main_v2, h_main_arg2]
  try rfl

theorem D_v30 (W : Valuation τ sig (Elt F)) (x0 : (⟨S256x256, .f32⟩ : BufTy).Contents (Elt F)) (x2 : (⟨S100000x256, .f32⟩ : BufTy).Contents (Elt F)) (x3 : (⟨S256, .i32⟩ : BufTy).Contents (Elt F)) (x4 : (⟨S100000, .i32⟩ : BufTy).Contents (Elt F))
    (h_main_arg3 : W (Proc.devRef .tc main_arg3) = x3)
    (h_main_arg4 : W (Proc.devRef .tc main_arg4) = x4)
    (h_main_v2 : W (Proc.devRef .tc main_v2) = val_main_v2 (F := F) x0)
    (h_main_arg2 : W (Proc.devRef .tc main_arg2) = x2) :
    after opsD W (Proc.devRef .tc main_v30) = val_main_v30 (F := F) x0 x2 x3 x4 :=
  (skelD_v30 _ _ _ _ _ _ _ _ _ _ _ _ _ _ _ _ _ _ _ _ _ _ W _ _ _ _ h_main_arg3 h_main_arg4 h_main_v2 h_main_arg2).trans (by
    unfold val_main_v30 val_main_v29 val_main_cst_6 val_main_v28 val_main_call3_v0 val_main_cst_5 val_main_v27 val_main_v26 val_main_v25 val_main_v24 val_main_v23 val_main_v22 val_main_v21 val_main_v20
    with_reducible rfl)

theorem skelD_v33
    (g65 : (⟨S100000x256, .f32⟩ : BufTy).Contents (Elt F) → (⟨S256x100000, .f32⟩ : BufTy).Contents (Elt F))
    (g66 : (⟨S256x256, .f32⟩ : BufTy).Contents (Elt F) → (⟨S256x100000, .f32⟩ : BufTy).Contents (Elt F) → (⟨S256x100000, .f32⟩ : BufTy).Contents (Elt F))
    (g67 : (⟨S256, .i32⟩ : BufTy).Contents (Elt F) → (⟨S256x1, .i32⟩ : BufTy).Contents (Elt F))
    (g68 : (⟨S100000, .i32⟩ : BufTy).Contents (Elt F) → (⟨S1x100000, .i32⟩ : BufTy).Contents (Elt F))
    (g69 : (⟨S256x1, .i32⟩ : BufTy).Contents (Elt F) → (⟨S256x100000, .i32⟩ : BufTy).Contents (Elt F))
    (g70 : (⟨S1x100000, .i32⟩ : BufTy).Contents (Elt F) → (⟨S256x100000, .i32⟩ : BufTy).Contents (Elt F))
    (g71 : (⟨S256x100000, .i32⟩ : BufTy).Contents (Elt F) → (⟨S256x100000, .i32⟩ : BufTy).Contents (Elt F) → (⟨S256x100000, .i1⟩ : BufTy).Contents (Elt F))
    (g72 : (⟨S256x100000, .i1⟩ : BufTy).Contents (Elt F) → (⟨S256x100000, .i1⟩ : BufTy).Contents (Elt F))
    (g73 : (⟨S_, .f32⟩ : BufTy).Contents (Elt F))
    (g74 : (⟨S_, .f32⟩ : BufTy).Contents (Elt F) → (⟨S256x100000, .f32⟩ : BufTy).Contents (Elt F))
    (g75 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g76 : (⟨S_, .f32⟩ : BufTy).Contents (Elt F))
    (g77 : (⟨S256x100000, .f32⟩ : BufTy).Contents (Elt F) → (⟨S_, .f32⟩ : BufTy).Contents (Elt F) → (⟨S256, .f32⟩ : BufTy).Contents (Elt F))
    (g78 : (⟨S256, .f32⟩ : BufTy).Contents (Elt F) → (⟨S256x1, .f32⟩ : BufTy).Contents (Elt F))
    (g79 : (⟨S_, .f32⟩ : BufTy).Contents (Elt F))
    (g80 : (⟨S_, .f32⟩ : BufTy).Contents (Elt F) → (⟨S256x100000, .f32⟩ : BufTy).Contents (Elt F))
    (g81 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g82 : (⟨S_, .f32⟩ : BufTy).Contents (Elt F))
    (g83 : (⟨S256x100000, .f32⟩ : BufTy).Contents (Elt F) → (⟨S_, .f32⟩ : BufTy).Contents (Elt F) → (⟨S256, .f32⟩ : BufTy).Contents (Elt F))
    (g84 : (⟨S256, .f32⟩ : BufTy).Contents (Elt F) → (⟨S256x1, .f32⟩ : BufTy).Contents (Elt F))
    (g85 : (⟨S_, .i1⟩ : BufTy).Contents (Elt F))
    (g86 : (⟨S256x100000, .i1⟩ : BufTy).Contents (Elt F) → (⟨S_, .i1⟩ : BufTy).Contents (Elt F) → (⟨S256, .i1⟩ : BufTy).Contents (Elt F))
    (W : Valuation τ sig (Elt F))
    (y_main_arg3 : (⟨S256, .i32⟩ : BufTy).Contents (Elt F)) (y_main_arg4 : (⟨S100000, .i32⟩ : BufTy).Contents (Elt F)) (y_main_v2 : (⟨S256x256, .f32⟩ : BufTy).Contents (Elt F)) (y_main_arg2 : (⟨S100000x256, .f32⟩ : BufTy).Contents (Elt F))
    (h_main_arg3 : W (Proc.devRef .tc main_arg3) = y_main_arg3) (h_main_arg4 : W (Proc.devRef .tc main_arg4) = y_main_arg4) (h_main_v2 : W (Proc.devRef .tc main_v2) = y_main_v2) (h_main_arg2 : W (Proc.devRef .tc main_arg2) = y_main_arg2) :
    after (skelD g65 g66 g67 g68 g69 g70 g71 g72 g73 g74 g75 g76 g77 g78 g79 g80 g81 g82 g83 g84 g85 g86) W (Proc.devRef .tc main_v33)
      = (g84 (g83 (g81 (g71 (g69 (g67 y_main_arg3)) (g70 (g68 y_main_arg4))) (g66 y_main_v2 (g65 y_main_arg2)) (g80 g79)) g82)) := by
  simp only [skelD]
  after_results_simp
  simp only [h_main_arg3, h_main_arg4, h_main_v2, h_main_arg2]
  try rfl

theorem D_v33 (W : Valuation τ sig (Elt F)) (x0 : (⟨S256x256, .f32⟩ : BufTy).Contents (Elt F)) (x2 : (⟨S100000x256, .f32⟩ : BufTy).Contents (Elt F)) (x3 : (⟨S256, .i32⟩ : BufTy).Contents (Elt F)) (x4 : (⟨S100000, .i32⟩ : BufTy).Contents (Elt F))
    (h_main_arg3 : W (Proc.devRef .tc main_arg3) = x3)
    (h_main_arg4 : W (Proc.devRef .tc main_arg4) = x4)
    (h_main_v2 : W (Proc.devRef .tc main_v2) = val_main_v2 (F := F) x0)
    (h_main_arg2 : W (Proc.devRef .tc main_arg2) = x2) :
    after opsD W (Proc.devRef .tc main_v33) = val_main_v33 (F := F) x0 x2 x3 x4 :=
  (skelD_v33 _ _ _ _ _ _ _ _ _ _ _ _ _ _ _ _ _ _ _ _ _ _ W _ _ _ _ h_main_arg3 h_main_arg4 h_main_v2 h_main_arg2).trans (by
    unfold val_main_v33 val_main_v32 val_main_cst_8 val_main_v31 val_main_call4_v0 val_main_cst_7 val_main_v26 val_main_v25 val_main_v24 val_main_v23 val_main_v22 val_main_v21 val_main_v20
    with_reducible rfl)

theorem skelD_v34
    (g65 : (⟨S100000x256, .f32⟩ : BufTy).Contents (Elt F) → (⟨S256x100000, .f32⟩ : BufTy).Contents (Elt F))
    (g66 : (⟨S256x256, .f32⟩ : BufTy).Contents (Elt F) → (⟨S256x100000, .f32⟩ : BufTy).Contents (Elt F) → (⟨S256x100000, .f32⟩ : BufTy).Contents (Elt F))
    (g67 : (⟨S256, .i32⟩ : BufTy).Contents (Elt F) → (⟨S256x1, .i32⟩ : BufTy).Contents (Elt F))
    (g68 : (⟨S100000, .i32⟩ : BufTy).Contents (Elt F) → (⟨S1x100000, .i32⟩ : BufTy).Contents (Elt F))
    (g69 : (⟨S256x1, .i32⟩ : BufTy).Contents (Elt F) → (⟨S256x100000, .i32⟩ : BufTy).Contents (Elt F))
    (g70 : (⟨S1x100000, .i32⟩ : BufTy).Contents (Elt F) → (⟨S256x100000, .i32⟩ : BufTy).Contents (Elt F))
    (g71 : (⟨S256x100000, .i32⟩ : BufTy).Contents (Elt F) → (⟨S256x100000, .i32⟩ : BufTy).Contents (Elt F) → (⟨S256x100000, .i1⟩ : BufTy).Contents (Elt F))
    (g72 : (⟨S256x100000, .i1⟩ : BufTy).Contents (Elt F) → (⟨S256x100000, .i1⟩ : BufTy).Contents (Elt F))
    (g73 : (⟨S_, .f32⟩ : BufTy).Contents (Elt F))
    (g74 : (⟨S_, .f32⟩ : BufTy).Contents (Elt F) → (⟨S256x100000, .f32⟩ : BufTy).Contents (Elt F))
    (g75 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g76 : (⟨S_, .f32⟩ : BufTy).Contents (Elt F))
    (g77 : (⟨S256x100000, .f32⟩ : BufTy).Contents (Elt F) → (⟨S_, .f32⟩ : BufTy).Contents (Elt F) → (⟨S256, .f32⟩ : BufTy).Contents (Elt F))
    (g78 : (⟨S256, .f32⟩ : BufTy).Contents (Elt F) → (⟨S256x1, .f32⟩ : BufTy).Contents (Elt F))
    (g79 : (⟨S_, .f32⟩ : BufTy).Contents (Elt F))
    (g80 : (⟨S_, .f32⟩ : BufTy).Contents (Elt F) → (⟨S256x100000, .f32⟩ : BufTy).Contents (Elt F))
    (g81 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g82 : (⟨S_, .f32⟩ : BufTy).Contents (Elt F))
    (g83 : (⟨S256x100000, .f32⟩ : BufTy).Contents (Elt F) → (⟨S_, .f32⟩ : BufTy).Contents (Elt F) → (⟨S256, .f32⟩ : BufTy).Contents (Elt F))
    (g84 : (⟨S256, .f32⟩ : BufTy).Contents (Elt F) → (⟨S256x1, .f32⟩ : BufTy).Contents (Elt F))
    (g85 : (⟨S_, .i1⟩ : BufTy).Contents (Elt F))
    (g86 : (⟨S256x100000, .i1⟩ : BufTy).Contents (Elt F) → (⟨S_, .i1⟩ : BufTy).Contents (Elt F) → (⟨S256, .i1⟩ : BufTy).Contents (Elt F))
    (W : Valuation τ sig (Elt F))
    (y_main_arg3 : (⟨S256, .i32⟩ : BufTy).Contents (Elt F)) (y_main_arg4 : (⟨S100000, .i32⟩ : BufTy).Contents (Elt F))
    (h_main_arg3 : W (Proc.devRef .tc main_arg3) = y_main_arg3) (h_main_arg4 : W (Proc.devRef .tc main_arg4) = y_main_arg4) :
    after (skelD g65 g66 g67 g68 g69 g70 g71 g72 g73 g74 g75 g76 g77 g78 g79 g80 g81 g82 g83 g84 g85 g86) W (Proc.devRef .tc main_v34)
      = (g86 (g71 (g69 (g67 y_main_arg3)) (g70 (g68 y_main_arg4))) g85) := by
  simp only [skelD]
  after_results_simp
  simp only [h_main_arg3, h_main_arg4]
  try rfl

theorem D_v34 (W : Valuation τ sig (Elt F)) (x3 : (⟨S256, .i32⟩ : BufTy).Contents (Elt F)) (x4 : (⟨S100000, .i32⟩ : BufTy).Contents (Elt F))
    (h_main_arg3 : W (Proc.devRef .tc main_arg3) = x3)
    (h_main_arg4 : W (Proc.devRef .tc main_arg4) = x4) :
    after opsD W (Proc.devRef .tc main_v34) = val_main_v34 (F := F) x3 x4 :=
  (skelD_v34 _ _ _ _ _ _ _ _ _ _ _ _ _ _ _ _ _ _ _ _ _ _ W _ _ h_main_arg3 h_main_arg4).trans (by
    unfold val_main_v34 val_main_c val_main_v26 val_main_v25 val_main_v24 val_main_v23 val_main_v22
    with_reducible rfl)

theorem skelE_v56
    (g87 : (⟨S_, .f32⟩ : BufTy).Contents (Elt F))
    (g88 : (⟨S_, .f32⟩ : BufTy).Contents (Elt F) → (⟨S256x1, .f32⟩ : BufTy).Contents (Elt F))
    (g89 : (⟨S256x1, .f32⟩ : BufTy).Contents (Elt F) → (⟨S256x1, .f32⟩ : BufTy).Contents (Elt F) → (⟨S256x1, .f32⟩ : BufTy).Contents (Elt F))
    (g90 : (⟨S256x1, .f32⟩ : BufTy).Contents (Elt F) → (⟨S256x100000, .f32⟩ : BufTy).Contents (Elt F))
    (g91 : (⟨S256x100000, .f32⟩ : BufTy).Contents (Elt F) → (⟨S256x100000, .f32⟩ : BufTy).Contents (Elt F) → (⟨S256x100000, .i1⟩ : BufTy).Contents (Elt F))
    (g92 : (⟨S256x100000, .i1⟩ : BufTy).Contents (Elt F) → (⟨S256x100000, .i1⟩ : BufTy).Contents (Elt F) → (⟨S256x100000, .i1⟩ : BufTy).Contents (Elt F))
    (g93 : (⟨S_, .f32⟩ : BufTy).Contents (Elt F))
    (g94 : (⟨S_, .f32⟩ : BufTy).Contents (Elt F) → (⟨S256x1, .f32⟩ : BufTy).Contents (Elt F))
    (g95 : (⟨S256x1, .f32⟩ : BufTy).Contents (Elt F) → (⟨S256x1, .f32⟩ : BufTy).Contents (Elt F) → (⟨S256x1, .f32⟩ : BufTy).Contents (Elt F))
    (g96 : (⟨S_, .f32⟩ : BufTy).Contents (Elt F))
    (g97 : (⟨S_, .f32⟩ : BufTy).Contents (Elt F) → (⟨S256x1, .f32⟩ : BufTy).Contents (Elt F))
    (g98 : (⟨S256x1, .f32⟩ : BufTy).Contents (Elt F) → (⟨S256x1, .f32⟩ : BufTy).Contents (Elt F) → (⟨S256x1, .f32⟩ : BufTy).Contents (Elt F))
    (g99 : (⟨S256x1, .f32⟩ : BufTy).Contents (Elt F) → (⟨S256x100000, .f32⟩ : BufTy).Contents (Elt F))
    (g100 : (⟨S256x100000, .f32⟩ : BufTy).Contents (Elt F) → (⟨S256x100000, .f32⟩ : BufTy).Contents (Elt F) → (⟨S256x100000, .i1⟩ : BufTy).Contents (Elt F))
    (g101 : (⟨S256x100000, .i1⟩ : BufTy).Contents (Elt F) → (⟨S256x100000, .i1⟩ : BufTy).Contents (Elt F) → (⟨S256x100000, .i1⟩ : BufTy).Contents (Elt F))
    (g102 : (⟨S_, .f32⟩ : BufTy).Contents (Elt F))
    (g103 : (⟨S_, .f32⟩ : BufTy).Contents (Elt F) → (⟨S256x100000, .f32⟩ : BufTy).Contents (Elt F))
    (g104 : (⟨S256x100000, .f32⟩ : BufTy).Contents (Elt F) → (⟨S256x100000, .f32⟩ : BufTy).Contents (Elt F) → (⟨S256x100000, .f32⟩ : BufTy).Contents (Elt F))
    (g105 : (⟨S_, .f32⟩ : BufTy).Contents (Elt F))
    (g106 : (⟨S_, .f32⟩ : BufTy).Contents (Elt F) → (⟨S_, .f32⟩ : BufTy).Contents (Elt F))
    (g107 : (⟨S_, .f32⟩ : BufTy).Contents (Elt F) → (⟨S256x100000, .f32⟩ : BufTy).Contents (Elt F))
    (g108 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g109 : (⟨S_, .f32⟩ : BufTy).Contents (Elt F))
    (g110 : (⟨S256x100000, .f32⟩ : BufTy).Contents (Elt F) → (⟨S_, .f32⟩ : BufTy).Contents (Elt F) → (⟨S256, .f32⟩ : BufTy).Contents (Elt F))
    (g111 : (⟨S_, .f32⟩ : BufTy).Contents (Elt F))
    (g112 : (⟨S_, .f32⟩ : BufTy).Contents (Elt F) → (⟨S_, .f32⟩ : BufTy).Contents (Elt F))
    (g113 : (⟨S_, .f32⟩ : BufTy).Contents (Elt F) → (⟨S256x100000, .f32⟩ : BufTy).Contents (Elt F))
    (g114 : (⟨S256x100000, .i1⟩ : BufTy).Contents (Elt F) → (⟨S256x100000, .f32⟩ : BufTy).Contents (Elt F) → (⟨S256x100000, .f32⟩ : BufTy).Contents (Elt F) → (⟨S256x100000, .f32⟩ : BufTy).Contents (Elt F))
    (g115 : (⟨S_, .f32⟩ : BufTy).Contents (Elt F))
    (g116 : (⟨S256x100000, .f32⟩ : BufTy).Contents (Elt F) → (⟨S_, .f32⟩ : BufTy).Contents (Elt F) → (⟨S256, .f32⟩ : BufTy).Contents (Elt F))
    (g117 : (⟨S256, .f32⟩ : BufTy).Contents (Elt F) → (⟨S256, .f32⟩ : BufTy).Contents (Elt F) → (⟨S256, .f32⟩ : BufTy).Contents (Elt F))
    (g118 : (⟨S_, .f32⟩ : BufTy).Contents (Elt F))
    (g119 : (⟨S_, .f32⟩ : BufTy).Contents (Elt F) → (⟨S_, .f32⟩ : BufTy).Contents (Elt F))
    (g120 : (⟨S_, .f32⟩ : BufTy).Contents (Elt F) → (⟨S256, .f32⟩ : BufTy).Contents (Elt F))
    (g121 : (⟨S256, .i1⟩ : BufTy).Contents (Elt F) → (⟨S256, .f32⟩ : BufTy).Contents (Elt F) → (⟨S256, .f32⟩ : BufTy).Contents (Elt F) → (⟨S256, .f32⟩ : BufTy).Contents (Elt F))
    (g122 : (⟨S_, .f32⟩ : BufTy).Contents (Elt F))
    (g123 : (⟨S256, .f32⟩ : BufTy).Contents (Elt F) → (⟨S_, .f32⟩ : BufTy).Contents (Elt F) → (⟨S_, .f32⟩ : BufTy).Contents (Elt F))
    (g124 : (⟨S_, .f32⟩ : BufTy).Contents (Elt F))
    (g125 : (⟨S_, .f32⟩ : BufTy).Contents (Elt F) → (⟨S_, .f32⟩ : BufTy).Contents (Elt F) → (⟨S_, .f32⟩ : BufTy).Contents (Elt F))
    (W : Valuation τ sig (Elt F))
    (y_main_v34 : (⟨S256, .i1⟩ : BufTy).Contents (Elt F)) (y_main_v26 : (⟨S256x100000, .i1⟩ : BufTy).Contents (Elt F)) (y_main_v21 : (⟨S256x100000, .f32⟩ : BufTy).Contents (Elt F)) (y_main_v30 : (⟨S256x1, .f32⟩ : BufTy).Contents (Elt F)) (y_main_v27 : (⟨S256x100000, .i1⟩ : BufTy).Contents (Elt F)) (y_main_v33 : (⟨S256x1, .f32⟩ : BufTy).Contents (Elt F))
    (h_main_v34 : W (Proc.devRef .tc main_v34) = y_main_v34) (h_main_v26 : W (Proc.devRef .tc main_v26) = y_main_v26) (h_main_v21 : W (Proc.devRef .tc main_v21) = y_main_v21) (h_main_v30 : W (Proc.devRef .tc main_v30) = y_main_v30) (h_main_v27 : W (Proc.devRef .tc main_v27) = y_main_v27) (h_main_v33 : W (Proc.devRef .tc main_v33) = y_main_v33) :
    after (skelE g87 g88 g89 g90 g91 g92 g93 g94 g95 g96 g97 g98 g99 g100 g101 g102 g103 g104 g105 g106 g107 g108 g109 g110 g111 g112 g113 g114 g115 g116 g117 g118 g119 g120 g121 g122 g123 g124 g125) W (Proc.devRef .tc main_v56)
      = (g125 (g123 (g121 y_main_v34 (g117 (g110 (g108 (g92 y_main_v26 (g91 y_main_v21 (g90 (g89 y_main_v30 (g88 g87))))) (g104 (g103 g102) y_main_v21) (g107 (g106 g105))) g109) (g116 (g114 (g101 y_main_v27 (g100 y_main_v21 (g99 (g98 (g95 (g94 g93) y_main_v33) (g97 g96))))) y_main_v21 (g113 (g112 g111))) g115)) (g120 (g119 g118))) g122) g124) := by
  simp only [skelE]
  after_results_simp
  simp only [h_main_v34, h_main_v26, h_main_v21, h_main_v30, h_main_v27, h_main_v33]
  try rfl

theorem E_v56 (W : Valuation τ sig (Elt F)) (x0 : (⟨S256x256, .f32⟩ : BufTy).Contents (Elt F)) (x2 : (⟨S100000x256, .f32⟩ : BufTy).Contents (Elt F)) (x3 : (⟨S256, .i32⟩ : BufTy).Contents (Elt F)) (x4 : (⟨S100000, .i32⟩ : BufTy).Contents (Elt F))
    (h_main_v34 : W (Proc.devRef .tc main_v34) = val_main_v34 (F := F) x3 x4)
    (h_main_v26 : W (Proc.devRef .tc main_v26) = val_main_v26 (F := F) x3 x4)
    (h_main_v21 : W (Proc.devRef .tc main_v21) = val_main_v21 (F := F) x0 x2)
    (h_main_v30 : W (Proc.devRef .tc main_v30) = val_main_v30 (F := F) x0 x2 x3 x4)
    (h_main_v27 : W (Proc.devRef .tc main_v27) = val_main_v27 (F := F) x3 x4)
    (h_main_v33 : W (Proc.devRef .tc main_v33) = val_main_v33 (F := F) x0 x2 x3 x4) :
    after opsE W (Proc.devRef .tc main_v56) = val_main_v56 (F := F) x0 x2 x3 x4 :=
  (skelE_v56 _ _ _ _ _ _ _ _ _ _ _ _ _ _ _ _ _ _ _ _ _ _ _ _ _ _ _ _ _ _ _ _ _ _ _ _ _ _ _ W _ _ _ _ _ _ h_main_v34 h_main_v26 h_main_v21 h_main_v30 h_main_v27 h_main_v33).trans (by
    unfold val_main_v56 val_main_cst_19 val_main_v55 val_main_cst_18 val_main_v54 val_main_call7_v1 val_main_call7_v0 val_main_cst_17 val_main_v53 val_main_v52 val_main_cst_16 val_main_v51 val_main_call6_v1 val_main_call6_v0 val_main_cst_15 val_main_v50 val_main_cst_14 val_main_v49 val_main_call5_v1 val_main_call5_v0 val_main_cst_13 val_main_v48 val_main_v47 val_main_cst_12 val_main_v46 val_main_v45 val_main_v44 val_main_v43 val_main_v42 val_main_cst_11 val_main_v41 val_main_v40 val_main_cst_10 val_main_v39 val_main_v38 val_main_v37 val_main_v36 val_main_v35 val_main_cst_9
    with_reducible rfl)

/-! ## The stretches in a row -/

/-- A buffer none of the first three stretches writes, after them. -/
theorem keepABC (V : Valuation τ sig (Elt F)) (r : Ref sig .tc) (hA : r ∉ opsA_W) (hB : r ∉ opsB_W) (hC : r ∉ opsC_W) :
    after opsC (after opsB (after opsA V)) (Proc.devRef .tc r) = V (Proc.devRef .tc r) :=
  (keepC _ r hC).trans ((keepB _ r hB).trans (keepA V r hA))

/-- A buffer no operation writes (an argument) keeps its launch contents. -/
theorem after_kept (V : Valuation τ sig (Elt F)) (r : Ref sig .tc) (hA : r ∉ opsA_W) (hB : r ∉ opsB_W) (hC : r ∉ opsC_W)
    (hD : r ∉ opsD_W) (hE : r ∉ opsE_W) : after ops V (Proc.devRef .tc r) = V (Proc.devRef .tc r) := by
  rw [after_ops]
  exact (keepE _ r hE).trans ((keepD _ r hD).trans (keepABC V r hA hB hC))

/-- The normalised input after the first stretch. -/
theorem A_v2' (V : Valuation τ sig (Elt F)) : after opsA V (Proc.devRef .tc main_v2) = val_main_v2 (F := F) (V (Proc.devRef .tc main_arg0)) :=
  A_v2 V _ rfl

/-- The first result: the stage `val_main_v19`. -/
theorem after_v19 (V : Valuation τ sig (Elt F)) :
    after ops V (Proc.devRef .tc main_v19)
      = val_main_v19 (F := F) (V (Proc.devRef .tc main_arg0)) (V (Proc.devRef .tc main_arg1)) (V (Proc.devRef .tc main_arg3)) := by
  rw [after_ops, keepE _ main_v19 (by decide), keepD _ main_v19 (by decide)]
  exact C_v19 _ _ _ _
    (h_main_v7 := B_v7 _ _ _ (h_main_v2 := A_v2' V) (h_main_arg1 := keepA V main_arg1 (by decide)))
    (h_main_arg3 := (keepB _ main_arg3 (by decide)).trans (keepA V main_arg3 (by decide)))

/-- The second result: the stage `val_main_v56`. -/
theorem after_v56 (V : Valuation τ sig (Elt F)) :
    after ops V (Proc.devRef .tc main_v56)
      = val_main_v56 (F := F) (V (Proc.devRef .tc main_arg0)) (V (Proc.devRef .tc main_arg2)) (V (Proc.devRef .tc main_arg3)) (V (Proc.devRef .tc main_arg4)) := by
  rw [after_ops]
  have h2 : after opsC (after opsB (after opsA V)) (Proc.devRef .tc main_v2) = val_main_v2 (F := F) (V (Proc.devRef .tc main_arg0)) :=
    (keepC _ main_v2 (by decide)).trans ((keepB _ main_v2 (by decide)).trans (A_v2' V))
  have ha2 := keepABC V main_arg2 (by decide) (by decide) (by decide)
  have ha3 := keepABC V main_arg3 (by decide) (by decide) (by decide)
  have ha4 := keepABC V main_arg4 (by decide) (by decide) (by decide)
  exact E_v56 _ _ _ _ _
    (h_main_v21 := D_v21 _ _ _ (h_main_v2 := h2) (h_main_arg2 := ha2))
    (h_main_v26 := D_v26 _ _ _ (h_main_arg3 := ha3) (h_main_arg4 := ha4))
    (h_main_v27 := D_v27 _ _ _ (h_main_arg3 := ha3) (h_main_arg4 := ha4))
    (h_main_v30 := D_v30 _ _ _ _ _ (h_main_v2 := h2) (h_main_arg2 := ha2) (h_main_arg3 := ha3) (h_main_arg4 := ha4))
    (h_main_v33 := D_v33 _ _ _ _ _ (h_main_v2 := h2) (h_main_arg2 := ha2) (h_main_arg3 := ha3) (h_main_arg4 := ha4))
    (h_main_v34 := D_v34 _ _ _ (h_main_arg3 := ha3) (h_main_arg4 := ha4))

/-! ## The run -/

theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
        = val_main_v19 (F := F) (m ((c.tc : Thread nD τ).loc main_arg0)) (m ((c.tc : Thread nD τ).loc main_arg1)) (m ((c.tc : Thread nD τ).loc main_arg3))
      ∧ r.2.mem ((c.tc : Thread nD τ).loc main_v56)
        = val_main_v56 (F := F) (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun _ h c =>
      ⟨(h c main_v19).trans (after_v19 (launchContents m c)),
       (h c main_v56).trans (after_v56 (launchContents m c)),
       (h c main_arg0).trans (after_kept (launchContents m c) main_arg0 (by decide) (by decide) (by decide) (by decide) (by decide)),
       (h c main_arg1).trans (after_kept (launchContents m c) main_arg1 (by decide) (by decide) (by decide) (by decide) (by decide)),
       (h c main_arg2).trans (after_kept (launchContents m c) main_arg2 (by decide) (by decide) (by decide) (by decide) (by decide)),
       (h c main_arg3).trans (after_kept (launchContents m c) main_arg3 (by decide) (by decide) (by decide) (by decide) (by decide)),
       (h c main_arg4).trans (after_kept (launchContents m c) main_arg4 (by decide) (by decide) (by decide) (by decide) (by decide))⟩)
    (run_seq scopedRefs_eq scopedSems_eq defs main (fun _ => ops) main_eq (fun _ => ops_sub) m ρ (fun _ => fresh_ops))

end Cert.ReferenceIdeal.RunH

end
-- ==== Proof.Bridge.lean ====
/-
  The five claims.

  Frames: the kernel's two programs by their generated frames, the reference's by its run with the results dropped.
  `preserves`: the one named constant, the reciprocal of the temperature word.
  `algebraic`: both programs end at the same two numbers.  Each loss is one shared host tail applied to per-row
  vectors; row by row the kernel's merged per-core statistics and the reference's whole-row quantities agree:
  the target's log-probability `logit - kLse` and the row sum `Σ logits - 100000 · kLse` (real arithmetic, under the
  precondition: normalised inputs and bank real, targets in range), the has-a-positive mask, and the sum of the two
  thresholded sums (lattice and commutative-monoid laws on the extended reals).
-/
import proofs.«411386_j43001212567993_2_alg».proof.Defs
import proofs.«411386_j43001212567993_2_alg».proof.Proof.Gen.Kernel.Frame
import proofs.«411386_j43001212567993_2_alg».proof.Proof.Gen.KernelIdeal.Frame
import proofs.«411386_j43001212567993_2_alg».proof.Proof.Gen.ReferenceIdeal
import proofs.«411386_j43001212567993_2_alg».proof.Proof.Gen.Pre_finite_inputs
import proofs.«411386_j43001212567993_2_alg».proof.Proof.KernelRun
import proofs.«411386_j43001212567993_2_alg».proof.Proof.HostK1
import proofs.«411386_j43001212567993_2_alg».proof.Proof.HostK2
import proofs.«411386_j43001212567993_2_alg».proof.Proof.RefValue
import proofs.«411386_j43001212567993_2_alg».proof.Proof.PreFacts
import proofs.«411386_j43001212567993_2_alg».proof.Proof.RefRunHand
import proofs.«411386_j43001212567993_2_alg».proof.Proof.Algebra
import proofs.«411386_j43001212567993_2_alg».proof.Proof.Rows
import proofs.«411386_j43001212567993_2_alg».proof.Proof.Shared
import Idealize.ShloMosaic.PureOps.IdealRules
import Idealize.ShloMosaic.Lib.ValueIdx

set_option maxRecDepth 16384

noncomputable section

namespace Cert.Proof.Claims

open Idealize.ShloMosaic Idealize.ShloMosaic.TcCoe Idealize.SL.Sem Idealize.ShloMosaic.ValueIdx
open Cert.Spec

/-! ## The two results, reference against kernel -/

section Values

variable (m : (ℓ : Loc Cert.KernelIdeal.nD Cert.KernelIdeal.τ Cert.KernelIdeal.sig) → Buf (Elt Ideal) ℓ)
  (ρ : Dev Cert.KernelIdeal.nD → PrngReg)

/-- An index of a 256-vector is its row's. -/
theorem idx_row (i : Shared.S256.Idx) : i = ix1 (Rows.row i) := by
  funext d
  match d with
  | ⟨0, _⟩ => rfl

/-- The first result: the reference's last stage, at the kernel's launch contents, is what the kernel's buffer holds. -/
theorem value0 (hpre : Cert.Pre_KernelIdeal m) (c : Dev Cert.KernelIdeal.nD) :
    Cert.ReferenceIdeal.ReadP.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
      = Cert.KernelIdeal.Gen.W12 m ρ c (Proc.devRef .tc Cert.KernelIdeal.main_v46) := by
  obtain ⟨xr, hX⟩ := Cert.PreFacts.normX_real m hpre c Cert.KernelIdeal.Gen.bcast_S256x1_S256x256_0_1
    Cert.KernelIdeal.Gen.bcast_S256_S256x1_0 Cert.KernelIdeal.Gen.reducesTo_S256x256_S256_d1 Cert.KernelIdeal.Gen.h_S_
  obtain ⟨fr, hF⟩ := Cert.PreFacts.feat_real m hpre c
  have hT := Cert.PreFacts.tgt_range m hpre c
  rw [Cert.KernelIdeal.HostK1.v46_value m ρ c xr fr hX hF hT, Cert.ReferenceIdeal.RefV.out0_eq]
  have hX' : ∀ b k : Fin 256, Cert.ReferenceIdeal.ReadP.val_main_v2 (F := Ideal)
      (m ((c.tc : Thread Cert.KernelIdeal.nD Cert.KernelIdeal.τ).loc Cert.KernelIdeal.main_arg0)) (ix2 b k) = ((xr b k : ℝ) : EReal) := by
    intro b k
    rw [Cert.ReferenceIdeal.RefV.normX_eq]
    exact hX b k
  have e1 : Cert.ReferenceIdeal.ReadP.val_main_v10 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
      = Rows.vec fun b => ((Rows.lpt xr fr (Rows.tIdx (fun b => (m ((c.tc : Thread Cert.KernelIdeal.nD Cert.KernelIdeal.τ).loc
          Cert.KernelIdeal.main_arg3) : Cert.KernelIdeal.S256.Idx → BitVec 32) (ix1 b)) hT) b : ℝ) : EReal) := by
    funext i
    obtain ⟨b, rfl⟩ : ∃ b : Fin 256, i = ix1 b := ⟨Rows.row i, idx_row i⟩
    refine ((Cert.ReferenceIdeal.RefV.lp_rows _ _ _ xr fr hX' hF hT b).1).trans ?_
    show ((lp (logitR xr fr b) ⟨_, hT b⟩ : ℝ) : EReal) = ((Rows.lpt xr fr (Rows.tIdx _ hT) b : ℝ) : EReal)
    rw [Cert.Spec.lp_eq]
    rfl
  have e2 : Cert.ReferenceIdeal.ReadP.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Rows.vec fun b => ((Rows.slp xr fr b : ℝ) : EReal) := by
    funext i
    obtain ⟨b, rfl⟩ : ∃ b : Fin 256, i = ix1 b := ⟨Rows.row i, idx_row i⟩
    refine ((Cert.ReferenceIdeal.RefV.lp_rows _ _ _ xr fr hX' hF hT b).2).trans ?_
    show ((∑ j, lp (logitR xr fr b) j : ℝ) : EReal) = ((Rows.slp xr fr b : ℝ) : EReal)
    rw [Cert.Spec.sum_lp_eq]
    rfl
  rw [e1, e2]

/-- The second result likewise. -/
theorem value1 (c : Dev Cert.KernelIdeal.nD) :
    Cert.ReferenceIdeal.ReadP.val_main_v56 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Gen.W12 m ρ c (Proc.devRef .tc Cert.KernelIdeal.main_v90) := by
  rw [Cert.KernelIdeal.HostK2.v90_value m ρ c, Cert.ReferenceIdeal.RefV.out1_eq]
  have e3 : Cert.ReferenceIdeal.ReadP.val_main_v34 (F := Ideal)
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Rows.mask (Rows.has
          (fun b => (m ((c.tc : Thread Cert.KernelIdeal.nD Cert.KernelIdeal.τ).loc Cert.KernelIdeal.main_arg3) : Cert.KernelIdeal.S256.Idx → BitVec 32) (ix1 b))
          (fun j => (m ((c.tc : Thread Cert.KernelIdeal.nD Cert.KernelIdeal.τ).loc Cert.KernelIdeal.main_arg4) : Cert.KernelIdeal.S100000.Idx → BitVec 32) (ix1 j))) := by
    funext i
    obtain ⟨b, rfl⟩ : ∃ b : Fin 256, i = ix1 b := ⟨Rows.row i, idx_row i⟩
    have hrow := Cert.ReferenceIdeal.RefV.hasPos_row
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) b
    by_cases hp : ∃ j : Fin 100000, (m ((c.tc : Thread Cert.KernelIdeal.nD Cert.KernelIdeal.τ).loc Cert.KernelIdeal.main_arg3) : Cert.KernelIdeal.S256.Idx → BitVec 32) (ix1 b)
        = (m ((c.tc : Thread Cert.KernelIdeal.nD Cert.KernelIdeal.τ).loc Cert.KernelIdeal.main_arg4) : Cert.KernelIdeal.S100000.Idx → BitVec 32) (ix1 j)
    · refine (hrow.mpr hp).trans ?_
      unfold Rows.mask
      exact (if_pos hp).symm
    · refine (eq_zero_of_ne_one fun h1 => hp (hrow.mp h1)).trans ?_
      unfold Rows.mask
      exact (if_neg hp).symm
  have e4 : Cert.ReferenceIdeal.ReadP.val_main_v53 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Rows.vec (Rows.loss
          (fun b k => Shared.normX Cert.KernelIdeal.Gen.bcast_S256x1_S256x256_0_1 Cert.KernelIdeal.Gen.bcast_S256_S256x1_0
            Cert.KernelIdeal.Gen.reducesTo_S256x256_S256_d1 Cert.KernelIdeal.Gen.h_S_
            (m ((c.tc : Thread Cert.KernelIdeal.nD Cert.KernelIdeal.τ).loc Cert.KernelIdeal.main_arg0)) (ix2 b k))
          (fun j k => (m ((c.tc : Thread Cert.KernelIdeal.nD Cert.KernelIdeal.τ).loc Cert.KernelIdeal.main_arg2) : Cert.KernelIdeal.S100000x256.Idx → EReal) (ix2 j k))
          (fun b => (m ((c.tc : Thread Cert.KernelIdeal.nD Cert.KernelIdeal.τ).loc Cert.KernelIdeal.main_arg3) : Cert.KernelIdeal.S256.Idx → BitVec 32) (ix1 b))
          (fun j => (m ((c.tc : Thread Cert.KernelIdeal.nD Cert.KernelIdeal.τ).loc Cert.KernelIdeal.main_arg4) : Cert.KernelIdeal.S100000.Idx → BitVec 32) (ix1 j))) := by
    funext i
    obtain ⟨b, rfl⟩ : ∃ b : Fin 256, i = ix1 b := ⟨Rows.row i, idx_row i⟩
    refine (Cert.ReferenceIdeal.RefV.loss_row _ _ _ _ b).trans ?_
    rw [Cert.ReferenceIdeal.RefV.normX_eq]
    rfl
  rw [e3, e4]

end Values

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RunH.run_stages (F := Ideal) m ρ)

/-- The ledger's one entry: the kernel's constant 20.0 is named the reciprocal of the temperature word. -/
theorem preserves : Cert.preserves_Kernel_KernelIdeal :=
  IdealRules.named_const.statement Cert.KernelIdeal.κ "inv_temp" .f32 0x41A00000#32 ((268435456 / 13421773 : ℝ) : EReal) rfl

theorem algebraic : Cert.algebraic_KernelIdeal_ReferenceIdeal := by
  intro m ρ m' ρ' hpre hagree
  refine ⟨fun c => Cert.KernelIdeal.Gen.W12 m ρ c (Proc.devRef .tc Cert.KernelIdeal.main_v46),
    fun c => Cert.KernelIdeal.Gen.W12 m ρ c (Proc.devRef .tc Cert.KernelIdeal.main_v90),
    Cert.KernelIdeal.Gen.run_values (F := Ideal) m ρ, ?_⟩
  refine (θ_run Cert.ReferenceIdeal.defs _ _).mono (fun r h c => ?_) (Cert.ReferenceIdeal.RunH.run_stages (F := Ideal) m' ρ')
  obtain ⟨h19, h56, hargs⟩ := h c
  obtain ⟨a0, a1, a2, a3, a4⟩ := hagree c
  refine ⟨h19.trans ?_, h56.trans ?_, hargs⟩
  · rw [a0, a1, a3]
    exact value0 m ρ hpre c
  · rw [a0, a2, a3, a4]
    exact value1 m ρ c

end Cert.Proof.Claims

end
-- ==== Proof.lean ====
/-
  OIM loss with a triplet term: a Pallas kernel in three pallas_calls against its jnp reference.

  Both programs normalise each row of `inputs` (x = inputs / ‖inputs‖) and return two numbers.

  Loss 1 (label-smoothed cross-entropy over the 100000 classes, logits z = (x · features) / T with T the f32
  word of 0.05): the reference takes `log_softmax`; the kernel streams the 100000 columns in twenty tiles of 5000,
  ten per core, keeping per row a running maximum m, a running Σ exp (z - m) rescaled at every new maximum, and a
  running Σ z; the wrapper merges the two cores (M = max m₀ m₁, L = exp (m₀ - M) l₀ + exp (m₁ - M) l₁) and uses
  log-sum-exp = M + log L.  Over the reals the running statistics are the maximum, Σ exp (z - max) and Σ z of the
  columns seen, so the merged log-sum-exp is the whole row's, the target's log-probability is z_t - lse and the row
  sum of log-probabilities is Σ z - 100000 · lse: the reference's quantities.  The kernel multiplies by the folded
  constant 20.0 where the reference divides by T; the certificate names that constant 1 / T (the one ledger entry of
  `preserves`), and x · (1 / T) = x / T.  Real arithmetic needs the precondition: finite inputs, every row of `inputs`
  of positive squared norm (so x is real), targets in [0, 100000) (so the two gathers read the same bank row).

  Loss 2 (triplet term over a second bank): per row the largest similarity among the positives (label = target)
  and among the negatives, whether a positive exists, then the sum of 1 - sim over positives below one cut and of sim
  over negatives above another.  The kernel computes the maxima per core in one pallas_call, the cuts on the host,
  the thresholded sums per core in a second pallas_call, and merges the cores by max and +.  In the extended reals a
  maximum and a sum over all columns split over the two cores' columns: no finiteness is involved.

  Modules: Steps (the kernels' per-tile steps as pure functions), Spec (the closed forms), R0Struct / R1Struct /
  R2Struct (each region's output arrays as chains of steps, read off the generated frame), R0Value / R12Value (the
  chains in closed form), RegionsK (the two composed), HostK1 / HostK2 (the kernel's two result buffers read back
  through @main), RefValue (the reference read row by row), PreFacts (what the precondition gives), Algebra (the
  merging laws), Bridge (the five claims).
-/
import proofs.«411386_j43001212567993_2_alg».proof.Defs
import proofs.«411386_j43001212567993_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
